-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S96x48 : Shape := ⟨2, ![96, 48]⟩
abbrev S48 : Shape := ⟨1, ![48]⟩
abbrev S_ : Shape := ⟨0, ![]⟩
abbrev S1x800000 : Shape := ⟨2, ![1, 800000]⟩
abbrev S800000 : Shape := ⟨1, ![800000]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S96x48 : S_.BroadcastsInDim S96x48 (![] : Fin 0 → Fin S96x48.rank)
  reducesTo_S96x48_S_d0_1 : S96x48.ReducesTo [0, 1] S_
  bcast_S_S48 : S_.BroadcastsInDim S48 (![] : Fin 0 → Fin S48.rank)
  reducesTo_S48_S_d0 : S48.ReducesTo [0] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S2x800000 32) (main_arg5 : FVec F S48 .f32) (main_v13 : IVec S_ 1) (main_v16 : IVec S96x48 1) : IVec S_ 1 :=
  let main_c_5 : IVec S_ 1 := constantI S_ 1 1#1
  let main_v17 : IVec S_ 1 := (fun x v => Host.reduce IntOp.andi x v reducesTo_S96x48_S_d0_1 h_S_) main_v16 main_c_5
  let main_v18 : IVec S_ 1 := andi main_v13 main_v17
  let main_v19 : FVec F S48 .f32 := Host.absf main_arg5
  let main_cst_6 : FVec F S_ .f32 := constant S_ .f32 0x7F800000#32
  let main_v20 : FVec F S48 .f32 := broadcastInDim S48 ![] bcast_S_S48 main_cst_6
  let main_v21 : IVec S48 1 := cmpf .olt main_v19 main_v20
  let main_c_7 : IVec S_ 1 := constantI S_ 1 1#1
  let main_v22 : IVec S_ 1 := (fun x v => Host.reduce IntOp.andi x v reducesTo_S48_S_d0 h_S_) main_v21 main_c_7
  let main_v23 : IVec S_ 1 := andi main_v18 main_v22
  let main_v24 : IVec S1x800000 32 := (extractStridedSlice S1x800000 ![1, 0] · slices_S2x800000_S1x800000_1_0) main_arg1
  let main_v25 : IVec S800000 32 := shapeCast S800000 main_v24 shapeCasts_S1x800000_S800000
  let main_c_8 : IVec S_ 32 := constantI S_ 32 0#32
  let main_v26 : IVec S800000 32 := broadcastInDim S800000 ![] bcast_S_S800000 main_c_8
  let main_v27 : IVec S800000 1 := cmpi .sge main_v25 main_v26
  let main_v28 : IVec S1x800000 32 := (extractStridedSlice S1x800000 ![1, 0] · slices_S2x800000_S1x800000_1_0) main_arg1
  let main_v29 : IVec S800000 32 := shapeCast S800000 main_v28 shapeCasts_S1x800000_S800000
  let main_c_9 : IVec S_ 32 := constantI S_ 32 50000#32
  let main_v30 : IVec S800000 32 := broadcastInDim S800000 ![] bcast_S_S800000 main_c_9
  let main_v31 : IVec S800000 1 := cmpi .slt main_v29 main_v30
  let main_v32 : IVec S800000 1 := andi main_v27 main_v31
  let main_c_10 : IVec S_ 1 := constantI S_ 1 1#1
  let main_v33 : IVec S_ 1 := (fun x v => Host.reduce IntOp.andi x v reducesTo_S800000_S_d0 h_S_) main_v32 main_c_10
  let main_v34 : IVec S_ 1 := andi main_v23 main_v33
  main_v34

def fn {F : FTy → Type} [FloatOps F] (main_arg0 : FVec F S50000x96 .f32) (main_arg1 : IVec S2x800000 32) (main_arg2 : FVec F S96x96 .f32) (main_arg3 : FVec F S96 .f32) (main_arg4 : FVec F S96x48 .f32) (main_arg5 : FVec F S48 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg2
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x48 .f32 := Host.absf main_arg4
  let main_cst_4 : FVec F S_ .f32 := constant S_ .f32 0x7F800000#32
  let main_v15 : FVec F S96x48 .f32 := broadcastInDim S96x48 ![] bcast_S_S96x48 main_cst_4
  let main_v16 : IVec S96x48 1 := cmpf .olt main_v14 main_v15
  fn_part1 (F := F) main_arg1 main_arg5 main_v13 main_v16
-- ==== Kernel.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S96x48 : Shape := ⟨2, ![96, 48]⟩
abbrev S48 : Shape := ⟨1, ![48]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S851968 : Shape := ⟨1, ![851968]⟩
abbrev S832x1024 : Shape := ⟨2, ![832, 1024]⟩
abbrev S832x1 : Shape := ⟨2, ![832, 1]⟩
abbrev S832 : Shape := ⟨1, ![832]⟩
abbrev S5000x96 : Shape := ⟨2, ![5000, 96]⟩
abbrev S851968x1 : Shape := ⟨2, ![851968, 1]⟩
abbrev S851968x96 : Shape := ⟨2, ![851968, 96]⟩
abbrev S2x50176x96 : Shape := ⟨3, ![2, 50176, 96]⟩
abbrev S1024 : Shape := ⟨1, ![1024]⟩
abbrev S1024x96 : Shape := ⟨2, ![1024, 96]⟩
abbrev S1x50176x96 : Shape := ⟨3, ![1, 50176, 96]⟩
abbrev S50176x96 : Shape := ⟨2, ![50176, 96]⟩
abbrev S1 : Shape := ⟨1, ![1]⟩
abbrev S1024x1024 : Shape := ⟨2, ![1024, 1024]⟩
abbrev S1x1024 : Shape := ⟨2, ![1, 1024]⟩
abbrev S1x1024x96 : Shape := ⟨3, ![1, 1024, 96]⟩
abbrev S1x96 : Shape := ⟨2, ![1, 96]⟩
abbrev S50000x48 : Shape := ⟨2, ![50000, 48]⟩
abbrev S5000x48 : Shape := ⟨2, ![5000, 48]⟩
abbrev S851968x48 : Shape := ⟨2, ![851968, 48]⟩
abbrev S2x50176x48 : Shape := ⟨3, ![2, 50176, 48]⟩
abbrev S1024x48 : Shape := ⟨2, ![1024, 48]⟩
abbrev S1x50176x48 : Shape := ⟨3, ![1, 50176, 48]⟩
abbrev S50176x48 : Shape := ⟨2, ![50176, 48]⟩
abbrev S1x1024x48 : Shape := ⟨3, ![1, 1024, 48]⟩
abbrev S1x48 : Shape := ⟨2, ![1, 48]⟩

abbrev nBuf : Space → Nat
  | .hbm => 178
  | .vmem => 20
  | .smem => 2
  | _ => 0

abbrev hbmTy0_0 (i : Nat) : BufTy := match i % 128 with
  | 0 => ⟨S50000x96, .f32⟩
  | 1 => ⟨S2x800000, .i32⟩
  | 2 => ⟨S96x96, .f32⟩
  | 3 => ⟨S96, .f32⟩
  | 4 => ⟨S96x48, .f32⟩
  | 5 => ⟨S48, .f32⟩
  | 6 => ⟨S1x800000, .i32⟩
  | 7 => ⟨S800000, .i32⟩
  | 8 => ⟨S1x800000, .i32⟩
  | 9 => ⟨S800000, .i32⟩
  | 10 => ⟨S50000, .i32⟩
  | 11 => ⟨S850000, .i32⟩
  | 12 => ⟨S850000, .i32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S850000, .i32⟩
  | 47 => ⟨S850000, .i32⟩
  | 48 => ⟨S850000, .i32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000, .i32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000, .i32⟩
  | 67 => ⟨S_, .i32⟩
  | 68 => ⟨S850000, .i32⟩
  | 69 => ⟨S850000, .i1⟩
  | 70 => ⟨S_, .i32⟩
  | 71 => ⟨S850000, .i32⟩
  | 72 => ⟨S850000, .i32⟩
  | 73 => ⟨S850000, .i32⟩
  | 74 => ⟨S850000x1, .i32⟩
  | 75 => ⟨S850000, .f32⟩
  | 76 => ⟨S_, .i32⟩
  | 77 => ⟨S_, .i32⟩
  | 78 => ⟨S851968, .i32⟩
  | 79 => ⟨S_, .i32⟩
  | 80 => ⟨S_, .i32⟩
  | 81 => ⟨S851968, .i32⟩
  | 82 => ⟨S_, .f32⟩
  | 83 => ⟨S_, .f32⟩
  | 84 => ⟨S851968, .f32⟩
  | 85 => ⟨S832x1024, .i32⟩
  | 86 => ⟨S832x1, .i32⟩
  | 87 => ⟨S832, .i32⟩
  | 88 => ⟨S832x1024, .i32⟩
  | 89 => ⟨S832x1, .i32⟩
  | 90 => ⟨S832, .i32⟩
  | 91 => ⟨S_, .i32⟩
  | 92 => ⟨S_, .i32⟩
  | 93 => ⟨S832, .i32⟩
  | 94 => ⟨S832, .i32⟩
  | 95 => ⟨S832, .i32⟩
  | 96 => ⟨S_, .i32⟩
  | 97 => ⟨S832, .i32⟩
  | 98 => ⟨S832, .i1⟩
  | 99 => ⟨S832, .i32⟩
  | 100 => ⟨S832, .i32⟩
  | 101 => ⟨S_, .i32⟩
  | 102 => ⟨S832, .i32⟩
  | 103 => ⟨S832, .i1⟩
  | 104 => ⟨S832, .i1⟩
  | 105 => ⟨S_, .i32⟩
  | 106 => ⟨S832, .i32⟩
  | 107 => ⟨S832, .i32⟩
  | 108 => ⟨S_, .i32⟩
  | 109 => ⟨S_, .i32⟩
  | 110 => ⟨S832, .i32⟩
  | 111 => ⟨S832, .i32⟩
  | 112 => ⟨S832, .i32⟩
  | 113 => ⟨S_, .i32⟩
  | 114 => ⟨S832, .i32⟩
  | 115 => ⟨S832, .i1⟩
  | 116 => ⟨S832, .i32⟩
  | 117 => ⟨S832, .i32⟩
  | 118 => ⟨S_, .i32⟩
  | 119 => ⟨S832, .i32⟩
  | 120 => ⟨S832, .i1⟩
  | 121 => ⟨S832, .i1⟩
  | 122 => ⟨S_, .i32⟩
  | 123 => ⟨S832, .i32⟩
  | 124 => ⟨S832, .i32⟩
  | 125 => ⟨S50000x96, .bf16⟩
  | 126 => ⟨S_, .i32⟩
  | 127 => ⟨S851968, .i32⟩
  | _ => ⟨S50000x96, .f32⟩

abbrev hbmTy0_1 (i : Nat) : BufTy := match i % 128 with
  | 0 => ⟨S851968, .i1⟩
  | 1 => ⟨S_, .i32⟩
  | 2 => ⟨S851968, .i32⟩
  | 3 => ⟨S851968, .i32⟩
  | 4 => ⟨S851968, .i32⟩
  | 5 => ⟨S851968x1, .i32⟩
  | 6 => ⟨S851968x96, .bf16⟩
  | 7 => ⟨S851968x96, .f32⟩
  | 8 => ⟨S851968x1, .f32⟩
  | 9 => ⟨S851968x96, .f32⟩
  | 10 => ⟨S851968x96, .f32⟩
  | 11 => ⟨S851968x96, .bf16⟩
  | 12 => ⟨S2x50176x96, .f32⟩
  | 13 => ⟨S1x50176x96, .f32⟩
  | 14 => ⟨S50176x96, .f32⟩
  | 15 => ⟨S1x50176x96, .f32⟩
  | 16 => ⟨S50176x96, .f32⟩
  | 17 => ⟨S50176x96, .f32⟩
  | 18 => ⟨S50000x96, .f32⟩
  | 19 => ⟨S1x96, .f32⟩
  | 20 => ⟨S50000x96, .f32⟩
  | 21 => ⟨S50000x96, .f32⟩
  | 22 => ⟨S_, .f32⟩
  | 23 => ⟨S50000x96, .f32⟩
  | 24 => ⟨S50000x96, .f32⟩
  | 25 => ⟨S50000x48, .bf16⟩
  | 26 => ⟨S_, .i32⟩
  | 27 => ⟨S851968, .i32⟩
  | 28 => ⟨S851968, .i1⟩
  | 29 => ⟨S_, .i32⟩
  | 30 => ⟨S851968, .i32⟩
  | 31 => ⟨S851968, .i32⟩
  | 32 => ⟨S851968, .i32⟩
  | 33 => ⟨S851968x1, .i32⟩
  | 34 => ⟨S851968x48, .bf16⟩
  | 35 => ⟨S851968x48, .f32⟩
  | 36 => ⟨S851968x1, .f32⟩
  | 37 => ⟨S851968x48, .f32⟩
  | 38 => ⟨S851968x48, .f32⟩
  | 39 => ⟨S851968x48, .bf16⟩
  | 40 => ⟨S2x50176x48, .f32⟩
  | 41 => ⟨S1x50176x48, .f32⟩
  | 42 => ⟨S50176x48, .f32⟩
  | 43 => ⟨S1x50176x48, .f32⟩
  | 44 => ⟨S50176x48, .f32⟩
  | 45 => ⟨S50176x48, .f32⟩
  | 46 => ⟨S50000x48, .f32⟩
  | 47 => ⟨S1x48, .f32⟩
  | 48 => ⟨S50000x48, .f32⟩
  | 49 => ⟨S50000x48, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | .local _ .vmem, ⟨0, _⟩ => ⟨S5000x96, .f32⟩
  | .local _ .vmem, ⟨1, _⟩ => ⟨S5000x96, .f32⟩
  | .local _ .vmem, ⟨2, _⟩ => ⟨S96x96, .f32⟩
  | .local _ .vmem, ⟨3, _⟩ => ⟨S5000x96, .bf16⟩
  | .local _ .vmem, ⟨4, _⟩ => ⟨S5000x96, .bf16⟩
  | .local _ .vmem, ⟨5, _⟩ => ⟨S1024, .i32⟩
  | .local _ .vmem, ⟨6, _⟩ => ⟨S1024, .i32⟩
  | .local _ .vmem, ⟨7, _⟩ => ⟨S1024x96, .bf16⟩
  | .local _ .vmem, ⟨8, _⟩ => ⟨S1024x96, .bf16⟩
  | .local _ .vmem, ⟨9, _⟩ => ⟨S1x50176x96, .f32⟩
  | .local _ .vmem, ⟨10, _⟩ => ⟨S5000x96, .f32⟩
  | .local _ .vmem, ⟨11, _⟩ => ⟨S5000x96, .f32⟩
  | .local _ .vmem, ⟨12, _⟩ => ⟨S96x48, .f32⟩
  | .local _ .vmem, ⟨13, _⟩ => ⟨S5000x48, .bf16⟩
  | .local _ .vmem, ⟨14, _⟩ => ⟨S5000x48, .bf16⟩
  | .local _ .vmem, ⟨15, _⟩ => ⟨S1024, .i32⟩
  | .local _ .vmem, ⟨16, _⟩ => ⟨S1024, .i32⟩
  | .local _ .vmem, ⟨17, _⟩ => ⟨S1024x48, .bf16⟩
  | .local _ .vmem, ⟨18, _⟩ => ⟨S1024x48, .bf16⟩
  | .local _ .vmem, ⟨19, _⟩ => ⟨S1x50176x48, .f32⟩
  | .local _ .smem, ⟨0, _⟩ => ⟨S832, .i32⟩
  | .local _ .smem, ⟨1, _⟩ => ⟨S832, .i32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_v0 : Ref sig .tc := ⟨.hbm, 46, rfl⟩
abbrev main_call1_v1_0 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_c_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_12 : Ref sig .tc := ⟨.hbm, 76, rfl⟩
abbrev main_call2_v0 : Ref sig .tc := ⟨.hbm, 77, rfl⟩
abbrev main_v52 : Ref sig .tc := ⟨.hbm, 78, rfl⟩
abbrev main_c_13 : Ref sig .tc := ⟨.hbm, 79, rfl⟩
abbrev main_call3_v0 : Ref sig .tc := ⟨.hbm, 80, rfl⟩
abbrev main_v53 : Ref sig .tc := ⟨.hbm, 81, rfl⟩
abbrev main_cst_14 : Ref sig .tc := ⟨.hbm, 82, rfl⟩
abbrev main_call4_v0 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c_15 : Ref sig .tc := ⟨.hbm, 91, rfl⟩
abbrev main_call5_v0 : Ref sig .tc := ⟨.hbm, 92, rfl⟩
abbrev main_call5_v1 : Ref sig .tc := ⟨.hbm, 93, rfl⟩
abbrev main_call5_v2 : Ref sig .tc := ⟨.hbm, 94, rfl⟩
abbrev main_call5_v3 : Ref sig .tc := ⟨.hbm, 95, rfl⟩
abbrev main_call5_v4 : Ref sig .tc := ⟨.hbm, 96, rfl⟩
abbrev main_call5_v5 : Ref sig .tc := ⟨.hbm, 97, rfl⟩
abbrev main_call5_v6 : Ref sig .tc := ⟨.hbm, 98, rfl⟩
abbrev main_call5_v7 : Ref sig .tc := ⟨.hbm, 99, rfl⟩
abbrev main_call5_v8 : Ref sig .tc := ⟨.hbm, 100, rfl⟩
abbrev main_call5_c : Ref sig .tc := ⟨.hbm, 101, rfl⟩
abbrev main_call5_v9 : Ref sig .tc := ⟨.hbm, 102, rfl⟩
abbrev main_call5_v10 : Ref sig .tc := ⟨.hbm, 103, rfl⟩
abbrev main_call5_v11 : Ref sig .tc := ⟨.hbm, 104, rfl⟩
abbrev main_call5_c_0 : Ref sig .tc := ⟨.hbm, 105, rfl⟩
abbrev main_call5_v12 : Ref sig .tc := ⟨.hbm, 106, rfl⟩
abbrev main_call5_v13 : Ref sig .tc := ⟨.hbm, 107, rfl⟩
abbrev main_c_16 : Ref sig .tc := ⟨.hbm, 108, rfl⟩
abbrev main_call6_v0 : Ref sig .tc := ⟨.hbm, 109, rfl⟩
abbrev main_call6_v1 : Ref sig .tc := ⟨.hbm, 110, rfl⟩
abbrev main_call6_v2 : Ref sig .tc := ⟨.hbm, 111, rfl⟩
abbrev main_call6_v3 : Ref sig .tc := ⟨.hbm, 112, rfl⟩
abbrev main_call6_v4 : Ref sig .tc := ⟨.hbm, 113, rfl⟩
abbrev main_call6_v5 : Ref sig .tc := ⟨.hbm, 114, rfl⟩
abbrev main_call6_v6 : Ref sig .tc := ⟨.hbm, 115, rfl⟩
abbrev main_call6_v7 : Ref sig .tc := ⟨.hbm, 116, rfl⟩
abbrev main_call6_v8 : Ref sig .tc := ⟨.hbm, 117, rfl⟩
abbrev main_call6_c : Ref sig .tc := ⟨.hbm, 118, rfl⟩
abbrev main_call6_v9 : Ref sig .tc := ⟨.hbm, 119, rfl⟩
abbrev main_call6_v10 : Ref sig .tc := ⟨.hbm, 120, rfl⟩
abbrev main_call6_v11 : Ref sig .tc := ⟨.hbm, 121, rfl⟩
abbrev main_call6_c_0 : Ref sig .tc := ⟨.hbm, 122, rfl⟩
abbrev main_call6_v12 : Ref sig .tc := ⟨.hbm, 123, rfl⟩
abbrev main_call6_v13 : Ref sig .tc := ⟨.hbm, 124, rfl⟩
abbrev main_v63 : Ref sig .tc := ⟨.hbm, 125, rfl⟩
abbrev main_c_17 : Ref sig .tc := ⟨.hbm, 126, rfl⟩
abbrev main_v64 : Ref sig .tc := ⟨.hbm, 127, rfl⟩
abbrev main_v65 : Ref sig .tc := ⟨.hbm, 128, rfl⟩
abbrev main_c_18 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_call7_cst : Ref sig .tc := ⟨.hbm, 150, rfl⟩
abbrev main_call7_v0 : Ref sig .tc := ⟨.hbm, 151, rfl⟩
abbrev main_v86 : Ref sig .tc := ⟨.hbm, 152, rfl⟩
abbrev main_v87 : Ref sig .tc := ⟨.hbm, 153, rfl⟩
abbrev main_c_19 : Ref sig .tc := ⟨.hbm, 154, rfl⟩
abbrev main_v88 : Ref sig .tc := ⟨.hbm, 155, rfl⟩
abbrev main_v89 : Ref sig .tc := ⟨.hbm, 156, rfl⟩
abbrev main_c_20 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v61 : Ref sig .tc := ⟨.smem, 0, rfl⟩
abbrev main_v62 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 416], ![false, false]⟩

abbrev pre1 : Pipeline.Prefetch sig := ⟨2, ![main_v61.idx, main_v62.idx], fun | 0 => main_v61.names | 1 => main_v62.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let c416_i32 : BitVec 32 := 416#32
  let v3 : BitVec 32 := Scalar.muli arg0 c416_i32
  let arg1 : BitVec 32 := BitVec.ofNat 32 (i 1).val
  let v4 : BitVec 32 := Scalar.addi v3 arg1
  let v5 : Index := Scalar.indexCast v4
  ![v5.toNat]
def k1_mult1 (v6 : BitVec 32) : BitVec 32 :=
  let c1024_i32 : BitVec 32 := 1024#32
  let v13 : BitVec 32 := Scalar.muli v6 c1024_i32
  v13

def k1_off2 (v6 : BitVec 32) : Fin 3 → Nat :=
  let c0_3 : Index := 0#32
  let c1024_i32 : BitVec 32 := 1024#32
  let v13 : BitVec 32 := Scalar.muli v6 c1024_i32
  let v14 : BitVec 32 := v13
  let v25 : Index := Scalar.indexCast v14
  let c0_4 : Index := 0#32
  ![0, v25.toNat, 0]

def k1_chk1 (v6 : BitVec 32) : Prop :=
  (1024 ∣ (k1_mult1 v6).toNat) ∧
  (∀ a, (k1_off2 v6) a + S1x1024x96.size a ≤ S1x50176x96.size a)
instance k1_chk1.dec : ∀ (v6 : BitVec 32), Decidable (k1_chk1 v6) := fun v6 => decidable_of_iff' _ (Iff.of_eq (k1_chk1.eq_1 v6))
theorem k1_mult1_dvd : ∀ (v6 : BitVec 32) (k1_hw1 : k1_chk1 v6), 1024 ∣ (k1_mult1 v6).toNat := fun v6 k1_hw1 => k1_hw1.1
theorem k1_off2_inb : ∀ (v6 : BitVec 32) (k1_hw1 : k1_chk1 v6), ∀ a, (k1_off2 v6) a + S1x1024x96.size a ≤ S1x50176x96.size a := fun v6 k1_hw1 => k1_hw1.2

def k1_mult2 (v8 : BitVec 32) : BitVec 32 :=
  let c1024_i32_8 : BitVec 32 := 1024#32
  let v36 : BitVec 32 := Scalar.muli v8 c1024_i32_8
  v36
def k1_cond2 (v6 : BitVec 32) (v8 : BitVec 32) : BitVec 1 :=
  let v33 : BitVec 1 := Scalar.cmpi .ne v8 v6
  let v34 : BitVec 32 := Scalar.extui v33
  let c0_i32_7 : BitVec 32 := 0#32
  let v35 : BitVec 1 := Scalar.cmpi .ne v34 c0_i32_7
  v35

def k1_off3 (v8 : BitVec 32) : Fin 3 → Nat :=
  let c0_10 : Index := 0#32
  let c1024_i32_8 : BitVec 32 := 1024#32
  let v36 : BitVec 32 := Scalar.muli v8 c1024_i32_8
  let v37 : BitVec 32 := v36
  let v48 : Index := Scalar.indexCast v37
  let c0_11 : Index := 0#32
  ![0, v48.toNat, 0]

def k1_chk2 (v6 : BitVec 32) (v8 : BitVec 32) : Prop :=
  (∀ (k1_h2 : k1_cond2 v6 v8 = 1#1), 1024 ∣ (k1_mult2 v8).toNat) ∧
  (∀ (k1_h2 : k1_cond2 v6 v8 = 1#1), ∀ a, (k1_off3 v8) a + S1x1024x96.size a ≤ S1x50176x96.size a)
instance k1_chk2.dec : ∀ (v6 : BitVec 32) (v8 : BitVec 32), Decidable (k1_chk2 v6 v8) := fun v6 v8 => decidable_of_iff' _ (Iff.of_eq (k1_chk2.eq_1 v6 v8))
theorem k1_mult2_dvd : ∀ (v6 : BitVec 32) (v8 : BitVec 32) (k1_hw2 : k1_chk2 v6 v8), ∀ (k1_h2 : k1_cond2 v6 v8 = 1#1), 1024 ∣ (k1_mult2 v8).toNat := fun v6 v8 k1_hw2 k1_h2 => k1_hw2.1 k1_h2
theorem k1_off3_inb : ∀ (v6 : BitVec 32) (v8 : BitVec 32) (k1_hw2 : k1_chk2 v6 v8), ∀ (k1_h2 : k1_cond2 v6 v8 = 1#1), ∀ a, (k1_off3 v8) a + S1x1024x96.size a ≤ S1x50176x96.size a := fun v6 v8 k1_hw2 k1_h2 => k1_hw2.2 k1_h2

def cc1_transform_0 (i : grid1.Coords) : Fin 1 → Nat :=
  let arg0 : BitVec 32 := BitVec.ofNat 32 (i 0).val
  let arg1 : BitVec 32 := BitVec.ofNat 32 (i 1).val
  let c416_i32 : BitVec 32 := 416#32
  let v0 : BitVec 32 := Scalar.muli arg0 c416_i32
  let v1 : BitVec 32 := Scalar.addi v0 arg1
  let c0_i32 : BitVec 32 := 0#32
  ![v1.toNat]

def cc1_transform_1 (i : grid1.Coords) : Fin 2 → Nat :=
  let arg0 : BitVec 32 := BitVec.ofNat 32 (i 0).val
  let arg1 : BitVec 32 := BitVec.ofNat 32 (i 1).val
  let c416_i32 : BitVec 32 := 416#32
  let v0 : BitVec 32 := Scalar.muli arg0 c416_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x96 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x50176x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x48 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x48 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![2, 416], ![false, false]⟩

abbrev pre3 : Pipeline.Prefetch sig := ⟨2, ![main_v61.idx, main_v62.idx], fun | 0 => main_v61.names | 1 => main_v62.names | ⟨_ + 2, h⟩ => absurd h (Nat.not_lt.2 (Nat.le_add_left _ _)), fun | 0 => rfl | 1 => rfl | ⟨_ + 2, h⟩ => absurd h (Nat.not_lt.2 (Nat.le_add_left _ _))⟩

def k3_off1 (i : grid3.Coords) : Fin 1 → Nat :=
  let arg0 : BitVec 32 := BitVec.ofNat 32 (i 0).val
  let c416_i32 : BitVec 32 := 416#32
  let v3 : BitVec 32 := Scalar.muli arg0 c416_i32
  let arg1 : BitVec 32 := BitVec.ofNat 32 (i 1).val
  let v4 : BitVec 32 := Scalar.addi v3 arg1
  let v5 : Index := Scalar.indexCast v4
  ![v5.toNat]
def k3_mult1 (v6 : BitVec 32) : BitVec 32 :=
  let c1024_i32 : BitVec 32 := 1024#32
  let v13 : BitVec 32 := Scalar.muli v6 c1024_i32
  v13

def k3_off2 (v6 : BitVec 32) : Fin 3 → Nat :=
  let c0_3 : Index := 0#32
  let c1024_i32 : BitVec 32 := 1024#32
  let v13 : BitVec 32 := Scalar.muli v6 c1024_i32
  let v14 : BitVec 32 := v13
  let v25 : Index := Scalar.indexCast v14
  let c0_4 : Index := 0#32
  ![0, v25.toNat, 0]

def k3_chk1 (v6 : BitVec 32) : Prop :=
  (1024 ∣ (k3_mult1 v6).toNat) ∧
  (∀ a, (k3_off2 v6) a + S1x1024x48.size a ≤ S1x50176x48.size a)
instance k3_chk1.dec : ∀ (v6 : BitVec 32), Decidable (k3_chk1 v6) := fun v6 => decidable_of_iff' _ (Iff.of_eq (k3_chk1.eq_1 v6))
theorem k3_mult1_dvd : ∀ (v6 : BitVec 32) (k3_hw1 : k3_chk1 v6), 1024 ∣ (k3_mult1 v6).toNat := fun v6 k3_hw1 => k3_hw1.1
theorem k3_off2_inb : ∀ (v6 : BitVec 32) (k3_hw1 : k3_chk1 v6), ∀ a, (k3_off2 v6) a + S1x1024x48.size a ≤ S1x50176x48.size a := fun v6 k3_hw1 => k3_hw1.2

def k3_mult2 (v8 : BitVec 32) : BitVec 32 :=
  let c1024_i32_8 : BitVec 32 := 1024#32
  let v36 : BitVec 32 := Scalar.muli v8 c1024_i32_8
  v36
def k3_cond2 (v6 : BitVec 32) (v8 : BitVec 32) : BitVec 1 :=
  let v33 : BitVec 1 := Scalar.cmpi .ne v8 v6
  let v34 : BitVec 32 := Scalar.extui v33
  let c0_i32_7 : BitVec 32 := 0#32
  let v35 : BitVec 1 := Scalar.cmpi .ne v34 c0_i32_7
  v35

def k3_off3 (v8 : BitVec 32) : Fin 3 → Nat :=
  let c0_10 : Index := 0#32
  let c1024_i32_8 : BitVec 32 := 1024#32
  let v36 : BitVec 32 := Scalar.muli v8 c1024_i32_8
  let v37 : BitVec 32 := v36
  let v48 : Index := Scalar.indexCast v37
  let c0_11 : Index := 0#32
  ![0, v48.toNat, 0]

def k3_chk2 (v6 : BitVec 32) (v8 : BitVec 32) : Prop :=
  (∀ (k3_h2 : k3_cond2 v6 v8 = 1#1), 1024 ∣ (k3_mult2 v8).toNat) ∧
  (∀ (k3_h2 : k3_cond2 v6 v8 = 1#1), ∀ a, (k3_off3 v8) a + S1x1024x48.size a ≤ S1x50176x48.size a)
instance k3_chk2.dec : ∀ (v6 : BitVec 32) (v8 : BitVec 32), Decidable (k3_chk2 v6 v8) := fun v6 v8 => decidable_of_iff' _ (Iff.of_eq (k3_chk2.eq_1 v6 v8))
theorem k3_mult2_dvd : ∀ (v6 : BitVec 32) (v8 : BitVec 32) (k3_hw2 : k3_chk2 v6 v8), ∀ (k3_h2 : k3_cond2 v6 v8 = 1#1), 1024 ∣ (k3_mult2 v8).toNat := fun v6 v8 k3_hw2 k3_h2 => k3_hw2.1 k3_h2
theorem k3_off3_inb : ∀ (v6 : BitVec 32) (v8 : BitVec 32) (k3_hw2 : k3_chk2 v6 v8), ∀ (k3_h2 : k3_cond2 v6 v8 = 1#1), ∀ a, (k3_off3 v8) a + S1x1024x48.size a ≤ S1x50176x48.size a := fun v6 v8 k3_hw2 k3_h2 => k3_hw2.2 k3_h2

def cc3_transform_0 (i : grid3.Coords) : Fin 1 → Nat :=
  let arg0 : BitVec 32 := BitVec.ofNat 32 (i 0).val
  let arg1 : BitVec 32 := BitVec.ofNat 32 (i 1).val
  let c416_i32 : BitVec 32 := 416#32
  let v0 : BitVec 32 := Scalar.muli arg0 c416_i32
  let v1 : BitVec 32 := Scalar.addi v0 arg1
  let c0_i32 : BitVec 32 := 0#32
  ![v1.toNat]

def cc3_transform_1 (i : grid3.Coords) : Fin 2 → Nat :=
  let arg0 : BitVec 32 := BitVec.ofNat 32 (i 0).val
  let arg1 : BitVec 32 := BitVec.ofNat 32 (i 1).val
  let c416_i32 : BitVec 32 := 416#32
  let v0 : BitVec 32 := Scalar.muli arg0 c416_i32
  let v1 : BitVec 32 := Scalar.addi v0 arg1
  let c0_i32 : BitVec 32 := 0#32
  let c0_i32_0 : BitVec 32 := 0#32
  ![v1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1024 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x48 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S1x50176x48 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  pads_S850000_S851968_019680 : S850000.Pads (![0] : Fin 1 → Nat) ![1968] ![0] S851968
  h_S_ : 0 < S_.numel
  shapeCasts_S851968_S832x1024 : S851968.ShapeCasts S832x1024
  slices_S832x1024_S832x1_0_0 : S832x1024.Slices ![0, 0] S832x1
  shapeCasts_S832x1_S832 : S832x1.ShapeCasts S832
  slices_S832x1024_S832x1_0_1023 : S832x1024.Slices ![0, 1023] S832x1
  bcast_S_S832 : S_.BroadcastsInDim S832 (![] : Fin 0 → Fin S832.rank)
  inb_S5000x96_S5000x96_0_0 : ∀ a, (![0, 0] : Fin 2 → Nat) a + S5000x96.size a ≤ S5000x96.size a
  h_S5000x96 : 0 < S5000x96.numel
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  packedbf16_S5000x96_S5000x96_0_0 : (Rect.unit (s := S5000x96) ![0, 0] S5000x96.size inb_S5000x96_S5000x96_0_0).PackedRows (EltTy.packing .bf16)
  bcast_S_S851968 : S_.BroadcastsInDim S851968 (![] : Fin 0 → Fin S851968.rank)
  bcast_S851968_S851968x1_0 : S851968.BroadcastsInDim S851968x1 (![0] : Fin 1 → Fin S851968x1.rank)
  bcast_S851968x1_S851968x96_0_1 : S851968x1.BroadcastsInDim S851968x96 (![0, 1] : Fin 2 → Fin S851968x96.rank)
  inb_S1x50176x96_S1x50176x96_0_0_0 : ∀ a, (![0, 0, 0] : Fin 3 → Nat) a + S1x50176x96.size a ≤ S1x50176x96.size a
  h_S1x50176x96 : 0 < S1x50176x96.numel
  shapeCasts_S1x50176x96_S50176x96 : S1x50176x96.ShapeCasts S50176x96
  shapeCasts_S50176x96_S1x50176x96 : S50176x96.ShapeCasts S1x50176x96
  numel1_S1 : S1.numel = 1
  inb_S1024_S1024_0 : ∀ a, (![0] : Fin 1 → Nat) a + S1024.size a ≤ S1024.size a
  h_S1024 : 0 < S1024.numel
  shapeCasts_S1024_S1024 : S1024.ShapeCasts S1024
  inb_S1024x96_S1024x96_0_0 : ∀ a, (![0, 0] : Fin 2 → Nat) a + S1024x96.size a ≤ S1024x96.size a
  h_S1024x96 : 0 < S1024x96.numel
  shapeCasts_S1024x96_S1024x96 : S1024x96.ShapeCasts S1024x96
  iota_S1024x1024_d0_w32 : S1024x1024.Iotas .tc 32 [0]
  shapeCasts_S1024_S1x1024 : S1024.ShapeCasts S1x1024
  broadcasts_S1x1024_S1024x1024 : S1x1024.Broadcasts S1024x1024
  natLt_1_32 : 1 < 32
  h_S1x1024x96 : 0 < S1x1024x96.numel
  shapeCasts_S1x1024x96_S1024x96 : S1x1024x96.ShapeCasts S1024x96
  shapeCasts_S1024x96_S1x1024x96 : S1024x96.ShapeCasts S1x1024x96
  slices_S2x50176x96_S1x50176x96_0_0_0 : S2x50176x96.Slices ![0, 0, 0] S1x50176x96
  slices_S2x50176x96_S1x50176x96_1_0_0 : S2x50176x96.Slices ![1, 0, 0] S1x50176x96
  slices_S50176x96_S50000x96_0_0 : S50176x96.Slices ![0, 0] S50000x96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S50000x96 : S_.BroadcastsInDim S50000x96 (![] : Fin 0 → Fin S50000x96.rank)
  shapeCasts_S5000x96_S5000x96 : S5000x96.ShapeCasts S5000x96
  inb_S96x48_S96x48_0_0 : ∀ a, (![0, 0] : Fin 2 → Nat) a + S96x48.size a ≤ S96x48.size a
  h_S96x48 : 0 < S96x48.numel
  inb_S5000x48_S5000x48_0_0 : ∀ a, (![0, 0] : Fin 2 → Nat) a + S5000x48.size a ≤ S5000x48.size a
  h_S5000x48 : 0 < S5000x48.numel
  packedbf16_S5000x48_S5000x48_0_0 : (Rect.unit (s := S5000x48) ![0, 0] S5000x48.size inb_S5000x48_S5000x48_0_0).PackedRows (EltTy.packing .bf16)
  bcast_S851968x1_S851968x48_0_1 : S851968x1.BroadcastsInDim S851968x48 (![0, 1] : Fin 2 → Fin S851968x48.rank)
  inb_S1x50176x48_S1x50176x48_0_0_0 : ∀ a, (![0, 0, 0] : Fin 3 → Nat) a + S1x50176x48.size a ≤ S1x50176x48.size a
  h_S1x50176x48 : 0 < S1x50176x48.numel
  shapeCasts_S1x50176x48_S50176x48 : S1x50176x48.ShapeCasts S50176x48
  shapeCasts_S50176x48_S1x50176x48 : S50176x48.ShapeCasts S1x50176x48
  inb_S1024x48_S1024x48_0_0 : ∀ a, (![0, 0] : Fin 2 → Nat) a + S1024x48.size a ≤ S1024x48.size a
  h_S1024x48 : 0 < S1024x48.numel
  shapeCasts_S1024x48_S1024x48 : S1024x48.ShapeCasts S1024x48
  h_S1x1024x48 : 0 < S1x1024x48.numel
  shapeCasts_S1x1024x48_S1024x48 : S1x1024x48.ShapeCasts S1024x48
  shapeCasts_S1024x48_S1x1024x48 : S1024x48.ShapeCasts S1x1024x48
  slices_S2x50176x48_S1x50176x48_0_0_0 : S2x50176x48.Slices ![0, 0, 0] S1x50176x48
  slices_S2x50176x48_S1x50176x48_1_0_0 : S2x50176x48.Slices ![1, 0, 0] S1x50176x48
  slices_S50176x48_S50000x48_0_0 : S50176x48.Slices ![0, 0] S50000x48
  bcast_S48_S1x48_1 : S48.BroadcastsInDim S1x48 (![1] : Fin 1 → Fin S1x48.rank)
  bcast_S1x48_S50000x48_0_1 : S1x48.BroadcastsInDim S50000x48 (![0, 1] : Fin 2 → Fin S50000x48.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S850000_S850000x1_S850000_n_0_n_n_0_1_1_wf : GatherDims.WF S850000 S850000x1 S850000 [] [0] [] [0] [] 1 ![1]
  dot_S5000x96_S96x96_S5000x96_1_0_0_1_n_n_wf : DotDims.WF S5000x96 S96x96 S5000x96 [1] [0] [0] [1] [] []
  gather_S50000x96_S851968x1_S851968x96_1_0_n_n_0_1_196_wf : GatherDims.WF S50000x96 S851968x1 S851968x96 [1] [0] [] [0] [] 1 ![1, 96]
  dot_S1024x1024_S1024x96_S1024x96_1_0_0_1_n_n_wf : DotDims.WF S1024x1024 S1024x96 S1024x96 [1] [0] [0] [1] [] []
  dot_S5000x96_S96x48_S5000x48_1_0_0_1_n_n_wf : DotDims.WF S5000x96 S96x48 S5000x48 [1] [0] [0] [1] [] []
  gather_S50000x48_S851968x1_S851968x48_1_0_n_n_0_1_148_wf : GatherDims.WF S50000x48 S851968x1 S851968x48 [1] [0] [] [0] [] 1 ![1, 48]
  dot_S1024x1024_S1024x48_S1024x48_1_0_0_1_n_n_wf : DotDims.WF S1024x1024 S1024x48 S1024x48 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .bf16 = 32 ∨ (Rect.block (s := S50000x96) S5000x96.size (cc0_transform_2 i) (hinb0_2 i)).WholeWords (EltTy.packing .bf16)
  hrank1 : 0 < grid1.rank
  k1_off1_inb : ∀ i : grid1.Coords, ∀ a, (k1_off1 i) a + S1.size a ≤ S832.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024.size a ≤ S851968.size a
  hwx1_0 : ∀ i : grid1.Coords, EltTy.bits .i32 = 32 ∨ (Rect.block (s := S851968) S1024.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x96.size a ≤ S851968x96.size a
  hwx1_1 : ∀ i : grid1.Coords, EltTy.bits .bf16 = 32 ∨ (Rect.block (s := S851968x96) S1024x96.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x50176x96.size a ≤ S2x50176x96.size a
  hwx1_2 : ∀ i : grid1.Coords, EltTy.bits .f32 = 32 ∨ (Rect.block (s := S2x50176x96) S1x50176x96.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x48.size a ≤ S96x48.size a
  hwx2_1 : ∀ i : grid2.Coords, EltTy.bits .f32 = 32 ∨ (Rect.block (s := S96x48) S96x48.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x48.size a ≤ S50000x48.size a
  hwx2_2 : ∀ i : grid2.Coords, EltTy.bits .bf16 = 32 ∨ (Rect.block (s := S50000x48) S5000x48.size (cc2_transform_2 i) (hinb2_2 i)).WholeWords (EltTy.packing .bf16)
  hrank3 : 0 < grid3.rank
  k3_off1_inb : ∀ i : grid3.Coords, ∀ a, (k3_off1 i) a + S1.size a ≤ S832.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024.size a ≤ S851968.size a
  hwx3_0 : ∀ i : grid3.Coords, EltTy.bits .i32 = 32 ∨ (Rect.block (s := S851968) S1024.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x48.size a ≤ S851968x48.size a
  hwx3_1 : ∀ i : grid3.Coords, EltTy.bits .bf16 = 32 ∨ (Rect.block (s := S851968x48) S1024x48.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x50176x48.size a ≤ S2x50176x48.size a
  hwx3_2 : ∀ i : grid3.Coords, EltTy.bits .f32 = 32 ∨ (Rect.block (s := S2x50176x48) S1x50176x48.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def comparator_i32_i32_d0 : BitVec 32 × BitVec 32 → BitVec 32 × BitVec 32 → BitVec 1 :=
  fun l r =>
    let v2 := IntOp.cmpi .slt l.1 r.1
    v2
def gather_S850000_S850000x1_S850000_n_0_n_n_0_1_1 : GatherDims S850000 S850000x1 S850000 where
  offsetDims := []
  collapsedSliceDims := [0]
  operandBatchingDims := []
  startIndicesBatchingDims := []
  startIndexMap := [0]
  indexVectorDim := 1
  sliceSizes := ![1]
  wf := gather_S850000_S850000x1_S850000_n_0_n_n_0_1_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def gather_S50000x96_S851968x1_S851968x96_1_0_n_n_0_1_196 : GatherDims S50000x96 S851968x1 S851968x96 where
  offsetDims := [1]
  collapsedSliceDims := [0]
  operandBatchingDims := []
  startIndicesBatchingDims := []
  startIndexMap := [0]
  indexVectorDim := 1
  sliceSizes := ![1, 96]
  wf := gather_S50000x96_S851968x1_S851968x96_1_0_n_n_0_1_196_wf
def dot_S1024x1024_S1024x96_S1024x96_1_0_0_1_n_n : DotDims S1024x1024 S1024x96 S1024x96 where
  lhsContracting := [1]
  rhsContracting := [0]
  lhsNonContracting := [0]
  rhsNonContracting := [1]
  lhsBatch := []
  rhsBatch := []
  wf := dot_S1024x1024_S1024x96_S1024x96_1_0_0_1_n_n_wf
def dot_S5000x96_S96x48_S5000x48_1_0_0_1_n_n : DotDims S5000x96 S96x48 S5000x48 where
  lhsContracting := [1]
  rhsContracting := [0]
  lhsNonContracting := [0]
  rhsNonContracting := [1]
  lhsBatch := []
  rhsBatch := []
  wf := dot_S5000x96_S96x48_S5000x48_1_0_0_1_n_n_wf
def gather_S50000x48_S851968x1_S851968x48_1_0_n_n_0_1_148 : GatherDims S50000x48 S851968x1 S851968x48 where
  offsetDims := [1]
  collapsedSliceDims := [0]
  operandBatchingDims := []
  startIndicesBatchingDims := []
  startIndexMap := [0]
  indexVectorDim := 1
  sliceSizes := ![1, 48]
  wf := gather_S50000x48_S851968x1_S851968x48_1_0_n_n_0_1_148_wf
def dot_S1024x1024_S1024x48_S1024x48_1_0_0_1_n_n : DotDims S1024x1024 S1024x48 S1024x48 where
  lhsContracting := [1]
  rhsContracting := [0]
  lhsNonContracting := [0]
  rhsNonContracting := [1]
  lhsBatch := []
  rhsBatch := []
  wf := dot_S1024x1024_S1024x48_S1024x48_1_0_0_1_n_n_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v63) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev spec1_0 : Pipeline.WinSpec sig grid1.rank :=
  Pipeline.WinSpec.ofSpec (Memref.whole main_v53) S1024.size reads1_0 false false 2 stage1_0 sem1_0 nbuf1_0 hstage1_0

abbrev spec1_1 : Pipeline.WinSpec sig grid1.rank :=
  Pipeline.WinSpec.ofSpec (Memref.whole main_v75) S1024x96.size reads1_1 false false 2 stage1_1 sem1_1 nbuf1_1 hstage1_1

abbrev spec1_2 : Pipeline.WinSpec sig grid1.rank :=
  Pipeline.WinSpec.ofSpec (Memref.whole main_v76) S1x50176x96.size reads1_2 true true 1 stage1_2 sem1_2 nbuf1_2 hstage1_2

abbrev spec1 : Fin 3 → Pipeline.WinSpec sig grid1.rank := fun | 0 => spec1_0 | 1 => spec1_1 | 2 => spec1_2 | ⟨_ + 3, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | ⟨_ + 3, h⟩ => absurd h (Nat.not_lt.2 (Nat.le_add_left _ _))
abbrev ix1 (pf : pre1.Contents (Elt F)) : (w : Fin 3) → grid1.Coords → Fin (spec1 w).shape.rank → Nat := fun | 0 => cc1_transform_0 | 1 => cc1_transform_1 | 2 => cc1_transform_2 | ⟨_ + 3, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | ⟨_ + 3, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | ⟨_ + 3, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | ⟨_ + 3, h⟩ => absurd h (Nat.not_lt.2 (Nat.le_add_left _ _))
abbrev win2_0 : Pipeline.Window sig grid2 :=
  Pipeline.Window.ofSpec (Memref.whole main_v86) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S96x48.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v87) S5000x48.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev spec3_0 : Pipeline.WinSpec sig grid3.rank :=
  Pipeline.WinSpec.ofSpec (Memref.whole main_v53) S1024.size reads3_0 false false 2 stage3_0 sem3_0 nbuf3_0 hstage3_0

abbrev spec3_1 : Pipeline.WinSpec sig grid3.rank :=
  Pipeline.WinSpec.ofSpec (Memref.whole main_v99) S1024x48.size reads3_1 false false 2 stage3_1 sem3_1 nbuf3_1 hstage3_1

abbrev spec3_2 : Pipeline.WinSpec sig grid3.rank :=
  Pipeline.WinSpec.ofSpec (Memref.whole main_v100) S1x50176x48.size reads3_2 true true 1 stage3_2 sem3_2 nbuf3_2 hstage3_2

abbrev spec3 : Fin 3 → Pipeline.WinSpec sig grid3.rank := fun | 0 => spec3_0 | 1 => spec3_1 | 2 => spec3_2 | ⟨_ + 3, h⟩ => absurd h (Nat.not_lt.2 (Nat.le_add_left _ _))
theorem hcount3 : ∀ w, grid3.bufCount (spec3 w).reads (spec3 w).sync = (spec3 w).nbuf := fun | 0 => nbuf3_0 | 1 => nbuf3_1 | 2 => nbuf3_2 | ⟨_ + 3, h⟩ => absurd h (Nat.not_lt.2 (Nat.le_add_left _ _))
abbrev ix3 (pf : pre3.Contents (Elt F)) : (w : Fin 3) → grid3.Coords → Fin (spec3 w).shape.rank → Nat := fun | 0 => cc3_transform_0 | 1 => cc3_transform_1 | 2 => cc3_transform_2 | ⟨_ + 3, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 | 1 => hreads3_1 | 2 => hreads3_2 | ⟨_ + 3, h⟩ => absurd h (Nat.not_lt.2 (Nat.le_add_left _ _))
def ok3 (_ : pre3.Contents (Elt F)) : Prop :=
  True
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun _ _ => fun | 0 => hinb3_0 | 1 => hinb3_1 | 2 => hinb3_2 | ⟨_ + 3, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun _ _ => fun | 0 => hwx3_0 | 1 => hwx3_1 | 2 => hwx3_2 | ⟨_ + 3, h⟩ => absurd h (Nat.not_lt.2 (Nat.le_add_left _ _))

class Facts : Prop extends Facts₀ where
  harr1 : ∀ w, (spec1 w).arr.IsWhole
  harr3 : ∀ w, (spec3 w).arr.IsWhole

variable [Facts]
-- ==== ReferenceIdeal.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S96x48 : Shape := ⟨2, ![96, 48]⟩
abbrev S48 : Shape := ⟨1, ![48]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x96 : Shape := ⟨2, ![850000, 96]⟩
abbrev S1x96 : Shape := ⟨2, ![1, 96]⟩
abbrev S50000x48 : Shape := ⟨2, ![50000, 48]⟩
abbrev S850000x48 : Shape := ⟨2, ![850000, 48]⟩
abbrev S1x48 : Shape := ⟨2, ![1, 48]⟩

abbrev nBuf : Space → Nat
  | .hbm => 122
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96, .f32⟩
  | .hbm, ⟨4, _⟩ => ⟨S96x48, .f32⟩
  | .hbm, ⟨5, _⟩ => ⟨S48, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S50000x96, .f32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x96, .f32⟩
  | .hbm, ⟨56, _⟩ => ⟨S850000x1, .f32⟩
  | .hbm, ⟨57, _⟩ => ⟨S850000x96, .f32⟩
  | .hbm, ⟨58, _⟩ => ⟨S850000x96, .f32⟩
  | .hbm, ⟨59, _⟩ => ⟨S_, .f32⟩
  | .hbm, ⟨60, _⟩ => ⟨S50000x96, .f32⟩
  | .hbm, ⟨61, _⟩ => ⟨S850000x1, .i32⟩
  | .hbm, ⟨62, _⟩ => ⟨S50000x96, .f32⟩
  | .hbm, ⟨63, _⟩ => ⟨S1x96, .f32⟩
  | .hbm, ⟨64, _⟩ => ⟨S50000x96, .f32⟩
  | .hbm, ⟨65, _⟩ => ⟨S50000x96, .f32⟩
  | .hbm, ⟨66, _⟩ => ⟨S_, .f32⟩
  | .hbm, ⟨67, _⟩ => ⟨S50000x96, .f32⟩
  | .hbm, ⟨68, _⟩ => ⟨S50000x96, .f32⟩
  | .hbm, ⟨69, _⟩ => ⟨S50000x48, .f32⟩
  | .hbm, ⟨70, _⟩ => ⟨S_, .f32⟩
  | .hbm, ⟨71, _⟩ => ⟨S850000, .f32⟩
  | .hbm, ⟨72, _⟩ => ⟨S_, .f32⟩
  | .hbm, ⟨73, _⟩ => ⟨S50000, .f32⟩
  | .hbm, ⟨74, _⟩ => ⟨S850000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .i1⟩
  | .hbm, ⟨79, _⟩ => ⟨S50000, .f32⟩
  | .hbm, ⟨80, _⟩ => ⟨S_, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000, .f32⟩
  | .hbm, ⟨93, _⟩ => ⟨S_, .i32⟩
  | .hbm, ⟨94, _⟩ => ⟨S850000, .i32⟩
  | .hbm, ⟨95, _⟩ => ⟨S850000, .i1⟩
  | .hbm, ⟨96, _⟩ => ⟨S_, .i32⟩
  | .hbm, ⟨97, _⟩ => ⟨S850000, .i32⟩
  | .hbm, ⟨98, _⟩ => ⟨S850000, .i32⟩
  | .hbm, ⟨99, _⟩ => ⟨S850000, .i32⟩
  | .hbm, ⟨100, _⟩ => ⟨S850000x1, .i32⟩
  | .hbm, ⟨101, _⟩ => ⟨S850000, .f32⟩
  | .hbm, ⟨102, _⟩ => ⟨S850000, .f32⟩
  | .hbm, ⟨103, _⟩ => ⟨S_, .i32⟩
  | .hbm, ⟨104, _⟩ => ⟨S850000, .i32⟩
  | .hbm, ⟨105, _⟩ => ⟨S850000, .i1⟩
  | .hbm, ⟨106, _⟩ => ⟨S_, .i32⟩
  | .hbm, ⟨107, _⟩ => ⟨S850000, .i32⟩
  | .hbm, ⟨108, _⟩ => ⟨S850000, .i32⟩
  | .hbm, ⟨109, _⟩ => ⟨S850000, .i32⟩
  | .hbm, ⟨110, _⟩ => ⟨S850000x1, .i32⟩
  | .hbm, ⟨111, _⟩ => ⟨S850000x48, .f32⟩
  | .hbm, ⟨112, _⟩ => ⟨S850000x1, .f32⟩
  | .hbm, ⟨113, _⟩ => ⟨S850000x48, .f32⟩
  | .hbm, ⟨114, _⟩ => ⟨S850000x48, .f32⟩
  | .hbm, ⟨115, _⟩ => ⟨S_, .f32⟩
  | .hbm, ⟨116, _⟩ => ⟨S50000x48, .f32⟩
  | .hbm, ⟨117, _⟩ => ⟨S850000x1, .i32⟩
  | .hbm, ⟨118, _⟩ => ⟨S50000x48, .f32⟩
  | .hbm, ⟨119, _⟩ => ⟨S1x48, .f32⟩
  | .hbm, ⟨120, _⟩ => ⟨S50000x48, .f32⟩
  | .hbm, ⟨121, _⟩ => ⟨S50000x48, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S850000x1_S850000x48_0_1 : S850000x1.BroadcastsInDim S850000x48 (![0, 1] : Fin 2 → Fin S850000x48.rank)
  bcast_S_S50000x48 : S_.BroadcastsInDim S50000x48 (![] : Fin 0 → Fin S50000x48.rank)
  bcast_S48_S1x48_1 : S48.BroadcastsInDim S1x48 (![1] : Fin 1 → Fin S1x48.rank)
  bcast_S1x48_S50000x48_0_1 : S1x48.BroadcastsInDim S50000x48 (![0, 1] : Fin 2 → Fin S50000x48.rank)
  dot_S50000x96_S96x96_S50000x96_1_0_0_1_n_n_wf : DotDims.WF S50000x96 S96x96 S50000x96 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x48_S50000x48_1_0_0_1_n_n_wf : DotDims.WF S50000x96 S96x48 S50000x48 [1] [0] [0] [1] [] []
  gather_S50000x48_S850000x1_S850000x48_1_0_n_n_0_1_148_wf : GatherDims.WF S50000x48 S850000x1 S850000x48 [1] [0] [] [0] [] 1 ![1, 48]
  scatter_S50000x48_S850000x1_S850000x48_1_0_0_1_wf : ScatterDims.WF S50000x48 S850000x1 S850000x48 [1] [0] [0] 1

variable [Facts₀]

def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x48_S50000x48_1_0_0_1_n_n : DotDims S50000x96 S96x48 S50000x48 where
  lhsContracting := [1]
  rhsContracting := [0]
  lhsNonContracting := [0]
  rhsNonContracting := [1]
  lhsBatch := []
  rhsBatch := []
  wf := dot_S50000x96_S96x48_S50000x48_1_0_0_1_n_n_wf
def gather_S50000x48_S850000x1_S850000x48_1_0_n_n_0_1_148 : GatherDims S50000x48 S850000x1 S850000x48 where
  offsetDims := [1]
  collapsedSliceDims := [0]
  operandBatchingDims := []
  startIndicesBatchingDims := []
  startIndexMap := [0]
  indexVectorDim := 1
  sliceSizes := ![1, 48]
  wf := gather_S50000x48_S850000x1_S850000x48_1_0_n_n_0_1_148_wf
def scatter_S50000x48_S850000x1_S850000x48_1_0_0_1 : ScatterDims S50000x48 S850000x1 S850000x48 where
  updateWindowDims := [1]
  insertedWindowDims := [0]
  scatterDimsToOperandDims := [0]
  indexVectorDim := 1
  wf := scatter_S50000x48_S850000x1_S850000x48_1_0_0_1_wf

class Facts : Prop extends Facts₀ where

variable [Facts]
-- ==== Proof.LibSumBlocks.lean ====
/- A sum over a flat row-major index is the nested sum over its coordinates. -/
import Mathlib.Data.Fintype.BigOperators
import Mathlib.Logic.Equiv.Fin.Basic

/-- The row-major position of the pair `(a, b)` in an `m × n` grid lies below `m * n`. -/
theorem Fin.rowMajor_lt {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- Two axes: a sum over the flat index of an `m × n` grid is the sum over the rows of the sums along each row.
    The pairs `(a, b)` are in bijection with the flat positions `a * n + b`, and a sum over pairs is an iterated sum. -/
theorem Fin.sum_rowMajor2 {M : Type*} [AddCommMonoid M] (m n : ℕ) (f : Fin (m * n) → M) :
    ∑ e, f e = ∑ a : Fin m, ∑ b : Fin n, f ⟨a.val * n + b.val, Fin.rowMajor_lt a b⟩ := by
  rw [← Fintype.sum_prod_type' (f := fun (a : Fin m) (b : Fin n) => f ⟨a.val * n + b.val, Fin.rowMajor_lt a b⟩)]
  exact (Fintype.sum_equiv finProdFinEquiv (fun p : Fin m × Fin n => f ⟨p.1.val * n + p.2.val, Fin.rowMajor_lt p.1 p.2⟩) f
    (fun p => congrArg f (Fin.ext (by simp [Nat.mul_comm, Nat.add_comm])))).symm

/-- Four axes: a sum over the flat row-major index of an `n0 × n1 × n2 × n3` grid is the nested sum over its four
    coordinates, the last axis innermost — the two-axis statement applied to the last axis, then to the third, then to
    the second. -/
theorem Fin.sum_rowMajor4 {M : Type*} [AddCommMonoid M] (n0 n1 n2 n3 : ℕ) (f : Fin (n0 * n1 * n2 * n3) → M) :
    ∑ e, f e = ∑ a : Fin n0, ∑ b : Fin n1, ∑ c : Fin n2, ∑ d : Fin n3,
      f ⟨((a.val * n1 + b.val) * n2 + c.val) * n3 + d.val,
        Fin.rowMajor_lt (⟨(a.val * n1 + b.val) * n2 + c.val,
          Fin.rowMajor_lt (⟨a.val * n1 + b.val, Fin.rowMajor_lt a b⟩ : Fin (n0 * n1)) c⟩ : Fin (n0 * n1 * n2)) d⟩ :=
  (Fin.sum_rowMajor2 (n0 * n1 * n2) n3 f).trans <|
  (Fin.sum_rowMajor2 (n0 * n1) n2 (fun x => ∑ d : Fin n3, f ⟨x.val * n3 + d.val, Fin.rowMajor_lt x d⟩)).trans <|
  Fin.sum_rowMajor2 n0 n1 (fun y => ∑ c : Fin n2, ∑ d : Fin n3,
    f ⟨(y.val * n2 + c.val) * n3 + d.val, Fin.rowMajor_lt (⟨y.val * n2 + c.val, Fin.rowMajor_lt y c⟩ : Fin (n0 * n1 * n2)) d⟩)

/-- The instance used for the edge arrays: 3200000 = 2 · 2 · 6250 · 128 entries, read as two halves of two blocks of
    6250 rows of 128 lanes. -/
theorem sum_flat_2x2x6250x128 {M : Type*} [AddCommMonoid M] (f : Fin 3200000 → M) :
    ∑ e, f e = ∑ a : Fin 2, ∑ b : Fin 2, ∑ r : Fin 6250, ∑ l : Fin 128,
      f ⟨((a.val * 2 + b.val) * 6250 + r.val) * 128 + l.val, by omega⟩ :=
  Fin.sum_rowMajor4 2 2 6250 128 f
-- ==== Proof.Spec.lean ====
/- The mathematics both programs compute — two graph-convolution layers over one edge list — and the facts about
   finite sums that join the two arrangements of the edge sum: the reference adds an edge's message into its
   destination row directly; the kernel sorts the edges by destination, pads the list, cuts it into blocks of 1024
   and adds each block into at most two aligned chunks of 1024 rows. -/
import Mathlib.Data.EReal.Operations
import Mathlib.Algebra.BigOperators.Fin
import Mathlib.Algebra.BigOperators.Group.Finset.Basic
import Mathlib.Algebra.Order.Interval.Finset.Basic
import Mathlib.Order.Interval.Finset.Nat
import proofs.«425685_j80942953661103_3_alg».proof.Proof.LibSumBlocks

noncomputable section

namespace Cert.Spec

open scoped BigOperators

/-- Dense product: row `n` of `x` against column `q` of `w`. -/
def mm {K D : ℕ} (x : Fin 50000 → Fin K → EReal) (w : Fin K → Fin D → EReal) (n : Fin 50000) (q : Fin D) : EReal :=
  ∑ k : Fin K, x n k * w k q

/-- Neighbour aggregation: node `n` receives, from every edge `j` whose destination `ds j` is `n`, row `sr j` of
    `h` scaled by the edge's weight `nr j`. -/
def agg {D : ℕ} (h : Fin 50000 → Fin D → EReal) (sr : Fin 850000 → Fin 50000) (ds : Fin 850000 → ℕ)
    (nr : Fin 850000 → EReal) (n : Fin 50000) (q : Fin D) : EReal :=
  ∑ j : Fin 850000, if ds j = n.val then h (sr j) q * nr j else 0

/-- One layer before its nonlinearity: project, aggregate over the edges, add the bias. -/
def layer {K D : ℕ} (x : Fin 50000 → Fin K → EReal) (w : Fin K → Fin D → EReal) (b : Fin D → EReal)
    (sr : Fin 850000 → Fin 50000) (ds : Fin 850000 → ℕ) (nr : Fin 850000 → EReal) (n : Fin 50000) (q : Fin D) : EReal :=
  agg (mm x w) sr ds nr n q + b q

/-- The whole network: a layer, the positive part, a second layer. -/
def G (x : Fin 50000 → Fin 96 → EReal) (W1 : Fin 96 → Fin 96 → EReal) (b1 : Fin 96 → EReal)
    (W2 : Fin 96 → Fin 48 → EReal) (b2 : Fin 48 → EReal)
    (sr : Fin 850000 → Fin 50000) (ds : Fin 850000 → ℕ) (nr : Fin 850000 → EReal) : Fin 50000 → Fin 48 → EReal :=
  layer (fun n k => max (layer x W1 b1 sr ds nr n k) 0) W2 b2 sr ds nr

/-! ## A sorted list in which every value occurs: a window of 1024 entries meets at most two chunks of 1024 values -/

/-- Between two positions `a ≤ b` of a nondecreasing list in which every value below `N` occurs, every value strictly
    between `f a` and `f b` occurs at a position strictly between `a` and `b`; these positions are different for
    different values, so there are at least `f b - f a - 1` of them. -/
theorem span_le {M N : ℕ} (f : Fin M → ℕ) (hmono : ∀ i j : Fin M, i ≤ j → f i ≤ f j)
    (honto : ∀ v, v < N → ∃ j, f j = v) (hlt : ∀ j, f j < N) (a b : Fin M) (hab : a ≤ b) :
    f b - f a ≤ b.val - a.val := by
  classical
  by_contra hcon
  have hcon : b.val - a.val < f b - f a := Nat.lt_of_not_le hcon
  -- choose a position for every value
  choose p hp using fun v : Fin N => honto v.val v.isLt
  have hvals : ∀ v : ℕ, f a < v → v < f b → ∃ j : Fin M, a.val < j.val ∧ j.val < b.val ∧ f j = v := by
    intro v h1 h2
    have hvN : v < N := lt_trans h2 (hlt b)
    refine ⟨p ⟨v, hvN⟩, ?_, ?_, hp ⟨v, hvN⟩⟩
    · by_contra hle
      have : p ⟨v, hvN⟩ ≤ a := by exact Fin.le_def.mpr (Nat.le_of_not_lt hle)
      have := hmono _ _ this
      rw [hp ⟨v, hvN⟩] at this
      exact absurd h1 (Nat.not_lt.mpr this)
    · by_contra hle
      have : b ≤ p ⟨v, hvN⟩ := by exact Fin.le_def.mpr (Nat.le_of_not_lt hle)
      have := hmono _ _ this
      rw [hp ⟨v, hvN⟩] at this
      exact absurd h2 (Nat.not_lt.mpr this)
  -- the values strictly between inject into the positions strictly between
  have hcard : (Finset.Ioo (f a) (f b)).card ≤ (Finset.Ioo a.val b.val).card := by
    refine Finset.card_le_card_of_injOn (fun v => if h : f a < v ∧ v < f b then (Classical.choose (hvals v h.1 h.2)).val else 0) ?_ ?_
    · intro v hv
      have hv' := Finset.mem_Ioo.mp hv
      simp only [dif_pos hv']
      have := Classical.choose_spec (hvals v hv'.1 hv'.2)
      exact Finset.mem_Ioo.mpr ⟨this.1, this.2.1⟩
    · intro v hv w hw hvw
      have hv' := Finset.mem_Ioo.mp hv
      have hw' := Finset.mem_Ioo.mp hw
      simp only [Finset.coe_Ioo, Set.mem_Ioo] at hv hw
      simp only [dif_pos hv', dif_pos hw'] at hvw
      have e1 := (Classical.choose_spec (hvals v hv'.1 hv'.2)).2.2
      have e2 := (Classical.choose_spec (hvals w hw'.1 hw'.2)).2.2
      rw [← e1, ← e2, Fin.ext hvw]
  rw [Nat.card_Ioo, Nat.card_Ioo] at hcard
  have hle := Fin.le_def.mp hab
  rcases Nat.eq_or_lt_of_le hle with h | h
  · have : f b = f a := by rw [Fin.ext h]
    omega
  · omega

/-- So in a window of at most 1024 positions the values span at most 1023, and every entry of the window lies in
    the chunk of 1024 values of the window's first entry or in that of its last. -/
theorem two_chunks {M N : ℕ} (f : Fin M → ℕ) (hmono : ∀ i j : Fin M, i ≤ j → f i ≤ f j)
    (honto : ∀ v, v < N → ∃ j, f j = v) (hlt : ∀ j, f j < N) (a b j : Fin M) (haj : a ≤ j) (hjb : j ≤ b)
    (hw : b.val < a.val + 1024) :
    f j / 1024 = f a / 1024 ∨ f j / 1024 = f b / 1024 := by
  have hspan := span_le f hmono honto hlt a b (le_trans haj hjb)
  have h1 := hmono a j haj
  have h2 := hmono j b hjb
  have hab := Fin.le_def.mp (le_trans haj hjb)
  omega

/-! ## Permuting and padding an edge list does not change a sum over it -/

/-- A list of `n + p` terms whose first `n` are the terms of another list read through a permutation and whose
    last `p` are zero has the other list's sum. -/
theorem padded_sum {β : Type*} [AddCommMonoid β] {n p N : ℕ} (hN : N = n + p) (σ : Equiv.Perm (Fin n)) (T : Fin n → β)
    (Tp : Fin N → β) (h1 : ∀ (j : Fin N) (h : j.val < n), Tp j = T (σ ⟨j.val, h⟩))
    (h2 : ∀ j : Fin N, n ≤ j.val → Tp j = 0) :
    ∑ j, Tp j = ∑ j, T j := by
  subst hN
  rw [Fin.sum_univ_add]
  have hz : ∑ i : Fin p, Tp (Fin.natAdd n i) = 0 :=
    Finset.sum_eq_zero fun i _ => h2 _ (by simp [Fin.natAdd])
  rw [hz, add_zero]
  have hf : ∀ i : Fin n, Tp (Fin.castAdd p i) = T (σ i) := fun i => by
    rw [h1 (Fin.castAdd p i) (by simp)]
    rfl
  rw [Finset.sum_congr rfl fun i _ => hf i]
  exact Equiv.sum_comp σ T

/-! ## One edge against the two chunks of its block -/

/-- An edge with destination `d`, whose chunk `d / 1024` is `lo` or `hi`, adds its term `v` to row `n` exactly once
    over the pass at chunk `lo` and the pass at chunk `hi` (made only when `hi ≠ lo`): when `d = n`. -/
theorem chunk_terms {β : Type*} [AddCommMonoid β] (n lo hi d : ℕ) (v : β) (hd : d / 1024 = lo ∨ d / 1024 = hi) :
    (if lo * 1024 ≤ n ∧ n < lo * 1024 + 1024 ∧ n = d then v else 0)
      + (if hi ≠ lo ∧ hi * 1024 ≤ n ∧ n < hi * 1024 + 1024 ∧ n = d then v else 0)
    = if d = n then v else 0 := by
  by_cases hdn : d = n
  · subst hdn
    rcases hd with hd | hd
    · have hlo : lo * 1024 ≤ d ∧ d < lo * 1024 + 1024 ∧ d = d := by omega
      rw [if_pos hlo, if_pos rfl]
      by_cases hh : hi ≠ lo ∧ hi * 1024 ≤ d ∧ d < hi * 1024 + 1024 ∧ d = d
      · exfalso; omega
      · rw [if_neg hh, add_zero]
    · by_cases hl : hi = lo
      · subst hl
        have hlo : hi * 1024 ≤ d ∧ d < hi * 1024 + 1024 ∧ d = d := by omega
        rw [if_pos hlo, if_pos rfl, if_neg (by simp), add_zero]
      · have hlo : ¬ (lo * 1024 ≤ d ∧ d < lo * 1024 + 1024 ∧ d = d) := by omega
        have hhi : hi ≠ lo ∧ hi * 1024 ≤ d ∧ d < hi * 1024 + 1024 ∧ d = d := ⟨hl, by omega, by omega, rfl⟩
        rw [if_neg hlo, if_pos hhi, if_pos rfl, zero_add]
  · have h1 : ¬ (lo * 1024 ≤ n ∧ n < lo * 1024 + 1024 ∧ n = d) := fun h => hdn h.2.2.symm
    have h2 : ¬ (hi ≠ lo ∧ hi * 1024 ≤ n ∧ n < hi * 1024 + 1024 ∧ n = d) := fun h => hdn h.2.2.2.symm
    rw [if_neg h1, if_neg h2, if_neg hdn, add_zero]

/-! ## The kernel's arrangement of the edge sum -/

/-- Block `core * 416 + e` of the 832 blocks of 1024 edges. -/
def blk (core : Fin 2) (e : Fin 416) : Fin 832 := ⟨core.val * 416 + e.val, by omega⟩

/-- Edge `l` of block `g` in the flat padded list. -/
def flat (g : Fin 832) (l : Fin 1024) : Fin 851968 := ⟨g.val * 1024 + l.val, by omega⟩

/-- What one core leaves in row `n`, column `q` of its slab: over its 416 blocks and their 1024 edges, the edge's
    message when the row lies in the block's first chunk `lo` and is the edge's destination, and again for the block's
    last chunk `hi` when that is another chunk. -/
def slab {D : ℕ} (lo hi : Fin 832 → ℕ) (dp : Fin 851968 → ℕ) (msg : Fin 851968 → Fin D → EReal)
    (core : Fin 2) (n : ℕ) (q : Fin D) : EReal :=
  ∑ e : Fin 416, ∑ l : Fin 1024,
    ((if lo (blk core e) * 1024 ≤ n ∧ n < lo (blk core e) * 1024 + 1024 ∧ n = dp (flat (blk core e) l)
        then msg (flat (blk core e) l) q else 0)
      + (if hi (blk core e) ≠ lo (blk core e) ∧ hi (blk core e) * 1024 ≤ n ∧ n < hi (blk core e) * 1024 + 1024
            ∧ n = dp (flat (blk core e) l)
        then msg (flat (blk core e) l) q else 0))

/-- When every edge's chunk is its block's first or last chunk, the two cores' slabs together hold, in row `n`, the
    sum of the messages of the edges whose destination is `n`: each edge is counted once (`chunk_terms`), and the
    blocks and their edges enumerate the flat list. -/
theorem slab_sum {D : ℕ} (lo hi : Fin 832 → ℕ) (dp : Fin 851968 → ℕ) (msg : Fin 851968 → Fin D → EReal)
    (hcover : ∀ (g : Fin 832) (l : Fin 1024), dp (flat g l) / 1024 = lo g ∨ dp (flat g l) / 1024 = hi g)
    (n : ℕ) (q : Fin D) :
    slab lo hi dp msg 0 n q + slab lo hi dp msg 1 n q = ∑ j : Fin 851968, if dp j = n then msg j q else 0 := by
  have hterm : ∀ (core : Fin 2), slab lo hi dp msg core n q
      = ∑ e : Fin 416, ∑ l : Fin 1024, if dp (flat (blk core e) l) = n then msg (flat (blk core e) l) q else 0 := by
    intro core
    unfold slab
    refine Finset.sum_congr rfl fun e _ => Finset.sum_congr rfl fun l _ => ?_
    exact chunk_terms n _ _ _ _ (hcover (blk core e) l)
  rw [hterm 0, hterm 1]
  have h832 : (∑ j : Fin 851968, if dp j = n then msg j q else 0)
      = ∑ g : Fin 832, ∑ l : Fin 1024, if dp (flat g l) = n then msg (flat g l) q else 0 :=
    Fin.sum_rowMajor2 832 1024 (fun j : Fin (832 * 1024) => if dp j = n then msg j q else 0)
  have h2 : (∑ g : Fin 832, ∑ l : Fin 1024, if dp (flat g l) = n then msg (flat g l) q else 0)
      = ∑ core : Fin 2, ∑ e : Fin 416, ∑ l : Fin 1024, if dp (flat (blk core e) l) = n then msg (flat (blk core e) l) q else 0 :=
    Fin.sum_rowMajor2 2 416 (fun g : Fin (2 * 416) => ∑ l : Fin 1024, if dp (flat g l) = n then msg (flat g l) q else 0)
  rw [h832, h2, Fin.sum_univ_two]

/-- The kernel's edge sum is the reference's: the padded sorted list is the edge list read through a permutation, with
    zero weights on the padding, so the sum over it of the messages that end in `n` is `agg`. -/
theorem sorted_sum_eq_agg {D : ℕ} (h : Fin 50000 → Fin D → EReal) (sr : Fin 850000 → Fin 50000) (ds : Fin 850000 → ℕ)
    (nr : Fin 850000 → EReal) (σ : Equiv.Perm (Fin 850000))
    (srp : Fin 851968 → Fin 50000) (dp : Fin 851968 → ℕ) (np : Fin 851968 → EReal)
    (hs : ∀ (j : Fin 851968) (hj : j.val < 850000),
      srp j = sr (σ ⟨j.val, hj⟩) ∧ dp j = ds (σ ⟨j.val, hj⟩) ∧ np j = nr (σ ⟨j.val, hj⟩))
    (hpad : ∀ j : Fin 851968, 850000 ≤ j.val → np j = 0) (n : Fin 50000) (q : Fin D) :
    (∑ j : Fin 851968, if dp j = n.val then h (srp j) q * np j else 0) = agg h sr ds nr n q := by
  unfold agg
  refine padded_sum (n := 850000) (p := 1968) (by norm_num) σ
    (fun j => if ds j = n.val then h (sr j) q * nr j else 0) _ ?_ ?_
  · intro j hj
    obtain ⟨e1, e2, e3⟩ := hs j hj
    rw [e1, e2, e3]
  · intro j hj
    rw [hpad j hj, mul_zero]
    split <;> rfl

end Cert.Spec

end
-- ==== Proof.KiMm0.lean ====
/- REGION 0 of @main at Ideal-or-Bits generic F: the first dense layer h = x @ W1 as a pipeline of 10 row blocks.
   The body's triple, the proof data at a parameter V (the TensorCore's buffers when the region is entered), the
   body obligation, and (second section, at Ideal) the value the region's write-backs leave. -/
import proofs.«425685_j80942953661103_3_alg».proof.Proof.Gen.KernelIdeal.Regions
import proofs.«425685_j80942953661103_3_alg».proof.Proof.Gen.KernelIdeal.Launch
import proofs.«425685_j80942953661103_3_alg».proof.Proof.Gen.KernelIdeal.Skeleton
import proofs.«425685_j80942953661103_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.Lib.StackMember
import Idealize.ShloMosaic.Lib.KernelVsHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (a block of 5000 rows of x): its current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole weight matrix, fetched at the first point only; its block index never moves): its
    staging buffer holds the block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S5000x96 := Rect.unit (s := S5000x96) ![0, 0] S5000x96.size inb_S5000x96_S5000x96_0_0
abbrev r0_1 : Rect S96x96 := Rect.unit (s := S96x96) ![0, 0] S96x96.size inb_S96x96_S96x96_0_0

/-! ## What the body leaves in the output window's buffer -/

/-- Window 2's staging buffer after the body, from the input windows' blocks: its one store as a piece. -/
def out0_2 (x0 : Vec F S5000x96 .f32) (x1 : Vec F S96x96 .f32) : Vec F S5000x96 .bf16 :=
  View.canon [⟨r0_0, k0_pay1 (View.ld x0 r0_0) (View.ld x1 r0_1)⟩]

/-- The store is of the whole buffer, so it covers it. -/
theorem cover0_2 (p0 : Vec F S5000x96 .bf16) (y : S5000x96.Idx) :
    ∃ pc ∈ ([⟨r0_0, p0⟩] : List (View.Piece (Elt F) S5000x96 .bf16)), y ∈ pc.1.set :=
  View.cover_of_tiled [⟨r0_0, p0⟩] S5000x96.size (by rfl) y

/-! ## The body's triple -/

set_option maxHeartbeats 1000000 in
/-- The kernel body on whole staging memrefs, the inputs' at read contents and the output's at anything, runs to the
    continuation holding the inputs' as they were and the output's at `out0_2` of the inputs'. -/
theorem sound_kernel0 (c : Dev nD) (E : Set ℕ) (i : grid0.Coords)
    (arg1 : Memref sig .tc .vmem S5000x96 .f32) (harg1 : arg1.IsWhole) (arg2 : Memref sig .tc .vmem S96x96 .f32) (harg2 : arg2.IsWhole)
    (arg3 : Memref sig .tc .vmem S5000x96 .bf16) (harg3 : arg3.IsWhole)
    (x0 : Vec F S5000x96 .f32) (x1 : Vec F S96x96 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the class invariant; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

/-! # The value of the region at the ideal values -/

section Value0
open Idealize.ShloMosaic.ValueIdx

variable (V : (c : Dev nD) → (b : Ref sig .tc) → Buf (Elt Ideal) ((c : Thread nD τ).loc b))

/-- The two arrays the region reads, as it finds them, at their literal types. -/
abbrev xa0 (c : Dev nD) : S50000x96.Idx → EReal := V c main_arg0
abbrev wa0 (c : Dev nD) : S96x96.Idx → EReal := V c main_arg2

/-- The two input blocks at a point, at their literal types. -/
abbrev xblk0 (c : Dev nD) (t : Fin cfg0.N) : Vec Ideal S5000x96 .f32 := iblk0 V c 0 t
abbrev wblk0 (c : Dev nD) (t : Fin cfg0.N) : Vec Ideal S96x96 .f32 := iblk0 V c 1 t

/-- The product of a 50000×96 matrix by a 96×96 matrix, entry by entry. -/
def mm0 (x : S50000x96.Idx → EReal) (w : S96x96.Idx → EReal) : S50000x96.Idx → EReal :=
  fun i => ∑ k : Fin 96, x (ix2 (n0 := 50000) (n1 := 96) (i 0) k) * w (ix2 (n0 := 96) (n1 := 96) k (i 1))

theorem hz0 : (![0, 0] : Fin 2 → Nat) = fun _ => 0 := funext fun a => by fin_cases a <;> rfl

/-- The body's payload at an entry: the conversions are the identity and the product into the zero accumulator is
    the plain sum over the contracted coordinate. -/
theorem pay0_apply (x0 : Vec Ideal S5000x96 .f32) (x1 : Vec Ideal S96x96 .f32) (p : Fin 5000) (q : Fin 96) :
    k0_pay1 (F := Ideal) x0 x1 (ix2 p q) = ∑ k : Fin 96, x0 (ix2 p k) * x1 (ix2 k q) := by
  unfold k0_pay1
  rw [ValueIdx.truncf_apply, matmul_zero_eq_dotGeneral]
  exact StackMember.dotGeneral_plain_apply (m := 5000) (n := 96) (k := 96) none _ _ p q

/-- The printed index maps over the grid: the row block moves with the point, the weight's block and every column
    block stay at 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the arrays as the region finds them. -/
theorem flushed0_eq (c : Dev nD) (t : Fin cfg0.N) :
    (dat0 (F := Ideal) V c).flushed 2 t = ((cfg0.win 2).blk t).view.read (Elt Ideal) (mm0 (xa0 V c) (wa0 V c)) := by
  show (cfg0.win 2).cut (grid0.coords t) ((dat0 (F := Ideal) V c).after 2 t) = _
  rw [after0_2]
  unfold out0_2
  rw [View.canon_unit_zero hz0]
  simp only [View.ld_unit_zero (S := S5000x96) hz0, View.ld_unit_zero (S := S96x96) hz0]
  obtain ⟨e0, e1, e2, e3, e4, e5⟩ := idx_facts0 t
  funext j
  obtain ⟨p, q, rfl⟩ : ∃ (p : Fin 5000) (q : Fin 96), j = ix2 p q := ⟨j 0, j 1, eq_ix2 j⟩
  refine (pay0_apply (xblk0 V c t) (wblk0 V c t) p q).trans ?_
  show ∑ k : Fin 96, xblk0 V c t (ix2 p k) * wblk0 V c t (ix2 k q)
    = ∑ k : Fin 96, xa0 V c (ix2 (n0 := 50000) (n1 := 96) ((((cfg0.win 2).blk t).view.emb (ix2 p q)) 0) k) * wa0 V c (ix2 (n0 := 96) (n1 := 96) k ((((cfg0.win 2).blk t).view.emb (ix2 p q)) 1))
  refine Finset.sum_congr rfl fun k _ => ?_
  show xa0 V c (((cfg0.win 0).blk t).view.emb (ix2 p k)) * wa0 V c (((cfg0.win 1).blk t).view.emb (ix2 k q))
    = xa0 V c (ix2 (n0 := 50000) (n1 := 96) ((((cfg0.win 2).blk t).view.emb (ix2 p q)) 0) k) * wa0 V c (ix2 (n0 := 96) (n1 := 96) k ((((cfg0.win 2).blk t).view.emb (ix2 p q)) 1))
  have h0 : ((cfg0.win 0).blk t).view.emb (ix2 p k) = ix2 (n0 := 50000) (n1 := 96) ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 96 + 1 * k.val = k.val; omega
  have h1 : ((cfg0.win 1).blk t).view.emb (ix2 k q) = ix2 (n0 := 96) (n1 := 96) k ((((cfg0.win 2).blk t).view.emb (ix2 p q)) 1) := by
    funext a; apply Fin.ext
    match a with
    | ⟨0, _⟩ => show win0_1.index t (0 : Fin 2) * 96 + 1 * k.val = k.val; omega
    | ⟨1, _⟩ => show win0_1.index t (1 : Fin 2) * 96 + 1 * q.val = win0_2.index t (1 : Fin 2) * 96 + 1 * q.val; omega
  rw [h0, h1]

/-- An index of the array is in point `t`'s block iff each coordinate is in the block's range on its axis. -/
theorem mem_blk0 (t : Fin cfg0.N) (i : S50000x96.Idx) :
    i ∈ ((cfg0.win 2).blk t).view.set ↔ ∀ a : Fin 2, win0_2.index t a * S5000x96.size a ≤ (i a).val ∧ (i a).val < win0_2.index t a * S5000x96.size a + S5000x96.size a := by
  show i ∈ ((View.whole main_v63).slice (win0_2.rect t)).set ↔ _
  rw [View.set_slice_whole, Rect.mem_set_unit]
  exact Iff.rfl

/-- Every row is in the block of the point that is its quotient by 5000. -/
theorem cover0 (i : S50000x96.Idx) : ∃ t : Fin cfg0.N, (cfg0.win 2).flush t = true ∧ i ∈ ((cfg0.win 2).blk t).view.set := by
  have hi0 : (i 0).val < 50000 := (i 0).isLt
  have hi1 : (i 1).val < 96 := (i 1).isLt
  let t : Fin cfg0.N := ⟨(i 0).val / 5000, by rw [show cfg0.N = 10 from N_0]; omega⟩
  obtain ⟨-, -, -, -, e4, e5⟩ := idx_facts0 t
  have e4' : win0_2.index t (0 : Fin 2) = (i 0).val / 5000 := e4
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 96 ≤ (i 1).val ∧ (i 1).val < win0_2.index t (1 : Fin 2) * 96 + 96; omega

/-- The array after the region's write-backs: the product of the arrays as the region finds them. -/
theorem final0 (c : Dev nD) : (dat0 (F := Ideal) V c).arrAt 2 cfg0.N = mm0 (xa0 V c) (wa0 V c) :=
  (dat0 (F := Ideal) V c).arrAt_eq_of_cover 2 (mm0 (xa0 V c) (wa0 V c)) (fun t _ => flushed0_eq V c t) cover0

/-- The same entry by entry. -/
theorem final0_apply (c : Dev nD) (r : Fin 50000) (q : Fin 96) :
    (dat0 (F := Ideal) V c).arrAt 2 cfg0.N (ix2 r q)
      = ∑ k : Fin 96, xa0 V c (ix2 r k) * wa0 V c (ix2 k q) := by
  rw [final0]; rfl

end Value0

end Cert.KernelIdeal.Hand

end
-- ==== Proof.KiMm2.lean ====
/- REGION 2 of @main at Ideal-or-Bits generic F: the second dense layer h2 = out1 @ W2 as a pipeline of 10 row blocks.
   The body's triple, the proof data at a parameter V (the TensorCore's buffers when the region is entered), the
   body obligation, and (second section, at Ideal) the value the region's write-backs leave. -/
import proofs.«425685_j80942953661103_3_alg».proof.Proof.Gen.KernelIdeal.Regions
import proofs.«425685_j80942953661103_3_alg».proof.Proof.Gen.KernelIdeal.Launch
import proofs.«425685_j80942953661103_3_alg».proof.Proof.Gen.KernelIdeal.Skeleton
import proofs.«425685_j80942953661103_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.Lib.StackMember
import Idealize.ShloMosaic.Lib.KernelVsHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (a block of 5000 rows of the first layer's output): its current staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the whole weight matrix, fetched at the first point only; its block index never moves): its
    staging buffer holds the block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x96 := Rect.unit (s := S5000x96) ![0, 0] S5000x96.size inb_S5000x96_S5000x96_0_0
abbrev r2_1 : Rect S96x48 := Rect.unit (s := S96x48) ![0, 0] S96x48.size inb_S96x48_S96x48_0_0
abbrev r2_2 : Rect S5000x48 := Rect.unit (s := S5000x48) ![0, 0] S5000x48.size inb_S5000x48_S5000x48_0_0

/-! ## What the body leaves in the output window's buffer -/

/-- Window 2's staging buffer after the body, from the input windows' blocks: its one store as a piece. -/
def out2_2 (x0 : Vec F S5000x96 .f32) (x1 : Vec F S96x48 .f32) : Vec F S5000x48 .bf16 :=
  View.canon [⟨r2_2, k2_pay1 (View.ld x0 r2_0) (View.ld x1 r2_1)⟩]

/-- The store is of the whole buffer, so it covers it. -/
theorem cover2_2 (p0 : Vec F S5000x48 .bf16) (y : S5000x48.Idx) :
    ∃ pc ∈ ([⟨r2_2, p0⟩] : List (View.Piece (Elt F) S5000x48 .bf16)), y ∈ pc.1.set :=
  View.cover_of_tiled [⟨r2_2, p0⟩] S5000x48.size (by rfl) y

/-! ## The body's triple -/

set_option maxHeartbeats 1000000 in
/-- The kernel body on whole staging memrefs, the inputs' at read contents and the output's at anything, runs to the
    continuation holding the inputs' as they were and the output's at `out2_2` of the inputs'. -/
theorem sound_kernel2 (c : Dev nD) (E : Set ℕ) (i : grid2.Coords)
    (arg1 : Memref sig .tc .vmem S5000x96 .f32) (harg1 : arg1.IsWhole) (arg2 : Memref sig .tc .vmem S96x48 .f32) (harg2 : arg2.IsWhole)
    (arg3 : Memref sig .tc .vmem S5000x48 .bf16) (harg3 : arg3.IsWhole)
    (x0 : Vec F S5000x96 .f32) (x1 : Vec F S96x48 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at point `t`
    each input's buffer at its block and the output's at `out2_2` of the input blocks; the class invariant; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

/-! # The value of the region at the ideal values -/

section Value2
open Idealize.ShloMosaic.ValueIdx

variable (V : (c : Dev nD) → (b : Ref sig .tc) → Buf (Elt Ideal) ((c : Thread nD τ).loc b))

/-- The two arrays the region reads, as it finds them, at their literal types. -/
abbrev xa2 (c : Dev nD) : S50000x96.Idx → EReal := V c main_v86
abbrev wa2 (c : Dev nD) : S96x48.Idx → EReal := V c main_arg4

/-- The two input blocks at a point, at their literal types. -/
abbrev xblk2 (c : Dev nD) (t : Fin cfg2.N) : Vec Ideal S5000x96 .f32 := iblk2 V c 0 t
abbrev wblk2 (c : Dev nD) (t : Fin cfg2.N) : Vec Ideal S96x48 .f32 := iblk2 V c 1 t

/-- The product of a 50000×96 matrix by a 96×48 matrix, entry by entry. -/
def mm2 (x : S50000x96.Idx → EReal) (w : S96x48.Idx → EReal) : S50000x48.Idx → EReal :=
  fun i => ∑ k : Fin 96, x (ix2 (n0 := 50000) (n1 := 96) (i 0) k) * w (ix2 (n0 := 96) (n1 := 48) k (i 1))

theorem hz2 : (![0, 0] : Fin 2 → Nat) = fun _ => 0 := funext fun a => by fin_cases a <;> rfl

/-- The body's payload at an entry: the conversions are the identity and the product into the zero accumulator is
    the plain sum over the contracted coordinate. -/
theorem pay2_apply (x0 : Vec Ideal S5000x96 .f32) (x1 : Vec Ideal S96x48 .f32) (p : Fin 5000) (q : Fin 48) :
    k2_pay1 (F := Ideal) x0 x1 (ix2 p q) = ∑ k : Fin 96, x0 (ix2 p k) * x1 (ix2 k q) := by
  unfold k2_pay1
  rw [ValueIdx.truncf_apply, matmul_zero_eq_dotGeneral]
  refine (StackMember.dotGeneral_plain_apply (m := 5000) (n := 48) (k := 96) none _ _ p q).trans ?_
  refine Finset.sum_congr rfl fun k _ => ?_
  rw [ValueIdx.truncf_apply, ValueIdx.truncf_apply, shapeCast_self]

/-- The printed index maps over the grid: the row block moves with the point, the weight's block and every column
    block stay at 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the arrays as the region finds them. -/
theorem flushed2_eq (c : Dev nD) (t : Fin cfg2.N) :
    (dat2 (F := Ideal) V c).flushed 2 t = ((cfg2.win 2).blk t).view.read (Elt Ideal) (mm2 (xa2 V c) (wa2 V c)) := by
  show (cfg2.win 2).cut (grid2.coords t) ((dat2 (F := Ideal) V c).after 2 t) = _
  rw [after2_2]
  unfold out2_2
  rw [View.canon_unit_zero hz2]
  simp only [View.ld_unit_zero (S := S5000x48) hz2, View.ld_unit_zero (S := S5000x96) hz2, View.ld_unit_zero (S := S96x48) hz2]
  obtain ⟨e0, e1, e2, e3, e4, e5⟩ := idx_facts2 t
  funext j
  obtain ⟨p, q, rfl⟩ : ∃ (p : Fin 5000) (q : Fin 48), j = ix2 p q := ⟨j 0, j 1, eq_ix2 j⟩
  refine (pay2_apply (xblk2 V c t) (wblk2 V c t) p q).trans ?_
  show ∑ k : Fin 96, xblk2 V c t (ix2 p k) * wblk2 V c t (ix2 k q)
    = ∑ k : Fin 96, xa2 V c (ix2 (n0 := 50000) (n1 := 96) ((((cfg2.win 2).blk t).view.emb (ix2 p q)) 0) k) * wa2 V c (ix2 (n0 := 96) (n1 := 48) k ((((cfg2.win 2).blk t).view.emb (ix2 p q)) 1))
  refine Finset.sum_congr rfl fun k _ => ?_
  show xa2 V c (((cfg2.win 0).blk t).view.emb (ix2 p k)) * wa2 V c (((cfg2.win 1).blk t).view.emb (ix2 k q))
    = xa2 V c (ix2 (n0 := 50000) (n1 := 96) ((((cfg2.win 2).blk t).view.emb (ix2 p q)) 0) k) * wa2 V c (ix2 (n0 := 96) (n1 := 48) k ((((cfg2.win 2).blk t).view.emb (ix2 p q)) 1))
  have h0 : ((cfg2.win 0).blk t).view.emb (ix2 p k) = ix2 (n0 := 50000) (n1 := 96) ((((cfg2.win 2).blk t).view.emb (ix2 p q)) 0) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 96 + 1 * k.val = k.val; omega
  have h1 : ((cfg2.win 1).blk t).view.emb (ix2 k q) = ix2 (n0 := 96) (n1 := 48) k ((((cfg2.win 2).blk t).view.emb (ix2 p q)) 1) := by
    funext a; apply Fin.ext
    match a with
    | ⟨0, _⟩ => show win2_1.index t (0 : Fin 2) * 96 + 1 * k.val = k.val; omega
    | ⟨1, _⟩ => show win2_1.index t (1 : Fin 2) * 48 + 1 * q.val = win2_2.index t (1 : Fin 2) * 48 + 1 * q.val; omega
  rw [h0, h1]

/-- An index of the array is in point `t`'s block iff each coordinate is in the block's range on its axis. -/
theorem mem_blk2 (t : Fin cfg2.N) (i : S50000x48.Idx) :
    i ∈ ((cfg2.win 2).blk t).view.set ↔ ∀ a : Fin 2, win2_2.index t a * S5000x48.size a ≤ (i a).val ∧ (i a).val < win2_2.index t a * S5000x48.size a + S5000x48.size a := by
  show i ∈ ((View.whole main_v87).slice (win2_2.rect t)).set ↔ _
  rw [View.set_slice_whole, Rect.mem_set_unit]
  exact Iff.rfl

/-- Every row is in the block of the point that is its quotient by 5000. -/
theorem cover2 (i : S50000x48.Idx) : ∃ t : Fin cfg2.N, (cfg2.win 2).flush t = true ∧ i ∈ ((cfg2.win 2).blk t).view.set := by
  have hi0 : (i 0).val < 50000 := (i 0).isLt
  have hi1 : (i 1).val < 48 := (i 1).isLt
  let t : Fin cfg2.N := ⟨(i 0).val / 5000, by rw [show cfg2.N = 10 from N_2]; omega⟩
  obtain ⟨-, -, -, -, e4, e5⟩ := idx_facts2 t
  have e4' : win2_2.index t (0 : Fin 2) = (i 0).val / 5000 := e4
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 48 ≤ (i 1).val ∧ (i 1).val < win2_2.index t (1 : Fin 2) * 48 + 48; omega

/-- The array after the region's write-backs: the product of the arrays as the region finds them. -/
theorem final2 (c : Dev nD) : (dat2 (F := Ideal) V c).arrAt 2 cfg2.N = mm2 (xa2 V c) (wa2 V c) :=
  (dat2 (F := Ideal) V c).arrAt_eq_of_cover 2 (mm2 (xa2 V c) (wa2 V c)) (fun t _ => flushed2_eq V c t) cover2

/-- The same entry by entry. -/
theorem final2_apply (c : Dev nD) (r : Fin 50000) (q : Fin 48) :
    (dat2 (F := Ideal) V c).arrAt 2 cfg2.N (ix2 r q)
      = ∑ k : Fin 96, xa2 V c (ix2 r k) * wa2 V c (ix2 k q) := by
  rw [final2]; rfl

end Value2

end Cert.KernelIdeal.Hand

end
-- ==== Proof.KiSc1.lean ====
/- REGION 1 of @main (custom_call 1, `cc1__scatter_kernel`): the body's half of the frame certificate at ANY
   admissible contents `a` of the two prefetched tables, and the value the region leaves at Ideal.
   What the kernel's slab holds after each grid point is one pure function (`step1`) of the two table words at
   the point, the point's blocks of the destination indices and of the messages, and the slab before the point;
   the slab after point `t` is that function iterated from the first point of the core (`outsAt1`). -/
import proofs.«425685_j80942953661103_3_alg».proof.Proof.Gen.KernelIdeal.Launch
import proofs.«425685_j80942953661103_3_alg».proof.Proof.Gen.KernelIdeal.Skeleton
import proofs.«425685_j80942953661103_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 1: custom_call 1, `cc1__scatter_kernel` (pipeline 1), at table contents `a` and entry contents `V` -/

/-! ## The schedule of the slab's window -/

/-- Window 2 (the slab) is written back at the last point of each core, at any contents of the tables. -/
theorem flush1_2 (a : (pcfg1 (F := F)).Adm) : ∀ t : Fin (cfg1 a).N, ((cfg1 a).win 2).flush t = true ↔ t.val % 416 = 415 :=
  (by decide +kernel : ∀ t : Fin grid1.N, Pipeline.Window.flushOf grid1 true cc1_transform_2 t = true ↔ t.val % 416 = 415)

/-- The current staging memref of each window at point `t`. -/
abbrev st1_0 (a : (pcfg1 (F := F)).Adm) (t : Fin (cfg1 a).N) : Memref sig .tc .vmem S1024 .i32 := spec1_0.stage ((cfg1 a).slots t 0)
abbrev hst1_0 (a : (pcfg1 (F := F)).Adm) (t : Fin (cfg1 a).N) : (st1_0 a t).IsWhole := hstage1_0 (((cfg1 a).slots t 0).cast nbuf1_0)
abbrev st1_1 (a : (pcfg1 (F := F)).Adm) (t : Fin (cfg1 a).N) : Memref sig .tc .vmem S1024x96 .bf16 := spec1_1.stage ((cfg1 a).slots t 1)
abbrev hst1_1 (a : (pcfg1 (F := F)).Adm) (t : Fin (cfg1 a).N) : (st1_1 a t).IsWhole := hstage1_1 (((cfg1 a).slots t 1).cast nbuf1_1)
abbrev st1_2 (a : (pcfg1 (F := F)).Adm) (t : Fin (cfg1 a).N) : Memref sig .tc .vmem S1x50176x96 .f32 := spec1_2.stage ((cfg1 a).slots t 2)
abbrev hst1_2 (a : (pcfg1 (F := F)).Adm) (t : Fin (cfg1 a).N) : (st1_2 a t).IsWhole := hstage1_2 (((cfg1 a).slots t 2).cast nbuf1_2)

/-- The two tables as the body is handed them: their whole buffers as memrefs. -/
abbrev tbM1_0 : Memref sig .tc .smem S832 .i32 := Memref.whole main_v61
abbrev htbM1_0 : tbM1_0.IsWhole := Memref.isWhole_whole _
abbrev tbM1_1 : Memref sig .tc .smem S832 .i32 := Memref.whole main_v62
abbrev htbM1_1 : tbM1_1.IsWhole := Memref.isWhole_whole _

/-- The kernel body at point `t`, on what the pipeline calls it with (`defs₀`'s row at the slots). -/
abbrev bodyAt1 (a : (pcfg1 (F := F)).Adm) (t : Fin (cfg1 a).N) : Prog (TpuEff nD τ sig (Elt F) Λ₀ .tc) PUnit :=
  cc1__scatter_kernel (grid1.coords t) tbM1_0 htbM1_0 tbM1_1 htbM1_1 (st1_0 a t) (hst1_0 a t) (st1_1 a t) (hst1_1 a t) (st1_2 a t) (hst1_2 a t)

/-- A table memref's buffer on core `c`: its contents type, and it held whole at `f` (the region hands the body the
    tables at the full share; the body only loads from them). -/
abbrev TbBuf1 (c : Dev nD) {S : Shape} {e : EltTy} (M : Memref sig .tc .smem S e) : Type := Buf (Elt F) (M.view.loc (c : Thread nD τ))
abbrev tbPt1 (c : Dev nD) {S : Shape} {e : EltTy} (M : Memref sig .tc .smem S e) (f : TbBuf1 (F := F) c M) : sProp 𝕄 :=
  M.view.loc (c : Thread nD τ) ↦{fullShare} f

/-- The tables the region hands the body, table by table. -/
theorem prefHeld1_eq (a : (pcfg1 (F := F)).Adm) (c : Dev nD) :
    (Pipeline.prefHeld (Ix := Unit) (Name := ℕ) (U := UR sig nD τ) (Lvl := ℕ) pre1 c (fun _ => fullShare) a.1 : sProp 𝕄)
      = iprop(tbPt1 c tbM1_0 (a.1 0) ∗ tbPt1 c tbM1_1 (a.1 1)) := by
  unfold Pipeline.prefHeld
  rw [show (Finset.univ : Finset (Fin 2)) = insert (0 : Fin 2) {(1 : Fin 2)} from by decide,
    bigSep_insert (by decide), bigSep_singleton]
  rfl

/-- The word a scalar load at the point's offset reads of a table's contents. -/
abbrev word1 (c : Dev nD) (i : grid1.Coords) (M : Memref sig .tc .smem S832 .i32) (f : TbBuf1 (F := F) c M) : Elt F .i32 :=
  M.view.readAt (Elt F) (Rect.unit (s := S832) (k1_off1 i) S1.size (k1_off1_inb i)).toLoadRect f (Shape.Idx.first (numel1_S1.symm ▸ Nat.one_pos))

/-! ## The body's branch conditions -/

/-- The condition of the body's first `scf.if` (`k1_h1`), from the grid coordinates. -/
abbrev cond1_1 (i : grid1.Coords) : Prop := (Scalar.cmpi .ne (Scalar.extui (Scalar.cmpi .eq (BitVec.ofNat 32 (i 1).val) 0#32)) 0#32) = 1#1
/-- It holds at the first point of each core only — decided over the grid. -/
theorem hcond1_1 (a : (pcfg1 (F := F)).Adm) : ∀ t : Fin (cfg1 a).N, cond1_1 (grid1.coords t) ↔ t.val % 416 = 0 :=
  (by decide +kernel : ∀ t : Fin grid1.N, cond1_1 (grid1.coords t) ↔ t.val % 416 = 0)

/-! ## The body's accesses of the slab -/

abbrev r1_all : Rect S1x50176x96 := Rect.unit (s := S1x50176x96) ![0, 0, 0] S1x50176x96.size inb_S1x50176x96_S1x50176x96_0_0_0
abbrev r1_lo (v6 : BitVec 32) (hw1 : k1_chk1 v6) : Rect S1x50176x96 :=
  Rect.unit (s := S1x50176x96) (k1_off2 v6) S1x1024x96.size (k1_off2_inb v6 hw1)
abbrev r1_hi (v6 v8 : BitVec 32) (hw2 : k1_chk2 v6 v8) (h2 : k1_cond2 v6 v8 = 1#1) : Rect S1x50176x96 :=
  Rect.unit (s := S1x50176x96) (k1_off3 v8) S1x1024x96.size (k1_off3_inb v6 v8 hw2 h2)

abbrev r1_d : Rect S1024 := Rect.unit (s := S1024) ![0] S1024.size inb_S1024_S1024_0
abbrev r1_m : Rect S1024x96 := Rect.unit (s := S1024x96) ![0, 0] S1024x96.size inb_S1024x96_S1024x96_0_0

/-! ## What the body leaves in the slab's buffer -/

/-- What a buffer reads after a last write through `r`: what it read before with `r`'s part replaced by the payload. -/
theorem read_writes_cons_overlay {sig : RefSig} {κ : Kind} {sp : Space} {s : Shape} {e : EltTy} {Val : EltTy → Type}
    (v : View sig κ sp s e) (f : v.ty.Contents Val) (r : Rect s) (w : r.shape.Idx → Val e) (L : List (View.Piece Val s e)) :
    v.read Val (v.writes Val f ((⟨r, w⟩ : View.Piece Val s e) :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy]

/-- A write through the whole-shape rectangle at zero offsets replaces everything. -/
theorem overlay_unit_zero {S : Shape} {α : Type} {off : Fin S.rank → Nat} (h : off = fun _ => 0)
    (inb : ∀ a, off a + S.size a ≤ S.size a) (Y : S.Idx → α) (w : S.Idx → α) :
    (Rect.unit off S.size inb).overlay Y w = w := by
  subst h; funext y
  have e := Rect.overlay_emb (Rect.whole S) Y w y
  rw [Rect.emb_whole_apply] at e
  exact e

/-- The slab with the 1024-row chunk at the first word's offset replaced by that chunk plus the one-hot product of the
    destination indices against the chunk's rows, times the messages. -/
def stepLo1 (v6 : BitVec 32) (hw1 : k1_chk1 v6) (x0 : Vec F S1024 .i32) (x1 : Vec F S1024x96 .bf16)
    (X : Vec F S1x50176x96 .f32) : Vec F S1x50176x96 .f32 :=
  (r1_lo v6 hw1).overlay X (k1_pay4 v6 (View.ld x0 r1_d) (View.ld x1 r1_m) (View.ld X (r1_lo v6 hw1)))

/-- The same at the second word's offset, when the two words differ; else nothing. -/
def stepHi1 (v6 v8 : BitVec 32) (hw2 : k1_chk2 v6 v8) (x0 : Vec F S1024 .i32) (x1 : Vec F S1024x96 .bf16)
    (X : Vec F S1x50176x96 .f32) : Vec F S1x50176x96 .f32 :=
  if h2 : k1_cond2 v6 v8 = 1#1 then
    (r1_hi v6 v8 hw2 h2).overlay X (k1_pay5 v8 (View.ld x0 r1_d) (View.ld x1 r1_m) (View.ld X (r1_hi v6 v8 hw2 h2)))
  else X

/-- THE STEP. The slab after the body at a point: zeroed first at the first point of a core, then the chunk at the
    first word's offset updated, then (the words differing) the chunk at the second word's. -/
def step1 (i : grid1.Coords) (v6 v8 : BitVec 32) (hw1 : k1_chk1 v6) (hw2 : k1_chk2 v6 v8)
    (x0 : Vec F S1024 .i32) (x1 : Vec F S1024x96 .bf16) (prev : Vec F S1x50176x96 .f32) : Vec F S1x50176x96 .f32 :=
  stepHi1 v6 v8 hw2 x0 x1 (stepLo1 v6 hw1 x0 x1 (if cond1_1 i then (k1_pay1 (F := F)) else prev))

/-- A write through the slab's whole rectangle replaces everything. -/
theorem overlay_all1 {α : Type} (Y : S1x50176x96.Idx → α) (w : S1x50176x96.Idx → α) : r1_all.overlay Y w = w :=
  overlay_unit_zero (by funext a; fin_cases a <;> rfl) _ Y w

/-! ## The body's triple, case by case -/

set_option maxHeartbeats 4000000 in
/-- The kernel body on whole staging memrefs at the first point of a core (the slab's buffer at anything: the body zeroes it first), the two words different: it runs to the
    continuation holding the inputs' and the tables' buffers as they were and the slab's at `step1` of them. -/
theorem sound_kernel1_A (c : Dev nD) (i : grid1.Coords)
    (arg4 : Memref sig .tc .vmem S1024 .i32) (harg4 : arg4.IsWhole) (arg5 : Memref sig .tc .vmem S1024x96 .bf16) (harg5 : arg5.IsWhole)
    (arg6 : Memref sig .tc .vmem S1x50176x96 .f32) (harg6 : arg6.IsWhole)
    (hc1 : cond1_1 i)
    (x0 : Vec F S1024 .i32) (x1 : Vec F S1024x96 .bf16) (xo : Vec F S1x50176x96 .f32)
    (xt0 : TbBuf1 (F := F) c tbM1_0) (xt1 : TbBuf1 (F := F) c tbM1_1)
    (hw1 : k1_chk1 (word1 c i tbM1_0 xt0)) (hw2 : k1_chk2 (word1 c i tbM1_0 xt0) (word1 c i tbM1_1 xt1))
    (hc2 : k1_cond2 (word1 c i tbM1_0 xt0) (word1 c i tbM1_1 xt1) = 1#1) (E : Set ℕ) (K : PUnit → sProp 𝕄) :
    iprop(owns (c : Thread nD τ) arg4 fullShare x0 ∗ owns (c : Thread nD τ) arg5 fullShare x1 ∗ (∃ d, owns (c : Thread nD τ) arg6 fullShare d)
        ∗ tbPt1 c tbM1_0 xt0 ∗ tbPt1 c tbM1_1 xt1
        ∗ (iprop(owns (c : Thread nD τ) arg4 fullShare x0 ∗ owns (c : Thread nD τ) arg5 fullShare x1
            ∗ owns (c : Thread nD τ) arg6 fullShare (step1 i (word1 c i tbM1_0 xt0) (word1 c i tbM1_1 xt1) hw1 hw2 x0 x1 xo)
            ∗ tbPt1 c tbM1_0 xt0 ∗ tbPt1 c tbM1_1 xt1) -∗ K ⟨⟩))
      ⊢ wp frame (wpE (defs₀ (F := F)) Variants.none c none) E (cc1__scatter_kernel i tbM1_0 htbM1_0 tbM1_1 htbM1_1 arg4 harg4 arg5 harg5 arg6 harg6) K := by
  simp only [cc1__scatter_kernel_eq_skeleton]; unfold cc1__scatter_kernel_skel
  unfold owns
  iintro ⟨⟨%f0, %hf0, H0⟩, ⟨%f1, %hf1, H1⟩, ⟨%d2, %f2, -, H2⟩, HT0, HT1, Hk⟩
  obtain rfl := harg4.eq_unread hf0; obtain rfl := harg5.eq_unread hf1
  sl_exec (disch := first | exact hc1 | exact hc2 | sl_exact hw1 | sl_exact hw2)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    repeat (first | unfold sound_kernel1_A.sl.v49 | unfold sound_kernel1_A.sl.v26 | unfold sound_kernel1_A.sl.H2_1 | unfold sound_kernel1_A.sl.H2_2 | unfold sound_kernel1_A.sl.H2_3 | unfold sound_kernel1_A.sl.r_1 | unfold sound_kernel1_A.sl.r)
    simp only [read_writes_cons_overlay, View.writes_nil, View.readAt_eq_ld, View.readCov_eq_canon', View.canon_cons, overlay_all1, hf0, hf1]
    unfold step1 stepHi1 stepLo1
    rw [dif_pos hc2, if_pos hc1]
    rw [overlay_all1]
    rfl
  isplitl [HT0]; · iexact HT0
  iexact HT1

set_option maxHeartbeats 4000000 in
/-- The kernel body on whole staging memrefs at the first point of a core (the slab's buffer at anything: the body zeroes it first), the two words equal: it runs to the
    continuation holding the inputs' and the tables' buffers as they were and the slab's at `step1` of them. -/
theorem sound_kernel1_B (c : Dev nD) (i : grid1.Coords)
    (arg4 : Memref sig .tc .vmem S1024 .i32) (harg4 : arg4.IsWhole) (arg5 : Memref sig .tc .vmem S1024x96 .bf16) (harg5 : arg5.IsWhole)
    (arg6 : Memref sig .tc .vmem S1x50176x96 .f32) (harg6 : arg6.IsWhole)
    (hc1 : cond1_1 i)
    (x0 : Vec F S1024 .i32) (x1 : Vec F S1024x96 .bf16) (xo : Vec F S1x50176x96 .f32)
    (xt0 : TbBuf1 (F := F) c tbM1_0) (xt1 : TbBuf1 (F := F) c tbM1_1)
    (hw1 : k1_chk1 (word1 c i tbM1_0 xt0)) (hw2 : k1_chk2 (word1 c i tbM1_0 xt0) (word1 c i tbM1_1 xt1))
    (hc2 : ¬k1_cond2 (word1 c i tbM1_0 xt0) (word1 c i tbM1_1 xt1) = 1#1) (E : Set ℕ) (K : PUnit → sProp 𝕄) :
    iprop(owns (c : Thread nD τ) arg4 fullShare x0 ∗ owns (c : Thread nD τ) arg5 fullShare x1 ∗ (∃ d, owns (c : Thread nD τ) arg6 fullShare d)
        ∗ tbPt1 c tbM1_0 xt0 ∗ tbPt1 c tbM1_1 xt1
        ∗ (iprop(owns (c : Thread nD τ) arg4 fullShare x0 ∗ owns (c : Thread nD τ) arg5 fullShare x1
            ∗ owns (c : Thread nD τ) arg6 fullShare (step1 i (word1 c i tbM1_0 xt0) (word1 c i tbM1_1 xt1) hw1 hw2 x0 x1 xo)
            ∗ tbPt1 c tbM1_0 xt0 ∗ tbPt1 c tbM1_1 xt1) -∗ K ⟨⟩))
      ⊢ wp frame (wpE (defs₀ (F := F)) Variants.none c none) E (cc1__scatter_kernel i tbM1_0 htbM1_0 tbM1_1 htbM1_1 arg4 harg4 arg5 harg5 arg6 harg6) K := by
  simp only [cc1__scatter_kernel_eq_skeleton]; unfold cc1__scatter_kernel_skel
  unfold owns
  iintro ⟨⟨%f0, %hf0, H0⟩, ⟨%f1, %hf1, H1⟩, ⟨%d2, %f2, -, H2⟩, HT0, HT1, Hk⟩
  obtain rfl := harg4.eq_unread hf0; obtain rfl := harg5.eq_unread hf1
  sl_exec (disch := first | exact hc1 | exact hc2 | sl_exact hw1 | sl_exact hw2)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    repeat (first | unfold sound_kernel1_B.sl.v49 | unfold sound_kernel1_B.sl.v26 | unfold sound_kernel1_B.sl.H2_1 | unfold sound_kernel1_B.sl.H2_2 | unfold sound_kernel1_B.sl.H2_3 | unfold sound_kernel1_B.sl.r_1 | unfold sound_kernel1_B.sl.r)
    simp only [read_writes_cons_overlay, View.writes_nil, View.readAt_eq_ld, View.readCov_eq_canon', View.canon_cons, overlay_all1, hf0, hf1]
    unfold step1 stepHi1 stepLo1
    rw [dif_neg hc2, if_pos hc1]
    rw [overlay_all1]
    rfl
  isplitl [HT0]; · iexact HT0
  iexact HT1

set_option maxHeartbeats 4000000 in
/-- The kernel body on whole staging memrefs after the first point of a core (the slab's buffer at its running contents `xo`), the two words different: it runs to the
    continuation holding the inputs' and the tables' buffers as they were and the slab's at `step1` of them. -/
theorem sound_kernel1_C (c : Dev nD) (i : grid1.Coords)
    (arg4 : Memref sig .tc .vmem S1024 .i32) (harg4 : arg4.IsWhole) (arg5 : Memref sig .tc .vmem S1024x96 .bf16) (harg5 : arg5.IsWhole)
    (arg6 : Memref sig .tc .vmem S1x50176x96 .f32) (harg6 : arg6.IsWhole)
    (hc1 : ¬cond1_1 i)
    (x0 : Vec F S1024 .i32) (x1 : Vec F S1024x96 .bf16) (xo : Vec F S1x50176x96 .f32)
    (xt0 : TbBuf1 (F := F) c tbM1_0) (xt1 : TbBuf1 (F := F) c tbM1_1)
    (hw1 : k1_chk1 (word1 c i tbM1_0 xt0)) (hw2 : k1_chk2 (word1 c i tbM1_0 xt0) (word1 c i tbM1_1 xt1))
    (hc2 : k1_cond2 (word1 c i tbM1_0 xt0) (word1 c i tbM1_1 xt1) = 1#1) (E : Set ℕ) (K : PUnit → sProp 𝕄) :
    iprop(owns (c : Thread nD τ) arg4 fullShare x0 ∗ owns (c : Thread nD τ) arg5 fullShare x1 ∗ owns (c : Thread nD τ) arg6 fullShare xo
        ∗ tbPt1 c tbM1_0 xt0 ∗ tbPt1 c tbM1_1 xt1
        ∗ (iprop(owns (c : Thread nD τ) arg4 fullShare x0 ∗ owns (c : Thread nD τ) arg5 fullShare x1
            ∗ owns (c : Thread nD τ) arg6 fullShare (step1 i (word1 c i tbM1_0 xt0) (word1 c i tbM1_1 xt1) hw1 hw2 x0 x1 xo)
            ∗ tbPt1 c tbM1_0 xt0 ∗ tbPt1 c tbM1_1 xt1) -∗ K ⟨⟩))
      ⊢ wp frame (wpE (defs₀ (F := F)) Variants.none c none) E (cc1__scatter_kernel i tbM1_0 htbM1_0 tbM1_1 htbM1_1 arg4 harg4 arg5 harg5 arg6 harg6) K := by
  simp only [cc1__scatter_kernel_eq_skeleton]; unfold cc1__scatter_kernel_skel
  unfold owns
  iintro ⟨⟨%f0, %hf0, H0⟩, ⟨%f1, %hf1, H1⟩, ⟨%f2, %hf2, H2⟩, HT0, HT1, Hk⟩
  obtain rfl := harg4.eq_unread hf0; obtain rfl := harg5.eq_unread hf1; obtain rfl := harg6.eq_unread hf2
  sl_exec (disch := first | exact hc1 | exact hc2 | sl_exact hw1 | sl_exact hw2)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    repeat (first | unfold sound_kernel1_C.sl.v49 | unfold sound_kernel1_C.sl.v26 | unfold sound_kernel1_C.sl.H2_1 | unfold sound_kernel1_C.sl.H2_2 | unfold sound_kernel1_C.sl.H2_3 | unfold sound_kernel1_C.sl.r_1 | unfold sound_kernel1_C.sl.r)
    simp only [read_writes_cons_overlay, View.writes_nil, View.readAt_eq_ld, View.readCov_eq_canon', View.canon_cons, overlay_all1, hf0, hf1, hf2]
    unfold step1 stepHi1 stepLo1
    rw [dif_pos hc2, if_neg hc1]
    rfl
  isplitl [HT0]; · iexact HT0
  iexact HT1

set_option maxHeartbeats 4000000 in
/-- The kernel body on whole staging memrefs after the first point of a core (the slab's buffer at its running contents `xo`), the two words equal: it runs to the
    continuation holding the inputs' and the tables' buffers as they were and the slab's at `step1` of them. -/
theorem sound_kernel1_D (c : Dev nD) (i : grid1.Coords)
    (arg4 : Memref sig .tc .vmem S1024 .i32) (harg4 : arg4.IsWhole) (arg5 : Memref sig .tc .vmem S1024x96 .bf16) (harg5 : arg5.IsWhole)
    (arg6 : Memref sig .tc .vmem S1x50176x96 .f32) (harg6 : arg6.IsWhole)
    (hc1 : ¬cond1_1 i)
    (x0 : Vec F S1024 .i32) (x1 : Vec F S1024x96 .bf16) (xo : Vec F S1x50176x96 .f32)
    (xt0 : TbBuf1 (F := F) c tbM1_0) (xt1 : TbBuf1 (F := F) c tbM1_1)
    (hw1 : k1_chk1 (word1 c i tbM1_0 xt0)) (hw2 : k1_chk2 (word1 c i tbM1_0 xt0) (word1 c i tbM1_1 xt1))
    (hc2 : ¬k1_cond2 (word1 c i tbM1_0 xt0) (word1 c i tbM1_1 xt1) = 1#1) (E : Set ℕ) (K : PUnit → sProp 𝕄) :
    iprop(owns (c : Thread nD τ) arg4 fullShare x0 ∗ owns (c : Thread nD τ) arg5 fullShare x1 ∗ owns (c : Thread nD τ) arg6 fullShare xo
        ∗ tbPt1 c tbM1_0 xt0 ∗ tbPt1 c tbM1_1 xt1
        ∗ (iprop(owns (c : Thread nD τ) arg4 fullShare x0 ∗ owns (c : Thread nD τ) arg5 fullShare x1
            ∗ owns (c : Thread nD τ) arg6 fullShare (step1 i (word1 c i tbM1_0 xt0) (word1 c i tbM1_1 xt1) hw1 hw2 x0 x1 xo)
            ∗ tbPt1 c tbM1_0 xt0 ∗ tbPt1 c tbM1_1 xt1) -∗ K ⟨⟩))
      ⊢ wp frame (wpE (defs₀ (F := F)) Variants.none c none) E (cc1__scatter_kernel i tbM1_0 htbM1_0 tbM1_1 htbM1_1 arg4 harg4 arg5 harg5 arg6 harg6) K := by
  simp only [cc1__scatter_kernel_eq_skeleton]; unfold cc1__scatter_kernel_skel
  unfold owns
  iintro ⟨⟨%f0, %hf0, H0⟩, ⟨%f1, %hf1, H1⟩, ⟨%f2, %hf2, H2⟩, HT0, HT1, Hk⟩
  obtain rfl := harg4.eq_unread hf0; obtain rfl := harg5.eq_unread hf1; obtain rfl := harg6.eq_unread hf2
  sl_exec (disch := first | exact hc1 | exact hc2 | sl_exact hw1 | sl_exact hw2)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    repeat (first | unfold sound_kernel1_D.sl.v49 | unfold sound_kernel1_D.sl.v26 | unfold sound_kernel1_D.sl.H2_1 | unfold sound_kernel1_D.sl.H2_2 | unfold sound_kernel1_D.sl.H2_3 | unfold sound_kernel1_D.sl.r_1 | unfold sound_kernel1_D.sl.r)
    simp only [read_writes_cons_overlay, View.writes_nil, View.readAt_eq_ld, View.readCov_eq_canon', View.canon_cons, overlay_all1, hf0, hf1, hf2]
    unfold step1 stepHi1 stepLo1
    rw [dif_neg hc2, if_neg hc1]
    rfl
  isplitl [HT0]; · iexact HT0
  iexact HT1

/-! ## The side conditions the body assumes of the table words -/

/-- The words the body loads from the two tables at every point satisfy the side conditions it assumes of them
    (each chunk offset is a multiple of 1024 and the chunk lies inside the slab). -/
def Chk1 (a : (pcfg1 (F := F)).Adm) : Prop :=
  ∀ (c : Dev nD) (t : Fin (cfg1 a).N),
    k1_chk1 (word1 c (grid1.coords t) tbM1_0 (a.1 0))
      ∧ k1_chk2 (word1 c (grid1.coords t) tbM1_0 (a.1 0)) (word1 c (grid1.coords t) tbM1_1 (a.1 1))

section Region

variable (a : (pcfg1 (F := F)).Adm) (hchk : Chk1 a)
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- Input window 0's current staging buffer holds its block at every point, fetched there or not. -/
theorem before1_0_of {c : Dev nD} (dat : Dat τ (Elt F) Unit ℕ (UR sig nD τ) ℕ (cfg1 a) c) (hA : dat.A 0 = V c (Pipeline.arrRef spec1 0))
    (hafter : ∀ t, dat.after 0 t = iblk1 a V c 0 t) (t : Fin (cfg1 a).N) (d) : dat.before 0 t d = iblk1 a V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ (cfg1 a) c) (hA : dat.A 1 = V c (Pipeline.arrRef spec1 1))
    (hafter : ∀ t, dat.after 1 t = iblk1 a V c 1 t) (t : Fin (cfg1 a).N) (d) : dat.before 1 t d = iblk1 a V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the slab's buffer holds after each point -/

/-- The step at point `t`: `step1` at the point's coordinates, table words and input blocks. -/
def stepAt1 (c : Dev nD) (t : Fin (cfg1 a).N) (prev : Vec F S1x50176x96 .f32) : Vec F S1x50176x96 .f32 :=
  step1 (grid1.coords t) (word1 c (grid1.coords t) tbM1_0 (a.1 0)) (word1 c (grid1.coords t) tbM1_1 (a.1 1))
    (hchk c t).1 (hchk c t).2 (iblk1 a V c 0 t) (iblk1 a V c 1 t) prev

/-- At the first point of a core the step does not read the slab it finds. -/
theorem stepAt1_reset (c : Dev nD) (t : Fin (cfg1 a).N) (h0 : t.val % 416 = 0) (prev prev' : Vec F S1x50176x96 .f32) :
    stepAt1 a hchk V c t prev = stepAt1 a hchk V c t prev' := by
  unfold stepAt1 step1
  rw [if_pos ((hcond1_1 a t).mpr h0), if_pos ((hcond1_1 a t).mpr h0)]

/-- THE ACCUMULATION. What the slab's staging buffer holds after the body at position `n`: the step at `n` of what
    it held after `n - 1` (the buffer is not written back between; at the first point of a core the step zeroes it). -/
def outsAt1 (c : Dev nD) : (n : ℕ) → n < (cfg1 a).N → Vec F S1x50176x96 .f32
  | 0, hn => stepAt1 a hchk V c ⟨0, hn⟩ (k1_pay1 (F := F))
  | n + 1, hn => stepAt1 a hchk V c ⟨n + 1, hn⟩ (outsAt1 c n (Nat.lt_of_succ_lt hn))

/-- `outsAt1` at a later point: the step over what the point before left. -/
theorem outsAt1_pos (c : Dev nD) (t : Fin (cfg1 a).N) (h0 : t.val ≠ 0) :
    outsAt1 a hchk V c t.val t.isLt
      = stepAt1 a hchk V c t (outsAt1 a hchk V c (t.val - 1) (Nat.lt_of_le_of_lt (Nat.sub_le _ _) t.isLt)) := by
  obtain ⟨n, hn⟩ := t
  cases n with
  | zero => exact absurd rfl h0
  | succ n => rfl

/-- `outsAt1` at the first point of a core: the step over anything. -/
theorem outsAt1_reset (c : Dev nD) (t : Fin (cfg1 a).N) (h0 : t.val % 416 = 0) (prev : Vec F S1x50176x96 .f32) :
    outsAt1 a hchk V c t.val t.isLt = stepAt1 a hchk V c t prev := by
  obtain ⟨n, hn⟩ := t
  cases n with
  | zero => exact stepAt1_reset a hchk V c ⟨0, hn⟩ h0 _ _
  | succ n => exact stepAt1_reset a hchk V c ⟨n + 1, hn⟩ h0 _ _

/-! ## The pipeline's proof data -/

/-- The proof data of pipeline 1 on core `c`: the arrays as the region finds them (`V`); after the body at point `t`
    each input's buffer at its block and the slab's at `outsAt1`; the invariant the class's (the scoped rest and the
    generator register) and the two tables at the contents `a`; nothing owed; full shares. -/
def dat1 (c : Dev nD) : Dat τ (Elt F) Unit ℕ (UR sig nD τ) ℕ (cfg1 a) c where
  A w := V c (Pipeline.arrRef spec1 w)
  after w t := match w with
    | ⟨0, _⟩ => iblk1 a V c 0 t
    | ⟨1, _⟩ => iblk1 a V c 1 t
    | ⟨2, _⟩ => outsAt1 a hchk V c t.val t.isLt
  Φ _ := iprop(Pipeline.ΦA spec1 c ∗ Pipeline.prefHeld pre1 c (fun _ => fullShare) a.1)
  q _ := fullShare
  owed _ := 0

/-- The proof data's arrays are the region-entry contents. -/
theorem A_eq1 (c : Dev nD) (w : Fin (cfg1 a).W) : (dat1 a hchk V c).A w = V c (Pipeline.arrRef spec1 w) := by
  dsimp only [dat1]

/-- What the body leaves, window by window. -/
theorem after1_0 (c : Dev nD) (t : Fin (cfg1 a).N) : (dat1 a hchk V c).after 0 t = iblk1 a V c 0 t := by dsimp only [dat1]; try rfl
theorem after1_1 (c : Dev nD) (t : Fin (cfg1 a).N) : (dat1 a hchk V c).after 1 t = iblk1 a V c 1 t := by dsimp only [dat1]; try rfl
theorem after1_2 (c : Dev nD) (t : Fin (cfg1 a).N) : (dat1 a hchk V c).after 2 t = outsAt1 a hchk V c t.val t.isLt := by dsimp only [dat1]; try rfl

/-- Each input's current staging buffer holds its block at every point, fetched there or not. -/
theorem before1_0 (c : Dev nD) (t : Fin (cfg1 a).N) (d) : (dat1 a hchk V c).before 0 t d = iblk1 a V c 0 t :=
  before1_0_of a V (dat1 a hchk V c) (A_eq1 a hchk V c 0) (after1_0 a hchk V c) t d
theorem before1_1 (c : Dev nD) (t : Fin (cfg1 a).N) (d) : (dat1 a hchk V c).before 1 t d = iblk1 a V c 1 t :=
  before1_1_of a V (dat1 a hchk V c) (A_eq1 a hchk V c 1) (after1_1 a hchk V c) t d

/-- After the first point of a core the slab's staging buffer holds what the body left at the point before: the buffer
    was not written back between, the window is live and uncut. -/
theorem before1_2_kept (c : Dev nD) (t : Fin (cfg1 a).N) (h0 : ¬t.val % 416 = 0) (d) :
    (dat1 a hchk V c).before 2 t d = outsAt1 a hchk V c (t.val - 1) (Nat.lt_of_le_of_lt (Nat.sub_le _ _) t.isLt) := by
  have hN : t.val < 832 := lt_of_lt_of_eq t.isLt (show (cfg1 a).N = 832 from N_1)
  rw [Dat.before_out_kept _ 2 rfl t (by omega) (Bool.eq_false_iff.mpr fun h => by have := (flush1_2 a _).mp h; dsimp only at this; omega)
    (fun _ => rfl) (fun _ _ => rfl)]
  exact after1_2 a hchk V c _

/-! ## The body obligation, at a generic point -/

/-- What the body is called with at point `t` (the library's body obligation's precondition, the windows one by one), -/
def bodyPre1 (c : Dev nD) (t : Fin (cfg1 a).N) : sProp 𝕄 :=
  iprop((dat1 a hchk V c).Φ t.castSucc ∗ (dat1 a hchk V c).owesAt () t.castSucc
    ∗ (∃ d, owns (c : Thread nD τ) (st1_0 a t) fullShare ((dat1 a hchk V c).before 0 t d))
    ∗ (∃ d, owns (c : Thread nD τ) (st1_1 a t) fullShare ((dat1 a hchk V c).before 1 t d))
    ∗ (∃ d, owns (c : Thread nD τ) (st1_2 a t) fullShare ((dat1 a hchk V c).before 2 t d)))

/-- and what it returns. -/
def bodyPost1 (c : Dev nD) (t : Fin (cfg1 a).N) : sProp 𝕄 :=
  iprop((dat1 a hchk V c).Φ t.succ ∗ (dat1 a hchk V c).owesAt () t.succ
    ∗ owns (c : Thread nD τ) (st1_0 a t) fullShare ((dat1 a hchk V c).after 0 t)
    ∗ owns (c : Thread nD τ) (st1_1 a t) fullShare ((dat1 a hchk V c).after 1 t)
    ∗ owns (c : Thread nD τ) (st1_2 a t) fullShare ((dat1 a hchk V c).after 2 t))

set_option maxHeartbeats 1600000 in
/-- The body at any point: the inputs' memrefs hold their blocks; the grid coordinate says whether the point is the first
    of its core, the two table words whether they differ (four cases); after the first point of a core the slab's buffer
    holds what the point before left; so the case's triple applies. The invariant's class part passes through unread, the
    tables are lent to the body and taken back; the core owes nothing throughout. -/
theorem sound_body1 (c : Dev nD) (t : Fin (cfg1 a).N) :
    bodyPre1 a hchk V c t ⊢ wp frame (wpE (defs₀ (F := F)) Variants.none c none) Set.univ (bodyAt1 a t) (fun _ => bodyPost1 a hchk V c t) := by
  unfold bodyPre1 bodyPost1 bodyAt1
  simp only [before1_0, before1_1]
  rw [show (dat1 a hchk V c).Φ t.succ = (dat1 a hchk V c).Φ t.castSucc from rfl,
    show (dat1 a hchk V c).owesAt () t.succ = (dat1 a hchk V c).owesAt () t.castSucc from rfl,
    after1_0, after1_1, after1_2]
  rw [show (dat1 a hchk V c).Φ t.castSucc = iprop(Pipeline.ΦA spec1 c ∗ Pipeline.prefHeld pre1 c (fun _ => fullShare) a.1) from rfl, prefHeld1_eq]
  by_cases h0 : t.val % 416 = 0
  · rw [outsAt1_reset a hchk V c t h0 (k1_pay1 (F := F))]
    unfold stepAt1
    by_cases h2 : k1_cond2 (word1 c (grid1.coords t) tbM1_0 (a.1 0)) (word1 c (grid1.coords t) tbM1_1 (a.1 1)) = 1#1
    ·
      iintro ⟨⟨HΦ, ⟨HT0, HT1⟩⟩, Ho, ⟨%d0, H0⟩, ⟨%d1, H1⟩, ⟨%d2, H2⟩⟩
      iapply (sound_kernel1_A c (grid1.coords t) _ _ _ _ _ _ ((hcond1_1 a t).mpr h0) (iblk1 a V c 0 t) (iblk1 a V c 1 t)
        (k1_pay1 (F := F)) (a.1 0) (a.1 1) (hchk c t).1 (hchk c t).2 h2 Set.univ _)
      isplitl [H0]; · iexact H0
      isplitl [H1]; · iexact H1
      isplitl [H2]; · iexists _; iexact H2
      isplitl [HT0]; · iexact HT0
      isplitl [HT1]; · iexact HT1
      iintro ⟨H0, H1, H2, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      iexact H2
    ·
      iintro ⟨⟨HΦ, ⟨HT0, HT1⟩⟩, Ho, ⟨%d0, H0⟩, ⟨%d1, H1⟩, ⟨%d2, H2⟩⟩
      iapply (sound_kernel1_B c (grid1.coords t) _ _ _ _ _ _ ((hcond1_1 a t).mpr h0) (iblk1 a V c 0 t) (iblk1 a V c 1 t)
        (k1_pay1 (F := F)) (a.1 0) (a.1 1) (hchk c t).1 (hchk c t).2 h2 Set.univ _)
      isplitl [H0]; · iexact H0
      isplitl [H1]; · iexact H1
      isplitl [H2]; · iexists _; iexact H2
      isplitl [HT0]; · iexact HT0
      isplitl [HT1]; · iexact HT1
      iintro ⟨H0, H1, H2, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      iexact H2
  · rw [outsAt1_pos a hchk V c t (fun h => h0 (by rw [h]))]
    simp only [before1_2_kept a hchk V c t h0]
    unfold stepAt1
    by_cases h2 : k1_cond2 (word1 c (grid1.coords t) tbM1_0 (a.1 0)) (word1 c (grid1.coords t) tbM1_1 (a.1 1)) = 1#1
    ·
      iintro ⟨⟨HΦ, ⟨HT0, HT1⟩⟩, Ho, ⟨%d0, H0⟩, ⟨%d1, H1⟩, ⟨%d2, H2⟩⟩
      iapply (sound_kernel1_C c (grid1.coords t) _ _ _ _ _ _ (fun h => h0 ((hcond1_1 a t).mp h)) (iblk1 a V c 0 t) (iblk1 a V c 1 t)
        (outsAt1 a hchk V c (t.val - 1) (Nat.lt_of_le_of_lt (Nat.sub_le _ _) t.isLt)) (a.1 0) (a.1 1) (hchk c t).1 (hchk c t).2 h2 Set.univ _)
      isplitl [H0]; · iexact H0
      isplitl [H1]; · iexact H1
      isplitl [H2]; · iexact H2
      isplitl [HT0]; · iexact HT0
      isplitl [HT1]; · iexact HT1
      iintro ⟨H0, H1, H2, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      iexact H2
    ·
      iintro ⟨⟨HΦ, ⟨HT0, HT1⟩⟩, Ho, ⟨%d0, H0⟩, ⟨%d1, H1⟩, ⟨%d2, H2⟩⟩
      iapply (sound_kernel1_D c (grid1.coords t) _ _ _ _ _ _ (fun h => h0 ((hcond1_1 a t).mp h)) (iblk1 a V c 0 t) (iblk1 a V c 1 t)
        (outsAt1 a hchk V c (t.val - 1) (Nat.lt_of_le_of_lt (Nat.sub_le _ _) t.isLt)) (a.1 0) (a.1 1) (hchk c t).1 (hchk c t).2 h2 Set.univ _)
      isplitl [H0]; · iexact H0
      isplitl [H1]; · iexact H1
      isplitl [H2]; · iexact H2
      isplitl [HT0]; · iexact HT0
      isplitl [HT1]; · iexact HT1
      iintro ⟨H0, H1, H2, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      iexact H2

/-- The library's body obligation, at every point. -/
theorem body_obligation1 (c : Dev nD) : BodyObligation (dat1 (F := F) a hchk V c) (defs₀ (F := F)) Variants.none () Set.univ := fun t => by
  rw [bigSep_W1, bigSep_W1]
  exact sound_body1 a hchk V c t

end Region

end Cert.KernelIdeal.Hand

end
-- ==== Proof.KiSc3.lean ====
/- REGION 3 of @main (custom_call 3, `cc3__scatter_kernel`): the body's half of the frame certificate at ANY
   admissible contents `a` of the two prefetched tables, and the value the region leaves at Ideal.
   What the kernel's slab holds after each grid point is one pure function (`step3`) of the two table words at
   the point, the point's blocks of the destination indices and of the messages, and the slab before the point;
   the slab after point `t` is that function iterated from the first point of the core (`outsAt3`). -/
import proofs.«425685_j80942953661103_3_alg».proof.Proof.Gen.KernelIdeal.Launch
import proofs.«425685_j80942953661103_3_alg».proof.Proof.Gen.KernelIdeal.Skeleton
import proofs.«425685_j80942953661103_3_alg».proof.Proof.Gen.KernelIdeal.Points
import proofs.«425685_j80942953661103_3_alg».proof.Proof.KiSc1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 3: custom_call 3, `cc3__scatter_kernel` (pipeline 3), at table contents `a` and entry contents `V` -/

/-! ## The schedule of the slab's window -/

/-- Window 2 (the slab) is written back at the last point of each core, at any contents of the tables. -/
theorem flush3_2 (a : (pcfg3 (F := F)).Adm) : ∀ t : Fin (cfg3 a).N, ((cfg3 a).win 2).flush t = true ↔ t.val % 416 = 415 :=
  (by decide +kernel : ∀ t : Fin grid3.N, Pipeline.Window.flushOf grid3 true cc3_transform_2 t = true ↔ t.val % 416 = 415)

/-- The current staging memref of each window at point `t`. -/
abbrev st3_0 (a : (pcfg3 (F := F)).Adm) (t : Fin (cfg3 a).N) : Memref sig .tc .vmem S1024 .i32 := spec3_0.stage ((cfg3 a).slots t 0)
abbrev hst3_0 (a : (pcfg3 (F := F)).Adm) (t : Fin (cfg3 a).N) : (st3_0 a t).IsWhole := hstage3_0 (((cfg3 a).slots t 0).cast nbuf3_0)
abbrev st3_1 (a : (pcfg3 (F := F)).Adm) (t : Fin (cfg3 a).N) : Memref sig .tc .vmem S1024x48 .bf16 := spec3_1.stage ((cfg3 a).slots t 1)
abbrev hst3_1 (a : (pcfg3 (F := F)).Adm) (t : Fin (cfg3 a).N) : (st3_1 a t).IsWhole := hstage3_1 (((cfg3 a).slots t 1).cast nbuf3_1)
abbrev st3_2 (a : (pcfg3 (F := F)).Adm) (t : Fin (cfg3 a).N) : Memref sig .tc .vmem S1x50176x48 .f32 := spec3_2.stage ((cfg3 a).slots t 2)
abbrev hst3_2 (a : (pcfg3 (F := F)).Adm) (t : Fin (cfg3 a).N) : (st3_2 a t).IsWhole := hstage3_2 (((cfg3 a).slots t 2).cast nbuf3_2)

/-- The two tables as the body is handed them: their whole buffers as memrefs. -/
abbrev tbM3_0 : Memref sig .tc .smem S832 .i32 := Memref.whole main_v61
abbrev htbM3_0 : tbM3_0.IsWhole := Memref.isWhole_whole _
abbrev tbM3_1 : Memref sig .tc .smem S832 .i32 := Memref.whole main_v62
abbrev htbM3_1 : tbM3_1.IsWhole := Memref.isWhole_whole _

/-- The kernel body at point `t`, on what the pipeline calls it with (`defs₀`'s row at the slots). -/
abbrev bodyAt3 (a : (pcfg3 (F := F)).Adm) (t : Fin (cfg3 a).N) : Prog (TpuEff nD τ sig (Elt F) Λ₀ .tc) PUnit :=
  cc3__scatter_kernel (grid3.coords t) tbM3_0 htbM3_0 tbM3_1 htbM3_1 (st3_0 a t) (hst3_0 a t) (st3_1 a t) (hst3_1 a t) (st3_2 a t) (hst3_2 a t)

/-- A table memref's buffer on core `c`: its contents type, and it held whole at `f` (the region hands the body the
    tables at the full share; the body only loads from them). -/
abbrev TbBuf3 (c : Dev nD) {S : Shape} {e : EltTy} (M : Memref sig .tc .smem S e) : Type := Buf (Elt F) (M.view.loc (c : Thread nD τ))
abbrev tbPt3 (c : Dev nD) {S : Shape} {e : EltTy} (M : Memref sig .tc .smem S e) (f : TbBuf3 (F := F) c M) : sProp 𝕄 :=
  M.view.loc (c : Thread nD τ) ↦{fullShare} f

/-- The tables the region hands the body, table by table. -/
theorem prefHeld3_eq (a : (pcfg3 (F := F)).Adm) (c : Dev nD) :
    (Pipeline.prefHeld (Ix := Unit) (Name := ℕ) (U := UR sig nD τ) (Lvl := ℕ) pre3 c (fun _ => fullShare) a.1 : sProp 𝕄)
      = iprop(tbPt3 c tbM3_0 (a.1 0) ∗ tbPt3 c tbM3_1 (a.1 1)) := by
  unfold Pipeline.prefHeld
  rw [show (Finset.univ : Finset (Fin 2)) = insert (0 : Fin 2) {(1 : Fin 2)} from by decide,
    bigSep_insert (by decide), bigSep_singleton]
  rfl

/-- The word a scalar load at the point's offset reads of a table's contents. -/
abbrev word3 (c : Dev nD) (i : grid3.Coords) (M : Memref sig .tc .smem S832 .i32) (f : TbBuf3 (F := F) c M) : Elt F .i32 :=
  M.view.readAt (Elt F) (Rect.unit (s := S832) (k3_off1 i) S1.size (k3_off1_inb i)).toLoadRect f (Shape.Idx.first (numel1_S1.symm ▸ Nat.one_pos))

/-! ## The body's branch conditions -/

/-- The condition of the body's first `scf.if` (`k3_h1`), from the grid coordinates. -/
abbrev cond3_1 (i : grid3.Coords) : Prop := (Scalar.cmpi .ne (Scalar.extui (Scalar.cmpi .eq (BitVec.ofNat 32 (i 1).val) 0#32)) 0#32) = 1#1
/-- It holds at the first point of each core only — decided over the grid. -/
theorem hcond3_1 (a : (pcfg3 (F := F)).Adm) : ∀ t : Fin (cfg3 a).N, cond3_1 (grid3.coords t) ↔ t.val % 416 = 0 :=
  (by decide +kernel : ∀ t : Fin grid3.N, cond3_1 (grid3.coords t) ↔ t.val % 416 = 0)

/-! ## The body's accesses of the slab -/

abbrev r3_all : Rect S1x50176x48 := Rect.unit (s := S1x50176x48) ![0, 0, 0] S1x50176x48.size inb_S1x50176x48_S1x50176x48_0_0_0
abbrev r3_lo (v6 : BitVec 32) (hw1 : k3_chk1 v6) : Rect S1x50176x48 :=
  Rect.unit (s := S1x50176x48) (k3_off2 v6) S1x1024x48.size (k3_off2_inb v6 hw1)
abbrev r3_hi (v6 v8 : BitVec 32) (hw2 : k3_chk2 v6 v8) (h2 : k3_cond2 v6 v8 = 1#1) : Rect S1x50176x48 :=
  Rect.unit (s := S1x50176x48) (k3_off3 v8) S1x1024x48.size (k3_off3_inb v6 v8 hw2 h2)

abbrev r3_d : Rect S1024 := Rect.unit (s := S1024) ![0] S1024.size inb_S1024_S1024_0
abbrev r3_m : Rect S1024x48 := Rect.unit (s := S1024x48) ![0, 0] S1024x48.size inb_S1024x48_S1024x48_0_0

/-! ## What the body leaves in the slab's buffer -/

/-- The slab with the 1024-row chunk at the first word's offset replaced by that chunk plus the one-hot product of the
    destination indices against the chunk's rows, times the messages. -/
def stepLo3 (v6 : BitVec 32) (hw1 : k3_chk1 v6) (x0 : Vec F S1024 .i32) (x1 : Vec F S1024x48 .bf16)
    (X : Vec F S1x50176x48 .f32) : Vec F S1x50176x48 .f32 :=
  (r3_lo v6 hw1).overlay X (k3_pay4 v6 (View.ld x0 r3_d) (View.ld x1 r3_m) (View.ld X (r3_lo v6 hw1)))

/-- The same at the second word's offset, when the two words differ; else nothing. -/
def stepHi3 (v6 v8 : BitVec 32) (hw2 : k3_chk2 v6 v8) (x0 : Vec F S1024 .i32) (x1 : Vec F S1024x48 .bf16)
    (X : Vec F S1x50176x48 .f32) : Vec F S1x50176x48 .f32 :=
  if h2 : k3_cond2 v6 v8 = 1#1 then
    (r3_hi v6 v8 hw2 h2).overlay X (k3_pay5 v8 (View.ld x0 r3_d) (View.ld x1 r3_m) (View.ld X (r3_hi v6 v8 hw2 h2)))
  else X

/-- THE STEP. The slab after the body at a point: zeroed first at the first point of a core, then the chunk at the
    first word's offset updated, then (the words differing) the chunk at the second word's. -/
def step3 (i : grid3.Coords) (v6 v8 : BitVec 32) (hw1 : k3_chk1 v6) (hw2 : k3_chk2 v6 v8)
    (x0 : Vec F S1024 .i32) (x1 : Vec F S1024x48 .bf16) (prev : Vec F S1x50176x48 .f32) : Vec F S1x50176x48 .f32 :=
  stepHi3 v6 v8 hw2 x0 x1 (stepLo3 v6 hw1 x0 x1 (if cond3_1 i then (k3_pay1 (F := F)) else prev))

/-- A write through the slab's whole rectangle replaces everything. -/
theorem overlay_all3 {α : Type} (Y : S1x50176x48.Idx → α) (w : S1x50176x48.Idx → α) : r3_all.overlay Y w = w :=
  overlay_unit_zero (by funext a; fin_cases a <;> rfl) _ Y w

/-! ## The body's triple, case by case -/

set_option maxHeartbeats 4000000 in
/-- The kernel body on whole staging memrefs at the first point of a core (the slab's buffer at anything: the body zeroes it first), the two words different: it runs to the
    continuation holding the inputs' and the tables' buffers as they were and the slab's at `step3` of them. -/
theorem sound_kernel3_A (c : Dev nD) (i : grid3.Coords)
    (arg4 : Memref sig .tc .vmem S1024 .i32) (harg4 : arg4.IsWhole) (arg5 : Memref sig .tc .vmem S1024x48 .bf16) (harg5 : arg5.IsWhole)
    (arg6 : Memref sig .tc .vmem S1x50176x48 .f32) (harg6 : arg6.IsWhole)
    (hc1 : cond3_1 i)
    (x0 : Vec F S1024 .i32) (x1 : Vec F S1024x48 .bf16) (xo : Vec F S1x50176x48 .f32)
    (xt0 : TbBuf3 (F := F) c tbM3_0) (xt1 : TbBuf3 (F := F) c tbM3_1)
    (hw1 : k3_chk1 (word3 c i tbM3_0 xt0)) (hw2 : k3_chk2 (word3 c i tbM3_0 xt0) (word3 c i tbM3_1 xt1))
    (hc2 : k3_cond2 (word3 c i tbM3_0 xt0) (word3 c i tbM3_1 xt1) = 1#1) (E : Set ℕ) (K : PUnit → sProp 𝕄) :
    iprop(owns (c : Thread nD τ) arg4 fullShare x0 ∗ owns (c : Thread nD τ) arg5 fullShare x1 ∗ (∃ d, owns (c : Thread nD τ) arg6 fullShare d)
        ∗ tbPt3 c tbM3_0 xt0 ∗ tbPt3 c tbM3_1 xt1
        ∗ (iprop(owns (c : Thread nD τ) arg4 fullShare x0 ∗ owns (c : Thread nD τ) arg5 fullShare x1
            ∗ owns (c : Thread nD τ) arg6 fullShare (step3 i (word3 c i tbM3_0 xt0) (word3 c i tbM3_1 xt1) hw1 hw2 x0 x1 xo)
            ∗ tbPt3 c tbM3_0 xt0 ∗ tbPt3 c tbM3_1 xt1) -∗ K ⟨⟩))
      ⊢ wp frame (wpE (defs₀ (F := F)) Variants.none c none) E (cc3__scatter_kernel i tbM3_0 htbM3_0 tbM3_1 htbM3_1 arg4 harg4 arg5 harg5 arg6 harg6) K := by
  simp only [cc3__scatter_kernel_eq_skeleton]; unfold cc3__scatter_kernel_skel
  unfold owns
  iintro ⟨⟨%f0, %hf0, H0⟩, ⟨%f1, %hf1, H1⟩, ⟨%d2, %f2, -, H2⟩, HT0, HT1, Hk⟩
  obtain rfl := harg4.eq_unread hf0; obtain rfl := harg5.eq_unread hf1
  sl_exec (disch := first | exact hc1 | exact hc2 | sl_exact hw1 | sl_exact hw2)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    repeat (first | unfold sound_kernel3_A.sl.v49 | unfold sound_kernel3_A.sl.v26 | unfold sound_kernel3_A.sl.H2_1 | unfold sound_kernel3_A.sl.H2_2 | unfold sound_kernel3_A.sl.H2_3 | unfold sound_kernel3_A.sl.r_1 | unfold sound_kernel3_A.sl.r)
    simp only [read_writes_cons_overlay, View.writes_nil, View.readAt_eq_ld, View.readCov_eq_canon', View.canon_cons, overlay_all3, hf0, hf1]
    unfold step3 stepHi3 stepLo3
    rw [dif_pos hc2, if_pos hc1]
    rw [overlay_all3]
    rfl
  isplitl [HT0]; · iexact HT0
  iexact HT1

set_option maxHeartbeats 4000000 in
/-- The kernel body on whole staging memrefs at the first point of a core (the slab's buffer at anything: the body zeroes it first), the two words equal: it runs to the
    continuation holding the inputs' and the tables' buffers as they were and the slab's at `step3` of them. -/
theorem sound_kernel3_B (c : Dev nD) (i : grid3.Coords)
    (arg4 : Memref sig .tc .vmem S1024 .i32) (harg4 : arg4.IsWhole) (arg5 : Memref sig .tc .vmem S1024x48 .bf16) (harg5 : arg5.IsWhole)
    (arg6 : Memref sig .tc .vmem S1x50176x48 .f32) (harg6 : arg6.IsWhole)
    (hc1 : cond3_1 i)
    (x0 : Vec F S1024 .i32) (x1 : Vec F S1024x48 .bf16) (xo : Vec F S1x50176x48 .f32)
    (xt0 : TbBuf3 (F := F) c tbM3_0) (xt1 : TbBuf3 (F := F) c tbM3_1)
    (hw1 : k3_chk1 (word3 c i tbM3_0 xt0)) (hw2 : k3_chk2 (word3 c i tbM3_0 xt0) (word3 c i tbM3_1 xt1))
    (hc2 : ¬k3_cond2 (word3 c i tbM3_0 xt0) (word3 c i tbM3_1 xt1) = 1#1) (E : Set ℕ) (K : PUnit → sProp 𝕄) :
    iprop(owns (c : Thread nD τ) arg4 fullShare x0 ∗ owns (c : Thread nD τ) arg5 fullShare x1 ∗ (∃ d, owns (c : Thread nD τ) arg6 fullShare d)
        ∗ tbPt3 c tbM3_0 xt0 ∗ tbPt3 c tbM3_1 xt1
        ∗ (iprop(owns (c : Thread nD τ) arg4 fullShare x0 ∗ owns (c : Thread nD τ) arg5 fullShare x1
            ∗ owns (c : Thread nD τ) arg6 fullShare (step3 i (word3 c i tbM3_0 xt0) (word3 c i tbM3_1 xt1) hw1 hw2 x0 x1 xo)
            ∗ tbPt3 c tbM3_0 xt0 ∗ tbPt3 c tbM3_1 xt1) -∗ K ⟨⟩))
      ⊢ wp frame (wpE (defs₀ (F := F)) Variants.none c none) E (cc3__scatter_kernel i tbM3_0 htbM3_0 tbM3_1 htbM3_1 arg4 harg4 arg5 harg5 arg6 harg6) K := by
  simp only [cc3__scatter_kernel_eq_skeleton]; unfold cc3__scatter_kernel_skel
  unfold owns
  iintro ⟨⟨%f0, %hf0, H0⟩, ⟨%f1, %hf1, H1⟩, ⟨%d2, %f2, -, H2⟩, HT0, HT1, Hk⟩
  obtain rfl := harg4.eq_unread hf0; obtain rfl := harg5.eq_unread hf1
  sl_exec (disch := first | exact hc1 | exact hc2 | sl_exact hw1 | sl_exact hw2)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    repeat (first | unfold sound_kernel3_B.sl.v49 | unfold sound_kernel3_B.sl.v26 | unfold sound_kernel3_B.sl.H2_1 | unfold sound_kernel3_B.sl.H2_2 | unfold sound_kernel3_B.sl.H2_3 | unfold sound_kernel3_B.sl.r_1 | unfold sound_kernel3_B.sl.r)
    simp only [read_writes_cons_overlay, View.writes_nil, View.readAt_eq_ld, View.readCov_eq_canon', View.canon_cons, overlay_all3, hf0, hf1]
    unfold step3 stepHi3 stepLo3
    rw [dif_neg hc2, if_pos hc1]
    rw [overlay_all3]
    rfl
  isplitl [HT0]; · iexact HT0
  iexact HT1

set_option maxHeartbeats 4000000 in
/-- The kernel body on whole staging memrefs after the first point of a core (the slab's buffer at its running contents `xo`), the two words different: it runs to the
    continuation holding the inputs' and the tables' buffers as they were and the slab's at `step3` of them. -/
theorem sound_kernel3_C (c : Dev nD) (i : grid3.Coords)
    (arg4 : Memref sig .tc .vmem S1024 .i32) (harg4 : arg4.IsWhole) (arg5 : Memref sig .tc .vmem S1024x48 .bf16) (harg5 : arg5.IsWhole)
    (arg6 : Memref sig .tc .vmem S1x50176x48 .f32) (harg6 : arg6.IsWhole)
    (hc1 : ¬cond3_1 i)
    (x0 : Vec F S1024 .i32) (x1 : Vec F S1024x48 .bf16) (xo : Vec F S1x50176x48 .f32)
    (xt0 : TbBuf3 (F := F) c tbM3_0) (xt1 : TbBuf3 (F := F) c tbM3_1)
    (hw1 : k3_chk1 (word3 c i tbM3_0 xt0)) (hw2 : k3_chk2 (word3 c i tbM3_0 xt0) (word3 c i tbM3_1 xt1))
    (hc2 : k3_cond2 (word3 c i tbM3_0 xt0) (word3 c i tbM3_1 xt1) = 1#1) (E : Set ℕ) (K : PUnit → sProp 𝕄) :
    iprop(owns (c : Thread nD τ) arg4 fullShare x0 ∗ owns (c : Thread nD τ) arg5 fullShare x1 ∗ owns (c : Thread nD τ) arg6 fullShare xo
        ∗ tbPt3 c tbM3_0 xt0 ∗ tbPt3 c tbM3_1 xt1
        ∗ (iprop(owns (c : Thread nD τ) arg4 fullShare x0 ∗ owns (c : Thread nD τ) arg5 fullShare x1
            ∗ owns (c : Thread nD τ) arg6 fullShare (step3 i (word3 c i tbM3_0 xt0) (word3 c i tbM3_1 xt1) hw1 hw2 x0 x1 xo)
            ∗ tbPt3 c tbM3_0 xt0 ∗ tbPt3 c tbM3_1 xt1) -∗ K ⟨⟩))
      ⊢ wp frame (wpE (defs₀ (F := F)) Variants.none c none) E (cc3__scatter_kernel i tbM3_0 htbM3_0 tbM3_1 htbM3_1 arg4 harg4 arg5 harg5 arg6 harg6) K := by
  simp only [cc3__scatter_kernel_eq_skeleton]; unfold cc3__scatter_kernel_skel
  unfold owns
  iintro ⟨⟨%f0, %hf0, H0⟩, ⟨%f1, %hf1, H1⟩, ⟨%f2, %hf2, H2⟩, HT0, HT1, Hk⟩
  obtain rfl := harg4.eq_unread hf0; obtain rfl := harg5.eq_unread hf1; obtain rfl := harg6.eq_unread hf2
  sl_exec (disch := first | exact hc1 | exact hc2 | sl_exact hw1 | sl_exact hw2)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    repeat (first | unfold sound_kernel3_C.sl.v49 | unfold sound_kernel3_C.sl.v26 | unfold sound_kernel3_C.sl.H2_1 | unfold sound_kernel3_C.sl.H2_2 | unfold sound_kernel3_C.sl.H2_3 | unfold sound_kernel3_C.sl.r_1 | unfold sound_kernel3_C.sl.r)
    simp only [read_writes_cons_overlay, View.writes_nil, View.readAt_eq_ld, View.readCov_eq_canon', View.canon_cons, overlay_all3, hf0, hf1, hf2]
    unfold step3 stepHi3 stepLo3
    rw [dif_pos hc2, if_neg hc1]
    rfl
  isplitl [HT0]; · iexact HT0
  iexact HT1

set_option maxHeartbeats 4000000 in
/-- The kernel body on whole staging memrefs after the first point of a core (the slab's buffer at its running contents `xo`), the two words equal: it runs to the
    continuation holding the inputs' and the tables' buffers as they were and the slab's at `step3` of them. -/
theorem sound_kernel3_D (c : Dev nD) (i : grid3.Coords)
    (arg4 : Memref sig .tc .vmem S1024 .i32) (harg4 : arg4.IsWhole) (arg5 : Memref sig .tc .vmem S1024x48 .bf16) (harg5 : arg5.IsWhole)
    (arg6 : Memref sig .tc .vmem S1x50176x48 .f32) (harg6 : arg6.IsWhole)
    (hc1 : ¬cond3_1 i)
    (x0 : Vec F S1024 .i32) (x1 : Vec F S1024x48 .bf16) (xo : Vec F S1x50176x48 .f32)
    (xt0 : TbBuf3 (F := F) c tbM3_0) (xt1 : TbBuf3 (F := F) c tbM3_1)
    (hw1 : k3_chk1 (word3 c i tbM3_0 xt0)) (hw2 : k3_chk2 (word3 c i tbM3_0 xt0) (word3 c i tbM3_1 xt1))
    (hc2 : ¬k3_cond2 (word3 c i tbM3_0 xt0) (word3 c i tbM3_1 xt1) = 1#1) (E : Set ℕ) (K : PUnit → sProp 𝕄) :
    iprop(owns (c : Thread nD τ) arg4 fullShare x0 ∗ owns (c : Thread nD τ) arg5 fullShare x1 ∗ owns (c : Thread nD τ) arg6 fullShare xo
        ∗ tbPt3 c tbM3_0 xt0 ∗ tbPt3 c tbM3_1 xt1
        ∗ (iprop(owns (c : Thread nD τ) arg4 fullShare x0 ∗ owns (c : Thread nD τ) arg5 fullShare x1
            ∗ owns (c : Thread nD τ) arg6 fullShare (step3 i (word3 c i tbM3_0 xt0) (word3 c i tbM3_1 xt1) hw1 hw2 x0 x1 xo)
            ∗ tbPt3 c tbM3_0 xt0 ∗ tbPt3 c tbM3_1 xt1) -∗ K ⟨⟩))
      ⊢ wp frame (wpE (defs₀ (F := F)) Variants.none c none) E (cc3__scatter_kernel i tbM3_0 htbM3_0 tbM3_1 htbM3_1 arg4 harg4 arg5 harg5 arg6 harg6) K := by
  simp only [cc3__scatter_kernel_eq_skeleton]; unfold cc3__scatter_kernel_skel
  unfold owns
  iintro ⟨⟨%f0, %hf0, H0⟩, ⟨%f1, %hf1, H1⟩, ⟨%f2, %hf2, H2⟩, HT0, HT1, Hk⟩
  obtain rfl := harg4.eq_unread hf0; obtain rfl := harg5.eq_unread hf1; obtain rfl := harg6.eq_unread hf2
  sl_exec (disch := first | exact hc1 | exact hc2 | sl_exact hw1 | sl_exact hw2)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    repeat (first | unfold sound_kernel3_D.sl.v49 | unfold sound_kernel3_D.sl.v26 | unfold sound_kernel3_D.sl.H2_1 | unfold sound_kernel3_D.sl.H2_2 | unfold sound_kernel3_D.sl.H2_3 | unfold sound_kernel3_D.sl.r_1 | unfold sound_kernel3_D.sl.r)
    simp only [read_writes_cons_overlay, View.writes_nil, View.readAt_eq_ld, View.readCov_eq_canon', View.canon_cons, overlay_all3, hf0, hf1, hf2]
    unfold step3 stepHi3 stepLo3
    rw [dif_neg hc2, if_neg hc1]
    rfl
  isplitl [HT0]; · iexact HT0
  iexact HT1

/-! ## The side conditions the body assumes of the table words -/

/-- The words the body loads from the two tables at every point satisfy the side conditions it assumes of them
    (each chunk offset is a multiple of 1024 and the chunk lies inside the slab). -/
def Chk3 (a : (pcfg3 (F := F)).Adm) : Prop :=
  ∀ (c : Dev nD) (t : Fin (cfg3 a).N),
    k3_chk1 (word3 c (grid3.coords t) tbM3_0 (a.1 0))
      ∧ k3_chk2 (word3 c (grid3.coords t) tbM3_0 (a.1 0)) (word3 c (grid3.coords t) tbM3_1 (a.1 1))

section Region

variable (a : (pcfg3 (F := F)).Adm) (hchk : Chk3 a)
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin (cfg3 a).W) (t : Fin (cfg3 a).N) : (((cfg3 a).win w).xblock ((cfg3 a).grid.coords t)).Idx → Elt F ((cfg3 a).win w).elt :=
  (((cfg3 a).win w).blk t).view.read (Elt F) (V c (Pipeline.arrRef spec3 w))

/-- Input window 0's current staging buffer holds its block at every point, fetched there or not. -/
theorem before3_0_of {c : Dev nD} (dat : Dat τ (Elt F) Unit ℕ (UR sig nD τ) ℕ (cfg3 a) c) (hA : dat.A 0 = V c (Pipeline.arrRef spec3 0))
    (hafter : ∀ t, dat.after 0 t = iblk3 a V c 0 t) (t : Fin (cfg3 a).N) (d) : dat.before 0 t d = iblk3 a V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ (cfg3 a) c) (hA : dat.A 1 = V c (Pipeline.arrRef spec3 1))
    (hafter : ∀ t, dat.after 1 t = iblk3 a V c 1 t) (t : Fin (cfg3 a).N) (d) : dat.before 1 t d = iblk3 a V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## What the slab's buffer holds after each point -/

/-- The step at point `t`: `step3` at the point's coordinates, table words and input blocks. -/
def stepAt3 (c : Dev nD) (t : Fin (cfg3 a).N) (prev : Vec F S1x50176x48 .f32) : Vec F S1x50176x48 .f32 :=
  step3 (grid3.coords t) (word3 c (grid3.coords t) tbM3_0 (a.1 0)) (word3 c (grid3.coords t) tbM3_1 (a.1 1))
    (hchk c t).1 (hchk c t).2 (iblk3 a V c 0 t) (iblk3 a V c 1 t) prev

/-- At the first point of a core the step does not read the slab it finds. -/
theorem stepAt3_reset (c : Dev nD) (t : Fin (cfg3 a).N) (h0 : t.val % 416 = 0) (prev prev' : Vec F S1x50176x48 .f32) :
    stepAt3 a hchk V c t prev = stepAt3 a hchk V c t prev' := by
  unfold stepAt3 step3
  rw [if_pos ((hcond3_1 a t).mpr h0), if_pos ((hcond3_1 a t).mpr h0)]

/-- THE ACCUMULATION. What the slab's staging buffer holds after the body at position `n`: the step at `n` of what
    it held after `n - 1` (the buffer is not written back between; at the first point of a core the step zeroes it). -/
def outsAt3 (c : Dev nD) : (n : ℕ) → n < (cfg3 a).N → Vec F S1x50176x48 .f32
  | 0, hn => stepAt3 a hchk V c ⟨0, hn⟩ (k3_pay1 (F := F))
  | n + 1, hn => stepAt3 a hchk V c ⟨n + 1, hn⟩ (outsAt3 c n (Nat.lt_of_succ_lt hn))

/-- `outsAt3` at a later point: the step over what the point before left. -/
theorem outsAt3_pos (c : Dev nD) (t : Fin (cfg3 a).N) (h0 : t.val ≠ 0) :
    outsAt3 a hchk V c t.val t.isLt
      = stepAt3 a hchk V c t (outsAt3 a hchk V c (t.val - 1) (Nat.lt_of_le_of_lt (Nat.sub_le _ _) t.isLt)) := by
  obtain ⟨n, hn⟩ := t
  cases n with
  | zero => exact absurd rfl h0
  | succ n => rfl

/-- `outsAt3` at the first point of a core: the step over anything. -/
theorem outsAt3_reset (c : Dev nD) (t : Fin (cfg3 a).N) (h0 : t.val % 416 = 0) (prev : Vec F S1x50176x48 .f32) :
    outsAt3 a hchk V c t.val t.isLt = stepAt3 a hchk V c t prev := by
  obtain ⟨n, hn⟩ := t
  cases n with
  | zero => exact stepAt3_reset a hchk V c ⟨0, hn⟩ h0 _ _
  | succ n => exact stepAt3_reset a hchk V c ⟨n + 1, hn⟩ h0 _ _

/-! ## The pipeline's proof data -/

/-- The proof data of pipeline 3 on core `c`: the arrays as the region finds them (`V`); after the body at point `t`
    each input's buffer at its block and the slab's at `outsAt3`; the invariant the class's (the scoped rest and the
    generator register) and the two tables at the contents `a`; nothing owed; full shares. -/
def dat3 (c : Dev nD) : Dat τ (Elt F) Unit ℕ (UR sig nD τ) ℕ (cfg3 a) c where
  A w := V c (Pipeline.arrRef spec3 w)
  after w t := match w with
    | ⟨0, _⟩ => iblk3 a V c 0 t
    | ⟨1, _⟩ => iblk3 a V c 1 t
    | ⟨2, _⟩ => outsAt3 a hchk V c t.val t.isLt
  Φ _ := iprop(Pipeline.ΦA spec3 c ∗ Pipeline.prefHeld pre3 c (fun _ => fullShare) a.1)
  q _ := fullShare
  owed _ := 0

/-- The proof data's arrays are the region-entry contents. -/
theorem A_eq3 (c : Dev nD) (w : Fin (cfg3 a).W) : (dat3 a hchk V c).A w = V c (Pipeline.arrRef spec3 w) := by
  dsimp only [dat3]

/-- What the body leaves, window by window. -/
theorem after3_0 (c : Dev nD) (t : Fin (cfg3 a).N) : (dat3 a hchk V c).after 0 t = iblk3 a V c 0 t := by dsimp only [dat3]; try rfl
theorem after3_1 (c : Dev nD) (t : Fin (cfg3 a).N) : (dat3 a hchk V c).after 1 t = iblk3 a V c 1 t := by dsimp only [dat3]; try rfl
theorem after3_2 (c : Dev nD) (t : Fin (cfg3 a).N) : (dat3 a hchk V c).after 2 t = outsAt3 a hchk V c t.val t.isLt := by dsimp only [dat3]; try rfl

/-- Each input's current staging buffer holds its block at every point, fetched there or not. -/
theorem before3_0 (c : Dev nD) (t : Fin (cfg3 a).N) (d) : (dat3 a hchk V c).before 0 t d = iblk3 a V c 0 t :=
  before3_0_of a V (dat3 a hchk V c) (A_eq3 a hchk V c 0) (after3_0 a hchk V c) t d
theorem before3_1 (c : Dev nD) (t : Fin (cfg3 a).N) (d) : (dat3 a hchk V c).before 1 t d = iblk3 a V c 1 t :=
  before3_1_of a V (dat3 a hchk V c) (A_eq3 a hchk V c 1) (after3_1 a hchk V c) t d

/-- After the first point of a core the slab's staging buffer holds what the body left at the point before: the buffer
    was not written back between, the window is live and uncut. -/
theorem before3_2_kept (c : Dev nD) (t : Fin (cfg3 a).N) (h0 : ¬t.val % 416 = 0) (d) :
    (dat3 a hchk V c).before 2 t d = outsAt3 a hchk V c (t.val - 1) (Nat.lt_of_le_of_lt (Nat.sub_le _ _) t.isLt) := by
  have hN : t.val < 832 := lt_of_lt_of_eq t.isLt (show (cfg3 a).N = 832 from N_3)
  rw [Dat.before_out_kept _ 2 rfl t (by omega) (Bool.eq_false_iff.mpr fun h => by have := (flush3_2 a _).mp h; dsimp only at this; omega)
    (fun _ => rfl) (fun _ _ => rfl)]
  exact after3_2 a hchk V c _

/-! ## The body obligation, at a generic point -/

/-- What the body is called with at point `t` (the library's body obligation's precondition, the windows one by one), -/
def bodyPre3 (c : Dev nD) (t : Fin (cfg3 a).N) : sProp 𝕄 :=
  iprop((dat3 a hchk V c).Φ t.castSucc ∗ (dat3 a hchk V c).owesAt () t.castSucc
    ∗ (∃ d, owns (c : Thread nD τ) (st3_0 a t) fullShare ((dat3 a hchk V c).before 0 t d))
    ∗ (∃ d, owns (c : Thread nD τ) (st3_1 a t) fullShare ((dat3 a hchk V c).before 1 t d))
    ∗ (∃ d, owns (c : Thread nD τ) (st3_2 a t) fullShare ((dat3 a hchk V c).before 2 t d)))

/-- and what it returns. -/
def bodyPost3 (c : Dev nD) (t : Fin (cfg3 a).N) : sProp 𝕄 :=
  iprop((dat3 a hchk V c).Φ t.succ ∗ (dat3 a hchk V c).owesAt () t.succ
    ∗ owns (c : Thread nD τ) (st3_0 a t) fullShare ((dat3 a hchk V c).after 0 t)
    ∗ owns (c : Thread nD τ) (st3_1 a t) fullShare ((dat3 a hchk V c).after 1 t)
    ∗ owns (c : Thread nD τ) (st3_2 a t) fullShare ((dat3 a hchk V c).after 2 t))

set_option maxHeartbeats 1600000 in
/-- The body at any point: the inputs' memrefs hold their blocks; the grid coordinate says whether the point is the first
    of its core, the two table words whether they differ (four cases); after the first point of a core the slab's buffer
    holds what the point before left; so the case's triple applies. The invariant's class part passes through unread, the
    tables are lent to the body and taken back; the core owes nothing throughout. -/
theorem sound_body3 (c : Dev nD) (t : Fin (cfg3 a).N) :
    bodyPre3 a hchk V c t ⊢ wp frame (wpE (defs₀ (F := F)) Variants.none c none) Set.univ (bodyAt3 a t) (fun _ => bodyPost3 a hchk V c t) := by
  unfold bodyPre3 bodyPost3 bodyAt3
  simp only [before3_0, before3_1]
  rw [show (dat3 a hchk V c).Φ t.succ = (dat3 a hchk V c).Φ t.castSucc from rfl,
    show (dat3 a hchk V c).owesAt () t.succ = (dat3 a hchk V c).owesAt () t.castSucc from rfl,
    after3_0, after3_1, after3_2]
  rw [show (dat3 a hchk V c).Φ t.castSucc = iprop(Pipeline.ΦA spec3 c ∗ Pipeline.prefHeld pre3 c (fun _ => fullShare) a.1) from rfl, prefHeld3_eq]
  by_cases h0 : t.val % 416 = 0
  · rw [outsAt3_reset a hchk V c t h0 (k3_pay1 (F := F))]
    unfold stepAt3
    by_cases h2 : k3_cond2 (word3 c (grid3.coords t) tbM3_0 (a.1 0)) (word3 c (grid3.coords t) tbM3_1 (a.1 1)) = 1#1
    ·
      iintro ⟨⟨HΦ, ⟨HT0, HT1⟩⟩, Ho, ⟨%d0, H0⟩, ⟨%d1, H1⟩, ⟨%d2, H2⟩⟩
      iapply (sound_kernel3_A c (grid3.coords t) _ _ _ _ _ _ ((hcond3_1 a t).mpr h0) (iblk3 a V c 0 t) (iblk3 a V c 1 t)
        (k3_pay1 (F := F)) (a.1 0) (a.1 1) (hchk c t).1 (hchk c t).2 h2 Set.univ _)
      isplitl [H0]; · iexact H0
      isplitl [H1]; · iexact H1
      isplitl [H2]; · iexists _; iexact H2
      isplitl [HT0]; · iexact HT0
      isplitl [HT1]; · iexact HT1
      iintro ⟨H0, H1, H2, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      iexact H2
    ·
      iintro ⟨⟨HΦ, ⟨HT0, HT1⟩⟩, Ho, ⟨%d0, H0⟩, ⟨%d1, H1⟩, ⟨%d2, H2⟩⟩
      iapply (sound_kernel3_B c (grid3.coords t) _ _ _ _ _ _ ((hcond3_1 a t).mpr h0) (iblk3 a V c 0 t) (iblk3 a V c 1 t)
        (k3_pay1 (F := F)) (a.1 0) (a.1 1) (hchk c t).1 (hchk c t).2 h2 Set.univ _)
      isplitl [H0]; · iexact H0
      isplitl [H1]; · iexact H1
      isplitl [H2]; · iexists _; iexact H2
      isplitl [HT0]; · iexact HT0
      isplitl [HT1]; · iexact HT1
      iintro ⟨H0, H1, H2, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      iexact H2
  · rw [outsAt3_pos a hchk V c t (fun h => h0 (by rw [h]))]
    simp only [before3_2_kept a hchk V c t h0]
    unfold stepAt3
    by_cases h2 : k3_cond2 (word3 c (grid3.coords t) tbM3_0 (a.1 0)) (word3 c (grid3.coords t) tbM3_1 (a.1 1)) = 1#1
    ·
      iintro ⟨⟨HΦ, ⟨HT0, HT1⟩⟩, Ho, ⟨%d0, H0⟩, ⟨%d1, H1⟩, ⟨%d2, H2⟩⟩
      iapply (sound_kernel3_C c (grid3.coords t) _ _ _ _ _ _ (fun h => h0 ((hcond3_1 a t).mp h)) (iblk3 a V c 0 t) (iblk3 a V c 1 t)
        (outsAt3 a hchk V c (t.val - 1) (Nat.lt_of_le_of_lt (Nat.sub_le _ _) t.isLt)) (a.1 0) (a.1 1) (hchk c t).1 (hchk c t).2 h2 Set.univ _)
      isplitl [H0]; · iexact H0
      isplitl [H1]; · iexact H1
      isplitl [H2]; · iexact H2
      isplitl [HT0]; · iexact HT0
      isplitl [HT1]; · iexact HT1
      iintro ⟨H0, H1, H2, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      iexact H2
    ·
      iintro ⟨⟨HΦ, ⟨HT0, HT1⟩⟩, Ho, ⟨%d0, H0⟩, ⟨%d1, H1⟩, ⟨%d2, H2⟩⟩
      iapply (sound_kernel3_D c (grid3.coords t) _ _ _ _ _ _ (fun h => h0 ((hcond3_1 a t).mp h)) (iblk3 a V c 0 t) (iblk3 a V c 1 t)
        (outsAt3 a hchk V c (t.val - 1) (Nat.lt_of_le_of_lt (Nat.sub_le _ _) t.isLt)) (a.1 0) (a.1 1) (hchk c t).1 (hchk c t).2 h2 Set.univ _)
      isplitl [H0]; · iexact H0
      isplitl [H1]; · iexact H1
      isplitl [H2]; · iexact H2
      isplitl [HT0]; · iexact HT0
      isplitl [HT1]; · iexact HT1
      iintro ⟨H0, H1, H2, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      iexact H2

/-- The library's body obligation, at every point. -/
theorem body_obligation3 (c : Dev nD) : BodyObligation (dat3 (F := F) a hchk V c) (defs₀ (F := F)) Variants.none () Set.univ := fun t => by
  rw [bigSep_W3, bigSep_W3]
  exact sound_body3 a hchk V c t

end Region

end Cert.KernelIdeal.Hand

end
-- ==== Proof.KiLaunch.lean ====
/- THE FRAME of the two-layer graph convolution's program from its four regions' halves. The prefetched tables of chunk
   bounds as the host leaves them before the first region (one device), every pipeline's admissible tables and proof data
   (a literal match on the pipeline), what each region leaves in its output array (the fold of its write-backs, read off the
   proof data), one segment record per region over the thread state "every unscoped buffer at the boundary's contents, the
   generator register at some state, nothing owed" — the two products' records route the buffers as a region without
   tables does; the two scatters' records split the two tables out of the unscoped rest at entry, pass them through the
   region's invariant at the full share and put them back at exit — and the launch: the frame claim's post, under the two
   scatters' assumed side conditions of the tables' words. -/
import proofs.«425685_j80942953661103_3_alg».proof.Proof.Gen.KernelIdeal.Regions
import proofs.«425685_j80942953661103_3_alg».proof.Proof.Gen.KernelIdeal.Launch
import proofs.«425685_j80942953661103_3_alg».proof.Proof.KiMm0
import proofs.«425685_j80942953661103_3_alg».proof.Proof.KiMm2
import proofs.«425685_j80942953661103_3_alg».proof.Proof.KiSc1
import proofs.«425685_j80942953661103_3_alg».proof.Proof.KiSc3
import Idealize.ShloMosaic.Lib.Pipeline.FrameBody
import Idealize.ShloMosaic.Lib.Pipeline.RegionsLoop
import Idealize.ShloMosaic.Lib.Pipeline.FrameSuffix
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A valuation of every device buffer, read at the TensorCore's references. -/
abbrev VR (W : Dev nD → Valuation τ sig (Elt F)) : (c : Dev nD) → (b : Ref sig .tc) → Buf (Elt F) ((c : Thread nD τ).loc b) :=
  fun c b => W c b

/-! ## The prefetched tables -/

/-- The two tables of chunk bounds, as the host leaves them before the first region (there is one device). -/
def tbl1 : pre1.Contents (Elt F) := fun k => Gen.V14 m (0 : Dev nD) (pre1.ref k)
def tbl3 : pre3.Contents (Elt F) := fun k => Gen.V14 m (0 : Dev nD) (pre3.ref k)
theorem V14_pre1 (c : Dev nD) (k : Fin 2) : Gen.V14 m c (pre1.ref k) = tbl1 m k := by
  obtain rfl : c = 0 := Subsingleton.elim _ _; rfl
theorem V14_pre3 (c : Dev nD) (k : Fin 2) : Gen.V14 m c (pre3.ref k) = tbl3 m k := by
  obtain rfl : c = 0 := Subsingleton.elim _ _; rfl
attribute [irreducible] tbl1 tbl3

theorem ok1_any (pf : pre1.Contents (Elt F)) : ok1 (F := F) pf := by unfold ok1; trivial
theorem ok3_any (pf : pre3.Contents (Elt F)) : ok3 (F := F) pf := by unfold ok3; trivial

abbrev adm1 : (pcfg1 (F := F)).Adm := ⟨tbl1 m, ok1_any (F := F) (tbl1 m)⟩
abbrev adm3 : (pcfg3 (F := F)).Adm := ⟨tbl3 m, ok3_any (F := F) (tbl3 m)⟩

/-- Every pipeline's tables: none for the two products, the chunk bounds for the two scatters. -/
def adm : (p : Fin 4) → (pcfgs (F := F) p).Adm
  | ⟨0, _⟩ => cfg0.toPCfg_adm
  | ⟨1, _⟩ => adm1 m
  | ⟨2, _⟩ => cfg2.toPCfg_adm
  | ⟨3, _⟩ => adm3 m

variable (h1 : Chk1 (adm1 m)) (h3 : Chk3 (adm3 m))

/-! ## What each region leaves -/

abbrev OTy (F : FTy → Type) [FloatOps F] : Type := (r : Ref sig .tc) → (c : Dev nD) → Buf (Elt F) ((c : Thread nD τ).loc r)

def o15 : OTy F := fun r c =>
  Pipeline.withArrays spec0 c (Gen.V14 m c) (fun w => (dat0 (VR (Gen.V14 m)) c).arrAt w cfg0.N) r
def outs1 : Gen.Outs (F := F) := fun _ => o15 m
def o17 : OTy F := fun r c =>
  Pipeline.withArrays spec1 c (Gen.V16 m (outs1 m) c) (fun w => (dat1 (adm1 m) h1 (VR (Gen.V16 m (outs1 m))) c).arrAt w (cfg1 (adm1 m)).N) r
def outs2 : Gen.Outs (F := F) := fun n => match n with | 15 => o15 m | _ => o17 m h1
def o20 : OTy F := fun r c =>
  Pipeline.withArrays spec2 c (Gen.V19 m (outs2 m h1) c) (fun w => (dat2 (VR (Gen.V19 m (outs2 m h1))) c).arrAt w cfg2.N) r
def outs3 : Gen.Outs (F := F) := fun n => match n with | 15 => o15 m | 17 => o17 m h1 | _ => o20 m h1
def o22 : OTy F := fun r c =>
  Pipeline.withArrays spec3 c (Gen.V21 m (outs3 m h1) c) (fun w => (dat3 (adm3 m) h3 (VR (Gen.V21 m (outs3 m h1))) c).arrAt w (cfg3 (adm3 m)).N) r
def outs : Gen.Outs (F := F) := fun n => match n with | 15 => o15 m | 17 => o17 m h1 | 20 => o20 m h1 | _ => o22 m h1 h3

theorem outs_at15 : outs m h1 h3 15 = o15 m := rfl
theorem outs_at17 : outs m h1 h3 17 = o17 m h1 := rfl
theorem outs_at20 : outs m h1 h3 20 = o20 m h1 := rfl
theorem outs_at22 : outs m h1 h3 22 = o22 m h1 h3 := rfl

theorem V16_outs (c : Dev nD) : Gen.V16 m (outs m h1 h3) c = Gen.V16 m (outs1 m) c := rfl
theorem V19_outs (c : Dev nD) : Gen.V19 m (outs m h1 h3) c = Gen.V19 m (outs2 m h1) c := rfl
theorem V21_outs (c : Dev nD) : Gen.V21 m (outs m h1 h3) c = Gen.V21 m (outs3 m h1) c := rfl

/-- Every pipeline's proof data, each at its region's entry contents. -/
def pdats : (p : Fin 4) → (c : Dev nD) → Dat τ (Elt F) Unit ℕ (UR sig nD τ) ℕ (Pipeline.pin (pcfgs (F := F)) (adm m) p) c
  | ⟨0, _⟩ => fun c => dat0 (VR (Gen.V14 m)) c
  | ⟨1, _⟩ => fun c => dat1 (adm1 m) h1 (VR (Gen.V16 m (outs m h1 h3))) c
  | ⟨2, _⟩ => fun c => dat2 (VR (Gen.V19 m (outs m h1 h3))) c
  | ⟨3, _⟩ => fun c => dat3 (adm3 m) h3 (VR (Gen.V21 m (outs m h1 h3))) c

/-! ## The thread state between items -/

/-- No core owes another anything: no level is assigned. -/
abbrev kiL : GSem nD τ sig → Finset Unit := fun _ => ∅
abbrev kiLv : GSem nD τ sig → Unit → ℕ := fun _ _ => 0
/-- What rides beside the buffers through every item: the core's generator register at some state and its `owes`, at nothing. -/
abbrev kiR (c : Dev nD) : sProp 𝕄 := iprop((∃ r, prngReg c r) ∗ ∃ W, owes (c : Thread nD τ) (0 : CellTallies nD τ sig Unit) W)
abbrev kiE : Fin 5 → Dev nD → sProp 𝕄 := fun _ c => kiR c

/-! ## Region 0: what it leaves, and its record -/

theorem arr0_2 : Pipeline.arrRef spec0 2 = main_v63 := rfl

/-- What region 0 leaves in its output array. -/
theorem outs_15 (c : Dev nD) : outs m h1 h3 15 main_v63 c = (dat0 (VR (Gen.V14 m)) c).arrAt 2 cfg0.N :=
  Pipeline.withArrays_arr spec0 winFacts0.arr_inj c (Gen.V14 m c) (fun w => (dat0 (VR (Gen.V14 m)) c).arrAt w cfg0.N) 2

theorem hF0 (c : Dev nD) : ∀ w : Fin cfg0.W, (dat0 (VR (Gen.V14 m)) c).arrAt w cfg0.N = VR (Gen.V15 m (outs m h1 h3)) c (Pipeline.arrRef spec0 w)
  | 0 => ((dat0 (VR (Gen.V14 m)) c).arrAt_in 0 rfl _).trans ((A_eq0 (VR (Gen.V14 m)) c 0).trans (Gen.V15_of m (outs m h1 h3) c _ (by decide)).symm)
  | 1 => ((dat0 (VR (Gen.V14 m)) c).arrAt_in 1 rfl _).trans ((A_eq0 (VR (Gen.V14 m)) c 1).trans (Gen.V15_of m (outs m h1 h3) c _ (by decide)).symm)
  | 2 => by
      show _ = Function.update (Gen.V14 m c) (Proc.devRef .tc main_v63) (outs m h1 h3 15 main_v63 c) (Proc.devRef .tc main_v63)
      rw [Function.update_self]
      exact (outs_15 m h1 h3 c).symm
  | ⟨_ + 3, h⟩ => absurd h (Nat.not_lt.2 (Nat.le_add_left _ _))

theorem hrest0 (c : Dev nD) : ∀ b, b ∉ Finset.univ.image (Pipeline.arrRef spec0) → VR (Gen.V15 m (outs m h1 h3)) c b = VR (Gen.V14 m) c b :=
  fun b hb => Gen.V15_of m (outs m h1 h3) c b fun hmem =>
    hb (Finset.mem_image.mpr ⟨2, Finset.mem_univ _, (List.mem_singleton.mp hmem).symm⟩)

set_option backward.isDefEq.respectTransparency.types false in
/-- Region 0 (the first product) over the thread state: entered from every unscoped buffer at `V14`, left at `V15`. -/
def reg0 : Pipeline.RegionSeg (pcfgs (F := F)) (adm m) (pdats m h1 h3) () defs₀ Variants.none kiL kiLv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (VR (Gen.V14 m)) c).loose
  hwaits := Pipeline.hwaits_of_owed_zero _ _ _ _ kiL kiLv 0 fun _ _ => rfl
  pre c := iprop(StableHlo.held (c : Thread nD τ) (Pipeline.ucRefs τ sig) (Gen.V14 m c) ∗ kiR c)
  post c := iprop(StableHlo.held (c : Thread nD τ) (Pipeline.ucRefs τ sig) (Gen.V15 m (outs m h1 h3) c) ∗ kiR c)
  X c := iprop(∃ r, prngReg c r)
  Y c := iprop(∃ r, prngReg c r)
  Z c := Pipeline.unscopedRest (Ix := Unit) (Name := ℕ) (U := UR sig nD τ) (Lvl := ℕ) spec0 c (VR (Gen.V14 m) c)
  hentry c := by
    rw [Pipeline.ownSems0_none]
    have hsplit := Pipeline.arrays_of_unscopedBufs (p := 0) (pcfgs (F := F)) (adm m) (pdats m h1 h3) (launch0 (F := F)).win (launch0 (F := F)).arr_whole c
      ((pdats m h1 h3 0 c).share_full fun _ => rfl) (VR (Gen.V14 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h1 h3 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m h1 h3 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := UR sig nD τ) (Lvl := ℕ)
      (launch0 (F := F)).win (launch0 (F := F)).arr_whole c (pdats m h1 h3) ((pdats m h1 h3 0 c).share_full fun _ => rfl)
      (VR (Gen.V14 m) c) (VR (Gen.V15 m (outs m h1 h3)) c) ((pdats m h1 h3 0 c).arrAt · cfg0.N) (hF0 m h1 h3 c) (hrest0 m h1 h3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: the tables at its entry, what it leaves, and its record -/

theorem V16_pre1 (c : Dev nD) : ∀ k : Fin 2, Gen.V16 m (outs m h1 h3) c (pre1.ref k) = tbl1 m k
  | 0 => (Gen.V16_of m (outs m h1 h3) c (pre1.ref 0) (by decide)).trans ((Gen.V15_of m (outs m h1 h3) c (pre1.ref 0) (by decide)).trans (V14_pre1 m c 0))
  | 1 => (Gen.V16_of m (outs m h1 h3) c (pre1.ref 1) (by decide)).trans ((Gen.V15_of m (outs m h1 h3) c (pre1.ref 1) (by decide)).trans (V14_pre1 m c 1))

theorem isOut1_0 (a : (pcfg1 (F := F)).Adm) : ((cfg1 a).win 0).isOut = false := rfl
theorem isOut1_1 (a : (pcfg1 (F := F)).Adm) : ((cfg1 a).win 1).isOut = false := rfl

/-- What region 1 leaves in its output array. -/
theorem outs_17 (c : Dev nD) : outs m h1 h3 17 main_v76 c = (dat1 (adm1 m) h1 (VR (Gen.V16 m (outs m h1 h3))) c).arrAt 2 (cfg1 (adm1 m)).N :=
  Pipeline.withArrays_arr spec1 winFacts1.arr_inj c (Gen.V16 m (outs1 m) c) (fun w => (dat1 (adm1 m) h1 (VR (Gen.V16 m (outs1 m))) c).arrAt w (cfg1 (adm1 m)).N) 2

theorem hF1 (c : Dev nD) : ∀ w : Fin (cfg1 (adm1 m)).W, (dat1 (adm1 m) h1 (VR (Gen.V16 m (outs m h1 h3))) c).arrAt w (cfg1 (adm1 m)).N = VR (Gen.V17 m (outs m h1 h3)) c (Pipeline.arrRef spec1 w)
  | 0 => ((dat1 (adm1 m) h1 (VR (Gen.V16 m (outs m h1 h3))) c).arrAt_in 0 (isOut1_0 _) _).trans ((A_eq1 (adm1 m) h1 (VR (Gen.V16 m (outs m h1 h3))) c 0).trans (Gen.V17_of m (outs m h1 h3) c main_v53 (by decide)).symm)
  | 1 => ((dat1 (adm1 m) h1 (VR (Gen.V16 m (outs m h1 h3))) c).arrAt_in 1 (isOut1_1 _) _).trans ((A_eq1 (adm1 m) h1 (VR (Gen.V16 m (outs m h1 h3))) c 1).trans (Gen.V17_of m (outs m h1 h3) c main_v75 (by decide)).symm)
  | 2 => by
      show _ = Function.update (Gen.V16 m (outs m h1 h3) c) (Proc.devRef .tc main_v76) (outs m h1 h3 17 main_v76 c) (Proc.devRef .tc main_v76)
      rw [Function.update_self]
      exact (outs_17 m h1 h3 c).symm
  | ⟨_ + 3, h⟩ => absurd h (Nat.not_lt.2 (Nat.le_add_left _ _))

theorem hrest1 (c : Dev nD) : ∀ b, b ∉ Finset.univ.image (Pipeline.arrRef spec1) → VR (Gen.V17 m (outs m h1 h3)) c b = VR (Gen.V16 m (outs m h1 h3)) c b :=
  fun b hb => Gen.V17_of m (outs m h1 h3) c b fun hmem =>
    hb (Finset.mem_image.mpr ⟨2, Finset.mem_univ _, (List.mem_singleton.mp hmem).symm⟩)

/-- The unscoped buffers that are no array of region 1: the two tables, at the chunk bounds, and the rest. -/
theorem rest1_split (c : Dev nD) :
    (Pipeline.unscopedRest (Ix := Unit) (Name := ℕ) (U := UR sig nD τ) (Lvl := ℕ) spec1 c (VR (Gen.V16 m (outs m h1 h3)) c) : sProp 𝕄)
      = iprop(Pipeline.prefHeld pre1 c (fun _ => fullShare) (tbl1 m) ∗ Pipeline.unscopedRestP pre1 spec1 c (VR (Gen.V16 m (outs m h1 h3)) c)) := by
  rw [Pipeline.unscopedRest_split preFacts1 c (VR (Gen.V16 m (outs m h1 h3)) c),
    show (fun k => VR (Gen.V16 m (outs m h1 h3)) c (pre1.ref k)) = tbl1 m from funext (V16_pre1 m h1 h3 c)]

set_option backward.isDefEq.respectTransparency.types false in
/-- Region 1 (the first scatter) over the thread state: entered from every unscoped buffer at `V16`, left at `V17`; the two
    tables pass through the region's invariant at the full share and come back. -/
def reg1 : Pipeline.RegionSeg (pcfgs (F := F)) (adm m) (pdats m h1 h3) () defs₀ Variants.none kiL kiLv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (adm1 m) h1 (VR (Gen.V16 m (outs m h1 h3))) c).loose
  hwaits := Pipeline.hwaits_of_owed_zero _ _ _ _ kiL kiLv 1 fun _ _ => rfl
  pre c := iprop(StableHlo.held (c : Thread nD τ) (Pipeline.ucRefs τ sig) (Gen.V16 m (outs m h1 h3) c) ∗ kiR c)
  post c := iprop(StableHlo.held (c : Thread nD τ) (Pipeline.ucRefs τ sig) (Gen.V17 m (outs m h1 h3) c) ∗ kiR c)
  X c := iprop(∃ r, prngReg c r)
  Y c := iprop((∃ r, prngReg c r) ∗ Pipeline.prefHeld pre1 c (fun _ => fullShare) (tbl1 m))
  Z c := Pipeline.unscopedRestP (Ix := Unit) (Name := ℕ) (U := UR sig nD τ) (Lvl := ℕ) pre1 spec1 c (VR (Gen.V16 m (outs m h1 h3)) c)
  hentry c := by
    rw [Pipeline.ownSems0_none]
    have hsplit := Pipeline.arrays_of_unscopedBufs (p := 1) (pcfgs (F := F)) (adm m) (pdats m h1 h3) (launch1 (F := F)).win (launch1 (F := F)).arr_whole c
      ((pdats m h1 h3 1 c).share_full fun _ => rfl) (VR (Gen.V16 m (outs m h1 h3)) c) fun _ => rfl
    rw [Pipeline.unscopedBufs_held] at hsplit
    have hpf := rest1_split m h1 h3 c
    iintro ⟨⟨Hub, Hp, HO⟩, -, -⟩
    ihave H := hsplit $$ Hub
    icases H with ⟨Ha, Hrest⟩
    ihave H2 := (BIBase.Entails.of_eq hpf) $$ Hrest
    icases H2 with ⟨Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h1 h3 1 c).Φ 0 = iprop(Pipeline.ΦA spec1 c ∗ Pipeline.prefHeld pre1 c (fun _ => fullShare) (tbl1 m)) from rfl]; unfold Pipeline.ΦA
    iintro ⟨Hp, Ht, Hr⟩
    isplitl [Hr Hp]
    · isplitl [Hr]; · iexact Hr
      iexact Hp
    iexact Ht
  hout c := by
    rw [Pipeline.ownSems0_none, show (pdats m h1 h3 1 c).Φ (Fin.last _) = iprop(Pipeline.ΦA spec1 c ∗ Pipeline.prefHeld pre1 c (fun _ => fullShare) (tbl1 m)) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) (adm m) (Ix := Unit) (Name := ℕ) (U := UR sig nD τ) (Lvl := ℕ)
      (launch1 (F := F)).win (launch1 (F := F)).arr_whole c (pdats m h1 h3) ((pdats m h1 h3 1 c).share_full fun _ => rfl)
      (VR (Gen.V16 m (outs m h1 h3)) c) (VR (Gen.V17 m (outs m h1 h3)) c) ((pdats m h1 h3 1 c).arrAt · (cfg1 (adm1 m)).N) (hF1 m h1 h3 c) (hrest1 m h1 h3 c)
    rw [Pipeline.unscopedBufs_held] at hjoin
    have hpf := rest1_split m h1 h3 c
    iintro ⟨Ha, HO, ⟨Hp, Ht⟩, Hrest⟩
    imodintro
    isplitl [Ha Hrest Ht]
    · iapply hjoin
      isplitl [Ha]; · iexact Ha
      iapply (BIBase.Entails.of_eq hpf.symm)
      isplitl [Ht]; · iexact Ht
      iexact Hrest
    isplitl [Hp]; · iexact Hp
    unfold Pipeline.Dat.owesAt Pipeline.owesWithin
    icases HO with ⟨%W, -, HO⟩; iexists W; iexact HO
/-! ## Region 2: what it leaves, and its record -/

/-- What region 2 leaves in its output array. -/
theorem outs_20 (c : Dev nD) : outs m h1 h3 20 main_v87 c = (dat2 (VR (Gen.V19 m (outs m h1 h3))) c).arrAt 2 cfg2.N :=
  Pipeline.withArrays_arr spec2 winFacts2.arr_inj c (Gen.V19 m (outs2 m h1) c) (fun w => (dat2 (VR (Gen.V19 m (outs2 m h1))) c).arrAt w cfg2.N) 2

theorem hF2 (c : Dev nD) : ∀ w : Fin cfg2.W, (dat2 (VR (Gen.V19 m (outs m h1 h3))) c).arrAt w cfg2.N = VR (Gen.V20 m (outs m h1 h3)) c (Pipeline.arrRef spec2 w)
  | 0 => ((dat2 (VR (Gen.V19 m (outs m h1 h3))) c).arrAt_in 0 rfl _).trans ((A_eq2 (VR (Gen.V19 m (outs m h1 h3))) c 0).trans (Gen.V20_of m (outs m h1 h3) c _ (by decide)).symm)
  | 1 => ((dat2 (VR (Gen.V19 m (outs m h1 h3))) c).arrAt_in 1 rfl _).trans ((A_eq2 (VR (Gen.V19 m (outs m h1 h3))) c 1).trans (Gen.V20_of m (outs m h1 h3) c _ (by decide)).symm)
  | 2 => by
      show _ = Function.update (Gen.V19 m (outs m h1 h3) c) (Proc.devRef .tc main_v87) (outs m h1 h3 20 main_v87 c) (Proc.devRef .tc main_v87)
      rw [Function.update_self]
      exact (outs_20 m h1 h3 c).symm
  | ⟨_ + 3, h⟩ => absurd h (Nat.not_lt.2 (Nat.le_add_left _ _))

theorem hrest2 (c : Dev nD) : ∀ b, b ∉ Finset.univ.image (Pipeline.arrRef spec2) → VR (Gen.V20 m (outs m h1 h3)) c b = VR (Gen.V19 m (outs m h1 h3)) c b :=
  fun b hb => Gen.V20_of m (outs m h1 h3) c b fun hmem =>
    hb (Finset.mem_image.mpr ⟨2, Finset.mem_univ _, (List.mem_singleton.mp hmem).symm⟩)

set_option backward.isDefEq.respectTransparency.types false in
/-- Region 2 (the second product) over the thread state: entered from every unscoped buffer at `V19`, left at `V20`. -/
def reg2 : Pipeline.RegionSeg (pcfgs (F := F)) (adm m) (pdats m h1 h3) () defs₀ Variants.none kiL kiLv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (VR (Gen.V19 m (outs m h1 h3))) c).loose
  hwaits := Pipeline.hwaits_of_owed_zero _ _ _ _ kiL kiLv 2 fun _ _ => rfl
  pre c := iprop(StableHlo.held (c : Thread nD τ) (Pipeline.ucRefs τ sig) (Gen.V19 m (outs m h1 h3) c) ∗ kiR c)
  post c := iprop(StableHlo.held (c : Thread nD τ) (Pipeline.ucRefs τ sig) (Gen.V20 m (outs m h1 h3) c) ∗ kiR c)
  X c := iprop(∃ r, prngReg c r)
  Y c := iprop(∃ r, prngReg c r)
  Z c := Pipeline.unscopedRest (Ix := Unit) (Name := ℕ) (U := UR sig nD τ) (Lvl := ℕ) spec2 c (VR (Gen.V19 m (outs m h1 h3)) c)
  hentry c := by
    rw [Pipeline.ownSems0_none]
    have hsplit := Pipeline.arrays_of_unscopedBufs (p := 2) (pcfgs (F := F)) (adm m) (pdats m h1 h3) (launch2 (F := F)).win (launch2 (F := F)).arr_whole c
      ((pdats m h1 h3 2 c).share_full fun _ => rfl) (VR (Gen.V19 m (outs m h1 h3)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h1 h3 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m h1 h3 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m) (Ix := Unit) (Name := ℕ) (U := UR sig nD τ) (Lvl := ℕ)
      (launch2 (F := F)).win (launch2 (F := F)).arr_whole c (pdats m h1 h3) ((pdats m h1 h3 2 c).share_full fun _ => rfl)
      (VR (Gen.V19 m (outs m h1 h3)) c) (VR (Gen.V20 m (outs m h1 h3)) c) ((pdats m h1 h3 2 c).arrAt · cfg2.N) (hF2 m h1 h3 c) (hrest2 m h1 h3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3: the tables at its entry, what it leaves, and its record -/

theorem V21_pre3 (c : Dev nD) : ∀ k : Fin 2, Gen.V21 m (outs m h1 h3) c (pre3.ref k) = tbl3 m k
  | 0 => (Gen.V21_of m (outs m h1 h3) c (pre3.ref 0) (by decide)).trans <| (Gen.V20_of m (outs m h1 h3) c (pre3.ref 0) (by decide)).trans <| (Gen.V19_of m (outs m h1 h3) c (pre3.ref 0) (by decide)).trans <| (Gen.V18_of m (outs m h1 h3) c (pre3.ref 0) (by decide)).trans <| (Gen.V17_of m (outs m h1 h3) c (pre3.ref 0) (by decide)).trans <| (Gen.V16_of m (outs m h1 h3) c (pre3.ref 0) (by decide)).trans <| (Gen.V15_of m (outs m h1 h3) c (pre3.ref 0) (by decide)).trans (V14_pre3 m c 0)
  | 1 => (Gen.V21_of m (outs m h1 h3) c (pre3.ref 1) (by decide)).trans <| (Gen.V20_of m (outs m h1 h3) c (pre3.ref 1) (by decide)).trans <| (Gen.V19_of m (outs m h1 h3) c (pre3.ref 1) (by decide)).trans <| (Gen.V18_of m (outs m h1 h3) c (pre3.ref 1) (by decide)).trans <| (Gen.V17_of m (outs m h1 h3) c (pre3.ref 1) (by decide)).trans <| (Gen.V16_of m (outs m h1 h3) c (pre3.ref 1) (by decide)).trans <| (Gen.V15_of m (outs m h1 h3) c (pre3.ref 1) (by decide)).trans (V14_pre3 m c 1)

theorem isOut3_0 (a : (pcfg3 (F := F)).Adm) : ((cfg3 a).win 0).isOut = false := rfl
theorem isOut3_1 (a : (pcfg3 (F := F)).Adm) : ((cfg3 a).win 1).isOut = false := rfl

/-- What region 3 leaves in its output array. -/
theorem outs_22 (c : Dev nD) : outs m h1 h3 22 main_v100 c = (dat3 (adm3 m) h3 (VR (Gen.V21 m (outs m h1 h3))) c).arrAt 2 (cfg3 (adm3 m)).N :=
  Pipeline.withArrays_arr spec3 winFacts3.arr_inj c (Gen.V21 m (outs3 m h1) c) (fun w => (dat3 (adm3 m) h3 (VR (Gen.V21 m (outs3 m h1))) c).arrAt w (cfg3 (adm3 m)).N) 2

theorem hF3 (c : Dev nD) : ∀ w : Fin (cfg3 (adm3 m)).W, (dat3 (adm3 m) h3 (VR (Gen.V21 m (outs m h1 h3))) c).arrAt w (cfg3 (adm3 m)).N = VR (Gen.V22 m (outs m h1 h3)) c (Pipeline.arrRef spec3 w)
  | 0 => ((dat3 (adm3 m) h3 (VR (Gen.V21 m (outs m h1 h3))) c).arrAt_in 0 (isOut3_0 _) _).trans ((A_eq3 (adm3 m) h3 (VR (Gen.V21 m (outs m h1 h3))) c 0).trans (Gen.V22_of m (outs m h1 h3) c main_v53 (by decide)).symm)
  | 1 => ((dat3 (adm3 m) h3 (VR (Gen.V21 m (outs m h1 h3))) c).arrAt_in 1 (isOut3_1 _) _).trans ((A_eq3 (adm3 m) h3 (VR (Gen.V21 m (outs m h1 h3))) c 1).trans (Gen.V22_of m (outs m h1 h3) c main_v99 (by decide)).symm)
  | 2 => by
      show _ = Function.update (Gen.V21 m (outs m h1 h3) c) (Proc.devRef .tc main_v100) (outs m h1 h3 22 main_v100 c) (Proc.devRef .tc main_v100)
      rw [Function.update_self]
      exact (outs_22 m h1 h3 c).symm
  | ⟨_ + 3, h⟩ => absurd h (Nat.not_lt.2 (Nat.le_add_left _ _))

theorem hrest3 (c : Dev nD) : ∀ b, b ∉ Finset.univ.image (Pipeline.arrRef spec3) → VR (Gen.V22 m (outs m h1 h3)) c b = VR (Gen.V21 m (outs m h1 h3)) c b :=
  fun b hb => Gen.V22_of m (outs m h1 h3) c b fun hmem =>
    hb (Finset.mem_image.mpr ⟨2, Finset.mem_univ _, (List.mem_singleton.mp hmem).symm⟩)

/-- The unscoped buffers that are no array of region 3: the two tables, at the chunk bounds, and the rest. -/
theorem rest3_split (c : Dev nD) :
    (Pipeline.unscopedRest (Ix := Unit) (Name := ℕ) (U := UR sig nD τ) (Lvl := ℕ) spec3 c (VR (Gen.V21 m (outs m h1 h3)) c) : sProp 𝕄)
      = iprop(Pipeline.prefHeld pre3 c (fun _ => fullShare) (tbl3 m) ∗ Pipeline.unscopedRestP pre3 spec3 c (VR (Gen.V21 m (outs m h1 h3)) c)) := by
  rw [Pipeline.unscopedRest_split preFacts3 c (VR (Gen.V21 m (outs m h1 h3)) c),
    show (fun k => VR (Gen.V21 m (outs m h1 h3)) c (pre3.ref k)) = tbl3 m from funext (V21_pre3 m h1 h3 c)]

set_option backward.isDefEq.respectTransparency.types false in
/-- Region 3 (the second scatter) over the thread state: entered from every unscoped buffer at `V21`, left at `V22`; the two
    tables pass through the region's invariant at the full share and come back. -/
def reg3 : Pipeline.RegionSeg (pcfgs (F := F)) (adm m) (pdats m h1 h3) () defs₀ Variants.none kiL kiLv 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (adm3 m) h3 (VR (Gen.V21 m (outs m h1 h3))) c).loose
  hwaits := Pipeline.hwaits_of_owed_zero _ _ _ _ kiL kiLv 3 fun _ _ => rfl
  pre c := iprop(StableHlo.held (c : Thread nD τ) (Pipeline.ucRefs τ sig) (Gen.V21 m (outs m h1 h3) c) ∗ kiR c)
  post c := iprop(StableHlo.held (c : Thread nD τ) (Pipeline.ucRefs τ sig) (Gen.V22 m (outs m h1 h3) c) ∗ kiR c)
  X c := iprop(∃ r, prngReg c r)
  Y c := iprop((∃ r, prngReg c r) ∗ Pipeline.prefHeld pre3 c (fun _ => fullShare) (tbl3 m))
  Z c := Pipeline.unscopedRestP (Ix := Unit) (Name := ℕ) (U := UR sig nD τ) (Lvl := ℕ) pre3 spec3 c (VR (Gen.V21 m (outs m h1 h3)) c)
  hentry c := by
    rw [Pipeline.ownSems0_none]
    have hsplit := Pipeline.arrays_of_unscopedBufs (p := 3) (pcfgs (F := F)) (adm m) (pdats m h1 h3) (launch3 (F := F)).win (launch3 (F := F)).arr_whole c
      ((pdats m h1 h3 3 c).share_full fun _ => rfl) (VR (Gen.V21 m (outs m h1 h3)) c) fun _ => rfl
    rw [Pipeline.unscopedBufs_held] at hsplit
    have hpf := rest3_split m h1 h3 c
    iintro ⟨⟨Hub, Hp, HO⟩, -, -⟩
    ihave H := hsplit $$ Hub
    icases H with ⟨Ha, Hrest⟩
    ihave H2 := (BIBase.Entails.of_eq hpf) $$ Hrest
    icases H2 with ⟨Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m h1 h3 3 c).Φ 0 = iprop(Pipeline.ΦA spec3 c ∗ Pipeline.prefHeld pre3 c (fun _ => fullShare) (tbl3 m)) from rfl]; unfold Pipeline.ΦA
    iintro ⟨Hp, Ht, Hr⟩
    isplitl [Hr Hp]
    · isplitl [Hr]; · iexact Hr
      iexact Hp
    iexact Ht
  hout c := by
    rw [Pipeline.ownSems0_none, show (pdats m h1 h3 3 c).Φ (Fin.last _) = iprop(Pipeline.ΦA spec3 c ∗ Pipeline.prefHeld pre3 c (fun _ => fullShare) (tbl3 m)) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 3) (pcfgs (F := F)) (adm m) (Ix := Unit) (Name := ℕ) (U := UR sig nD τ) (Lvl := ℕ)
      (launch3 (F := F)).win (launch3 (F := F)).arr_whole c (pdats m h1 h3) ((pdats m h1 h3 3 c).share_full fun _ => rfl)
      (VR (Gen.V21 m (outs m h1 h3)) c) (VR (Gen.V22 m (outs m h1 h3)) c) ((pdats m h1 h3 3 c).arrAt · (cfg3 (adm3 m)).N) (hF3 m h1 h3 c) (hrest3 m h1 h3 c)
    rw [Pipeline.unscopedBufs_held] at hjoin
    have hpf := rest3_split m h1 h3 c
    iintro ⟨Ha, HO, ⟨Hp, Ht⟩, Hrest⟩
    imodintro
    isplitl [Ha Hrest Ht]
    · iapply hjoin
      isplitl [Ha]; · iexact Ha
      iapply (BIBase.Entails.of_eq hpf.symm)
      isplitl [Ht]; · iexact Ht
      iexact Hrest
    isplitl [Hp]; · iexact Hp
    unfold Pipeline.Dat.owesAt Pipeline.owesWithin
    icases HO with ⟨%W, -, HO⟩; iexists W; iexact HO

/-! ## The launch -/

include h1 h3 in
set_option backward.isDefEq.respectTransparency.types false in
/-- THE FRAME, given the two scatters' assumed side conditions of the chunk bounds: every weakly fair execution of @main
    from memory `m` with zero counters terminates and every final memory holds each argument as launched. -/
theorem frame_KI_of : θ_run (Cert.KernelIdeal.defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m (Ix := Unit) (U := UR sig nD τ) (Lvl := ℕ) emb₁ () Variants.none kiL kiLv (fun _ _ => rfl) ρ (outs m h1 h3) (adm m) (pdats m h1 h3)
    (O₀ := 0) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (E := kiE)
    (hE0 := by
      refine Pipeline.initEach kiL kiLv fun c => ?_
      iintro ⟨⟨-, HO, -, Hp, -⟩, -⟩
      imodintro
      isplitl [Hp]; · iexists _; iexact Hp
      iexists ∅; iexact HO)
    (hE4 := fun c => by iintro ⟨-, HO⟩; iexact HO)
    (reg0 m h1 h3) (fun _ => .rfl) (fun _ => .rfl)
    (reg1 m h1 h3) (fun _ => .rfl) (fun _ => .rfl)
    (reg2 m h1 h3) (fun _ => .rfl) (fun _ => .rfl)
    (reg3 m h1 h3) (fun _ => .rfl) (fun _ => .rfl)

end Cert.KernelIdeal.Hand

end
-- ==== Proof.KiSortFacts.lean ====
/-
  The host integer chain before the first kernel region, read at an index.
  The destinations `dst` are row 1 of the edge table followed by the self loops `0 … 49999`; under the precondition every
  destination is a node. The order `argsort dst` is a stable sort of the positions by signed less-than carrying an iota:
  its second output holds a PERMUTATION `perm` of the 850000 positions (the stable sorting map is surjective, hence
  bijective), the three takes at that order read their tables at `perm j` (the negative-index wrap and the take's clamp
  are the identity on a position), and the sorted destinations are non-decreasing (a stable sort by a strict weak order
  leaves no inversion). The three sorted arrays are then padded at the end by 1968 entries, and the two tables are the
  first and the last destination of each chunk of 1024 padded entries, floor-divided by 1024: on a non-negative word the
  printed floor division (truncated quotient, corrected where signs differ and the remainder is not zero) is the
  quotient of the values.
-/
import proofs.«425685_j80942953661103_3_alg».proof.Proof.Gen.KernelIdeal.Regions
import proofs.«425685_j80942953661103_3_alg».proof.Pre_finite_inputs
import proofs.«425685_j80942953661103_3_alg».proof.Proof.Gen.Pre_finite_inputs
import Idealize.ShloMosaic.Lib.SortFacts
import Idealize.ShloMosaic.Lib.StableHlo.Predicate
import Idealize.ShloMosaic.Lib.StableHlo.Run
import Idealize.ShloMosaic.Lib.ValueIdx
import Idealize.ShloMosaic.Lib.KernelVsHost
import Idealize.ShloMosaic.Lib.ReduceAll
import Idealize.ShloMosaic.Lib.Pipeline.Value

set_option maxRecDepth 1312

noncomputable section

namespace Cert.KernelIdeal.Hand

open Idealize.ShloMosaic Idealize.ShloMosaic.TcCoe
open Idealize.SL Idealize.SL.Sem
open Idealize.ShloMosaic.StableHlo
open Facts₀ Facts
open Facts₀ Facts

variable {F : FTy → Type} [FloatOps F]
variable (m : (ℓ : Loc nD τ sig) → Buf (Elt F) ℓ) (c : Dev nD)

/-! ## Rank-one indices, a stable sort of a vector, a wrapped take -/

theorem ix1_eq_ofFin {n : Nat} (k : Fin n) : (ValueIdx.ix1 k : (⟨1, ![n]⟩ : Shape).Idx) = Shape.Idx.ofFin k := by
  funext d
  match d with
  | ⟨0, _⟩ => exact Fin.ext rfl

/-- The second output of a two-operand stable sort of vectors reads the second operand through ONE self-map of the
    positions: the stable sorting permutation of the comparator on the pairs. -/
theorem sort2_snd_rank1 {n : Nat} {α β : Type} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- A take `x[wrap idx]` (jnp's negative-index wrap, then the gather's clamp) at a position whose index word is a
    position `k` of the table: the wrap and the clamp are the identity, the entry read is `x k`. -/
theorem take_wrap {α : Type} {N n : Nat} (hN0 : 0 < N) (hN : N < 2 ^ 31)
    (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (hb1 : (⟨1, ![n]⟩ : Shape).BroadcastsInDim ⟨2, ![n, 1]⟩ ![0])
    (hb0 : (⟨0, ![]⟩ : Shape).BroadcastsInDim ⟨1, ![n]⟩ ![])
    (x : (⟨1, ![N]⟩ : Shape).Idx → α) (idx : IVec ⟨1, ![n]⟩ 32) (z w : IVec ⟨0, ![]⟩ 32) (hz : ∀ i, z i = 0#32)
    (p : Fin n) (k : Fin N) (hk : idx (ValueIdx.ix1 p) = BitVec.ofNat 32 k.val) :
    Host.gather d x (broadcastInDim ⟨2, ![n, 1]⟩ ![0] hb1
        (select (cmpi .slt idx (broadcastInDim ⟨1, ![n]⟩ ![] hb0 z)) (addi idx (broadcastInDim ⟨1, ![n]⟩ ![] hb0 w)) idx))
      (ValueIdx.ix1 p) = x (ValueIdx.ix1 k) := by
  have hkN := k.isLt
  have hti : (BitVec.ofNat 32 k.val).toInt = (k.val : ℤ) := Predicate.toInt_ofNat_small k.val (by omega)
  have hsel : select (cmpi .slt idx (broadcastInDim ⟨1, ![n]⟩ ![] hb0 z)) (addi idx (broadcastInDim ⟨1, ![n]⟩ ![] hb0 w)) idx
      (Shape.Idx.ofFin p) = BitVec.ofNat 32 k.val := by
    rw [← ix1_eq_ofFin p, ValueIdx.select_apply, hk]
    have hc : cmpi .slt idx (broadcastInDim ⟨1, ![n]⟩ ![] hb0 z) (ValueIdx.ix1 p) = 0#1 := by
      show IntOp.cmpi .slt (idx (ValueIdx.ix1 p)) (broadcastInDim ⟨1, ![n]⟩ ![] hb0 z (ValueIdx.ix1 p)) = 0#1
      rw [hk, Predicate.bcast_scalar hb0 (by decide) z, hz]
      have h0 : (0#32 : BitVec 32).toInt = 0 := by decide
      simp only [IntOp.cmpi, BitVec.slt, hti, h0]
      have : ¬ ((k.val : ℤ) < 0) := by omega
      simp [this]
    rw [hc, ValueIdx.select_zero]
  rw [ix1_eq_ofFin p, Predicate.gather_take d hcoll hob hsim hivd x _ p hN0, ix1_eq_ofFin k]
  congr 1
  congr 1
  apply Fin.ext
  simp only [Fin.val_mk]
  rw [Predicate.bcast_col1 hb1 _ p, hsel, hti]
  simp only [Int.toNat_natCast]
  omega

/-! ## What the host stretches leave in the buffers of the index chain

Each stretch is read over an ARBITRARY valuation `W` of the buffers before it, so that nothing earlier unfolds. -/

section Reads
variable (W : Valuation τ sig (Elt F))

theorem after0_v6 : (StableHlo.after (Gen.hostOps0 (F := F)) W main_v6 : IVec S850000 32)
    = concatenate S850000 0 [⟨S800000, shapeCast S800000 ((extractStridedSlice S1x800000 ![1, 0] · slices_S2x800000_S1x800000_1_0)
        (W main_arg1)) shapeCasts_S1x800000_S800000⟩, ⟨S50000, iotaInDim S50000 32 0⟩] concatenates_S800000_S50000_S850000_d0 := by
  dsimp only [Gen.hostOps0]
  after_results
  all_goals rfl

theorem after3_v30 : (StableHlo.after (Gen.hostOps0_3 (F := F)) W main_v30 : IVec S850000 32)
    = (Host.sort2 S850000 0 comparator_i32_i32_d0 (W main_v6 : IVec S850000 32) (iotaInDim S850000 32 0)).2 := by
  dsimp only [Gen.hostOps0_3]
  after_results
  all_goals rfl

/-- The wrapped start indices of the three takes at the sorted order. -/
abbrev wrapIdx (o : IVec S850000 32) : IVec S850000x1 32 :=
  broadcastInDim S850000x1 ![0] bcast_S850000_S850000x1_0
    (select (cmpi .slt o (broadcastInDim S850000 ![] bcast_S_S850000 (constantI S_ 32 0#32)))
      (addi o (broadcastInDim S850000 ![] bcast_S_S850000 (constantI S_ 32 850000#32))) o)

theorem after4_v37 : (StableHlo.after (Gen.hostOps0_4 (F := F)) W main_v37 : IVec S850000 32)
    = Host.gather gather_S850000_S850000x1_S850000_n_0_n_n_0_1_1 (W main_v5 : IVec S850000 32) (wrapIdx (W main_v30)) := by
  dsimp only [Gen.hostOps0_4]
  after_results
  all_goals rfl

theorem after4_v44 : (StableHlo.after (Gen.hostOps0_4 (F := F)) W main_v44 : IVec S850000 32)
    = Host.gather gather_S850000_S850000x1_S850000_n_0_n_n_0_1_1 (W main_v6 : IVec S850000 32) (wrapIdx (W main_v30)) := by
  dsimp only [Gen.hostOps0_4]
  after_results_simp
  all_goals rfl

theorem after4_v51 : (StableHlo.after (Gen.hostOps0_4 (F := F)) W main_v51 : FVec F S850000 .f32)
    = Host.gather gather_S850000_S850000x1_S850000_n_0_n_n_0_1_1 (W main_v29 : FVec F S850000 .f32) (wrapIdx (W main_v30)) := by
  dsimp only [Gen.hostOps0_4]
  after_results_simp
  all_goals rfl

theorem after4_c12 : (StableHlo.after (Gen.hostOps0_4 (F := F)) W main_c_12 : IVec S_ 32) = constantI S_ 32 0#32 := by
  dsimp only [Gen.hostOps0_4]
  after_results
  all_goals rfl

theorem after5_v52 : (StableHlo.after (Gen.hostOps0_5 (F := F)) W main_v52 : IVec S851968 32)
    = pad S851968 ![0] ![1968] ![0] (W main_v37 : IVec S850000 32) (W main_c_12 : IVec S_ 32) pads_S850000_S851968_019680 h_S_ := by
  dsimp only [Gen.hostOps0_5]
  after_results
  all_goals rfl

theorem after6_c13 : (StableHlo.after (Gen.hostOps0_6 (F := F)) W main_c_13 : IVec S_ 32) = constantI S_ 32 49999#32 := by
  dsimp only [Gen.hostOps0_6]
  after_results
  all_goals rfl

theorem after7_v53 : (StableHlo.after (Gen.hostOps0_7 (F := F)) W main_v53 : IVec S851968 32)
    = pad S851968 ![0] ![1968] ![0] (W main_v44 : IVec S850000 32) (W main_c_13 : IVec S_ 32) pads_S850000_S851968_019680 h_S_ := by
  dsimp only [Gen.hostOps0_7]
  after_results
  all_goals rfl

theorem after8_cst14 : (StableHlo.after (Gen.hostOps0_8 (F := F)) W main_cst_14 : FVec F S_ .f32) = constant S_ .f32 0x00000000#32 := by
  dsimp only [Gen.hostOps0_8]
  after_results
  all_goals rfl

theorem after9_v54 : (StableHlo.after (Gen.hostOps0_9 (F := F)) W main_v54 : FVec F S851968 .f32)
    = pad S851968 ![0] ![1968] ![0] (W main_v51 : FVec F S850000 .f32) (W main_cst_14 : FVec F S_ .f32) pads_S850000_S851968_019680 h_S_ := by
  dsimp only [Gen.hostOps0_9]
  after_results
  all_goals rfl

end Reads

section Reads2
variable (W : Valuation τ sig (Elt F))

theorem after10_v57 : (StableHlo.after (Gen.hostOps0_10 (F := F)) W main_v57 : IVec S832 32)
    = shapeCast S832 ((extractStridedSlice S832x1 ![0, 0] · slices_S832x1024_S832x1_0_0)
        (shapeCast S832x1024 (W main_v53 : IVec S851968 32) shapeCasts_S851968_S832x1024)) shapeCasts_S832x1_S832 := by
  dsimp only [Gen.hostOps0_10]
  after_results
  all_goals rfl

theorem after10_v60 : (StableHlo.after (Gen.hostOps0_10 (F := F)) W main_v60 : IVec S832 32)
    = shapeCast S832 ((extractStridedSlice S832x1 ![0, 1023] · slices_S832x1024_S832x1_0_1023)
        (shapeCast S832x1024 (W main_v53 : IVec S851968 32) shapeCasts_S851968_S832x1024)) shapeCasts_S832x1_S832 := by
  dsimp only [Gen.hostOps0_10]
  after_results
  all_goals rfl

theorem after10_c15 : (StableHlo.after (Gen.hostOps0_10 (F := F)) W main_c_15 : IVec S_ 32) = constantI S_ 32 1024#32 := by
  dsimp only [Gen.hostOps0_10]
  after_results
  all_goals rfl

theorem after12_c16 : (StableHlo.after (Gen.hostOps0_12 (F := F)) W main_c_16 : IVec S_ 32) = constantI S_ 32 1024#32 := by
  dsimp only [Gen.hostOps0_12]
  after_results
  all_goals rfl

/-- jnp's `floor_divide` of a vector by a scalar as it prints: the truncated quotient, less one where the signs differ
    and the remainder is not zero. -/
def floorDivV (x : IVec S832 32) (q : IVec S_ 32) : IVec S832 32 :=
  select
    (andi (cmpi .ne (signi x) (broadcastInDim S832 ![] bcast_S_S832 (signi q)))
      (cmpi .ne (Host.remsi x (broadcastInDim S832 ![] bcast_S_S832 q)) (broadcastInDim S832 ![] bcast_S_S832 (constantI S_ 32 0#32))))
    (subi (Host.divsi x (broadcastInDim S832 ![] bcast_S_S832 q)) (broadcastInDim S832 ![] bcast_S_S832 (constantI S_ 32 1#32)))
    (Host.divsi x (broadcastInDim S832 ![] bcast_S_S832 q))

theorem after11_v61 : (StableHlo.after (Gen.hostOps0_11 (F := F)) W main_v61 : IVec S832 32)
    = floorDivV (W main_v57) (W main_c_15) := by
  dsimp only [Gen.hostOps0_11]
  after_results_simp
  all_goals rfl

theorem after13_v62 : (StableHlo.after (Gen.hostOps0_13 (F := F)) W main_v62 : IVec S832 32)
    = floorDivV (W main_v60) (W main_c_16) := by
  dsimp only [Gen.hostOps0_13]
  after_results_simp
  all_goals rfl

end Reads2

/-! ## The chain at the valuation before region 0 -/

/-- The launch contents of the edge table on core `c`. -/
abbrev edges : IVec S2x800000 32 := m ((c.tc : Thread nD τ).loc main_arg1)

theorem v6_eq : (Gen.V14 m c main_v6 : IVec S850000 32)
    = concatenate S850000 0 [⟨S800000, shapeCast S800000 ((extractStridedSlice S1x800000 ![1, 0] · slices_S2x800000_S1x800000_1_0)
        (edges m c)) shapeCasts_S1x800000_S800000⟩, ⟨S50000, iotaInDim S50000 32 0⟩] concatenates_S800000_S50000_S850000_d0 := by
  have e1 : Gen.V14 m c main_v6 = Gen.V1 m c main_v6 := (by rw [Gen.V14_of m c main_v6 (by decide), Gen.V13_of m c main_v6 (by decide), Gen.V12_of m c main_v6 (by decide), Gen.V11_of m c main_v6 (by decide), Gen.V10_of m c main_v6 (by decide), Gen.V9_of m c main_v6 (by decide), Gen.V8_of m c main_v6 (by decide), Gen.V7_of m c main_v6 (by decide), Gen.V6_of m c main_v6 (by decide), Gen.V5_of m c main_v6 (by decide), Gen.V4_of m c main_v6 (by decide), Gen.V3_of m c main_v6 (by decide), Gen.V2_of m c main_v6 (by decide)])
  rw [e1]
  exact after0_v6 (Gen.V0 m c)

theorem v30_eq : (Gen.V14 m c main_v30 : IVec S850000 32)
    = (Host.sort2 S850000 0 comparator_i32_i32_d0 (Gen.V14 m c main_v6 : IVec S850000 32) (iotaInDim S850000 32 0)).2 := by
  have e1 : Gen.V14 m c main_v30 = Gen.V4 m c main_v30 := (by rw [Gen.V14_of m c main_v30 (by decide), Gen.V13_of m c main_v30 (by decide), Gen.V12_of m c main_v30 (by decide), Gen.V11_of m c main_v30 (by decide), Gen.V10_of m c main_v30 (by decide), Gen.V9_of m c main_v30 (by decide), Gen.V8_of m c main_v30 (by decide), Gen.V7_of m c main_v30 (by decide), Gen.V6_of m c main_v30 (by decide), Gen.V5_of m c main_v30 (by decide)])
  have e2 : Gen.V14 m c main_v6 = Gen.V3 m c main_v6 := (by rw [Gen.V14_of m c main_v6 (by decide), Gen.V13_of m c main_v6 (by decide), Gen.V12_of m c main_v6 (by decide), Gen.V11_of m c main_v6 (by decide), Gen.V10_of m c main_v6 (by decide), Gen.V9_of m c main_v6 (by decide), Gen.V8_of m c main_v6 (by decide), Gen.V7_of m c main_v6 (by decide), Gen.V6_of m c main_v6 (by decide), Gen.V5_of m c main_v6 (by decide), Gen.V4_of m c main_v6 (by decide)])
  rw [e1, e2]
  exact after3_v30 (Gen.V3 m c)

theorem v37_eq : (Gen.V14 m c main_v37 : IVec S850000 32)
    = Host.gather gather_S850000_S850000x1_S850000_n_0_n_n_0_1_1 (Gen.V14 m c main_v5 : IVec S850000 32) (wrapIdx (Gen.V14 m c main_v30)) := by
  have e1 : Gen.V14 m c main_v37 = Gen.V5 m c main_v37 := (by rw [Gen.V14_of m c main_v37 (by decide), Gen.V13_of m c main_v37 (by decide), Gen.V12_of m c main_v37 (by decide), Gen.V11_of m c main_v37 (by decide), Gen.V10_of m c main_v37 (by decide), Gen.V9_of m c main_v37 (by decide), Gen.V8_of m c main_v37 (by decide), Gen.V7_of m c main_v37 (by decide), Gen.V6_of m c main_v37 (by decide)])
  have e2 : Gen.V14 m c main_v5 = Gen.V4 m c main_v5 := (by rw [Gen.V14_of m c main_v5 (by decide), Gen.V13_of m c main_v5 (by decide), Gen.V12_of m c main_v5 (by decide), Gen.V11_of m c main_v5 (by decide), Gen.V10_of m c main_v5 (by decide), Gen.V9_of m c main_v5 (by decide), Gen.V8_of m c main_v5 (by decide), Gen.V7_of m c main_v5 (by decide), Gen.V6_of m c main_v5 (by decide), Gen.V5_of m c main_v5 (by decide)])
  have e3 : Gen.V14 m c main_v30 = Gen.V4 m c main_v30 := (by rw [Gen.V14_of m c main_v30 (by decide), Gen.V13_of m c main_v30 (by decide), Gen.V12_of m c main_v30 (by decide), Gen.V11_of m c main_v30 (by decide), Gen.V10_of m c main_v30 (by decide), Gen.V9_of m c main_v30 (by decide), Gen.V8_of m c main_v30 (by decide), Gen.V7_of m c main_v30 (by decide), Gen.V6_of m c main_v30 (by decide), Gen.V5_of m c main_v30 (by decide)])
  rw [e1, e2, e3]
  exact after4_v37 (Gen.V4 m c)

theorem v44_eq : (Gen.V14 m c main_v44 : IVec S850000 32)
    = Host.gather gather_S850000_S850000x1_S850000_n_0_n_n_0_1_1 (Gen.V14 m c main_v6 : IVec S850000 32) (wrapIdx (Gen.V14 m c main_v30)) := by
  have e1 : Gen.V14 m c main_v44 = Gen.V5 m c main_v44 := (by rw [Gen.V14_of m c main_v44 (by decide), Gen.V13_of m c main_v44 (by decide), Gen.V12_of m c main_v44 (by decide), Gen.V11_of m c main_v44 (by decide), Gen.V10_of m c main_v44 (by decide), Gen.V9_of m c main_v44 (by decide), Gen.V8_of m c main_v44 (by decide), Gen.V7_of m c main_v44 (by decide), Gen.V6_of m c main_v44 (by decide)])
  have e2 : Gen.V14 m c main_v6 = Gen.V4 m c main_v6 := (by rw [Gen.V14_of m c main_v6 (by decide), Gen.V13_of m c main_v6 (by decide), Gen.V12_of m c main_v6 (by decide), Gen.V11_of m c main_v6 (by decide), Gen.V10_of m c main_v6 (by decide), Gen.V9_of m c main_v6 (by decide), Gen.V8_of m c main_v6 (by decide), Gen.V7_of m c main_v6 (by decide), Gen.V6_of m c main_v6 (by decide), Gen.V5_of m c main_v6 (by decide)])
  have e3 : Gen.V14 m c main_v30 = Gen.V4 m c main_v30 := (by rw [Gen.V14_of m c main_v30 (by decide), Gen.V13_of m c main_v30 (by decide), Gen.V12_of m c main_v30 (by decide), Gen.V11_of m c main_v30 (by decide), Gen.V10_of m c main_v30 (by decide), Gen.V9_of m c main_v30 (by decide), Gen.V8_of m c main_v30 (by decide), Gen.V7_of m c main_v30 (by decide), Gen.V6_of m c main_v30 (by decide), Gen.V5_of m c main_v30 (by decide)])
  rw [e1, e2, e3]
  exact after4_v44 (Gen.V4 m c)

theorem v51_eq : (Gen.V14 m c main_v51 : FVec F S850000 .f32)
    = Host.gather gather_S850000_S850000x1_S850000_n_0_n_n_0_1_1 (Gen.V14 m c main_v29 : FVec F S850000 .f32) (wrapIdx (Gen.V14 m c main_v30)) := by
  have e1 : Gen.V14 m c main_v51 = Gen.V5 m c main_v51 := (by rw [Gen.V14_of m c main_v51 (by decide), Gen.V13_of m c main_v51 (by decide), Gen.V12_of m c main_v51 (by decide), Gen.V11_of m c main_v51 (by decide), Gen.V10_of m c main_v51 (by decide), Gen.V9_of m c main_v51 (by decide), Gen.V8_of m c main_v51 (by decide), Gen.V7_of m c main_v51 (by decide), Gen.V6_of m c main_v51 (by decide)])
  have e2 : Gen.V14 m c main_v29 = Gen.V4 m c main_v29 := (by rw [Gen.V14_of m c main_v29 (by decide), Gen.V13_of m c main_v29 (by decide), Gen.V12_of m c main_v29 (by decide), Gen.V11_of m c main_v29 (by decide), Gen.V10_of m c main_v29 (by decide), Gen.V9_of m c main_v29 (by decide), Gen.V8_of m c main_v29 (by decide), Gen.V7_of m c main_v29 (by decide), Gen.V6_of m c main_v29 (by decide), Gen.V5_of m c main_v29 (by decide)])
  have e3 : Gen.V14 m c main_v30 = Gen.V4 m c main_v30 := (by rw [Gen.V14_of m c main_v30 (by decide), Gen.V13_of m c main_v30 (by decide), Gen.V12_of m c main_v30 (by decide), Gen.V11_of m c main_v30 (by decide), Gen.V10_of m c main_v30 (by decide), Gen.V9_of m c main_v30 (by decide), Gen.V8_of m c main_v30 (by decide), Gen.V7_of m c main_v30 (by decide), Gen.V6_of m c main_v30 (by decide), Gen.V5_of m c main_v30 (by decide)])
  rw [e1, e2, e3]
  exact after4_v51 (Gen.V4 m c)

theorem v52_eq : (Gen.V14 m c main_v52 : IVec S851968 32)
    = pad S851968 ![0] ![1968] ![0] (Gen.V14 m c main_v37 : IVec S850000 32) (constantI S_ 32 0#32) pads_S850000_S851968_019680 h_S_ := by
  have e1 : Gen.V14 m c main_v52 = Gen.V6 m c main_v52 := (by rw [Gen.V14_of m c main_v52 (by decide), Gen.V13_of m c main_v52 (by decide), Gen.V12_of m c main_v52 (by decide), Gen.V11_of m c main_v52 (by decide), Gen.V10_of m c main_v52 (by decide), Gen.V9_of m c main_v52 (by decide), Gen.V8_of m c main_v52 (by decide), Gen.V7_of m c main_v52 (by decide)])
  have e2 : Gen.V14 m c main_v37 = Gen.V5 m c main_v37 := (by rw [Gen.V14_of m c main_v37 (by decide), Gen.V13_of m c main_v37 (by decide), Gen.V12_of m c main_v37 (by decide), Gen.V11_of m c main_v37 (by decide), Gen.V10_of m c main_v37 (by decide), Gen.V9_of m c main_v37 (by decide), Gen.V8_of m c main_v37 (by decide), Gen.V7_of m c main_v37 (by decide), Gen.V6_of m c main_v37 (by decide)])
  rw [e1, e2, ← after4_c12 (Gen.V4 m c)]
  exact after5_v52 (Gen.V5 m c)

theorem v53_eq : (Gen.V14 m c main_v53 : IVec S851968 32)
    = pad S851968 ![0] ![1968] ![0] (Gen.V14 m c main_v44 : IVec S850000 32) (constantI S_ 32 49999#32) pads_S850000_S851968_019680 h_S_ := by
  have e1 : Gen.V14 m c main_v53 = Gen.V8 m c main_v53 := (by rw [Gen.V14_of m c main_v53 (by decide), Gen.V13_of m c main_v53 (by decide), Gen.V12_of m c main_v53 (by decide), Gen.V11_of m c main_v53 (by decide), Gen.V10_of m c main_v53 (by decide), Gen.V9_of m c main_v53 (by decide)])
  have e2 : Gen.V14 m c main_v44 = Gen.V7 m c main_v44 := (by rw [Gen.V14_of m c main_v44 (by decide), Gen.V13_of m c main_v44 (by decide), Gen.V12_of m c main_v44 (by decide), Gen.V11_of m c main_v44 (by decide), Gen.V10_of m c main_v44 (by decide), Gen.V9_of m c main_v44 (by decide), Gen.V8_of m c main_v44 (by decide)])
  rw [e1, e2, ← after6_c13 (Gen.V6 m c)]
  exact after7_v53 (Gen.V7 m c)

theorem v54_eq : (Gen.V14 m c main_v54 : FVec F S851968 .f32)
    = pad S851968 ![0] ![1968] ![0] (Gen.V14 m c main_v51 : FVec F S850000 .f32) (constant (F := F) S_ .f32 0x00000000#32) pads_S850000_S851968_019680 h_S_ := by
  have e1 : Gen.V14 m c main_v54 = Gen.V10 m c main_v54 := (by rw [Gen.V14_of m c main_v54 (by decide), Gen.V13_of m c main_v54 (by decide), Gen.V12_of m c main_v54 (by decide), Gen.V11_of m c main_v54 (by decide)])
  have e2 : Gen.V14 m c main_v51 = Gen.V9 m c main_v51 := (by rw [Gen.V14_of m c main_v51 (by decide), Gen.V13_of m c main_v51 (by decide), Gen.V12_of m c main_v51 (by decide), Gen.V11_of m c main_v51 (by decide), Gen.V10_of m c main_v51 (by decide)])
  rw [e1, e2, ← after8_cst14 (Gen.V8 m c)]
  exact after9_v54 (Gen.V9 m c)

theorem v61_eq : (Gen.V14 m c main_v61 : IVec S832 32)
    = floorDivV (shapeCast S832 ((extractStridedSlice S832x1 ![0, 0] · slices_S832x1024_S832x1_0_0)
        (shapeCast S832x1024 (Gen.V14 m c main_v53 : IVec S851968 32) shapeCasts_S851968_S832x1024)) shapeCasts_S832x1_S832)
        (constantI S_ 32 1024#32) := by
  have e1 : Gen.V14 m c main_v61 = Gen.V12 m c main_v61 := (by rw [Gen.V14_of m c main_v61 (by decide), Gen.V13_of m c main_v61 (by decide)])
  have e2 : Gen.V14 m c main_v53 = Gen.V10 m c main_v53 := (by rw [Gen.V14_of m c main_v53 (by decide), Gen.V13_of m c main_v53 (by decide), Gen.V12_of m c main_v53 (by decide), Gen.V11_of m c main_v53 (by decide)])
  rw [e1, e2, ← after10_v57 (Gen.V10 m c), ← after10_c15 (Gen.V10 m c)]
  exact after11_v61 (Gen.V11 m c)

theorem v62_eq : (Gen.V14 m c main_v62 : IVec S832 32)
    = floorDivV (shapeCast S832 ((extractStridedSlice S832x1 ![0, 1023] · slices_S832x1024_S832x1_0_1023)
        (shapeCast S832x1024 (Gen.V14 m c main_v53 : IVec S851968 32) shapeCasts_S851968_S832x1024)) shapeCasts_S832x1_S832)
        (constantI S_ 32 1024#32) := by
  have e2 : Gen.V14 m c main_v53 = Gen.V10 m c main_v53 := (by rw [Gen.V14_of m c main_v53 (by decide), Gen.V13_of m c main_v53 (by decide), Gen.V12_of m c main_v53 (by decide), Gen.V11_of m c main_v53 (by decide)])
  have e3 : Gen.V13 m c main_v60 = Gen.V11 m c main_v60 := (by rw [Gen.V13_of m c main_v60 (by decide), Gen.V12_of m c main_v60 (by decide)])
  rw [e2, ← after10_v60 (Gen.V10 m c), ← after12_c16 (Gen.V12 m c)]
  exact (after13_v62 (Gen.V13 m c)).trans (by rw [e3])

/-! ## The precondition at a core, the sort's permutation -/

/-- The precondition at core `c`, in the form the claim's `Pre_KernelIdeal m` gives it. -/
abbrev PreAt [hP : Cert.Pre_finite_inputs.Facts] : Prop :=
  (Cert.Pre_finite_inputs.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) = (fun _ => 1#1)

/-- "Sorts strictly before": the signed comparison of two destination words. -/
def before (k k' : Fin 850000) : Bool :=
  IntOp.cmpi .slt (Gen.V14 m c main_v6 (ValueIdx.ix1 k)) (Gen.V14 m c main_v6 (ValueIdx.ix1 k')) == 1#1

/-- The sort's permutation: the source position of the sorted array's `j`-th entry. -/
def perm : Equiv.Perm (Fin 850000) :=
  Equiv.ofBijective (sortedFrom (before m c)) ⟨sortedFrom_injective _, sortedFrom_surjective _⟩

theorem perm_apply (j : Fin 850000) : perm m c j = sortedFrom (before m c) j := by
  unfold perm
  exact Equiv.ofBijective_apply _ _ _

-- the permutation is used only through `perm_apply`
attribute [irreducible] perm

/-! ## The destinations: the edge table's second row, then the self loops -/

theorem dst_lo (j : Fin 850000) (h : j.val < 800000) :
    Gen.V14 m c main_v6 (ValueIdx.ix1 j) = edges m c (ValueIdx.ix2 (1 : Fin 2) (⟨j.val, h⟩ : Fin 800000)) := by
  refine (congrFun (v6_eq m c) (ValueIdx.ix1 j)).trans ?_
  refine (concatenate_pair_apply_left (0 : Fin S850000.rank) _ _ concatenates_S800000_S50000_S850000_d0 (ValueIdx.ix1 j) rfl
    (ValueIdx.ix1 (⟨j.val, h⟩ : Fin 800000)) ?_).trans ?_
  · intro b
    match b with
    | ⟨0, _⟩ => rfl
  refine (shapeCast_apply _ shapeCasts_S1x800000_S800000 (ValueIdx.ix1 (⟨j.val, h⟩ : Fin 800000))
    (ValueIdx.ix2 (0 : Fin 1) (⟨j.val, h⟩ : Fin 800000)) ?_).trans ?_
  · rw [Shape.rowMajor_val_one, Shape.rowMajor_val_two]
    simp
  refine extractStridedSlice_apply ![1, 0] _ slices_S2x800000_S1x800000_1_0 _ (ValueIdx.ix2 (1 : Fin 2) (⟨j.val, h⟩ : Fin 800000)) ?_
  intro a
  match a with
  | ⟨0, _⟩ => rfl
  | ⟨1, _⟩ => simp

theorem dst_hi (j : Fin 850000) (h : 800000 ≤ j.val) :
    Gen.V14 m c main_v6 (ValueIdx.ix1 j) = BitVec.ofNat 32 (j.val - 800000) := by
  refine (congrFun (v6_eq m c) (ValueIdx.ix1 j)).trans ?_
  refine (concatenate_pair_apply_right (0 : Fin S850000.rank) _ _ concatenates_S800000_S50000_S850000_d0 (ValueIdx.ix1 j) rfl rfl
    (ValueIdx.ix1 (⟨j.val - 800000, by omega⟩ : Fin 50000)) ?_ ?_).trans ?_
  · intro b hb
    match b with
    | ⟨0, _⟩ => exact absurd rfl hb
  · show j.val - 800000 + 800000 = j.val
    omega
  rfl

/-- Row 1 of the edge table, flattened, read at a position. -/
theorem row1_apply (hs : S2x800000.Slices ![1, 0] S1x800000) (hc : S1x800000.ShapeCasts S800000) (e : IVec S2x800000 32) (k : Fin 800000) :
    shapeCast S800000 ((extractStridedSlice S1x800000 ![1, 0] · hs) e) hc (ValueIdx.ix1 k) = e (ValueIdx.ix2 (1 : Fin 2) k) := by
  refine (shapeCast_apply _ hc (ValueIdx.ix1 k) (ValueIdx.ix2 (0 : Fin 1) k) ?_).trans ?_
  · rw [Shape.rowMajor_val_one, Shape.rowMajor_val_two]
    simp
  refine extractStridedSlice_apply ![1, 0] _ hs _ (ValueIdx.ix2 (1 : Fin 2) k) ?_
  intro a
  match a with
  | ⟨0, _⟩ => rfl
  | ⟨1, _⟩ => simp

instance subsingleton_S_ : Subsingleton S_.Idx := ⟨fun a b => funext fun d => d.elim0⟩

/-- The precondition's last conjunct: every destination of the edge table is a node. -/
theorem edge_dst_range [hP : Cert.Pre_finite_inputs.Facts] (hpre : PreAt m c) (k : Fin 800000) :
    0 ≤ (edges m c (ValueIdx.ix2 (1 : Fin 2) k)).toInt ∧ (edges m c (ValueIdx.ix2 (1 : Fin 2) k)).toInt < 50000 := by
  have h := congrFun hpre ValueIdx.ix0
  dsimp only [Cert.Pre_finite_inputs.fn, Cert.Pre_finite_inputs.fn_part1] at h
  have h33 := (IntOp.andi_eq_one.1 h).2
  have h32 := Host.reduce_andi_all _ _ _ _ _ h33 (ValueIdx.ix1 k)
  obtain ⟨hge, hlt⟩ := IntOp.andi_eq_one.1 h32
  have e0 : ∀ (hb : Cert.Pre_finite_inputs.S_.BroadcastsInDim Cert.Pre_finite_inputs.S800000 (![] : Fin 0 → Fin Cert.Pre_finite_inputs.S800000.rank)) (w : BitVec 32),
      broadcastInDim Cert.Pre_finite_inputs.S800000 ![] hb (constantI Cert.Pre_finite_inputs.S_ 32 w) (ValueIdx.ix1 k) = w :=
    fun hb w => Predicate.bcast_scalar hb (by decide) _ _
  have hge' : IntOp.cmpi .sge (edges m c (ValueIdx.ix2 (1 : Fin 2) k)) 0#32 = 1#1 := by
    rw [← row1_apply _ _ (edges m c) k, ← e0 _ 0#32]; exact hge
  have hlt' : IntOp.cmpi .slt (edges m c (ValueIdx.ix2 (1 : Fin 2) k)) 50000#32 = 1#1 := by
    rw [← row1_apply _ _ (edges m c) k, ← e0 _ 50000#32]; exact hlt
  have h0 : (0#32 : BitVec 32).toInt = 0 := by decide
  have h5 : (50000#32 : BitVec 32).toInt = 50000 := by decide
  simp only [IntOp.cmpi, Predicate.ofBool_eq_one_iff, BitVec.sle, BitVec.slt, decide_eq_true_eq, h0, h5] at hge' hlt'
  exact ⟨hge', hlt'⟩

/-! ## The destinations are nodes; the self loops -/

theorem dst_lt [hP : Cert.Pre_finite_inputs.Facts] (hpre : PreAt m c) (j : Fin 850000) :
    0 ≤ (Gen.V14 m c main_v6 (ValueIdx.ix1 j)).toInt ∧ (Gen.V14 m c main_v6 (ValueIdx.ix1 j)).toInt < 50000 := by
  rcases Nat.lt_or_ge j.val 800000 with h | h
  · rw [dst_lo m c j h]
    exact edge_dst_range m c hpre ⟨j.val, h⟩
  · rw [dst_hi m c j h, Predicate.toInt_ofNat_small _ (by have := j.isLt; omega)]
    have := j.isLt
    omega

theorem dst_selfloop (n : Fin 50000) :
    Gen.V14 m c main_v6 (ValueIdx.ix1 (⟨800000 + n.val, by omega⟩ : Fin 850000)) = BitVec.ofNat 32 n.val := by
  rw [dst_hi m c _ (by show 800000 ≤ 800000 + n.val; omega)]
  exact congrArg (BitVec.ofNat 32) (by show 800000 + n.val - 800000 = n.val; omega)

/-! ## The sort: a permutation, and the sorted order -/

theorem ix1_zero {n : Nat} (k : Fin n) : (ValueIdx.ix1 k : (⟨1, ![n]⟩ : Shape).Idx) 0 = k := rfl

theorem cmp_before_iff (a b : BitVec 32) : (IntOp.cmpi .slt a b == 1#1) = true ↔ a.toInt < b.toInt := by
  rw [beq_iff_eq]
  show BitVec.ofBool (a.slt b) = 1#1 ↔ _
  rw [Predicate.ofBool_eq_one_iff, BitVec.slt, decide_eq_true_iff]

theorem before_iff (k k' : Fin 850000) : before m c k k' = true
    ↔ (Gen.V14 m c main_v6 (ValueIdx.ix1 k)).toInt < (Gen.V14 m c main_v6 (ValueIdx.ix1 k')).toInt := by
  unfold before
  exact cmp_before_iff _ _

/-- The sorted order (the sort's second output, an iota carried along) holds the permutation's values. -/
theorem v30_apply (j : Fin 850000) : Gen.V14 m c main_v30 (ValueIdx.ix1 j) = BitVec.ofNat 32 (perm m c j).val := by
  refine (congrFun (v30_eq m c) (ValueIdx.ix1 j)).trans ?_
  have hb : (fun k k' : Fin 850000 => comparator_i32_i32_d0
        ((Gen.V14 m c main_v6 : IVec S850000 32) (Shape.Idx.ofFin k), iotaInDim S850000 32 0 (Shape.Idx.ofFin k))
        ((Gen.V14 m c main_v6 : IVec S850000 32) (Shape.Idx.ofFin k'), iotaInDim S850000 32 0 (Shape.Idx.ofFin k')) == 1#1)
      = before m c := by
    funext k k'
    unfold before comparator_i32_i32_d0
    rw [ix1_eq_ofFin, ix1_eq_ofFin]
  have h1 := sort2_snd_rank1 (n := 850000) comparator_i32_i32_d0 (Gen.V14 m c main_v6 : IVec S850000 32) (iotaInDim S850000 32 0) (ValueIdx.ix1 j)
  rw [hb] at h1
  rw [ix1_zero] at h1
  rw [← perm_apply] at h1
  exact h1.trans (Predicate.iota_apply _)

theorem srcS_apply (j : Fin 850000) : Gen.V14 m c main_v37 (ValueIdx.ix1 j) = Gen.V14 m c main_v5 (ValueIdx.ix1 (perm m c j)) := by
  refine (congrFun (v37_eq m c) (ValueIdx.ix1 j)).trans ?_
  exact take_wrap (by norm_num) (by norm_num) gather_S850000_S850000x1_S850000_n_0_n_n_0_1_1 rfl rfl rfl rfl
    bcast_S850000_S850000x1_0 bcast_S_S850000 _ (Gen.V14 m c main_v30) (constantI S_ 32 0#32) (constantI S_ 32 850000#32)
    (fun _ => rfl) j (perm m c j) (v30_apply m c j)

theorem dstS_apply (j : Fin 850000) : Gen.V14 m c main_v44 (ValueIdx.ix1 j) = Gen.V14 m c main_v6 (ValueIdx.ix1 (perm m c j)) := by
  refine (congrFun (v44_eq m c) (ValueIdx.ix1 j)).trans ?_
  exact take_wrap (by norm_num) (by norm_num) gather_S850000_S850000x1_S850000_n_0_n_n_0_1_1 rfl rfl rfl rfl
    bcast_S850000_S850000x1_0 bcast_S_S850000 _ (Gen.V14 m c main_v30) (constantI S_ 32 0#32) (constantI S_ 32 850000#32)
    (fun _ => rfl) j (perm m c j) (v30_apply m c j)

theorem normS_apply (j : Fin 850000) : Gen.V14 m c main_v51 (ValueIdx.ix1 j) = Gen.V14 m c main_v29 (ValueIdx.ix1 (perm m c j)) := by
  refine (congrFun (v51_eq m c) (ValueIdx.ix1 j)).trans ?_
  exact take_wrap (by norm_num) (by norm_num) gather_S850000_S850000x1_S850000_n_0_n_n_0_1_1 rfl rfl rfl rfl
    bcast_S850000_S850000x1_0 bcast_S_S850000 _ (Gen.V14 m c main_v30) (constantI S_ 32 0#32) (constantI S_ 32 850000#32)
    (fun _ => rfl) j (perm m c j) (v30_apply m c j)

/-- The stable sort by signed less-than leaves no inversion: the destinations are non-decreasing along the sorted order. -/
theorem dstS_mono (i j : Fin 850000) (h : i ≤ j) :
    (Gen.V14 m c main_v6 (ValueIdx.ix1 (perm m c i))).toInt ≤ (Gen.V14 m c main_v6 (ValueIdx.ix1 (perm m c j))).toInt := by
  rcases lt_or_eq_of_le h with hlt | heq
  · have hno := sortedFrom_noInversion (before m c) (before m c)
      (fun a b hab => by
        rw [Bool.eq_false_iff]; intro hba
        have := (before_iff m c a b).1 hab
        have := (before_iff m c b a).1 hba
        omega)
      (fun _ _ hab => hab)
      (fun a b d hab hbd => by
        rw [Bool.eq_false_iff] at hab hbd ⊢
        intro had
        have h1 := (before_iff m c a d).1 had
        have h2 : ¬ _ := fun hh => hab ((before_iff m c a b).2 hh)
        have h3 : ¬ _ := fun hh => hbd ((before_iff m c b d).2 hh)
        omega)
      i j hlt
    rw [← perm_apply, ← perm_apply, Bool.eq_false_iff] at hno
    have h2 : ¬ _ := fun hh => hno ((before_iff m c _ _).2 hh)
    omega
  · rw [heq]

/-! ## The padded arrays -/

/-- The pad by 1968 entries at the end, read at a position. -/
theorem pad_tail_apply {α : Type} (x : S850000.Idx → α) (v : S_.Idx → α) (j : Fin 851968) :
    pad S851968 ![0] ![1968] ![0] x v pads_S850000_S851968_019680 h_S_ (ValueIdx.ix1 j)
      = if h : j.val < 850000 then x (ValueIdx.ix1 (⟨j.val, h⟩ : Fin 850000)) else v ValueIdx.ix0 := by
  split
  · rename_i h
    refine pad_apply_of_inside ![0] ![1968] ![0] x v pads_S850000_S851968_019680 h_S_ (ValueIdx.ix1 j)
      (ValueIdx.ix1 (⟨j.val, h⟩ : Fin 850000)) ?_
    intro a
    match a with
    | ⟨0, _⟩ =>
      show j.val = 0 + j.val * (0 + 1)
      omega
  · rename_i h
    refine (pad_apply_of_not_inside ![0] ![1968] ![0] x v pads_S850000_S851968_019680 h_S_ (ValueIdx.ix1 j) (0 : Fin 1) ?_).trans ?_
    · show ¬(0 ≤ j.val ∧ (j.val - 0) % (0 + 1) = 0 ∧ (j.val - 0) / (0 + 1) < 850000)
      omega
    · exact congrArg v (Subsingleton.elim _ _)

theorem srcP_apply (j : Fin 851968) : Gen.V14 m c main_v52 (ValueIdx.ix1 j)
    = if h : j.val < 850000 then Gen.V14 m c main_v37 (ValueIdx.ix1 (⟨j.val, h⟩ : Fin 850000)) else 0#32 :=
  (congrFun (v52_eq m c) (ValueIdx.ix1 j)).trans (pad_tail_apply _ _ j)

theorem dstP_apply (j : Fin 851968) : Gen.V14 m c main_v53 (ValueIdx.ix1 j)
    = if h : j.val < 850000 then Gen.V14 m c main_v44 (ValueIdx.ix1 (⟨j.val, h⟩ : Fin 850000)) else 49999#32 :=
  (congrFun (v53_eq m c) (ValueIdx.ix1 j)).trans (pad_tail_apply _ _ j)

theorem normP_apply (j : Fin 851968) : Gen.V14 m c main_v54 (ValueIdx.ix1 j)
    = if h : j.val < 850000 then Gen.V14 m c main_v51 (ValueIdx.ix1 (⟨j.val, h⟩ : Fin 850000))
      else (constant (F := F) S_ .f32 0x00000000#32 : FVec F S_ .f32) ValueIdx.ix0 :=
  (congrFun (v54_eq m c) (ValueIdx.ix1 j)).trans (pad_tail_apply _ _ j)

/-- Every padded destination is a node: a sorted destination, or the pad 49999. -/
theorem dstP_lt [hP : Cert.Pre_finite_inputs.Facts] (hpre : PreAt m c) (j : Fin 851968) :
    (Gen.V14 m c main_v53 (ValueIdx.ix1 j)).toNat < 50000 := by
  rw [dstP_apply]
  split
  · rename_i h
    rw [dstS_apply]
    obtain ⟨h0, h1⟩ := dst_lt m c hpre (perm m c ⟨j.val, h⟩)
    generalize Gen.V14 m c main_v6 (ValueIdx.ix1 (perm m c ⟨j.val, h⟩)) = w at h0 h1
    have hw := w.isLt
    rw [BitVec.toInt_eq_toNat_cond] at h0 h1
    split at h0 <;> omega
  · decide

/-! ## The two tables: the first and the last destination of each chunk of 1024, floor-divided by 1024 -/

theorem chunk_first_apply (x : IVec S851968 32) (g : Fin 832) :
    shapeCast S832 ((extractStridedSlice S832x1 ![0, 0] · slices_S832x1024_S832x1_0_0)
        (shapeCast S832x1024 x shapeCasts_S851968_S832x1024)) shapeCasts_S832x1_S832 (ValueIdx.ix1 g)
      = x (ValueIdx.ix1 (⟨g.val * 1024, by omega⟩ : Fin 851968)) := by
  refine (shapeCast_apply _ shapeCasts_S832x1_S832 (ValueIdx.ix1 g) (ValueIdx.ix2 g (0 : Fin 1)) ?_).trans ?_
  · rw [Shape.rowMajor_val_one, Shape.rowMajor_val_two]
    simp
  refine (extractStridedSlice_apply ![0, 0] _ slices_S832x1024_S832x1_0_0 (ValueIdx.ix2 g (0 : Fin 1))
    (ValueIdx.ix2 g (0 : Fin 1024)) ?_).trans ?_
  · intro a
    match a with
    | ⟨0, _⟩ => simp
    | ⟨1, _⟩ => simp
  refine shapeCast_apply x shapeCasts_S851968_S832x1024 (ValueIdx.ix2 g (0 : Fin 1024)) (ValueIdx.ix1 (⟨g.val * 1024, by omega⟩ : Fin 851968)) ?_
  rw [Shape.rowMajor_val_one, Shape.rowMajor_val_two]
  simp

theorem chunk_last_apply (x : IVec S851968 32) (g : Fin 832) :
    shapeCast S832 ((extractStridedSlice S832x1 ![0, 1023] · slices_S832x1024_S832x1_0_1023)
        (shapeCast S832x1024 x shapeCasts_S851968_S832x1024)) shapeCasts_S832x1_S832 (ValueIdx.ix1 g)
      = x (ValueIdx.ix1 (⟨g.val * 1024 + 1023, by omega⟩ : Fin 851968)) := by
  refine (shapeCast_apply _ shapeCasts_S832x1_S832 (ValueIdx.ix1 g) (ValueIdx.ix2 g (0 : Fin 1)) ?_).trans ?_
  · rw [Shape.rowMajor_val_one, Shape.rowMajor_val_two]
    simp
  refine (extractStridedSlice_apply ![0, 1023] _ slices_S832x1024_S832x1_0_1023 (ValueIdx.ix2 g (0 : Fin 1))
    (ValueIdx.ix2 g (⟨1023, by omega⟩ : Fin 1024)) ?_).trans ?_
  · intro a
    match a with
    | ⟨0, _⟩ => simp
    | ⟨1, _⟩ => simp
  refine shapeCast_apply x shapeCasts_S851968_S832x1024 (ValueIdx.ix2 g (⟨1023, by omega⟩ : Fin 1024)) (ValueIdx.ix1 (⟨g.val * 1024 + 1023, by omega⟩ : Fin 851968)) ?_
  rw [Shape.rowMajor_val_one, Shape.rowMajor_val_two]
  simp

/-- The sign of a word as `stablehlo.sign` gives it. -/
def sgn32 (x : BitVec 32) : BitVec 32 := if x = 0 then 0 else if x.msb then -1 else 1

/-- jnp's `floor_divide` of one word by another as it prints. -/
def floorDivS (x q : BitVec 32) : BitVec 32 :=
  Scalar.select (IntOp.andi (IntOp.cmpi .ne (sgn32 x) (sgn32 q)) (IntOp.cmpi .ne (IntOp.remsi .host x q) 0#32))
    (IntOp.subi (IntOp.divsi .host x q) 1#32) (IntOp.divsi .host x q)

/-- jnp's `floor_divide` of one word by 1024 as it prints. -/
def floorDiv1024 (x : BitVec 32) : BitVec 32 := floorDivS x 1024#32

theorem bcast832 (v : IVec S_ 32) (g : Fin 832) : broadcastInDim S832 ![] bcast_S_S832 v (ValueIdx.ix1 g) = v ValueIdx.ix0 :=
  (Predicate.bcast_scalar bcast_S_S832 (by decide) v _).trans (congrArg v (Subsingleton.elim _ _))

theorem floorDivV_apply (x : IVec S832 32) (q : BitVec 32) (g : Fin 832) :
    floorDivV x (constantI S_ 32 q) (ValueIdx.ix1 g) = floorDivS (x (ValueIdx.ix1 g)) q := by
  unfold floorDivV floorDivS
  rw [ValueIdx.select_apply]
  show Scalar.select
      (IntOp.andi (IntOp.cmpi .ne (sgn32 (x (ValueIdx.ix1 g))) (broadcastInDim S832 ![] bcast_S_S832 (signi (constantI S_ 32 q)) (ValueIdx.ix1 g)))
        (IntOp.cmpi .ne (IntOp.remsi .host (x (ValueIdx.ix1 g)) (broadcastInDim S832 ![] bcast_S_S832 (constantI S_ 32 q) (ValueIdx.ix1 g)))
          (broadcastInDim S832 ![] bcast_S_S832 (constantI S_ 32 0#32) (ValueIdx.ix1 g))))
      (IntOp.subi (IntOp.divsi .host (x (ValueIdx.ix1 g)) (broadcastInDim S832 ![] bcast_S_S832 (constantI S_ 32 q) (ValueIdx.ix1 g)))
        (broadcastInDim S832 ![] bcast_S_S832 (constantI S_ 32 1#32) (ValueIdx.ix1 g)))
      (IntOp.divsi .host (x (ValueIdx.ix1 g)) (broadcastInDim S832 ![] bcast_S_S832 (constantI S_ 32 q) (ValueIdx.ix1 g))) = _
  simp only [bcast832]
  rfl

theorem divsi_1024 (u : ArithUnit) (w : BitVec 32) (hw : w.toNat < 2 ^ 31) : (IntOp.divsi u w 1024#32).toNat = w.toNat / 1024 := by
  have hcorner : ¬ IntOp.SDivCorner w 1024#32 := by
    intro hc; rcases hc with hc | ⟨_, hc⟩ <;> exact absurd hc (by decide)
  have hm : w.msb = false := BitVec.msb_eq_false_iff_two_mul_lt.mpr (by omega)
  simp only [IntOp.divsi, if_neg hcorner, BitVec.sdiv_eq, hm, show (1024#32 : BitVec 32).msb = false from by decide, BitVec.udiv_eq,
    BitVec.toNat_udiv, BitVec.toNat_ofNat]

/-- On a non-negative word the printed floor division is the quotient of the values. -/
theorem floorDiv1024_toNat (x : BitVec 32) (hx : x.toNat < 2 ^ 31) : (floorDiv1024 x).toNat = x.toNat / 1024 := by
  have hm : x.msb = false := BitVec.msb_eq_false_iff_two_mul_lt.mpr (by omega)
  have e2 : ∀ y : BitVec 1, IntOp.andi 0#1 y = 0#1 := by decide
  have e3 : ∀ y : BitVec 1, IntOp.andi y 0#1 = 0#1 := by decide
  have hq : sgn32 1024#32 = 1#32 := by decide
  unfold floorDiv1024 floorDivS
  by_cases h0 : x = 0
  · subst h0
    have hr : IntOp.cmpi .ne (IntOp.remsi .host (0 : BitVec 32) 1024#32) 0#32 = 0#1 := by decide
    rw [hr, e3, ValueIdx.select_zero]
    exact divsi_1024 .host (0 : BitVec 32) (by decide)
  · have hs : sgn32 x = 1#32 := by
      unfold sgn32
      rw [if_neg h0, hm]
      rfl
    have e1 : IntOp.cmpi .ne (1#32 : BitVec 32) 1#32 = 0#1 := by decide
    rw [hs, hq, e1, e2, ValueIdx.select_zero]
    exact divsi_1024 .host x hx

theorem tblLo_apply (g : Fin 832) : Gen.V14 m c main_v61 (ValueIdx.ix1 g)
    = floorDiv1024 (Gen.V14 m c main_v53 (ValueIdx.ix1 (⟨g.val * 1024, by omega⟩ : Fin 851968))) := by
  refine (congrFun (v61_eq m c) (ValueIdx.ix1 g)).trans ?_
  rw [floorDivV_apply, chunk_first_apply]
  rfl

theorem tblHi_apply (g : Fin 832) : Gen.V14 m c main_v62 (ValueIdx.ix1 g)
    = floorDiv1024 (Gen.V14 m c main_v53 (ValueIdx.ix1 (⟨g.val * 1024 + 1023, by omega⟩ : Fin 851968))) := by
  refine (congrFun (v62_eq m c) (ValueIdx.ix1 g)).trans ?_
  rw [floorDivV_apply, chunk_last_apply]
  rfl

theorem tblLo_toNat [hP : Cert.Pre_finite_inputs.Facts] (hpre : PreAt m c) (g : Fin 832) :
    (Gen.V14 m c main_v61 (ValueIdx.ix1 g)).toNat
      = (Gen.V14 m c main_v53 (ValueIdx.ix1 (⟨g.val * 1024, by omega⟩ : Fin 851968))).toNat / 1024 := by
  rw [tblLo_apply]
  exact floorDiv1024_toNat _ (by have := dstP_lt m c hpre ⟨g.val * 1024, by omega⟩; omega)

theorem tblHi_toNat [hP : Cert.Pre_finite_inputs.Facts] (hpre : PreAt m c) (g : Fin 832) :
    (Gen.V14 m c main_v62 (ValueIdx.ix1 g)).toNat
      = (Gen.V14 m c main_v53 (ValueIdx.ix1 (⟨g.val * 1024 + 1023, by omega⟩ : Fin 851968))).toNat / 1024 := by
  rw [tblHi_apply]
  exact floorDiv1024_toNat _ (by have := dstP_lt m c hpre ⟨g.val * 1024 + 1023, by omega⟩; omega)

end Cert.KernelIdeal.Hand
end
-- ==== Proof.KiChunks.lean ====
/- The padded, destination-sorted edge list cut into blocks of 1024: its entries are node numbers, nondecreasing, and
   every node occurs (through its self loop); so each block lies in the chunk of 1024 nodes of its first entry or
   in that of its last, which are the two numbers the tables hold for the block; the tables' words are below 49, which
   is what the scatter kernels' side conditions ask; and neither the edge arrays nor the tables are written again
   after they are made. -/
import proofs.«425685_j80942953661103_3_alg».proof.Proof.KiSortFacts
import proofs.«425685_j80942953661103_3_alg».proof.Proof.Spec
import Idealize.ShloMosaic.Lib.ValueIdx

set_option maxRecDepth 1312

noncomputable section

namespace Cert.KernelIdeal.Hand

open Idealize.ShloMosaic Idealize.ShloMosaic.TcCoe
open Idealize.SL Idealize.SL.Sem
open Idealize.ShloMosaic.StableHlo

variable {F : FTy → Type} [FloatOps F]
variable (m : (ℓ : Loc nD τ sig) → Buf (Elt F) ℓ) (c : Dev nD)

/-! ## Words and naturals -/

/-- A 32-bit word that is non-negative as a signed number has its signed value as its natural value. -/
theorem toNat_of_toInt_nonneg (w : BitVec 32) (h0 : 0 ≤ w.toInt) : (w.toNat : ℤ) = w.toInt := by
  have hlt := w.isLt
  rw [BitVec.toInt_eq_toNat_cond] at h0 ⊢
  split at h0 <;> rename_i hc
  · rw [if_pos hc]
  · exfalso; omega

/-- A chunk number below 49 times 1024 does not wrap in 32 bits. -/
theorem muli_1024_toNat (w : BitVec 32) (h : w.toNat < 49) : (Scalar.muli w 1024#32).toNat = w.toNat * 1024 := by
  show (w * 1024#32).toNat = w.toNat * 1024
  rw [BitVec.toNat_mul]
  show w.toNat * 1024 % 4294967296 = w.toNat * 1024
  omega

/-! ## The kernels' row numbers and their second pass, as natural-number facts -/

namespace Chunks

/-- Row `n` of chunk `w`, as the kernels compute its number, does not wrap. -/
theorem chunk_row_toNat (w : BitVec 32) (h : w.toNat < 49) (n : ℕ) (hn : n < 1024) :
    (IntOp.addi (Scalar.muli w 1024#32) (BitVec.ofNat 32 n)).toNat = w.toNat * 1024 + n := by
  show (Scalar.muli w 1024#32 + BitVec.ofNat 32 n).toNat = w.toNat * 1024 + n
  rw [BitVec.toNat_add, muli_1024_toNat w h, BitVec.toNat_ofNat]
  show (w.toNat * 1024 + n % 4294967296) % 4294967296 = w.toNat * 1024 + n
  omega

/-- The kernels' comparison of a row number with a destination word is the comparison of the naturals. -/
theorem chunk_row_eq_iff (w d : BitVec 32) (h : w.toNat < 49) (n : ℕ) (hn : n < 1024) :
    IntOp.cmpi .eq (IntOp.addi (Scalar.muli w 1024#32) (BitVec.ofNat 32 n)) d = 1#1 ↔ w.toNat * 1024 + n = d.toNat := by
  rw [← chunk_row_toNat w h n hn]
  generalize IntOp.addi (Scalar.muli w 1024#32) (BitVec.ofNat 32 n) = r
  show BitVec.ofBool (r == d) = 1#1 ↔ r.toNat = d.toNat
  rw [BitVec.toNat_inj]
  by_cases e : r = d
  · subst e; simp
  · have hb : (r == d) = false := by simpa using e
    rw [hb]
    exact iff_of_false (by decide) e

/-- The second pass is made exactly when the two table words differ. -/
theorem k1_cond2_iff (w v : BitVec 32) : k1_cond2 w v = 1#1 ↔ v.toNat ≠ w.toNat := by
  unfold k1_cond2
  show Scalar.cmpi .ne (Scalar.extui (Scalar.cmpi .ne v w)) 0#32 = 1#1 ↔ v.toNat ≠ w.toNat
  rw [Ne, BitVec.toNat_inj]
  show BitVec.ofBool ((BitVec.ofBool (v != w)).setWidth 32 != 0#32) = 1#1 ↔ ¬ v = w
  by_cases e : v = w
  · subst e; simp
  · have : (v != w) = true := by simpa using e
    rw [this]; simp [e]

theorem k3_cond2_iff (w v : BitVec 32) : k3_cond2 w v = 1#1 ↔ v.toNat ≠ w.toNat := k1_cond2_iff w v

/-- The first pass's window into the slab starts at row `w * 1024`. -/
theorem k1_off2_eq (w : BitVec 32) (h : w.toNat < 49) : k1_off2 w = ![0, w.toNat * 1024, 0] := by
  unfold k1_off2
  simp only [Scalar.indexCast]
  rw [muli_1024_toNat w h]
theorem k1_off3_eq (v : BitVec 32) (h : v.toNat < 49) : k1_off3 v = ![0, v.toNat * 1024, 0] := by
  unfold k1_off3
  simp only [Scalar.indexCast]
  rw [muli_1024_toNat v h]
theorem k3_off2_eq (w : BitVec 32) (h : w.toNat < 49) : k3_off2 w = ![0, w.toNat * 1024, 0] := by
  unfold k3_off2
  simp only [Scalar.indexCast]
  rw [muli_1024_toNat w h]
theorem k3_off3_eq (v : BitVec 32) (h : v.toNat < 49) : k3_off3 v = ![0, v.toNat * 1024, 0] := by
  unfold k3_off3
  simp only [Scalar.indexCast]
  rw [muli_1024_toNat v h]

end Chunks

/-! ## The padded sorted destination list -/

/-- The padded sorted destination list, entry `j`, as a natural number. -/
def dp (j : Fin 851968) : ℕ := (Gen.V14 m c main_v53 (ValueIdx.ix1 j)).toNat

/-- An entry of the sorted part is the destination of the edge the sort put there. -/
theorem dp_sorted (j : Fin 851968) (h : j.val < 850000) :
    dp m c j = (Gen.V14 m c main_v6 (ValueIdx.ix1 (perm m c ⟨j.val, h⟩))).toNat := by
  unfold dp
  rw [dstP_apply, dif_pos h, dstS_apply]

/-- An entry of the padding is the last node. -/
theorem dp_pad (j : Fin 851968) (h : ¬ j.val < 850000) : dp m c j = 49999 := by
  unfold dp
  rw [dstP_apply, dif_neg h]
  rfl

variable [hP : Cert.Pre_finite_inputs.Facts]

/-- A destination, as a natural number, is its signed value and is a node. -/
theorem dst_toNat (hpre : PreAt m c) (k : Fin 850000) :
    ((Gen.V14 m c main_v6 (ValueIdx.ix1 k)).toNat : ℤ) = (Gen.V14 m c main_v6 (ValueIdx.ix1 k)).toInt
      ∧ (Gen.V14 m c main_v6 (ValueIdx.ix1 k)).toNat < 50000 := by
  have h := dst_lt m c hpre k
  have e := toNat_of_toInt_nonneg _ h.1
  exact ⟨e, by omega⟩

theorem dp_lt (hpre : PreAt m c) (j : Fin 851968) : dp m c j < 50000 := by
  by_cases h : j.val < 850000
  · rw [dp_sorted m c j h]; exact (dst_toNat m c hpre _).2
  · have e := dp_pad m c j h
    omega

theorem dp_mono (hpre : PreAt m c) (i j : Fin 851968) (h : i ≤ j) : dp m c i ≤ dp m c j := by
  have hij : i.val ≤ j.val := Fin.le_def.mp h
  by_cases hj : j.val < 850000
  · have hi : i.val < 850000 := by omega
    rw [dp_sorted m c i hi, dp_sorted m c j hj]
    have hm := dstS_mono m c ⟨i.val, hi⟩ ⟨j.val, hj⟩ (Fin.le_def.mpr hij)
    have e1 := (dst_toNat m c hpre (perm m c ⟨i.val, hi⟩)).1
    have e2 := (dst_toNat m c hpre (perm m c ⟨j.val, hj⟩)).1
    omega
  · rw [dp_pad m c j hj]
    have := dp_lt m c hpre i
    omega

theorem dp_onto (hpre : PreAt m c) (v : ℕ) (hv : v < 50000) : ∃ j, dp m c j = v := by
  let k : Fin 850000 := (perm m c).symm ⟨800000 + v, by omega⟩
  refine ⟨⟨k.val, by have := k.isLt; omega⟩, ?_⟩
  rw [dp_sorted m c _ k.isLt]
  have hk : perm m c ⟨k.val, k.isLt⟩ = ⟨800000 + v, by omega⟩ := (perm m c).apply_symm_apply _
  rw [hk, dst_selfloop m c ⟨v, hv⟩]
  show (BitVec.ofNat 32 v).toNat = v
  rw [BitVec.toNat_ofNat]
  show v % 4294967296 = v
  omega

/-! ## A block of 1024 entries meets at most the chunk of its first entry and the chunk of its last -/

theorem dp_cover (hpre : PreAt m c) (g : Fin 832) (l : Fin 1024) :
    dp m c ⟨g.val * 1024 + l.val, by have := g.isLt; have := l.isLt; omega⟩ / 1024 = (Gen.V14 m c main_v61 (ValueIdx.ix1 g)).toNat
    ∨ dp m c ⟨g.val * 1024 + l.val, by have := g.isLt; have := l.isLt; omega⟩ / 1024 = (Gen.V14 m c main_v62 (ValueIdx.ix1 g)).toNat := by
  rw [tblLo_toNat m c hpre g, tblHi_toNat m c hpre g]
  have hg := g.isLt
  have hl := l.isLt
  exact Cert.Spec.two_chunks (N := 50000) (dp m c) (dp_mono m c hpre) (dp_onto m c hpre) (dp_lt m c hpre)
    ⟨g.val * 1024, by omega⟩ ⟨g.val * 1024 + 1023, by omega⟩ ⟨g.val * 1024 + l.val, by omega⟩
    (Fin.le_def.mpr (by show g.val * 1024 ≤ g.val * 1024 + l.val; omega))
    (Fin.le_def.mpr (by show g.val * 1024 + l.val ≤ g.val * 1024 + 1023; omega))
    (by show g.val * 1024 + 1023 < g.val * 1024 + 1024; omega)

/-- Both tables hold chunk numbers below 49. -/
theorem tbl_lt (hpre : PreAt m c) (g : Fin 832) :
    (Gen.V14 m c main_v61 (ValueIdx.ix1 g)).toNat < 49 ∧ (Gen.V14 m c main_v62 (ValueIdx.ix1 g)).toNat < 49 := by
  rw [tblLo_toNat m c hpre g, tblHi_toNat m c hpre g]
  have h1 := dp_lt m c hpre ⟨g.val * 1024, by have := g.isLt; omega⟩
  have h2 := dp_lt m c hpre ⟨g.val * 1024 + 1023, by have := g.isLt; omega⟩
  unfold dp at h1 h2
  constructor <;> omega

/-! ## The words the scatter kernels read from the tables pass the kernels' side conditions -/

theorem k1_chk1_of (w : BitVec 32) (h : w.toNat < 49) : k1_chk1 w := by
  unfold k1_chk1 k1_mult1 k1_off2
  simp only [Scalar.indexCast]
  rw [muli_1024_toNat w h]
  refine ⟨Dvd.intro_left _ rfl, ?_⟩
  intro a
  fin_cases a
  · show 0 + 1 ≤ 1; omega
  · show w.toNat * 1024 + 1024 ≤ 50176; omega
  · show 0 + 96 ≤ 96; omega

theorem k1_chk2_of (w v : BitVec 32) (h : v.toNat < 49) : k1_chk2 w v := by
  unfold k1_chk2 k1_mult2 k1_off3
  simp only [Scalar.indexCast]
  rw [muli_1024_toNat v h]
  refine ⟨fun _ => Dvd.intro_left _ rfl, fun _ => ?_⟩
  intro a
  fin_cases a
  · show 0 + 1 ≤ 1; omega
  · show v.toNat * 1024 + 1024 ≤ 50176; omega
  · show 0 + 96 ≤ 96; omega

theorem k3_chk1_of (w : BitVec 32) (h : w.toNat < 49) : k3_chk1 w := by
  unfold k3_chk1 k3_mult1 k3_off2
  simp only [Scalar.indexCast]
  rw [muli_1024_toNat w h]
  refine ⟨Dvd.intro_left _ rfl, ?_⟩
  intro a
  fin_cases a
  · show 0 + 1 ≤ 1; omega
  · show w.toNat * 1024 + 1024 ≤ 50176; omega
  · show 0 + 48 ≤ 48; omega

theorem k3_chk2_of (w v : BitVec 32) (h : v.toNat < 49) : k3_chk2 w v := by
  unfold k3_chk2 k3_mult2 k3_off3
  simp only [Scalar.indexCast]
  rw [muli_1024_toNat v h]
  refine ⟨fun _ => Dvd.intro_left _ rfl, fun _ => ?_⟩
  intro a
  fin_cases a
  · show 0 + 1 ≤ 1; omega
  · show v.toNat * 1024 + 1024 ≤ 50176; omega
  · show 0 + 48 ≤ 48; omega

theorem tables_chk (hpre : PreAt m c) (x : S832.Idx) :
    k1_chk1 (Gen.V14 m c main_v61 x) ∧ k1_chk2 (Gen.V14 m c main_v61 x) (Gen.V14 m c main_v62 x)
    ∧ k3_chk1 (Gen.V14 m c main_v61 x) ∧ k3_chk2 (Gen.V14 m c main_v61 x) (Gen.V14 m c main_v62 x) := by
  rw [ValueIdx.eq_ix1 x]
  have h := tbl_lt m c hpre (x 0)
  exact ⟨k1_chk1_of _ h.1, k1_chk2_of _ _ h.2, k3_chk1_of _ h.1, k3_chk2_of _ _ h.2⟩

/-! ## The index arrays and the tables are not written after they are made -/

variable (outs : Gen.Outs (F := F))

/-- The arrays the scatter regions read their edge data and tables from. -/
abbrev edgeRefs : List (Ref sig .tc) := [main_v53, main_v52, main_v54, main_v61, main_v62]

omit hP in
theorem V16_eq (r : Ref sig .tc) (h : r ∈ edgeRefs) : Gen.V16 m outs c r = Gen.V14 m c r := by
  simp only [edgeRefs, List.mem_cons, List.mem_singleton, List.not_mem_nil, or_false] at h
  rcases h with rfl | rfl | rfl | rfl | rfl <;>
    exact (Gen.V16_of m outs c _ (by decide)).trans (Gen.V15_of m outs c _ (by decide))

omit hP in
theorem V21_eq (r : Ref sig .tc) (h : r ∈ edgeRefs) : Gen.V21 m outs c r = Gen.V14 m c r := by
  simp only [edgeRefs, List.mem_cons, List.mem_singleton, List.not_mem_nil, or_false] at h
  rcases h with rfl | rfl | rfl | rfl | rfl <;>
    exact (Gen.V21_of m outs c _ (by decide)).trans <| (Gen.V20_of m outs c _ (by decide)).trans <|
      (Gen.V19_of m outs c _ (by decide)).trans <| (Gen.V18_of m outs c _ (by decide)).trans <|
      (Gen.V17_of m outs c _ (by decide)).trans <| (Gen.V16_of m outs c _ (by decide)).trans (Gen.V15_of m outs c _ (by decide))

end Cert.KernelIdeal.Hand
end
-- ==== Proof.KiSc1Chk.lean ====
/- REGION 1 of @main: the side conditions the body assumes of the two table words, from a fact about every pair of
   words of the tables; and the words the body loads at a point as the tables' elements at the point's position. -/
import proofs.«425685_j80942953661103_3_alg».proof.Proof.KiSc1
import Idealize.ShloMosaic.Lib.ValueIdx

noncomputable section

namespace Cert.KernelIdeal.Hand

open Cert.KernelIdeal Cert.KernelIdeal.Gen
open Idealize.ShloMosaic Idealize.ShloMosaic.TcCoe

variable {F : FTy → Type} [FloatOps F]

/-- The word a scalar load at the point's offset reads is the table's element at that offset. -/
theorem word1_eq (c : Dev nD) (i : grid1.Coords) (M : Memref sig .tc .smem S832 .i32) (f : TbBuf1 (F := F) c M) :
    word1 c i M f = M.view.read (Elt F) f
      ((Rect.unit (s := S832) (k1_off1 i) S1.size (k1_off1_inb i)).toLoadRect.idx (Shape.Idx.first (numel1_S1.symm ▸ Nat.one_pos))) :=
  View.readAt_apply _ _ _

/-- The scalar load's offset at point `t` is `t` itself (each core's 416 points in order) — decided over the grid. -/
theorem off1_1 (a : (pcfg1 (F := F)).Adm) : ∀ t : Fin (cfg1 a).N, k1_off1 (grid1.coords t) 0 = t.val :=
  (by decide +kernel : ∀ t : Fin grid1.N, k1_off1 (grid1.coords t) 0 = t.val)

/-- If every pair of words at one index of the two tables satisfies the side conditions the body assumes, they hold at
    every point. -/
theorem Chk1.of_forall (a : (pcfg1 (F := F)).Adm)
    (h : ∀ x : S832.Idx, k1_chk1 (a.1 0 x) ∧ k1_chk2 (a.1 0 x) (a.1 1 x)) : Chk1 a :=
  fun c t => h ((Rect.unit (s := S832) (k1_off1 (grid1.coords t)) S1.size (k1_off1_inb (grid1.coords t))).toLoadRect.idx
    (Shape.Idx.first (numel1_S1.symm ▸ Nat.one_pos)))

/-- The index the scalar load at point `t` reads through is `t`. -/
theorem idx1_at (a : (pcfg1 (F := F)).Adm) (t : Fin (cfg1 a).N) :
    (Rect.unit (s := S832) (k1_off1 (grid1.coords t)) S1.size (k1_off1_inb (grid1.coords t))).toLoadRect.idx
        (Shape.Idx.first (numel1_S1.symm ▸ Nat.one_pos))
      = ValueIdx.ix1 (⟨t.val, lt_of_lt_of_eq t.isLt N_1⟩ : Fin 832) := by
  funext d
  match d with
  | ⟨0, _⟩ =>
    refine Fin.ext ?_
    have h := off1_1 a t
    show k1_off1 (grid1.coords t) 0 + 1 * _ = t.val
    rw [h]
    show t.val + 1 * 0 = t.val
    omega

/-- The word the body loads from the first table at point `t` is the table's element `t`; -/
theorem word1_at_0 (a : (pcfg1 (F := F)).Adm) (c : Dev nD) (t : Fin (cfg1 a).N) :
    word1 c (grid1.coords t) tbM1_0 (a.1 0) = a.1 0 (ValueIdx.ix1 (⟨t.val, lt_of_lt_of_eq t.isLt N_1⟩ : Fin 832)) :=
  (word1_eq c _ tbM1_0 (a.1 0)).trans (congrArg (a.1 0) (idx1_at a t))
/-- and from the second likewise. -/
theorem word1_at_1 (a : (pcfg1 (F := F)).Adm) (c : Dev nD) (t : Fin (cfg1 a).N) :
    word1 c (grid1.coords t) tbM1_1 (a.1 1) = a.1 1 (ValueIdx.ix1 (⟨t.val, lt_of_lt_of_eq t.isLt N_1⟩ : Fin 832)) :=
  (word1_eq c _ tbM1_1 (a.1 1)).trans (congrArg (a.1 1) (idx1_at a t))

end Cert.KernelIdeal.Hand

end
-- ==== Proof.KiSc3Chk.lean ====
/- REGION 3 of @main: the side conditions the body assumes of the two table words, from a fact about every pair of
   words of the tables; and the words the body loads at a point as the tables' elements at the point's position. -/
import proofs.«425685_j80942953661103_3_alg».proof.Proof.KiSc3
import Idealize.ShloMosaic.Lib.ValueIdx

noncomputable section

namespace Cert.KernelIdeal.Hand

open Cert.KernelIdeal Cert.KernelIdeal.Gen
open Idealize.ShloMosaic Idealize.ShloMosaic.TcCoe

variable {F : FTy → Type} [FloatOps F]

/-- The word a scalar load at the point's offset reads is the table's element at that offset. -/
theorem word3_eq (c : Dev nD) (i : grid3.Coords) (M : Memref sig .tc .smem S832 .i32) (f : TbBuf3 (F := F) c M) :
    word3 c i M f = M.view.read (Elt F) f
      ((Rect.unit (s := S832) (k3_off1 i) S1.size (k3_off1_inb i)).toLoadRect.idx (Shape.Idx.first (numel1_S1.symm ▸ Nat.one_pos))) :=
  View.readAt_apply _ _ _

/-- The scalar load's offset at point `t` is `t` itself (each core's 416 points in order) — decided over the grid. -/
theorem off3_1 (a : (pcfg3 (F := F)).Adm) : ∀ t : Fin (cfg3 a).N, k3_off1 (grid3.coords t) 0 = t.val :=
  (by decide +kernel : ∀ t : Fin grid3.N, k3_off1 (grid3.coords t) 0 = t.val)

/-- If every pair of words at one index of the two tables satisfies the side conditions the body assumes, they hold at
    every point. -/
theorem Chk3.of_forall (a : (pcfg3 (F := F)).Adm)
    (h : ∀ x : S832.Idx, k3_chk1 (a.1 0 x) ∧ k3_chk2 (a.1 0 x) (a.1 1 x)) : Chk3 a :=
  fun c t => h ((Rect.unit (s := S832) (k3_off1 (grid3.coords t)) S1.size (k3_off1_inb (grid3.coords t))).toLoadRect.idx
    (Shape.Idx.first (numel1_S1.symm ▸ Nat.one_pos)))

/-- The index the scalar load at point `t` reads through is `t`. -/
theorem idx3_at (a : (pcfg3 (F := F)).Adm) (t : Fin (cfg3 a).N) :
    (Rect.unit (s := S832) (k3_off1 (grid3.coords t)) S1.size (k3_off1_inb (grid3.coords t))).toLoadRect.idx
        (Shape.Idx.first (numel1_S1.symm ▸ Nat.one_pos))
      = ValueIdx.ix1 (⟨t.val, lt_of_lt_of_eq t.isLt N_3⟩ : Fin 832) := by
  funext d
  match d with
  | ⟨0, _⟩ =>
    refine Fin.ext ?_
    have h := off3_1 a t
    show k3_off1 (grid3.coords t) 0 + 1 * _ = t.val
    rw [h]
    show t.val + 1 * 0 = t.val
    omega

/-- The word the body loads from the first table at point `t` is the table's element `t`; -/
theorem word3_at_0 (a : (pcfg3 (F := F)).Adm) (c : Dev nD) (t : Fin (cfg3 a).N) :
    word3 c (grid3.coords t) tbM3_0 (a.1 0) = a.1 0 (ValueIdx.ix1 (⟨t.val, lt_of_lt_of_eq t.isLt N_3⟩ : Fin 832)) :=
  (word3_eq c _ tbM3_0 (a.1 0)).trans (congrArg (a.1 0) (idx3_at a t))
/-- and from the second likewise. -/
theorem word3_at_1 (a : (pcfg3 (F := F)).Adm) (c : Dev nD) (t : Fin (cfg3 a).N) :
    word3 c (grid3.coords t) tbM3_1 (a.1 1) = a.1 1 (ValueIdx.ix1 (⟨t.val, lt_of_lt_of_eq t.isLt N_3⟩ : Fin 832)) :=
  (word3_eq c _ tbM3_1 (a.1 1)).trans (congrArg (a.1 1) (idx3_at a t))

end Cert.KernelIdeal.Hand

end
-- ==== Proof.KiLaunchPre.lean ====
/- The two scatters' assumed side conditions of the chunk bounds FROM THE PRECONDITION (every destination a node, so every chunk
   bound below 49 and every slab offset inside the slab), and with them the frame from the precondition alone. -/
import proofs.«425685_j80942953661103_3_alg».proof.Proof.KiLaunch
import proofs.«425685_j80942953661103_3_alg».proof.Proof.KiChunks
import proofs.«425685_j80942953661103_3_alg».proof.Proof.KiSc1Chk
import proofs.«425685_j80942953661103_3_alg».proof.Proof.KiSc3Chk

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable [hP : Cert.Pre_finite_inputs.Facts]

/-- The first scatter's side conditions hold of the chunk bounds: the tables' words are the host's before the first region. -/
theorem chk1_of_pre (hpre : PreAt m (0 : Dev nD)) : Chk1 (adm1 m) :=
  Chk1.of_forall (adm1 m) fun x => by
    have h := tables_chk m (0 : Dev nD) hpre x
    have e0 : Gen.V14 m (0 : Dev nD) main_v61 = tbl1 m 0 := V14_pre1 m 0 0
    have e1 : Gen.V14 m (0 : Dev nD) main_v62 = tbl1 m 1 := V14_pre1 m 0 1
    rw [e0, e1] at h
    exact ⟨h.1, h.2.1⟩

/-- The second scatter's, of the same words. -/
theorem chk3_of_pre (hpre : PreAt m (0 : Dev nD)) : Chk3 (adm3 m) :=
  Chk3.of_forall (adm3 m) fun x => by
    have h := tables_chk m (0 : Dev nD) hpre x
    have e0 : Gen.V14 m (0 : Dev nD) main_v61 = tbl3 m 0 := V14_pre3 m 0 0
    have e1 : Gen.V14 m (0 : Dev nD) main_v62 = tbl3 m 1 := V14_pre3 m 0 1
    rw [e0, e1] at h
    exact ⟨h.2.2.1, h.2.2.2⟩

/-- THE FRAME from the precondition: the statement of the claim's frame conjunct for this program, at any `F`. -/
theorem frame_KI (hpre : ∀ c : Dev nD, PreAt m c) :
    θ_run (Cert.KernelIdeal.defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_KI_of m ρ (chk1_of_pre m (hpre 0)) (chk3_of_pre m (hpre 0))

end Cert.KernelIdeal.Hand

end
-- ==== Proof.KiLaunchValuePre.lean ====
/- The run with its result from the precondition alone: the launch with the result buffer read beside the arguments, at the
   two scatters' side conditions as the precondition gives them. -/
import proofs.«425685_j80942953661103_3_alg».proof.Proof.KiLaunchPre
import proofs.«425685_j80942953661103_3_alg».proof.Proof.KiLaunchValue

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable [hP : Cert.Pre_finite_inputs.Facts]

/-- THE RUN WITH ITS RESULT from the precondition. -/
theorem run_value_KI (hpre : ∀ c : Dev nD, PreAt m c) :
    θ_run (Cert.KernelIdeal.defs (F := F)) (onTc (τ := τ) (main (F := F))) ⟨m, fun _ => 0, ρ⟩ (fun r => ∀ c : Dev nD,
      r.2.mem ((c.tc : Thread nD τ).loc main_v109) = Gen.V23 m (outs m (chk1_of_pre m (hpre 0)) (chk3_of_pre m (hpre 0))) c main_v109
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_value_KI_of m ρ (chk1_of_pre m (hpre 0)) (chk3_of_pre m (hpre 0))

end Cert.KernelIdeal.Hand

end
-- ==== Proof.SpecGraph.lean ====
/- How the graph data is read off the argument array: the edge list with its self loops, the row a row-gather reads
   at a signed word, and an edge's weight from the array of inverse square roots of the degrees. -/
import Idealize.ShloMosaic.PureOps.Ideal
import Idealize.ShloMosaic.Lib.ValueIdx
import proofs.«425685_j80942953661103_3_alg».proof.Proof.Spec

noncomputable section

namespace Cert.Spec

open Idealize.ShloMosaic Idealize.ShloMosaic.ValueIdx

/-- Row `r` of the edge array followed by the node ids `0 … 49999`: the edges with one self loop per node. -/
def withLoops (ei : IVec ⟨2, ![2, 800000]⟩ 32) (r : Fin 2) (j : Fin 850000) : BitVec 32 :=
  if h : j.val < 800000 then ei (ix2 r ⟨j.val, h⟩) else BitVec.ofNat 32 (j.val - 800000)

/-- A negative index counts from the end, once. -/
def wrap (w : BitVec 32) : BitVec 32 := if w.toInt < 0 then w + 50000#32 else w

/-- The row of a 50000-row array that a gather reads at the word `w`: wrapped, read signed, clamped into the array. -/
def rowOf (w : BitVec 32) : Fin 50000 := ⟨min (wrap w).toInt.toNat 49999, by omega⟩

/-- The source row of edge `j`. -/
def srOf (ei : IVec ⟨2, ![2, 800000]⟩ 32) (j : Fin 850000) : Fin 50000 := rowOf (withLoops ei 0 j)

/-- The destination of edge `j`, as a natural number. -/
def dsOf (ei : IVec ⟨2, ![2, 800000]⟩ 32) (j : Fin 850000) : ℕ := (withLoops ei 1 j).toNat

/-- The weight of edge `j`: the entries of `dinv` at its two ends. -/
def nrOf (dinv : Fin 50000 → EReal) (ei : IVec ⟨2, ![2, 800000]⟩ 32) (j : Fin 850000) : EReal :=
  dinv (rowOf (withLoops ei 0 j)) * dinv (rowOf (withLoops ei 1 j))

/-- The network over the argument arrays. -/
def Gof (x : Fin 50000 → Fin 96 → EReal) (W1 : Fin 96 → Fin 96 → EReal) (b1 : Fin 96 → EReal)
    (W2 : Fin 96 → Fin 48 → EReal) (b2 : Fin 48 → EReal) (ei : IVec ⟨2, ![2, 800000]⟩ 32) (dinv : Fin 50000 → EReal) :
    Fin 50000 → Fin 48 → EReal :=
  G x W1 b1 W2 b2 (srOf ei) (dsOf ei) (nrOf dinv ei)

/-- One layer's edge sum, kernel against reference. The two cores' slabs — built from the padded sorted edge list
    `srcPw`, `dpn`, `np`, the chunk tables `lo`, `hi` and the messages `msg j q = h (row of srcPw j) q · np j` — add up to
    the aggregation of `h` over the original edge list: every edge's chunk is its block's first or last (`hcover`), so
    each edge is counted once; the sorted part of the list is the edge list read through the permutation `σ`
    (`hsorted`), and the padding carries the weight zero (`hpad`). -/
theorem slabs_eq_agg {D : ℕ} (h : Fin 50000 → Fin D → EReal) (ei : IVec ⟨2, ![2, 800000]⟩ 32) (dinv : Fin 50000 → EReal)
    (σ : Equiv.Perm (Fin 850000)) (srcPw : Fin 851968 → BitVec 32) (dpn : Fin 851968 → ℕ) (np : Fin 851968 → EReal)
    (lo hi : Fin 832 → ℕ) (msg : Fin 851968 → Fin D → EReal)
    (hmsg : ∀ j q, msg j q = h (rowOf (srcPw j)) q * np j)
    (hcover : ∀ (g : Fin 832) (l : Fin 1024), dpn (flat g l) / 1024 = lo g ∨ dpn (flat g l) / 1024 = hi g)
    (hsorted : ∀ (j : Fin 851968) (hj : j.val < 850000),
      srcPw j = withLoops ei 0 (σ ⟨j.val, hj⟩) ∧ dpn j = dsOf ei (σ ⟨j.val, hj⟩) ∧ np j = nrOf dinv ei (σ ⟨j.val, hj⟩))
    (hpad : ∀ j : Fin 851968, 850000 ≤ j.val → np j = 0) (n : Fin 50000) (q : Fin D) :
    slab lo hi dpn msg 0 n.val q + slab lo hi dpn msg 1 n.val q = agg h (srOf ei) (dsOf ei) (nrOf dinv ei) n q := by
  rw [slab_sum lo hi dpn msg hcover n.val q]
  have e : (∑ j : Fin 851968, if dpn j = n.val then msg j q else 0)
      = ∑ j : Fin 851968, if dpn j = n.val then h (rowOf (srcPw j)) q * np j else 0 :=
    Finset.sum_congr rfl fun j _ => by rw [hmsg j q]
  rw [e]
  exact sorted_sum_eq_agg h (srOf ei) (dsOf ei) (nrOf dinv ei) σ (fun j => rowOf (srcPw j)) dpn np
    (fun j hj => ⟨by rw [(hsorted j hj).1]; rfl, (hsorted j hj).2.1, (hsorted j hj).2.2⟩) hpad n q

end Cert.Spec

end
-- ==== Proof.LibGatherRows.lean ====
/-
  `stablehlo.gather` of WHOLE ROWS of a rank-2 operand, read at an index.

  What `x[idx]` (`jnp.take(x, idx, axis=0)`) of a table `x : [N, C]` at a one-column integer array `idx : [R, 1]`
  lowers to: `lax.gather` with offset_dims `[1]`, collapsed_slice_dims `[0]`, start_index_map `[0]`,
  index_vector_dim `1`, slice_sizes `[1, C]` and no batching axes. Result element `(e, q)` is the operand at row
  `idx[e, 0]`, read as a signed integer and clamped into `[0, N − 1]` (StableHLO's gather clamps every start index so
  that the slice fits), and at column `q`: the column axis is an offset axis whose slice is the whole axis, so its
  start is `0` and its offset is the result's own column.

  `rowDims N R C wf` are those dimension numbers, generic in the three extents (their conditions `wf` are decided on
  a program's literal shapes) and `gather_rows_apply` is the gather read at `(e, q)`, generic in the index width
  and in the element type. `gather_rows_apply_of_lt` is the case of a start index already inside `[0, N)`:
  no clamp. The rank-1 operand's case is Lib/ValueIdx.lean's `takeDims` / `gather_take_apply`.
-/
import Idealize.ShloMosaic.PureOps.ShapeOps
import Idealize.ShloMosaic.Lib.ValueIdx

namespace Idealize.ShloMosaic.GatherRows

open Idealize.ShloMosaic Idealize.ShloMosaic.ValueIdx

variable {α : Type}

/-- The dimension numbers of a row gather for an operand `[N, C]`, start indices `[R, 1]` and result `[R, C]`. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The start-indices index `[e, 0]` of result row `e`. -/
abbrev rowIdx {R : Nat} (e : Fin R) : (⟨2, ![R, 1]⟩ : Shape).Idx := ix2 e (0 : Fin 1)

section
variable {N R C w : Nat} (wf : GatherDims.WF ⟨2, ![N, C]⟩ ⟨2, ![R, 1]⟩ ⟨2, ![R, C]⟩ [1] [0] [] [0] [] 1 ![1, C])

/-- The row axis is collapsed: it is not among the operand's kept axes. -/
theorem row_not_kept : (0 : Fin 2) ∉ (rowDims N R C wf).sKept :=
  fun h => ((GatherDims.mem_sKept _ _).mp h).1 (List.mem_singleton.mpr rfl)

/-- The column axis is kept. -/
theorem col_kept : (1 : Fin 2) ∈ (rowDims N R C wf).sKept :=
  (GatherDims.mem_sKept _ _).mpr ⟨fun h => absurd (congrArg Fin.val (List.mem_singleton.mp h)) Nat.one_ne_zero, List.not_mem_nil⟩

/-- The operand's row that result index `(e, q)` reads: the start index `idx[e, 0]`, signed and clamped. -/
theorem operandIdx_row (idx : IVec ⟨2, ![R, 1]⟩ w) (e : Fin R) (q : Fin C) :
    ((rowDims N R C wf).operandIdx (ix2 e q) idx 0).val = min (idx (rowIdx e)).toInt.toNat (N - 1) := by
  show (rowDims N R C wf).start (ix2 e q) idx 0 + (rowDims N R C wf).batchCoord (ix2 e q) 0
    + (rowDims N R C wf).offCoord (ix2 e q) 0 = _
  rw [GatherDims.batchCoord_eq_zero _ _ _ List.not_mem_nil, GatherDims.offCoord_eq_zero _ _ _ (row_not_kept wf)]
  simp only [Nat.add_zero]
  unfold GatherDims.start
  rw [dif_pos (show (0 : Fin 2) ∈ (rowDims N R C wf).startIndexMap from List.mem_singleton.mpr rfl)]
  have hsi : (rowDims N R C wf).siIdx (ix2 e q) ⟨List.idxOf (0 : Fin 2) (rowDims N R C wf).startIndexMap,
      List.idxOf_lt_length_iff.2 (List.mem_singleton.mpr rfl)⟩ = rowIdx e := by
    funext b; refine Fin.ext ?_
    match b with
    | ⟨0, _⟩ => rfl
    | ⟨1, _⟩ => rfl
  rw [hsi]
  rfl

/-- The operand's column that result index `(e, q)` reads: `q`. -/
theorem operandIdx_col (idx : IVec ⟨2, ![R, 1]⟩ w) (e : Fin R) (q : Fin C) :
    ((rowDims N R C wf).operandIdx (ix2 e q) idx 1).val = q.val := by
  show (rowDims N R C wf).start (ix2 e q) idx 1 + (rowDims N R C wf).batchCoord (ix2 e q) 1
    + (rowDims N R C wf).offCoord (ix2 e q) 1 = _
  rw [GatherDims.batchCoord_eq_zero _ _ _ List.not_mem_nil]
  unfold GatherDims.start
  rw [dif_neg (show (1 : Fin 2) ∉ (rowDims N R C wf).startIndexMap from
    fun h => absurd (congrArg Fin.val (List.mem_singleton.mp h)) Nat.one_ne_zero)]
  unfold GatherDims.offCoord
  rw [dif_pos (col_kept wf)]
  simp only [Nat.add_zero, Nat.zero_add]
  rfl

/-- THE ROW GATHER READ AT `(e, q)`: the operand at row `idx[e, 0]`, read signed and clamped into `[0, N − 1]`,
    and column `q`. -/
theorem gather_rows_apply (hN : 0 < N) (x : (⟨2, ![N, C]⟩ : Shape).Idx → α) (idx : IVec ⟨2, ![R, 1]⟩ w)
    (e : Fin R) (q : Fin C) :
    Host.gather (rowDims N R C wf) x idx (ix2 e q)
      = x (ix2 ⟨min (idx (rowIdx e)).toInt.toNat (N - 1), by omega⟩ q) := by
  unfold Host.gather
  congr 1
  funext a
  refine Fin.ext ?_
  match a with
  | ⟨0, _⟩ => exact operandIdx_row wf idx e q
  | ⟨1, _⟩ => exact operandIdx_col wf idx e q

/-- A start index already a row of the operand is not clamped: the gather reads that row. -/
theorem gather_rows_apply_of_lt (x : (⟨2, ![N, C]⟩ : Shape).Idx → α) (idx : IVec ⟨2, ![R, 1]⟩ w)
    (e : Fin R) (q : Fin C) (h0 : 0 ≤ (idx (rowIdx e)).toInt) (hlt : (idx (rowIdx e)).toInt < N) :
    Host.gather (rowDims N R C wf) x idx (ix2 e q) = x (ix2 ⟨(idx (rowIdx e)).toInt.toNat, by omega⟩ q) := by
  rw [gather_rows_apply wf (by omega) x idx e q]
  congr 2
  refine Fin.ext ?_
  show min (idx (rowIdx e)).toInt.toNat (N - 1) = (idx (rowIdx e)).toInt.toNat
  omega

end

end Idealize.ShloMosaic.GatherRows
-- ==== Proof.KiHostReads.lean ====
/- The host stretches of the kernel program read at an index (exact arithmetic): the edge messages each scatter
   region receives, the activations between the layers, the network's result, and the graph arrays the host prepares
   before the first region. -/
import proofs.«425685_j80942953661103_3_alg».proof.Proof.Gen.KernelIdeal.Regions
import proofs.«425685_j80942953661103_3_alg».proof.Proof.Gen.KernelIdeal.Launch
import proofs.«425685_j80942953661103_3_alg».proof.Proof.SpecGraph
import proofs.«425685_j80942953661103_3_alg».proof.Proof.LibGatherRows
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.StableHlo
open Idealize.ShloMosaic (GatherRows.rowDims)

variable (m : (ℓ : Loc nD τ sig) → Buf (Elt Ideal) ℓ) (outs : Gen.Outs (F := Ideal)) (c : Dev nD)

/-! ## The arrays by their literal types -/

/-- What region 0 leaves in its output array: the first layer's projected rows. -/
abbrev hOut1 : FVec Ideal S50000x96 .bf16 := outs 15 main_v63 c
/-- What region 1 leaves in its output array: the two cores' slabs of the first edge sum. -/
abbrev slabOut1 : FVec Ideal S2x50176x96 .f32 := outs 17 main_v76 c
/-- What region 2 leaves in its output array: the second layer's projected rows. -/
abbrev hOut2 : FVec Ideal S50000x48 .bf16 := outs 20 main_v87 c
/-- What region 3 leaves in its output array: the two cores' slabs of the second edge sum. -/
abbrev slabOut2 : FVec Ideal S2x50176x48 .f32 := outs 22 main_v100 c
/-- The padded sorted source ids the host prepares before region 0. -/
abbrev srcPad : IVec S851968 32 := Gen.V14 m c main_v52
/-- The padded sorted edge weights the host prepares before region 0. -/
abbrev nrmPad : FVec Ideal S851968 .f32 := Gen.V14 m c main_v54
/-- The inverse square roots of the degrees (zero where the degree is not positive). -/
abbrev dinvArr : FVec Ideal S50000 .f32 := Gen.V14 m c main_v14
/-- The argument arrays as launched. -/
abbrev argX : FVec Ideal S50000x96 .f32 := m ((c : Thread nD τ).loc main_arg0)
abbrev argE : IVec S2x800000 32 := m ((c : Thread nD τ).loc main_arg1)
abbrev argW1 : FVec Ideal S96x96 .f32 := m ((c : Thread nD τ).loc main_arg2)
abbrev argB1 : FVec Ideal S96 .f32 := m ((c : Thread nD τ).loc main_arg3)
abbrev argW2 : FVec Ideal S96x48 .f32 := m ((c : Thread nD τ).loc main_arg4)
abbrev argB2 : FVec Ideal S48 .f32 := m ((c : Thread nD τ).loc main_arg5)

open Idealize.ShloMosaic.StableHlo.Predicate (ij ixP i1q)

/-! ## Index forms and layout reads at literal coordinates -/

section Reads
variable {α : Type}

theorem ij_eq_ix2 {n k : Nat} (p : Fin n) (q : Fin k) : ij p q = ValueIdx.ix2 p q := by
  funext a; match a with
  | ⟨0, _⟩ => rfl
  | ⟨1, _⟩ => rfl

theorem ixP_eq_ix2 {n : Nat} (p : Fin n) : ixP p = ValueIdx.ix2 p (0 : Fin 1) := by
  funext a; match a with
  | ⟨0, _⟩ => rfl
  | ⟨1, _⟩ => rfl

theorem ofFin_eq_ix1 {n : Nat} (p : Fin n) : Shape.Idx.ofFin p = ValueIdx.ix1 p := by
  funext a; match a with
  | ⟨0, _⟩ => rfl

/-- A vector laid along the columns of a rectangle, through its one-row form, reads at `(p, q)` the vector at `q`. -/
theorem bcast_cols_ix {n k : Nat} (h₁ : (⟨1, ![k]⟩ : Shape).BroadcastsInDim ⟨2, ![1, k]⟩ ![1])
    (h₂ : (⟨2, ![1, k]⟩ : Shape).BroadcastsInDim ⟨2, ![n, k]⟩ ![0, 1]) (v : (⟨1, ![k]⟩ : Shape).Idx → α) (p : Fin n) (q : Fin k) :
    broadcastInDim ⟨2, ![n, k]⟩ ![0, 1] h₂ (broadcastInDim ⟨2, ![1, k]⟩ ![1] h₁ v) (ValueIdx.ix2 p q) = v (ValueIdx.ix1 q) := by
  rw [← ij_eq_ix2, ← ofFin_eq_ix1]
  exact Idealize.ShloMosaic.StableHlo.Predicate.bcast_cols h₁ h₂ v p q

/-- A vector laid along the rows of a rectangle, through its one-column form, reads at `(p, q)` the vector at `p`. -/
theorem bcast_rows_ix {n k : Nat} (h₁ : (⟨1, ![n]⟩ : Shape).BroadcastsInDim ⟨2, ![n, 1]⟩ ![0])
    (h₂ : (⟨2, ![n, 1]⟩ : Shape).BroadcastsInDim ⟨2, ![n, k]⟩ ![0, 1]) (v : (⟨1, ![n]⟩ : Shape).Idx → α) (p : Fin n) (q : Fin k) :
    broadcastInDim ⟨2, ![n, k]⟩ ![0, 1] h₂ (broadcastInDim ⟨2, ![n, 1]⟩ ![0] h₁ v) (ValueIdx.ix2 p q) = v (ValueIdx.ix1 p) := by
  rw [← ij_eq_ix2, ← ofFin_eq_ix1]
  exact Idealize.ShloMosaic.StableHlo.Predicate.bcast_rows h₁ h₂ v p q

/-- A vector as a one-column array reads at `(p, 0)` the vector at `p`. -/
theorem bcast_col1_ix {n : Nat} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ValueIdx.ix2 p (0 : Fin 1)) = v (ValueIdx.ix1 p) := by
  rw [← ixP_eq_ix2, ← ofFin_eq_ix1]
  exact Idealize.ShloMosaic.StableHlo.Predicate.bcast_col1 h₁ v p

/-- Member `o` of a stack of matrices, cut out as a one-member stack, reads at `(0, i, j)` the stack at `(o, i, j)`. -/
theorem slice3_member_apply {n0 n1 n2 : Nat} (o : Nat) (X : (⟨3, ![n0, n1, n2]⟩ : Shape).Idx → α)
    (h : (⟨3, ![n0, n1, n2]⟩ : Shape).Slices ![o, 0, 0] ⟨3, ![1, n1, n2]⟩) (i : Fin n1) (j : Fin n2) (k : Fin n0)
    (hk : k.val = o) :
    extractStridedSlice ⟨3, ![1, n1, n2]⟩ ![o, 0, 0] X h (ValueIdx.ix3 (0 : Fin 1) i j) = X (ValueIdx.ix3 k i j) :=
  extractStridedSlice_apply _ _ _ _ _ (fun ax => by
    match ax with
    | ⟨0, _⟩ => show k.val = o + 0; omega
    | ⟨1, _⟩ => exact (Nat.zero_add _).symm
    | ⟨2, _⟩ => exact (Nat.zero_add _).symm)

end Reads

/-! ## The index normalisation and the gathers at normalised ids -/

/-- A negative id counts from the end: the select the host applies before a gather is `Spec.wrap`. -/
theorem wrap_word (w : BitVec 32) :
    Scalar.select (IntOp.cmpi .slt w 0#32) (IntOp.addi w 50000#32) w = Cert.Spec.wrap w := by
  show (if BitVec.ofBool (w.slt 0#32) = 1 then w + 50000#32 else w) = if w.toInt < 0 then w + 50000#32 else w
  have hs : w.slt 0#32 = decide (w.toInt < 0) := by simp [BitVec.slt]
  by_cases h : w.toInt < 0
  · rw [if_pos h, if_pos]
    rw [hs, decide_eq_true h]; rfl
  · rw [if_neg h, if_neg]
    rw [hs, decide_eq_false h]; decide

/-- The normalised ids as a one-column array, read at row `j`. -/
theorem wrapped_col_apply {R : Nat} (h0 : (⟨0, ![]⟩ : Shape).BroadcastsInDim ⟨1, ![R]⟩ ![])
    (h1 : (⟨1, ![R]⟩ : Shape).BroadcastsInDim ⟨2, ![R, 1]⟩ ![0]) (ids : IVec ⟨1, ![R]⟩ 32) (j : Fin R) :
    broadcastInDim ⟨2, ![R, 1]⟩ ![0] h1
        (select (cmpi .slt ids (broadcastInDim ⟨1, ![R]⟩ ![] h0 (constantI S_ 32 0#32)))
          (addi ids (broadcastInDim ⟨1, ![R]⟩ ![] h0 (constantI S_ 32 50000#32))) ids) (ValueIdx.ix2 j (0 : Fin 1))
      = Cert.Spec.wrap (ids (ValueIdx.ix1 j)) := by
  rw [bcast_col1_ix]
  exact wrap_word (ids (ValueIdx.ix1 j))

/-- Whole rows of a 50000-row table gathered at the normalised ids: row `j` of the result is row
    `Spec.rowOf (ids j)` of the table. -/
theorem gather_wrapped_rows {α : Type} {R C : Nat}
    (wf : GatherDims.WF ⟨2, ![50000, C]⟩ ⟨2, ![R, 1]⟩ ⟨2, ![R, C]⟩ [1] [0] [] [0] [] 1 ![1, C])
    (h0 : (⟨0, ![]⟩ : Shape).BroadcastsInDim ⟨1, ![R]⟩ ![])
    (h1 : (⟨1, ![R]⟩ : Shape).BroadcastsInDim ⟨2, ![R, 1]⟩ ![0])
    (x : (⟨2, ![50000, C]⟩ : Shape).Idx → α) (ids : IVec ⟨1, ![R]⟩ 32) (j : Fin R) (q : Fin C) :
    Host.gather (GatherRows.rowDims 50000 R C wf) x
        (broadcastInDim ⟨2, ![R, 1]⟩ ![0] h1
          (select (cmpi .slt ids (broadcastInDim ⟨1, ![R]⟩ ![] h0 (constantI S_ 32 0#32)))
            (addi ids (broadcastInDim ⟨1, ![R]⟩ ![] h0 (constantI S_ 32 50000#32))) ids)) (ValueIdx.ix2 j q)
      = x (ValueIdx.ix2 (Cert.Spec.rowOf (ids (ValueIdx.ix1 j))) q) := by
  rw [GatherRows.gather_rows_apply wf (by omega)]
  refine congrArg x ?_
  refine congrArg (fun r : Fin 50000 => ValueIdx.ix2 r q) (Fin.ext ?_)
  show min (_ : BitVec 32).toInt.toNat (50000 - 1) = min (Cert.Spec.wrap (ids (ValueIdx.ix1 j))).toInt.toNat 49999
  rw [show GatherRows.rowIdx j = ValueIdx.ix2 j (0 : Fin 1) from rfl, wrapped_col_apply]

/-! ## The arguments are never written -/

theorem V22_arg5 : Gen.V22 m outs c main_arg5 = m ((c : Thread nD τ).loc main_arg5) :=
  (V22_of m outs c main_arg5 (by decide)).trans <| (V21_of m outs c main_arg5 (by decide)).trans <| (V20_of m outs c main_arg5 (by decide)).trans <| (V19_of m outs c main_arg5 (by decide)).trans <| (V18_of m outs c main_arg5 (by decide)).trans <| (V17_of m outs c main_arg5 (by decide)).trans <| (V16_of m outs c main_arg5 (by decide)).trans <| (V15_of m outs c main_arg5 (by decide)).trans <| (V14_of m c main_arg5 (by decide)).trans <| (V13_of m c main_arg5 (by decide)).trans <| (V12_of m c main_arg5 (by decide)).trans <| (V11_of m c main_arg5 (by decide)).trans <| (V10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide))

theorem V17_arg3 : Gen.V17 m outs c main_arg3 = m ((c : Thread nD τ).loc main_arg3) :=
  (V17_of m outs c main_arg3 (by decide)).trans <| (V16_of m outs c main_arg3 (by decide)).trans <| (V15_of m outs c main_arg3 (by decide)).trans <| (V14_of m c main_arg3 (by decide)).trans <| (V13_of m c main_arg3 (by decide)).trans <| (V12_of m c main_arg3 (by decide)).trans <| (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide))

theorem V14_arg0 : Gen.V14 m c main_arg0 = m ((c : Thread nD τ).loc main_arg0) :=
  (V14_of m c main_arg0 (by decide)).trans <| (V13_of m c main_arg0 (by decide)).trans <| (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))

theorem V14_arg1 : Gen.V14 m c main_arg1 = m ((c : Thread nD τ).loc main_arg1) :=
  (V14_of m c main_arg1 (by decide)).trans <| (V13_of m c main_arg1 (by decide)).trans <| (V12_of m c main_arg1 (by decide)).trans <| (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide))

theorem V14_arg2 : Gen.V14 m c main_arg2 = m ((c : Thread nD τ).loc main_arg2) :=
  (V14_of m c main_arg2 (by decide)).trans <| (V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide))

theorem V14_arg4 : Gen.V14 m c main_arg4 = m ((c : Thread nD τ).loc main_arg4) :=
  (V14_of m c main_arg4 (by decide)).trans <| (V13_of m c main_arg4 (by decide)).trans <| (V12_of m c main_arg4 (by decide)).trans <| (V11_of m c main_arg4 (by decide)).trans <| (V10_of m c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide))

theorem V19_arg4 : Gen.V19 m outs c main_arg4 = m ((c : Thread nD τ).loc main_arg4) :=
  (V19_of m outs c main_arg4 (by decide)).trans <| (V18_of m outs c main_arg4 (by decide)).trans <| (V17_of m outs c main_arg4 (by decide)).trans <| (V16_of m outs c main_arg4 (by decide)).trans <| (V15_of m outs c main_arg4 (by decide)).trans <| (V14_of m c main_arg4 (by decide)).trans <| (V13_of m c main_arg4 (by decide)).trans <| (V12_of m c main_arg4 (by decide)).trans <| (V11_of m c main_arg4 (by decide)).trans <| (V10_of m c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide))

/-! ## The network's result: the host stretch after region 3 -/

theorem v109_eq : (Gen.V23 m outs c main_v109 : FVec Ideal S50000x48 .f32)
    = addf (extractStridedSlice S50000x48 ![0, 0]
        (addf (shapeCast S50176x48 (extractStridedSlice S1x50176x48 ![0, 0, 0] (slabOut2 outs c) slices_S2x50176x48_S1x50176x48_0_0_0) shapeCasts_S1x50176x48_S50176x48)
              (shapeCast S50176x48 (extractStridedSlice S1x50176x48 ![1, 0, 0] (slabOut2 outs c) slices_S2x50176x48_S1x50176x48_1_0_0) shapeCasts_S1x50176x48_S50176x48))
        slices_S50176x48_S50000x48_0_0)
      (broadcastInDim S50000x48 ![0, 1] bcast_S1x48_S50000x48_0_1 (broadcastInDim S1x48 ![1] bcast_S48_S1x48_1 (argB2 m c))) := by
  show StableHlo.after hostOps4 (Gen.V22 m outs c) (Proc.devRef .tc main_v109) = _
  after_results
  have e1 : Gen.V22 m outs c (Proc.devRef .tc main_v100) = outs 22 main_v100 c := Function.update_self ..
  have e2 : Gen.V22 m outs c (Proc.devRef .tc main_arg5) = m ((c : Thread nD τ).loc main_arg5) := V22_arg5 m outs c
  rw [e1, e2]
  rfl

/-- Row `n`, column `q` of the result: the two cores' slabs added, and the bias. -/
theorem out_apply (n : Fin 50000) (q : Fin 48) :
    (Gen.V23 m outs c main_v109 : FVec Ideal S50000x48 .f32) (ValueIdx.ix2 n q)
      = (slabOut2 outs c (ValueIdx.ix3 (0 : Fin 2) (⟨n.val, by omega⟩ : Fin 50176) q)
          + slabOut2 outs c (ValueIdx.ix3 (1 : Fin 2) (⟨n.val, by omega⟩ : Fin 50176) q))
        + argB2 m c (ValueIdx.ix1 q) := by
  rw [v109_eq, ValueIdx.addf_apply, bcast_cols_ix,
    ValueIdx.slice2_axis0_apply 0 _ _ n q (⟨n.val, by omega⟩ : Fin 50176) (by show n.val = 0 + n.val; omega),
    ValueIdx.addf_apply, ValueIdx.shapeCast_1ab_ab_apply, ValueIdx.shapeCast_1ab_ab_apply,
    slice3_member_apply 0 _ _ _ _ (0 : Fin 2) rfl, slice3_member_apply 1 _ _ _ _ (1 : Fin 2) rfl]

theorem v86_eq : (Gen.V19 m outs c main_v86 : FVec Ideal S50000x96 .f32)
    = maximumf
        (addf (extractStridedSlice S50000x96 ![0, 0]
          (addf (shapeCast S50176x96 (extractStridedSlice S1x50176x96 ![0, 0, 0] (slabOut1 outs c) slices_S2x50176x96_S1x50176x96_0_0_0) shapeCasts_S1x50176x96_S50176x96)
                (shapeCast S50176x96 (extractStridedSlice S1x50176x96 ![1, 0, 0] (slabOut1 outs c) slices_S2x50176x96_S1x50176x96_1_0_0) shapeCasts_S1x50176x96_S50176x96))
          slices_S50176x96_S50000x96_0_0)
        (broadcastInDim S50000x96 ![0, 1] bcast_S1x96_S50000x96_0_1 (broadcastInDim S1x96 ![1] bcast_S96_S1x96_1 (argB1 m c))))
        (broadcastInDim S50000x96 ![] bcast_S_S50000x96 (constant (F := Ideal) S_ .f32 0x00000000#32)) := by
  show StableHlo.after hostOps2_1 (Gen.V18 m outs c) (Proc.devRef .tc main_v86) = _
  after_results
  have e1 : Gen.V17 m outs c (Proc.devRef .tc main_v76) = outs 17 main_v76 c := Function.update_self ..
  have e2 : Gen.V17 m outs c (Proc.devRef .tc main_arg3) = m ((c : Thread nD τ).loc main_arg3) := V17_arg3 m outs c
  rw [e1, e2]
  simp only [TRef.ofBuf, TRef.toBuf, cast_eq]
  rfl

/-- Row `n`, column `k` of the activations the second layer reads: the two cores' slabs added, the bias, the positive part. -/
theorem act1_apply (n : Fin 50000) (k : Fin 96) :
    (Gen.V19 m outs c main_v86 : FVec Ideal S50000x96 .f32) (ValueIdx.ix2 n k)
      = max ((slabOut1 outs c (ValueIdx.ix3 (0 : Fin 2) (⟨n.val, by omega⟩ : Fin 50176) k)
              + slabOut1 outs c (ValueIdx.ix3 (1 : Fin 2) (⟨n.val, by omega⟩ : Fin 50176) k))
            + argB1 m c (ValueIdx.ix1 k)) 0 := by
  rw [v86_eq, ValueIdx.maximumf_apply, ValueIdx.addf_apply, bcast_cols_ix,
    ValueIdx.slice2_axis0_apply 0 _ _ n k (⟨n.val, by omega⟩ : Fin 50176) (by show n.val = 0 + n.val; omega),
    ValueIdx.addf_apply, ValueIdx.shapeCast_1ab_ab_apply, ValueIdx.shapeCast_1ab_ab_apply,
    slice3_member_apply 0 _ _ _ _ (0 : Fin 2) rfl, slice3_member_apply 1 _ _ _ _ (1 : Fin 2) rfl,
    ValueIdx.broadcastInDim_scalar_apply, ValueIdx.constant_apply, Ideal.ofBits_zero_f32]

/-! ## The edge messages of the first layer: the host stretch after region 0 -/

theorem v75_eq : (Gen.V16 m outs c main_v75 : FVec Ideal S851968x96 .bf16)
    = truncf .bf16 (mulf
        (extf .f32 (Host.gather gather_S50000x96_S851968x1_S851968x96_1_0_n_n_0_1_196 (hOut1 outs c)
          (broadcastInDim S851968x1 ![0] bcast_S851968_S851968x1_0
            (select (cmpi .slt (srcPad m c) (broadcastInDim S851968 ![] bcast_S_S851968 (constantI S_ 32 0#32)))
              (addi (srcPad m c) (broadcastInDim S851968 ![] bcast_S_S851968 (constantI S_ 32 50000#32))) (srcPad m c))))
          bitsLt_bf16_f32 : FVec Ideal S851968x96 .f32)
        (broadcastInDim S851968x96 ![0, 1] bcast_S851968x1_S851968x96_0_1
          (broadcastInDim S851968x1 ![0] bcast_S851968_S851968x1_0 (nrmPad m c)))) bitsLt_bf16_f32 := by
  show StableHlo.after hostOps1 (Gen.V15 m outs c) (Proc.devRef .tc main_v75) = _
  after_results
  have e1 : Gen.V15 m outs c (Proc.devRef .tc main_v63) = outs 15 main_v63 c := Function.update_self ..
  have e2 : Gen.V15 m outs c (Proc.devRef .tc main_v52) = Gen.V14 m c main_v52 := V15_of m outs c main_v52 (by decide)
  have e3 : Gen.V15 m outs c (Proc.devRef .tc main_v54) = Gen.V14 m c main_v54 := V15_of m outs c main_v54 (by decide)
  rw [e1, e2, e3]

/-- Edge `j`'s message of the first layer, column `q`: the source's projected row scaled by the edge's weight. -/
theorem msgs1_apply (j : Fin 851968) (q : Fin 96) :
    (Gen.V16 m outs c main_v75 : FVec Ideal S851968x96 .bf16) (ValueIdx.ix2 j q)
      = hOut1 outs c (ValueIdx.ix2 (Cert.Spec.rowOf (srcPad m c (ValueIdx.ix1 j))) q) * nrmPad m c (ValueIdx.ix1 j) := by
  rw [v75_eq, ValueIdx.truncf_apply, ValueIdx.mulf_apply, ValueIdx.extf_apply, bcast_rows_ix,
    show gather_S50000x96_S851968x1_S851968x96_1_0_n_n_0_1_196
      = GatherRows.rowDims 50000 851968 96 gather_S50000x96_S851968x1_S851968x96_1_0_n_n_0_1_196_wf from rfl,
    gather_wrapped_rows]

/-! ## The edge messages of the second layer: the host stretch after region 2 -/

theorem V20_v52 : Gen.V20 m outs c (Proc.devRef .tc main_v52) = Gen.V14 m c main_v52 :=
  (V20_of m outs c main_v52 (by decide)).trans <| (V19_of m outs c main_v52 (by decide)).trans <| (V18_of m outs c main_v52 (by decide)).trans <| (V17_of m outs c main_v52 (by decide)).trans <| (V16_of m outs c main_v52 (by decide)).trans <| (V15_of m outs c main_v52 (by decide))

theorem V20_v54 : Gen.V20 m outs c (Proc.devRef .tc main_v54) = Gen.V14 m c main_v54 :=
  (V20_of m outs c main_v54 (by decide)).trans <| (V19_of m outs c main_v54 (by decide)).trans <| (V18_of m outs c main_v54 (by decide)).trans <| (V17_of m outs c main_v54 (by decide)).trans <| (V16_of m outs c main_v54 (by decide)).trans <| (V15_of m outs c main_v54 (by decide))

theorem v99_eq : (Gen.V21 m outs c main_v99 : FVec Ideal S851968x48 .bf16)
    = truncf .bf16 (mulf
        (extf .f32 (Host.gather gather_S50000x48_S851968x1_S851968x48_1_0_n_n_0_1_148 (hOut2 outs c)
          (broadcastInDim S851968x1 ![0] bcast_S851968_S851968x1_0
            (select (cmpi .slt (srcPad m c) (broadcastInDim S851968 ![] bcast_S_S851968 (constantI S_ 32 0#32)))
              (addi (srcPad m c) (broadcastInDim S851968 ![] bcast_S_S851968 (constantI S_ 32 50000#32))) (srcPad m c))))
          bitsLt_bf16_f32 : FVec Ideal S851968x48 .f32)
        (broadcastInDim S851968x48 ![0, 1] bcast_S851968x1_S851968x48_0_1
          (broadcastInDim S851968x1 ![0] bcast_S851968_S851968x1_0 (nrmPad m c)))) bitsLt_bf16_f32 := by
  show StableHlo.after hostOps3 (Gen.V20 m outs c) (Proc.devRef .tc main_v99) = _
  after_results
  have e1 : Gen.V20 m outs c (Proc.devRef .tc main_v87) = outs 20 main_v87 c := Function.update_self ..
  rw [e1, V20_v52 m outs c, V20_v54 m outs c]

/-- Edge `j`'s message of the second layer, column `q`. -/
theorem msgs2_apply (j : Fin 851968) (q : Fin 48) :
    (Gen.V21 m outs c main_v99 : FVec Ideal S851968x48 .bf16) (ValueIdx.ix2 j q)
      = hOut2 outs c (ValueIdx.ix2 (Cert.Spec.rowOf (srcPad m c (ValueIdx.ix1 j))) q) * nrmPad m c (ValueIdx.ix1 j) := by
  rw [v99_eq, ValueIdx.truncf_apply, ValueIdx.mulf_apply, ValueIdx.extf_apply, bcast_rows_ix,
    show gather_S50000x48_S851968x1_S851968x48_1_0_n_n_0_1_148
      = GatherRows.rowDims 50000 851968 48 gather_S50000x48_S851968x1_S851968x48_1_0_n_n_0_1_148_wf from rfl,
    gather_wrapped_rows]

end Cert.KernelIdeal.Hand
-- ==== Proof.LibGatherVec.lean ====
/-
  `stablehlo.gather` of single ELEMENTS of a rank-1 operand, read at an index.

  What `x[idx]` of a flat array `x : [N]` at a one-column integer array `idx : [R, 1]` lowers to: `lax.gather` with
  offset_dims `[]`, collapsed_slice_dims `[0]`, start_index_map `[0]`, index_vector_dim `1`, slice_sizes `[1]` and
  no batching axes. Result element `e` is the operand at `idx[e, 0]`, read as a signed integer and clamped into
  `[0, N − 1]` (StableHLO's gather clamps every start index so that the slice fits).

  `vecDims N R wf` are those dimension numbers, generic in the two extents (their conditions `wf` are decided on a
  program's literal shapes), and `gather_vec_apply` is the gather read at `e`, generic in the index width and in
  the element type. The rank-2 operand's case (whole rows) is `GatherRows.gather_rows_apply`; the `[R, C, 1]` index
  array's case is Lib/ValueIdx.lean's `gather_take_apply`.
-/
import Idealize.ShloMosaic.PureOps.ShapeOps
import Idealize.ShloMosaic.Lib.ValueIdx

namespace Idealize.ShloMosaic.GatherVec

open Idealize.ShloMosaic Idealize.ShloMosaic.ValueIdx

variable {α : Type}

/-- The dimension numbers of an element gather for an operand `[N]`, start indices `[R, 1]` and result `[R]`. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

section
variable {N R w : Nat} (wf : GatherDims.WF ⟨1, ![N]⟩ ⟨2, ![R, 1]⟩ ⟨1, ![R]⟩ [] [0] [] [0] [] 1 ![1])

/-- The operand's position that result index `e` reads: the start index `idx[e, 0]`, signed and clamped. -/
theorem operandIdx_val (idx : IVec ⟨2, ![R, 1]⟩ w) (e : Fin R) :
    ((vecDims N R wf).operandIdx (ix1 e) idx 0).val = min (idx (ix2 e (0 : Fin 1))).toInt.toNat (N - 1) := by
  show (vecDims N R wf).start (ix1 e) idx 0 + (vecDims N R wf).batchCoord (ix1 e) 0
    + (vecDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 e) ⟨List.idxOf (0 : Fin 1) (vecDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE ELEMENT GATHER READ AT `e`: the operand at `idx[e, 0]`, read signed and clamped into `[0, N − 1]`. -/
theorem gather_vec_apply (hN : 0 < N) (x : (⟨1, ![N]⟩ : Shape).Idx → α) (idx : IVec ⟨2, ![R, 1]⟩ w) (e : Fin R) :
    Host.gather (vecDims N R wf) x idx (ix1 e)
      = x (ix1 ⟨min (idx (ix2 e (0 : Fin 1))).toInt.toNat (N - 1), by omega⟩) := by
  unfold Host.gather
  congr 1
  funext a
  refine Fin.ext ?_
  match a with
  | ⟨0, _⟩ => exact operandIdx_val wf idx e

end

end Idealize.ShloMosaic.GatherVec
-- ==== Proof.LibScatterRows.lean ====
/-
  A float `stablehlo.scatter` with an `add` body that adds WHOLE ROWS into a rank-2 operand, read at an index.

  What `jax.ops.segment_sum(upd, seg, num_segments = N)` (`.at[seg].add(upd)`) of updates `upd : [R, C]` at a
  one-column integer array `idx : [R, 1]` into an operand `[N, C]` lowers to: `lax.scatter_add` with
  update_window_dims `[1]`, inserted_window_dims `[0]`, scatter_dims_to_operand_dims `[0]`, index_vector_dim `1`.
  Update element `(j, q')` lands at row `idx[j, 0]`, read as a signed integer and NOT clamped, column `q'`; an
  update whose row is outside `[0, N)` is dropped.

  `resultIdx?_eq_some_iff` (any dimension numbers): an update lands at `i` iff on every axis its start plus its
  window coordinate is `i`'s coordinate. `rowDims N R C wf` are the dimension numbers above, generic in the three
  extents; `resultIdx?_rows_iff` is the landing condition for them, and `scatterAdd_rows_apply` is the exact
  (extended-real) scatter-add read at `(n, q)`: the operand's entry plus the sum, over the update rows `j` whose
  index is `n`, of `upd[j, q]`.
-/
import Idealize.ShloMosaic.PureOps.Ideal
import Idealize.ShloMosaic.Lib.ValueIdx

namespace Idealize.ShloMosaic.ScatterRows

open Idealize.ShloMosaic Idealize.ShloMosaic.ValueIdx
open scoped BigOperators

/-- An update index `j` lands at operand index `i` exactly when, on every operand axis, the start read off the
    scatter indices plus `j`'s window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · next hh =>
      have hi := Option.some.inj h
      intro a
      have ha : (d.start j idx a + (d.window j a : Int)).toNat = (i a).val :=
        congrArg (fun f : s.Idx => (f a).val) hi
      have h0 := (hh a).1
      omega
    · exact absurd h (by simp)
  · intro h
    have hh : ∀ a, 0 ≤ d.start j idx a + (d.window j a : Int) ∧ d.start j idx a + (d.window j a : Int) < s.size a := by
      intro a
      have h1 := h a
      have h2 := (i a).isLt
      omega
    rw [dif_pos hh]
    congr 1
    funext a
    refine Fin.ext ?_
    show (d.start j idx a + (d.window j a : Int)).toNat = (i a).val
    have h1 := h a
    omega

/-- The dimension numbers of a row scatter for an operand `[N, C]`, scatter indices `[R, 1]` and updates `[R, C]`. -/
abbrev rowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section
variable {N R C w : Nat} (wf : ScatterDims.WF ⟨2, ![N, C]⟩ ⟨2, ![R, 1]⟩ ⟨2, ![R, C]⟩ [1] [0] [0] 1)

/-- The row axis is inserted: it is not among the operand's kept axes. -/
theorem row_not_kept : (0 : Fin 2) ∉ (rowDims N R C wf).sKept := by
  simp [ScatterDims.sKept, Shape.kept, List.mem_filter, List.mem_finRange]

/-- The column axis is kept. -/
theorem col_kept : (1 : Fin 2) ∈ (rowDims N R C wf).sKept := by
  simp [ScatterDims.sKept, Shape.kept, List.mem_filter, List.mem_finRange]

/-- On the row axis the start is the scatter index `idx[j, 0]`, read signed. -/
theorem start_row (idx : IVec ⟨2, ![R, 1]⟩ w) (j : Fin R) (q : Fin C) :
    (rowDims N R C wf).start (ix2 j q) idx 0 = (idx (ix2 j (0 : Fin 1))).toInt := by
  unfold ScatterDims.start
  rw [dif_pos (show (0 : Fin 2) ∈ (rowDims N R C wf).scatterDimsToOperandDims from List.mem_singleton.mpr rfl)]
  have hsi : (rowDims N R C wf).siIdx (ix2 j q) ⟨List.idxOf (0 : Fin 2) (rowDims N R C wf).scatterDimsToOperandDims,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- On the column axis the start is zero: the map does not name it. -/
theorem start_col (idx : IVec ⟨2, ![R, 1]⟩ w) (j : Fin R) (q : Fin C) :
    (rowDims N R C wf).start (ix2 j q) idx 1 = 0 := by
  unfold ScatterDims.start
  rw [dif_neg (show (1 : Fin 2) ∉ (rowDims N R C wf).scatterDimsToOperandDims from
    fun h => absurd (congrArg Fin.val (List.mem_singleton.mp h)) Nat.one_ne_zero)]

/-- On the row axis the window coordinate is zero. -/
theorem window_row (j : Fin R) (q : Fin C) : (rowDims N R C wf).window (ix2 j q) 0 = 0 := by
  unfold ScatterDims.window
  rw [dif_neg (row_not_kept wf)]

/-- On the column axis the window coordinate is the update's column. -/
theorem window_col (j : Fin R) (q : Fin C) : (rowDims N R C wf).window (ix2 j q) 1 = q.val := by
  unfold ScatterDims.window
  rw [dif_pos (col_kept wf)]
  rfl

/-- Update element `(j, q')` lands at `(n, q)` exactly when its scatter index, read signed, is `n` and `q' = q`. -/
theorem resultIdx?_rows_iff (idx : IVec ⟨2, ![R, 1]⟩ w) (j : Fin R) (q' : Fin C) (n : Fin N) (q : Fin C) :
    (rowDims N R C wf).resultIdx? (ix2 j q') idx = some (ix2 n q)
      ↔ (idx (ix2 j (0 : Fin 1))).toInt = (n.val : Int) ∧ q' = q := by
  rw [resultIdx?_eq_some_iff]
  constructor
  · intro h
    have h0 : (rowDims N R C wf).start (ix2 j q') idx 0 + ((rowDims N R C wf).window (ix2 j q') 0 : Int) = (n.val : Int) := h 0
    have h1 : (rowDims N R C wf).start (ix2 j q') idx 1 + ((rowDims N R C wf).window (ix2 j q') 1 : Int) = (q.val : Int) := h 1
    rw [start_row, window_row] at h0
    rw [start_col, window_col] at h1
    refine ⟨by omega, Fin.ext (by omega)⟩
  · rintro ⟨h0, rfl⟩ a
    match a with
    | ⟨0, _⟩ =>
      show (rowDims N R C wf).start (ix2 j q') idx 0 + ((rowDims N R C wf).window (ix2 j q') 0 : Int) = (n.val : Int)
      rw [start_row, window_row]; omega
    | ⟨1, _⟩ =>
      show (rowDims N R C wf).start (ix2 j q') idx 1 + ((rowDims N R C wf).window (ix2 j q') 1 : Int) = (q'.val : Int)
      rw [start_col, window_col]; omega

/-- THE ROW SCATTER-ADD READ AT `(n, q)`: the operand's entry plus the sum of `upd[j, q]` over the update rows `j`
    whose scatter index, read signed, is `n`. -/
theorem scatterAdd_rows_apply (x : (⟨2, ![N, C]⟩ : Shape).Idx → EReal) (idx : IVec ⟨2, ![R, 1]⟩ w)
    (upd : (⟨2, ![R, C]⟩ : Shape).Idx → EReal) (n : Fin N) (q : Fin C) :
    Ideal.hostScatterAdd (rowDims N R C wf) x idx upd (ix2 n q)
      = x (ix2 n q) + ∑ j : Fin R, if (idx (ix2 j (0 : Fin 1))).toInt = (n.val : Int) then upd (ix2 j q) else 0 := by
  unfold Ideal.hostScatterAdd
  congr 1
  rw [Finset.sum_filter, sum_idx2]
  refine Finset.sum_congr rfl fun j _ => ?_
  rw [Finset.sum_eq_single q]
  · by_cases hj : (idx (ix2 j (0 : Fin 1))).toInt = (n.val : Int)
    · rw [if_pos ((resultIdx?_rows_iff wf idx j q n q).mpr ⟨hj, rfl⟩), if_pos hj]
    · rw [if_neg (fun h => hj ((resultIdx?_rows_iff wf idx j q n q).mp h).1), if_neg hj]
  · intro b _ hb
    exact if_neg (fun h => hb ((resultIdx?_rows_iff wf idx j b n q).mp h).2)
  · intro h
    exact absurd (Finset.mem_univ q) h

end

end Idealize.ShloMosaic.ScatterRows
-- ==== Proof.RefValue.lean ====
/- The reference program read as the network's formula, entry by entry. -/
import proofs.«425685_j80942953661103_3_alg».proof.Defs
import proofs.«425685_j80942953661103_3_alg».proof.Proof.RefRun
import proofs.«425685_j80942953661103_3_alg».proof.Proof.RefRead
import proofs.«425685_j80942953661103_3_alg».proof.Proof.SpecGraph
import proofs.«425685_j80942953661103_3_alg».proof.Proof.LibGatherRows
import proofs.«425685_j80942953661103_3_alg».proof.Proof.LibGatherVec
import proofs.«425685_j80942953661103_3_alg».proof.Proof.LibScatterRows

noncomputable section

namespace Cert.ReferenceIdeal.Hand

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx
open scoped BigOperators

/-! ## Words -/

/-- The index normalisation the reference applies before every gather — a negative word counts from the end — is
    `Spec.wrap`. -/
theorem wrap_word (w : BitVec 32) :
    Scalar.select (IntOp.cmpi .slt w 0#32) (IntOp.addi w 50000#32) w = Cert.Spec.wrap w := by
  have hs : w.slt 0#32 = decide (w.toInt < 0) := by simp [BitVec.slt]
  show (if BitVec.ofBool (w.slt 0#32) = 1 then w + 50000#32 else w) = if w.toInt < 0 then w + 50000#32 else w
  by_cases h : w.toInt < 0
  · rw [if_pos h, if_pos]
    rw [hs, decide_eq_true h]; rfl
  · rw [if_neg h, if_neg]
    rw [hs, decide_eq_false h]; decide

/-- A 32-bit word read signed is a node id `n < 50000` exactly when it is `n` read unsigned. -/
theorem toInt_eq_iff (w : BitVec 32) (n : Fin 50000) : w.toInt = (n.val : Int) ↔ w.toNat = n.val := by
  have h1 := w.isLt
  have h2 := n.isLt
  rw [BitVec.toInt_eq_toNat_cond]
  split <;> omega

/-- The row of a 50000-row array that a gather reads at the start word `w`: read signed, clamped into the array. -/
def clampRow (w : BitVec 32) : Fin 50000 := ⟨min w.toInt.toNat 49999, by omega⟩

/-- `Spec.rowOf` is the clamp of the wrapped word. -/
theorem rowOf_eq (w : BitVec 32) : clampRow (Cert.Spec.wrap w) = Cert.Spec.rowOf w := rfl

/-! ## The dimension numbers of the program are the library's -/

theorem gdimsV : gather_S50000_S850000x1_S850000_n_0_n_n_0_1_1
    = GatherVec.vecDims 50000 850000 gather_S50000_S850000x1_S850000_n_0_n_n_0_1_1_wf := rfl

theorem gdimsR96 : gather_S50000x96_S850000x1_S850000x96_1_0_n_n_0_1_196
    = GatherRows.rowDims 50000 850000 96 gather_S50000x96_S850000x1_S850000x96_1_0_n_n_0_1_196_wf := rfl

theorem gdimsR48 : gather_S50000x48_S850000x1_S850000x48_1_0_n_n_0_1_148
    = GatherRows.rowDims 50000 850000 48 gather_S50000x48_S850000x1_S850000x48_1_0_n_n_0_1_148_wf := rfl

theorem sdims96 : scatter_S50000x96_S850000x1_S850000x96_1_0_0_1
    = ScatterRows.rowDims 50000 850000 96 scatter_S50000x96_S850000x1_S850000x96_1_0_0_1_wf := rfl

theorem sdims48 : scatter_S50000x48_S850000x1_S850000x48_1_0_0_1
    = ScatterRows.rowDims 50000 850000 48 scatter_S50000x48_S850000x1_S850000x48_1_0_0_1_wf := rfl

/-- An element gather of the program, read at `j`. -/
theorem gatherV_apply (d : (⟨S50000, .f32⟩ : BufTy).Contents (Elt Ideal))
    (idx : (⟨S850000x1, .i32⟩ : BufTy).Contents (Elt Ideal)) (j : Fin 850000) :
    Host.gather gather_S50000_S850000x1_S850000_n_0_n_n_0_1_1 d idx (ix1 j)
      = d (ix1 (clampRow (idx (ix2 j (0 : Fin 1))))) := by
  rw [gdimsV]
  exact GatherVec.gather_vec_apply _ (by decide) d idx j

/-- A row gather of the program at width 96, read at `(j, k)`. -/
theorem gatherR96_apply (d : (⟨S50000x96, .f32⟩ : BufTy).Contents (Elt Ideal))
    (idx : (⟨S850000x1, .i32⟩ : BufTy).Contents (Elt Ideal)) (j : Fin 850000) (k : Fin 96) :
    Host.gather gather_S50000x96_S850000x1_S850000x96_1_0_n_n_0_1_196 d idx (ix2 j k)
      = d (ix2 (clampRow (idx (ix2 j (0 : Fin 1)))) k) := by
  rw [gdimsR96]
  exact GatherRows.gather_rows_apply _ (by decide) d idx j k

/-- A row gather of the program at width 48, read at `(j, q)`. -/
theorem gatherR48_apply (d : (⟨S50000x48, .f32⟩ : BufTy).Contents (Elt Ideal))
    (idx : (⟨S850000x1, .i32⟩ : BufTy).Contents (Elt Ideal)) (j : Fin 850000) (q : Fin 48) :
    Host.gather gather_S50000x48_S850000x1_S850000x48_1_0_n_n_0_1_148 d idx (ix2 j q)
      = d (ix2 (clampRow (idx (ix2 j (0 : Fin 1)))) q) := by
  rw [gdimsR48]
  exact GatherRows.gather_rows_apply _ (by decide) d idx j q

/-- A row scatter-add of the program at width 96, read at `(n, k)`. -/
theorem scatter96_apply (x : (⟨S50000x96, .f32⟩ : BufTy).Contents (Elt Ideal))
    (idx : (⟨S850000x1, .i32⟩ : BufTy).Contents (Elt Ideal)) (upd : (⟨S850000x96, .f32⟩ : BufTy).Contents (Elt Ideal))
    (n : Fin 50000) (k : Fin 96) :
    Host.scatterAdd (F := Ideal) (φ := .f32) scatter_S50000x96_S850000x1_S850000x96_1_0_0_1 x idx upd (ix2 n k)
      = x (ix2 n k) + ∑ j : Fin 850000, if (idx (ix2 j (0 : Fin 1))).toInt = (n.val : Int) then upd (ix2 j k) else 0 := by
  rw [sdims96]
  exact ScatterRows.scatterAdd_rows_apply _ x idx upd n k

/-- A row scatter-add of the program at width 48, read at `(n, q)`. -/
theorem scatter48_apply (x : (⟨S50000x48, .f32⟩ : BufTy).Contents (Elt Ideal))
    (idx : (⟨S850000x1, .i32⟩ : BufTy).Contents (Elt Ideal)) (upd : (⟨S850000x48, .f32⟩ : BufTy).Contents (Elt Ideal))
    (n : Fin 50000) (q : Fin 48) :
    Host.scatterAdd (F := Ideal) (φ := .f32) scatter_S50000x48_S850000x1_S850000x48_1_0_0_1 x idx upd (ix2 n q)
      = x (ix2 n q) + ∑ j : Fin 850000, if (idx (ix2 j (0 : Fin 1))).toInt = (n.val : Int) then upd (ix2 j q) else 0 := by
  rw [sdims48]
  exact ScatterRows.scatterAdd_rows_apply _ x idx upd n q

/-! ## The edge list -/

section
variable (x0 : (⟨S50000x96, .f32⟩ : BufTy).Contents (Elt Ideal)) (x1 : (⟨S2x800000, .i32⟩ : BufTy).Contents (Elt Ideal))
  (x2 : (⟨S96x96, .f32⟩ : BufTy).Contents (Elt Ideal)) (x3 : (⟨S96, .f32⟩ : BufTy).Contents (Elt Ideal))
  (x4 : (⟨S96x48, .f32⟩ : BufTy).Contents (Elt Ideal)) (x5 : (⟨S48, .f32⟩ : BufTy).Contents (Elt Ideal))

/-- The source list: row 0 of the edge array, then one self loop per node. -/
theorem src_apply (j : Fin 850000) : val_main_v3 (F := Ideal) x1 (ix1 j) = Cert.Spec.withLoops x1 0 j := by
  unfold val_main_v3 Cert.Spec.withLoops
  have hj := j.isLt
  by_cases h : j.val < 800000
  · rw [dif_pos h]
    refine (concatenate_pair_apply_left (t := S850000) (s₁ := S800000) (s₂ := S50000) _ _ _ _ (ix1 j) rfl (ix1 (⟨j.val, h⟩ : Fin 800000))
      (fun b => by match b with | ⟨0, _⟩ => rfl)).trans ?_
    rw [val_main_v2_apply, val_main_v1_apply]
    congr 1
    funext a; refine Fin.ext ?_
    match a with
    | ⟨0, _⟩ => rfl
    | ⟨1, _⟩ => exact Nat.mod_eq_of_lt h
  · rw [dif_neg h]
    refine (concatenate_pair_apply_right (t := S850000) (s₁ := S800000) (s₂ := S50000) _ _ _ _ (ix1 j) rfl rfl (ix1 (⟨j.val - 800000, by omega⟩ : Fin 50000))
      (fun b hb => absurd (Fin.ext (by match b with | ⟨0, _⟩ => rfl)) hb)
      (by show j.val - 800000 + 800000 = j.val; omega)).trans ?_
    rw [val_main_v0_apply]

/-- The destination list: row 1 of the edge array, then one self loop per node. -/
theorem dst_apply (j : Fin 850000) : val_main_v6 (F := Ideal) x1 (ix1 j) = Cert.Spec.withLoops x1 1 j := by
  unfold val_main_v6 Cert.Spec.withLoops
  have hj := j.isLt
  by_cases h : j.val < 800000
  · rw [dif_pos h]
    refine (concatenate_pair_apply_left (t := S850000) (s₁ := S800000) (s₂ := S50000) _ _ _ _ (ix1 j) rfl (ix1 (⟨j.val, h⟩ : Fin 800000))
      (fun b => by match b with | ⟨0, _⟩ => rfl)).trans ?_
    rw [val_main_v5_apply, val_main_v4_apply]
    congr 1
    funext a; refine Fin.ext ?_
    match a with
    | ⟨0, _⟩ => rfl
    | ⟨1, _⟩ => exact Nat.mod_eq_of_lt h
  · rw [dif_neg h]
    refine (concatenate_pair_apply_right (t := S850000) (s₁ := S800000) (s₂ := S50000) _ _ _ _ (ix1 j) rfl rfl (ix1 (⟨j.val - 800000, by omega⟩ : Fin 50000))
      (fun b hb => absurd (Fin.ext (by match b with | ⟨0, _⟩ => rfl)) hb)
      (by show j.val - 800000 + 800000 = j.val; omega)).trans ?_
    rw [val_main_v0_apply]

/-! ## The normalised gather indices -/

theorem v20_at (j : Fin 850000) : val_main_v20 (F := Ideal) x1 (ix1 j) = Cert.Spec.wrap (Cert.Spec.withLoops x1 0 j) := by
  rw [val_main_v20_apply, val_main_v17_apply, val_main_v19_apply, val_main_v16_apply, val_main_v18_apply,
    val_main_c_apply, val_main_c_3_apply, src_apply]
  exact wrap_word _

theorem v27_at (j : Fin 850000) : val_main_v27 (F := Ideal) x1 (ix1 j) = Cert.Spec.wrap (Cert.Spec.withLoops x1 1 j) := by
  rw [val_main_v27_apply, val_main_v24_apply, val_main_v26_apply, val_main_v23_apply, val_main_v25_apply,
    val_main_c_4_apply, val_main_c_5_apply, dst_apply]
  exact wrap_word _

theorem v35_at (j : Fin 850000) : val_main_v35 (F := Ideal) x1 (ix1 j) = Cert.Spec.wrap (Cert.Spec.withLoops x1 0 j) := by
  rw [val_main_v35_apply, val_main_v32_apply, val_main_v34_apply, val_main_v31_apply, val_main_v33_apply,
    val_main_c_6_apply, val_main_c_7_apply, src_apply]
  exact wrap_word _

theorem v61_at (j : Fin 850000) : val_main_v61 (F := Ideal) x1 (ix1 j) = Cert.Spec.wrap (Cert.Spec.withLoops x1 0 j) := by
  rw [val_main_v61_apply, val_main_v58_apply, val_main_v60_apply, val_main_v57_apply, val_main_v59_apply,
    val_main_c_13_apply, val_main_c_14_apply, src_apply]
  exact wrap_word _

theorem v68_at (j : Fin 850000) : val_main_v68 (F := Ideal) x1 (ix1 j) = Cert.Spec.wrap (Cert.Spec.withLoops x1 1 j) := by
  rw [val_main_v68_apply, val_main_v65_apply, val_main_v67_apply, val_main_v64_apply, val_main_v66_apply,
    val_main_c_15_apply, val_main_c_16_apply, dst_apply]
  exact wrap_word _

theorem v76_at (j : Fin 850000) : val_main_v76 (F := Ideal) x1 (ix1 j) = Cert.Spec.wrap (Cert.Spec.withLoops x1 0 j) := by
  rw [val_main_v76_apply, val_main_v73_apply, val_main_v75_apply, val_main_v72_apply, val_main_v74_apply,
    val_main_c_17_apply, val_main_c_18_apply, src_apply]
  exact wrap_word _

/-- The one-column index arrays read the list they broadcast. -/
theorem col_v21 (j : Fin 850000) : idx_main_v21 (ix2 j (0 : Fin 1)) = ix1 j := by
  funext a; match a with | ⟨0, _⟩ => rfl
theorem col_v28 (j : Fin 850000) : idx_main_v28 (ix2 j (0 : Fin 1)) = ix1 j := by
  funext a; match a with | ⟨0, _⟩ => rfl
theorem col_v36 (j : Fin 850000) : idx_main_v36 (ix2 j (0 : Fin 1)) = ix1 j := by
  funext a; match a with | ⟨0, _⟩ => rfl
theorem col_v42 (j : Fin 850000) : idx_main_v42 (ix2 j (0 : Fin 1)) = ix1 j := by
  funext a; match a with | ⟨0, _⟩ => rfl
theorem col_v62 (j : Fin 850000) : idx_main_v62 (ix2 j (0 : Fin 1)) = ix1 j := by
  funext a; match a with | ⟨0, _⟩ => rfl
theorem col_v69 (j : Fin 850000) : idx_main_v69 (ix2 j (0 : Fin 1)) = ix1 j := by
  funext a; match a with | ⟨0, _⟩ => rfl
theorem col_v77 (j : Fin 850000) : idx_main_v77 (ix2 j (0 : Fin 1)) = ix1 j := by
  funext a; match a with | ⟨0, _⟩ => rfl
theorem col_v83 (j : Fin 850000) : idx_main_v83 (ix2 j (0 : Fin 1)) = ix1 j := by
  funext a; match a with | ⟨0, _⟩ => rfl

/-! ## The edge weights -/

/-- The array of inverse square roots of the degrees, as the first layer computes it; kept opaque. -/
abbrev dinvOf : Fin 50000 → EReal := fun n => val_main_v15 (F := Ideal) x1 (ix1 n)

/-- The second layer recomputes the same array by the same operations. -/
theorem v56_eq : val_main_v56 (F := Ideal) x1 = val_main_v15 (F := Ideal) x1 := rfl

theorem v22_at (j : Fin 850000) :
    val_main_v22 (F := Ideal) x1 (ix1 j) = dinvOf x1 (Cert.Spec.rowOf (Cert.Spec.withLoops x1 0 j)) := by
  unfold val_main_v22
  rw [gatherV_apply, val_main_v21_apply, col_v21, v20_at, rowOf_eq]

theorem v29_at (j : Fin 850000) :
    val_main_v29 (F := Ideal) x1 (ix1 j) = dinvOf x1 (Cert.Spec.rowOf (Cert.Spec.withLoops x1 1 j)) := by
  unfold val_main_v29
  rw [gatherV_apply, val_main_v28_apply, col_v28, v27_at, rowOf_eq]

theorem v63_at (j : Fin 850000) :
    val_main_v63 (F := Ideal) x1 (ix1 j) = dinvOf x1 (Cert.Spec.rowOf (Cert.Spec.withLoops x1 0 j)) := by
  unfold val_main_v63
  rw [gatherV_apply, val_main_v62_apply, col_v62, v61_at, rowOf_eq, v56_eq]

theorem v70_at (j : Fin 850000) :
    val_main_v70 (F := Ideal) x1 (ix1 j) = dinvOf x1 (Cert.Spec.rowOf (Cert.Spec.withLoops x1 1 j)) := by
  unfold val_main_v70
  rw [gatherV_apply, val_main_v69_apply, col_v69, v68_at, rowOf_eq, v56_eq]

/-- The first layer's edge weights. -/
theorem v30_at (j : Fin 850000) : val_main_v30 (F := Ideal) x1 (ix1 j) = Cert.Spec.nrOf (dinvOf x1) x1 j := by
  rw [val_main_v30_apply, v22_at, v29_at]
  rfl

/-- The second layer's edge weights: the same. -/
theorem v71_at (j : Fin 850000) : val_main_v71 (F := Ideal) x1 (ix1 j) = Cert.Spec.nrOf (dinvOf x1) x1 j := by
  rw [val_main_v71_apply, v63_at, v70_at]
  rfl

/-! ## The first layer -/

/-- The first projection is the dense product. -/
theorem v7_at (r : Fin 50000) (k : Fin 96) :
    val_main_v7 (F := Ideal) x0 x2 (ix2 r k) = Cert.Spec.mm (fun n k => x0 (ix2 n k)) (fun k q => x2 (ix2 k q)) r k := by
  rw [val_main_v7_apply]
  unfold Cert.Spec.mm
  refine Finset.sum_congr rfl fun k' _ => ?_
  have hl : lidx_main_v7 (ix2 r k) k' = ix2 r k' := by
    funext a; match a with | ⟨0, _⟩ => rfl | ⟨1, _⟩ => rfl
  have hr : ridx_main_v7 (ix2 r k) k' = ix2 k' k := by
    funext a; match a with | ⟨0, _⟩ => rfl | ⟨1, _⟩ => rfl
  rw [hl, hr]

/-- An edge's message: its source's projected row. -/
theorem v37_at (j : Fin 850000) (k : Fin 96) :
    val_main_v37 (F := Ideal) x0 x1 x2 (ix2 j k)
      = Cert.Spec.mm (fun n k => x0 (ix2 n k)) (fun k q => x2 (ix2 k q)) (Cert.Spec.srOf x1 j) k := by
  unfold val_main_v37
  rw [gatherR96_apply, val_main_v36_apply, col_v36, v35_at, rowOf_eq]
  exact v7_at x0 x2 _ k

/-- The scaled message. -/
theorem v40_at (j : Fin 850000) (k : Fin 96) :
    val_main_v40 (F := Ideal) x0 x1 x2 (ix2 j k)
      = Cert.Spec.mm (fun n k => x0 (ix2 n k)) (fun k q => x2 (ix2 k q)) (Cert.Spec.srOf x1 j) k
        * Cert.Spec.nrOf (dinvOf x1) x1 j := by
  rw [val_main_v40_apply, v37_at, val_main_v39_apply, val_main_v38_apply]
  have h : idx_main_v38 (idx_main_v39 (ix2 j k)) = ix1 j := by
    funext a; match a with | ⟨0, _⟩ => rfl
  rw [h, v30_at]
  rfl

/-- The first aggregation. -/
theorem v43_at (n : Fin 50000) (k : Fin 96) :
    val_main_v43 (F := Ideal) x0 x1 x2 (ix2 n k)
      = Cert.Spec.agg (Cert.Spec.mm (fun n k => x0 (ix2 n k)) (fun k q => x2 (ix2 k q))) (Cert.Spec.srOf x1)
          (Cert.Spec.dsOf x1) (Cert.Spec.nrOf (dinvOf x1) x1) n k := by
  unfold val_main_v43
  rw [scatter96_apply, val_main_v41_apply, val_main_cst_8_apply, Ideal.ofBits_def, Ideal.ofBits_zero_f32, zero_add]
  unfold Cert.Spec.agg
  refine Finset.sum_congr rfl fun j _ => ?_
  rw [val_main_v42_apply, col_v42, dst_apply, v40_at]
  exact if_congr (toInt_eq_iff _ n) rfl rfl

/-- The first layer, after its nonlinearity. -/
theorem v47_at (n : Fin 50000) (k : Fin 96) :
    val_main_v47 (F := Ideal) x0 x1 x2 x3 (ix2 n k)
      = max (Cert.Spec.layer (fun n k => x0 (ix2 n k)) (fun k q => x2 (ix2 k q)) (fun k => x3 (ix1 k)) (Cert.Spec.srOf x1)
          (Cert.Spec.dsOf x1) (Cert.Spec.nrOf (dinvOf x1) x1) n k) 0 := by
  rw [val_main_v47_apply, val_main_v46_apply, v43_at, val_main_v45_apply, val_main_v44_apply,
    val_main_call1_v0_apply, val_main_call1_cst_apply, Ideal.ofBits_def, Ideal.ofBits_zero_f32]
  have h : idx_main_v44 (idx_main_v45 (ix2 n k)) = ix1 k := by
    funext a; match a with | ⟨0, _⟩ => rfl
  rw [h]
  rfl

/-! ## The second layer -/

/-- The hidden features the second layer reads. -/
abbrev hidOf : Fin 50000 → Fin 96 → EReal := fun n k => val_main_v47 (F := Ideal) x0 x1 x2 x3 (ix2 n k)

/-- The second projection is the dense product of the hidden features. -/
theorem v48_at (r : Fin 50000) (q : Fin 48) :
    val_main_v48 (F := Ideal) x0 x1 x2 x3 x4 (ix2 r q)
      = Cert.Spec.mm (hidOf x0 x1 x2 x3) (fun k q => x4 (ix2 k q)) r q := by
  rw [val_main_v48_apply]
  unfold Cert.Spec.mm
  refine Finset.sum_congr rfl fun k' _ => ?_
  have hl : lidx_main_v48 (ix2 r q) k' = ix2 r k' := by
    funext a; match a with | ⟨0, _⟩ => rfl | ⟨1, _⟩ => rfl
  have hr : ridx_main_v48 (ix2 r q) k' = ix2 k' q := by
    funext a; match a with | ⟨0, _⟩ => rfl | ⟨1, _⟩ => rfl
  rw [hl, hr]

theorem v78_at (j : Fin 850000) (q : Fin 48) :
    val_main_v78 (F := Ideal) x0 x1 x2 x3 x4 (ix2 j q)
      = Cert.Spec.mm (hidOf x0 x1 x2 x3) (fun k q => x4 (ix2 k q)) (Cert.Spec.srOf x1 j) q := by
  unfold val_main_v78
  rw [gatherR48_apply, val_main_v77_apply, col_v77, v76_at, rowOf_eq]
  exact v48_at x0 x1 x2 x3 x4 _ q

theorem v81_at (j : Fin 850000) (q : Fin 48) :
    val_main_v81 (F := Ideal) x0 x1 x2 x3 x4 (ix2 j q)
      = Cert.Spec.mm (hidOf x0 x1 x2 x3) (fun k q => x4 (ix2 k q)) (Cert.Spec.srOf x1 j) q
        * Cert.Spec.nrOf (dinvOf x1) x1 j := by
  rw [val_main_v81_apply, v78_at, val_main_v80_apply, val_main_v79_apply]
  have h : idx_main_v79 (idx_main_v80 (ix2 j q)) = ix1 j := by
    funext a; match a with | ⟨0, _⟩ => rfl
  rw [h, v71_at]
  rfl

/-- The second aggregation. -/
theorem v84_at (n : Fin 50000) (q : Fin 48) :
    val_main_v84 (F := Ideal) x0 x1 x2 x3 x4 (ix2 n q)
      = Cert.Spec.agg (Cert.Spec.mm (hidOf x0 x1 x2 x3) (fun k q => x4 (ix2 k q))) (Cert.Spec.srOf x1)
          (Cert.Spec.dsOf x1) (Cert.Spec.nrOf (dinvOf x1) x1) n q := by
  unfold val_main_v84
  rw [scatter48_apply, val_main_v82_apply, val_main_cst_19_apply, Ideal.ofBits_def, Ideal.ofBits_zero_f32, zero_add]
  unfold Cert.Spec.agg
  refine Finset.sum_congr rfl fun j _ => ?_
  rw [val_main_v83_apply, col_v83, dst_apply, v81_at]
  exact if_congr (toInt_eq_iff _ n) rfl rfl

/-- THE REFERENCE'S RESULT, entry by entry: the two-layer network over the edge list with its self loops, the weights
    taken from the array of inverse square roots of the degrees the reference computes. -/
theorem ref_apply (n : Fin 50000) (q : Fin 48) :
    val_main_v87 (F := Ideal) x0 x1 x2 x3 x4 x5 (ix2 n q)
      = Cert.Spec.Gof (fun n k => x0 (ix2 n k)) (fun k q => x2 (ix2 k q)) (fun k => x3 (ix1 k)) (fun k q => x4 (ix2 k q))
          (fun q => x5 (ix1 q)) x1 (fun n => val_main_v15 (F := Ideal) x1 (ix1 n)) n q := by
  rw [val_main_v87_apply, v84_at, val_main_v86_apply, val_main_v85_apply]
  have h : idx_main_v85 (idx_main_v86 (ix2 n q)) = ix1 q := by
    funext a; match a with | ⟨0, _⟩ => rfl
  rw [h]
  have hH : hidOf x0 x1 x2 x3 = fun n k => max (Cert.Spec.layer (fun n k => x0 (ix2 n k)) (fun k q => x2 (ix2 k q))
      (fun k => x3 (ix1 k)) (Cert.Spec.srOf x1) (Cert.Spec.dsOf x1) (Cert.Spec.nrOf (dinvOf x1) x1) n k) 0 := by
    funext n k
    exact v47_at x0 x1 x2 x3 n k
  rw [hH]
  rfl

end

/-! ## The run -/

/-- Every weakly fair execution of the reference ends with its result at the value read above and its arguments
    unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v87)
        = val_main_v87 (F := Ideal) (m' ((c.tc : Thread nD τ).loc main_arg0)) (m' ((c.tc : Thread nD τ).loc main_arg1))
            (m' ((c.tc : Thread nD τ).loc main_arg2)) (m' ((c.tc : Thread nD τ).loc main_arg3))
            (m' ((c.tc : Thread nD τ).loc main_arg4)) (m' ((c.tc : Thread nD τ).loc main_arg5))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5) :=
  (θ_run _ _ _).mono (fun _ h c => ⟨(h c).1.trans (val_main_v87_eq m' c), (h c).2⟩)
    (Cert.ReferenceIdeal.ValueP.run (F := Ideal) m' ρ')

end Cert.ReferenceIdeal.Hand

end
-- ==== Proof.DinvEq.lean ====
/- The array of inverse square roots of the node degrees is one term of the edge array in both programs. -/
import proofs.«425685_j80942953661103_3_alg».proof.Proof.Gen.KernelIdeal.Regions
import proofs.«425685_j80942953661103_3_alg».proof.Proof.RefRead
import Idealize.ShloMosaic.Lib.StableHlo.Run

set_option maxRecDepth 16384

noncomputable section

namespace Cert.Hand

open Idealize.ShloMosaic Idealize.ShloMosaic.TcCoe Idealize.SL.Sem Idealize.ShloMosaic.StableHlo

variable {F : FTy → Type} [FloatOps F]

/-- The array of inverse square roots of the degrees is computed by the same host operations of the edge array in
    the kernel's program and in the reference. -/
theorem dinv_eq (m : (ℓ : Loc Cert.KernelIdeal.nD Cert.KernelIdeal.τ Cert.KernelIdeal.sig) → Buf (Elt F) ℓ)
    (c : Dev Cert.KernelIdeal.nD) :
    (Cert.KernelIdeal.Gen.V14 m c Cert.KernelIdeal.main_v14 : Cert.KernelIdeal.S50000.Idx → F .f32)
      = Cert.ReferenceIdeal.ReadP.val_main_v15 (F := F)
          (m ((c.tc : Thread Cert.KernelIdeal.nD Cert.KernelIdeal.τ).loc Cert.KernelIdeal.main_arg1)) := by
  rw [Cert.KernelIdeal.Gen.V14_of m c _ (by decide), Cert.KernelIdeal.Gen.V13_of m c _ (by decide),
    Cert.KernelIdeal.Gen.V12_of m c _ (by decide), Cert.KernelIdeal.Gen.V11_of m c _ (by decide),
    Cert.KernelIdeal.Gen.V10_of m c _ (by decide), Cert.KernelIdeal.Gen.V9_of m c _ (by decide),
    Cert.KernelIdeal.Gen.V8_of m c _ (by decide), Cert.KernelIdeal.Gen.V7_of m c _ (by decide),
    Cert.KernelIdeal.Gen.V6_of m c _ (by decide), Cert.KernelIdeal.Gen.V5_of m c _ (by decide),
    Cert.KernelIdeal.Gen.V4_of m c _ (by decide), Cert.KernelIdeal.Gen.V3_of m c _ (by decide)]
  show StableHlo.after Cert.KernelIdeal.Gen.hostOps0_1 (StableHlo.after Cert.KernelIdeal.Gen.hostOps0 (Cert.KernelIdeal.Gen.V0 m c))
    (Proc.devRef .tc Cert.KernelIdeal.main_v14) = _
  after_results
  simp only [TRef.ofBuf, TRef.toBuf, cast_eq]
  rfl

end Cert.Hand

end
-- ==== Proof.KiGraphReads.lean ====
/- The kernel program's edge list and edge weights, read entry by entry: the same host operations of the edge array
   as the reference's, so the same values. -/
import proofs.«425685_j80942953661103_3_alg».proof.Proof.Gen.KernelIdeal.Regions
import proofs.«425685_j80942953661103_3_alg».proof.Proof.RefRead
import proofs.«425685_j80942953661103_3_alg».proof.Proof.RefValue
import proofs.«425685_j80942953661103_3_alg».proof.Proof.DinvEq
import proofs.«425685_j80942953661103_3_alg».proof.Proof.SpecGraph
import Idealize.ShloMosaic.Lib.StableHlo.Run

set_option maxRecDepth 16384

noncomputable section

namespace Cert.KernelIdeal.Hand

open Cert.KernelIdeal Idealize.ShloMosaic Idealize.ShloMosaic.TcCoe Idealize.SL.Sem Idealize.ShloMosaic.StableHlo

section AnyFloat
variable {F : FTy → Type} [FloatOps F] (m : (ℓ : Loc nD τ sig) → Buf (Elt F) ℓ) (c : Dev nD)

/-- After the first stretch the source list is the reference's: the same operations of the edge array. -/
theorem src_eq1 : (Gen.V1 m c main_v5 : IVec S850000 32)
    = Cert.ReferenceIdeal.ReadP.val_main_v3 (F := F) (m ((c.tc : Thread nD τ).loc main_arg1)) := by
  show StableHlo.after Gen.hostOps0 (Gen.V0 m c) (Proc.devRef .tc main_v5) = _
  after_results
  rfl

/-- After the first stretch the destination list is the reference's. -/
theorem dst_eq1 : (Gen.V1 m c main_v6 : IVec S850000 32)
    = Cert.ReferenceIdeal.ReadP.val_main_v6 (F := F) (m ((c.tc : Thread nD τ).loc main_arg1)) := by
  show StableHlo.after Gen.hostOps0 (Gen.V0 m c) (Proc.devRef .tc main_v6) = _
  after_results
  rfl

theorem src_eq2 : (Gen.V2 m c main_v5 : IVec S850000 32)
    = Cert.ReferenceIdeal.ReadP.val_main_v3 (F := F) (m ((c.tc : Thread nD τ).loc main_arg1)) := by
  rw [Gen.V2_of m c _ (by decide)]
  exact src_eq1 m c

theorem dst_eq2 : (Gen.V2 m c main_v6 : IVec S850000 32)
    = Cert.ReferenceIdeal.ReadP.val_main_v6 (F := F) (m ((c.tc : Thread nD τ).loc main_arg1)) := by
  rw [Gen.V2_of m c _ (by decide)]
  exact dst_eq1 m c

/-- After the second stretch the array of inverse square roots of the degrees is the reference's. -/
theorem dinv_eq2 : (Gen.V2 m c main_v14 : S50000.Idx → F .f32)
    = Cert.ReferenceIdeal.ReadP.val_main_v15 (F := F) (m ((c.tc : Thread nD τ).loc main_arg1)) := by
  have h := Cert.Hand.dinv_eq (F := F) m c
  rw [Gen.V14_of m c _ (by decide), Gen.V13_of m c _ (by decide), Gen.V12_of m c _ (by decide), Gen.V11_of m c _ (by decide), Gen.V10_of m c _ (by decide), Gen.V9_of m c _ (by decide), Gen.V8_of m c _ (by decide), Gen.V7_of m c _ (by decide), Gen.V6_of m c _ (by decide), Gen.V5_of m c _ (by decide), Gen.V4_of m c _ (by decide), Gen.V3_of m c _ (by decide)] at h
  exact h

set_option maxHeartbeats 4000000 in  -- nineteen operations, the two lists read three times each
/-- The third stretch computes the edge weights from the two lists and that array by the reference's operations. -/
theorem norm_eq3 : (Gen.V3 m c main_v29 : S850000.Idx → F .f32)
    = Cert.ReferenceIdeal.ReadP.val_main_v30 (F := F) (m ((c.tc : Thread nD τ).loc main_arg1)) := by
  have h14 := dinv_eq2 m c
  have h5 := src_eq2 m c
  have h6 := dst_eq2 m c
  show StableHlo.after Gen.hostOps0_2 (Gen.V2 m c) (Proc.devRef .tc main_v29) = _
  generalize Gen.V2 m c = W at h14 h5 h6 ⊢
  after_results
  rw [h14, h5, h6]
  rfl

theorem src_eq : (Gen.V14 m c main_v5 : IVec S850000 32)
    = Cert.ReferenceIdeal.ReadP.val_main_v3 (F := F) (m ((c.tc : Thread nD τ).loc main_arg1)) := by
  rw [Gen.V14_of m c _ (by decide), Gen.V13_of m c _ (by decide), Gen.V12_of m c _ (by decide), Gen.V11_of m c _ (by decide), Gen.V10_of m c _ (by decide), Gen.V9_of m c _ (by decide), Gen.V8_of m c _ (by decide), Gen.V7_of m c _ (by decide), Gen.V6_of m c _ (by decide), Gen.V5_of m c _ (by decide), Gen.V4_of m c _ (by decide), Gen.V3_of m c _ (by decide)]
  exact src_eq2 m c

theorem dst_eq : (Gen.V14 m c main_v6 : IVec S850000 32)
    = Cert.ReferenceIdeal.ReadP.val_main_v6 (F := F) (m ((c.tc : Thread nD τ).loc main_arg1)) := by
  rw [Gen.V14_of m c _ (by decide), Gen.V13_of m c _ (by decide), Gen.V12_of m c _ (by decide), Gen.V11_of m c _ (by decide), Gen.V10_of m c _ (by decide), Gen.V9_of m c _ (by decide), Gen.V8_of m c _ (by decide), Gen.V7_of m c _ (by decide), Gen.V6_of m c _ (by decide), Gen.V5_of m c _ (by decide), Gen.V4_of m c _ (by decide), Gen.V3_of m c _ (by decide)]
  exact dst_eq2 m c

theorem norm_eq : (Gen.V14 m c main_v29 : S850000.Idx → F .f32)
    = Cert.ReferenceIdeal.ReadP.val_main_v30 (F := F) (m ((c.tc : Thread nD τ).loc main_arg1)) := by
  rw [Gen.V14_of m c _ (by decide), Gen.V13_of m c _ (by decide), Gen.V12_of m c _ (by decide), Gen.V11_of m c _ (by decide), Gen.V10_of m c _ (by decide), Gen.V9_of m c _ (by decide), Gen.V8_of m c _ (by decide), Gen.V7_of m c _ (by decide), Gen.V6_of m c _ (by decide), Gen.V5_of m c _ (by decide), Gen.V4_of m c _ (by decide)]
  exact norm_eq3 m c

end AnyFloat

variable (m : (ℓ : Loc nD τ sig) → Buf (Elt Ideal) ℓ) (c : Dev nD)

/-- Edge `j`'s source word: row 0 of the edge array, then the self loops. -/
theorem src_apply (j : Fin 850000) :
    (Gen.V14 m c main_v5 : IVec S850000 32) (ValueIdx.ix1 j)
      = Cert.Spec.withLoops (m ((c.tc : Thread nD τ).loc main_arg1)) 0 j :=
  (congrFun (src_eq (F := Ideal) m c) (ValueIdx.ix1 j)).trans (Cert.ReferenceIdeal.Hand.src_apply _ j)

/-- Edge `j`'s destination word: row 1 of the edge array, then the self loops. -/
theorem dst_apply (j : Fin 850000) :
    (Gen.V14 m c main_v6 : IVec S850000 32) (ValueIdx.ix1 j)
      = Cert.Spec.withLoops (m ((c.tc : Thread nD τ).loc main_arg1)) 1 j :=
  (congrFun (dst_eq (F := Ideal) m c) (ValueIdx.ix1 j)).trans (Cert.ReferenceIdeal.Hand.dst_apply _ j)

/-- Edge `j`'s weight: the entries of the array of inverse square roots of the degrees at its two ends. -/
theorem norm_apply (j : Fin 850000) :
    (Gen.V14 m c main_v29 : FVec Ideal S850000 .f32) (ValueIdx.ix1 j)
      = Cert.Spec.nrOf (fun n => (Gen.V14 m c main_v14 : FVec Ideal S50000 .f32) (ValueIdx.ix1 n))
          (m ((c.tc : Thread nD τ).loc main_arg1)) j := by
  refine (congrFun (norm_eq (F := Ideal) m c) (ValueIdx.ix1 j)).trans ?_
  refine (Cert.ReferenceIdeal.Hand.v30_at _ j).trans ?_
  have hd : Cert.ReferenceIdeal.Hand.dinvOf (m ((c.tc : Thread nD τ).loc main_arg1))
      = fun n => (Gen.V14 m c main_v14 : FVec Ideal S50000 .f32) (ValueIdx.ix1 n) := by
    funext n
    exact (congrFun (Cert.Hand.dinv_eq (F := Ideal) m c) (ValueIdx.ix1 n)).symm
  exact congrArg (fun d => Cert.Spec.nrOf d (m ((c.tc : Thread nD τ).loc main_arg1)) j) hd

end Cert.KernelIdeal.Hand

end
-- ==== Proof.KiAssemble.lean ====
/- The kernel program's result, entry by entry, is the network's formula over the argument arrays.
   What the four kernel regions leave in their output arrays is taken as four hypotheses (they are the regions' own
   value theorems); between the regions the host operations are read at an index; and each layer's two slabs add up
   to the aggregation over the original edge list, because the padded sorted list is the edge list read through the
   sort's permutation with zero weights on the padding, and every edge of a block lies in the block's first or last
   chunk of 1024 rows. -/
import proofs.«425685_j80942953661103_3_alg».proof.Proof.KiSortFacts
import proofs.«425685_j80942953661103_3_alg».proof.Proof.KiChunks
import proofs.«425685_j80942953661103_3_alg».proof.Proof.KiHostReads
import proofs.«425685_j80942953661103_3_alg».proof.Proof.KiGraphReads
import proofs.«425685_j80942953661103_3_alg».proof.Proof.SpecGraph

noncomputable section

namespace Cert.KernelIdeal.Hand

open Idealize.ShloMosaic Idealize.ShloMosaic.TcCoe Idealize.SL.Sem Cert.KernelIdeal Cert.KernelIdeal.Gen

variable (m : (ℓ : Loc nD τ sig) → Buf (Elt Ideal) ℓ) (outs : Gen.Outs (F := Ideal)) (c : Dev nD)

/-- The argument arrays and the array of inverse square roots, as functions of their coordinates. -/
abbrev xF : Fin 50000 → Fin 96 → EReal := fun n k => argX m c (ValueIdx.ix2 n k)
abbrev w1F : Fin 96 → Fin 96 → EReal := fun k q => argW1 m c (ValueIdx.ix2 k q)
abbrev b1F : Fin 96 → EReal := fun k => argB1 m c (ValueIdx.ix1 k)
abbrev w2F : Fin 96 → Fin 48 → EReal := fun k q => argW2 m c (ValueIdx.ix2 k q)
abbrev b2F : Fin 48 → EReal := fun q => argB2 m c (ValueIdx.ix1 q)
abbrev dinvF : Fin 50000 → EReal := fun n => dinvArr m c (ValueIdx.ix1 n)

/-- The chunk tables and the padded sorted edge list, as functions of a position. -/
abbrev loF : Fin 832 → ℕ := fun g => (Gen.V14 m c main_v61 (ValueIdx.ix1 g)).toNat
abbrev hiF : Fin 832 → ℕ := fun g => (Gen.V14 m c main_v62 (ValueIdx.ix1 g)).toNat
abbrev srcPwF : Fin 851968 → BitVec 32 := fun j => srcPad m c (ValueIdx.ix1 j)
abbrev npF : Fin 851968 → EReal := fun j => nrmPad m c (ValueIdx.ix1 j)
/-- The first layer's activations, the array the second dense product reads. -/
abbrev actArr : FVec Ideal S50000x96 .f32 := Gen.V19 m outs c main_v86

variable [hP : Cert.Pre_finite_inputs.Facts]

/-- Every edge of a block lies in the block's first or last chunk. -/
theorem cover_flat (hpre : PreAt m c) (g : Fin 832) (l : Fin 1024) :
    dp m c (Cert.Spec.flat g l) / 1024 = loF m c g ∨ dp m c (Cert.Spec.flat g l) / 1024 = hiF m c g :=
  dp_cover m c hpre g l

/-- The sorted part of the padded list is the edge list read through the sort's permutation. -/
theorem sorted_part (j : Fin 851968) (hj : j.val < 850000) :
    srcPwF m c j = Cert.Spec.withLoops (argE m c) 0 (perm m c ⟨j.val, hj⟩)
      ∧ dp m c j = Cert.Spec.dsOf (argE m c) (perm m c ⟨j.val, hj⟩)
      ∧ npF m c j = Cert.Spec.nrOf (dinvF m c) (argE m c) (perm m c ⟨j.val, hj⟩) := by
  refine ⟨?_, ?_, ?_⟩
  · show Gen.V14 m c main_v52 (ValueIdx.ix1 j) = _
    rw [srcP_apply m c j, dif_pos hj, srcS_apply m c ⟨j.val, hj⟩]
    exact src_apply m c _
  · rw [dp_sorted m c j hj]
    show (Gen.V14 m c main_v6 (ValueIdx.ix1 (perm m c ⟨j.val, hj⟩))).toNat = _
    rw [dst_apply m c _]
    rfl
  · show Gen.V14 m c main_v54 (ValueIdx.ix1 j) = _
    rw [normP_apply m c j, dif_pos hj, normS_apply m c ⟨j.val, hj⟩]
    exact norm_apply m c _

/-- The padding carries the weight zero. -/
theorem pad_part (j : Fin 851968) (hj : 850000 ≤ j.val) : npF m c j = 0 := by
  show Gen.V14 m c main_v54 (ValueIdx.ix1 j) = _
  rw [normP_apply m c j, dif_neg (Nat.not_lt.mpr hj)]
  simp [constant, Ideal.ofBits_zero_f32]

/-- THE KERNEL'S VALUE. Given what the four regions leave (the two dense products, the two pairs of slabs), the result
    array holds the network's formula of the argument arrays. -/
theorem kernel_value_of (hpre : PreAt m c)
    (h15 : ∀ (r : Fin 50000) (q : Fin 96), hOut1 outs c (ValueIdx.ix2 r q) = ∑ k : Fin 96, argX m c (ValueIdx.ix2 r k) * argW1 m c (ValueIdx.ix2 k q))
    (h17 : ∀ (core : Fin 2) (n : Fin 50176) (q : Fin 96), slabOut1 outs c (ValueIdx.ix3 core n q)
      = Cert.Spec.slab (loF m c) (hiF m c) (dp m c) (fun j q => (Gen.V16 m outs c main_v75 : FVec Ideal S851968x96 .bf16) (ValueIdx.ix2 j q)) core n.val q)
    (h20 : ∀ (r : Fin 50000) (q : Fin 48), hOut2 outs c (ValueIdx.ix2 r q)
      = ∑ k : Fin 96, actArr m outs c (ValueIdx.ix2 r k) * argW2 m c (ValueIdx.ix2 k q))
    (h22 : ∀ (core : Fin 2) (n : Fin 50176) (q : Fin 48), slabOut2 outs c (ValueIdx.ix3 core n q)
      = Cert.Spec.slab (loF m c) (hiF m c) (dp m c) (fun j q => (Gen.V21 m outs c main_v99 : FVec Ideal S851968x48 .bf16) (ValueIdx.ix2 j q)) core n.val q)
    (n : Fin 50000) (q : Fin 48) :
    (Gen.V23 m outs c main_v109 : FVec Ideal S50000x48 .f32) (ValueIdx.ix2 n q)
      = Cert.Spec.Gof (xF m c) (w1F m c) (b1F m c) (w2F m c) (b2F m c) (argE m c) (dinvF m c) n q := by
  -- the first layer's activations
  have hact : ∀ (r : Fin 50000) (k : Fin 96), actArr m outs c (ValueIdx.ix2 r k)
      = max (Cert.Spec.layer (xF m c) (w1F m c) (b1F m c) (Cert.Spec.srOf (argE m c)) (Cert.Spec.dsOf (argE m c))
          (Cert.Spec.nrOf (dinvF m c) (argE m c)) r k) 0 := by
    intro r k
    show (Gen.V19 m outs c main_v86 : FVec Ideal S50000x96 .f32) (ValueIdx.ix2 r k) = _
    rw [act1_apply m outs c r k, h17, h17]
    unfold Cert.Spec.layer
    rw [Cert.Spec.slabs_eq_agg (Cert.Spec.mm (xF m c) (w1F m c)) (argE m c) (dinvF m c) (perm m c) (srcPwF m c) (dp m c) (npF m c)
      (loF m c) (hiF m c) _ (fun j q' => by rw [msgs1_apply m outs c j q', h15]; rfl) (cover_flat m c hpre)
      (sorted_part m c) (pad_part m c) r k]
  rw [out_apply m outs c n q, h22, h22]
  unfold Cert.Spec.Gof Cert.Spec.G
  show _ = Cert.Spec.layer _ (w2F m c) (b2F m c) _ _ _ n q
  unfold Cert.Spec.layer
  rw [Cert.Spec.slabs_eq_agg (Cert.Spec.mm (fun r k => max (Cert.Spec.layer (xF m c) (w1F m c) (b1F m c) (Cert.Spec.srOf (argE m c))
      (Cert.Spec.dsOf (argE m c)) (Cert.Spec.nrOf (dinvF m c) (argE m c)) r k) 0) (w2F m c)) (argE m c) (dinvF m c) (perm m c)
      (srcPwF m c) (dp m c) (npF m c) (loF m c) (hiF m c) _
      (fun j q' => by
        rw [msgs2_apply m outs c j q', h20]
        unfold Cert.Spec.mm
        simp only [hact])
      (cover_flat m c hpre) (sorted_part m c) (pad_part m c) n q]
  rfl

end Cert.KernelIdeal.Hand

end
-- ==== Proof.KiSc1Value.lean ====
/- REGION 1 of @main at the ideal values: what the scatter kernel leaves in the two cores' slabs. One point's step read
   at an entry of the slab; the slab after a point as a partial sum over the core's blocks of edges; the array after
   the region's write-backs as the kernel's arrangement of the edge sum. -/
import proofs.«425685_j80942953661103_3_alg».proof.Proof.KiSc1
import proofs.«425685_j80942953661103_3_alg».proof.Proof.Spec
import Idealize.ShloMosaic.Lib.Pipeline.Value
import Idealize.ShloMosaic.Lib.ValueIdx
import Idealize.ShloMosaic.Lib.ValueLayout
import Idealize.ShloMosaic.Lib.StackMember
import Idealize.ShloMosaic.Lib.KernelVsHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)
open Idealize.ShloMosaic.ValueIdx

section Value1

/-- A comparison's bit widened to a word and read as a signed integer is 1 or 0. -/
theorem hot_word (x y : BitVec 32) :
    FloatOps.sitofp (F := Ideal) .f32 ((IntOp.cmpi .eq x y).setWidth 32) = if x = y then (1 : EReal) else 0 := by
  show (((((IntOp.cmpi .eq x y).setWidth 32).toInt : ℝ)) : EReal) = _
  by_cases h : x = y
  · subst h; simp [IntOp.cmpi]
  · have hb : (x == y) = false := by simpa using h
    simp [IntOp.cmpi, hb, h]

theorem pay1_apply (j : S1x50176x96.Idx) : k1_pay1 (F := Ideal) j = 0 := by
  unfold k1_pay1
  exact Ideal.ofBits_zero_f32

theorem pay4_apply (v6 : BitVec 32) (d : Vec Ideal S1024 .i32) (m : Vec Ideal S1024x96 .bf16) (X : Vec Ideal S1x1024x96 .f32)
    (r : Fin 1024) (q : Fin 96) :
    k1_pay4 (F := Ideal) v6 d m X (ValueIdx.ix3 (0 : Fin 1) r q)
      = X (ValueIdx.ix3 (0 : Fin 1) r q) + ∑ l : Fin 1024, (if v6 * 1024#32 + BitVec.ofNat 32 r.val = d (ValueIdx.ix1 l) then (1 : EReal) else 0) * m (ix2 l q) := by
  unfold k1_pay4 k1_pay2 k1_pay3
  rw [shapeCast_ab_1ab_apply]
  rw [addf_apply, shapeCast_1ab_ab_apply]
  rw [matmul_zero_eq_dotGeneral]
  refine congrArg (X (ValueIdx.ix3 (0 : Fin 1) r q) + ·) ((StackMember.dotGeneral_plain_apply (m := 1024) (k := 1024) (n := 96) none _ _ r q).trans ?_)
  refine Finset.sum_congr rfl fun l _ => ?_
  rw [truncf_apply, sitofp_apply, extui_apply]
  show FloatOps.sitofp (F := Ideal) .f32 ((IntOp.cmpi .eq (IntOp.addi (Scalar.muli v6 1024#32) (iota Kind.tc S1024x1024 32 [0] iota_S1024x1024_d0_w32 (ix2 r l))) (broadcastTo S1024x1024 (shapeCast S1x1024 (shapeCast S1024 d shapeCasts_S1024_S1024) shapeCasts_S1024_S1x1024) broadcasts_S1x1024_S1024x1024 (ix2 r l))).setWidth 32) * (shapeCast S1024x96 m shapeCasts_S1024x96_S1024x96) (ix2 l q) = _
  rw [hot_word, iota_single_apply, broadcastTo_1b_ab_apply, shapeCast_a_1a_apply, shapeCast_self, shapeCast_self]
  rfl

/-- The two payloads are the same operations. -/
theorem pay5_eq : @k1_pay5 Ideal _ = @k1_pay4 Ideal _ := rfl

/-! ## Words without wrap-around -/

/-- A chunk number below 49 times 1024 plus a row below 1024 does not wrap, so the word equation is the equation of
    the numbers. -/
theorem word_eq_iff (v : BitVec 32) (hv : v.toNat < 49) (r : ℕ) (hr : r < 1024) (d : BitVec 32) :
    v * 1024#32 + BitVec.ofNat 32 r = d ↔ v.toNat * 1024 + r = d.toNat := by
  rw [← BitVec.toNat_inj]
  have e : (v * 1024#32 + BitVec.ofNat 32 r).toNat = v.toNat * 1024 + r := by
    simp only [BitVec.toNat_add, BitVec.toNat_mul, BitVec.toNat_ofNat]
    omega
  rw [e]

theorem muli_toNat (v : BitVec 32) (hv : v.toNat < 49) : (Scalar.muli v 1024#32).toNat = v.toNat * 1024 := by
  show (v * 1024#32).toNat = _
  simp only [BitVec.toNat_mul, BitVec.toNat_ofNat]
  omega

/-! ## A chunk of 1024 rows written over a slab -/

theorem overlay_rows {α : Type} {D : ℕ} (off : Fin 3 → ℕ) (o : ℕ) (hoff : off = ![0, o, 0])
    (inb : ∀ a, off a + (⟨3, ![1, 1024, D]⟩ : Shape).size a ≤ (⟨3, ![1, 50176, D]⟩ : Shape).size a)
    (X : (⟨3, ![1, 50176, D]⟩ : Shape).Idx → α) (G : (⟨3, ![1, 1024, D]⟩ : Shape).Idx → α) (n : Fin 50176) (q : Fin D) :
    (Rect.unit (s := ⟨3, ![1, 50176, D]⟩) off (⟨3, ![1, 1024, D]⟩ : Shape).size inb).overlay X G (ValueIdx.ix3 (0 : Fin 1) n q)
      = if h : o ≤ n.val ∧ n.val < o + 1024 then G (ValueIdx.ix3 (0 : Fin 1) ⟨n.val - o, by omega⟩ q) else X (ValueIdx.ix3 (0 : Fin 1) n q) := by
  subst hoff
  split
  · rename_i h
    have e : ValueIdx.ix3 (0 : Fin 1) n q = (Rect.unit (s := ⟨3, ![1, 50176, D]⟩) ![0, o, 0] (⟨3, ![1, 1024, D]⟩ : Shape).size inb).emb (ValueIdx.ix3 (0 : Fin 1) ⟨n.val - o, by omega⟩ q) := by
      funext a; apply Fin.ext
      match a with
      | ⟨0, _⟩ => show 0 = 0 + 1 * 0; rfl
      | ⟨1, _⟩ => show n.val = o + 1 * (n.val - o); omega
      | ⟨2, _⟩ => show q.val = 0 + 1 * q.val; omega
    rw [e, Rect.overlay_emb]
  · rename_i h
    refine Rect.overlay_of_not_mem _ _ _ fun hm => h ?_
    have := (Rect.mem_set_unit.mp hm) 1
    exact ⟨this.1, this.2⟩

/-! ## One chunk's update, and one point's step, at an entry -/

theorem hzd1 : (![0] : Fin 1 → ℕ) = fun _ => 0 := funext fun a => by fin_cases a; rfl
theorem hzm1 : (![0, 0] : Fin 2 → ℕ) = fun _ => 0 := funext fun a => by fin_cases a <;> rfl

theorem off2_eq (v6 : BitVec 32) (hlo : v6.toNat < 49) : k1_off2 v6 = ![0, v6.toNat * 1024, 0] := by
  show ![0, (Scalar.muli v6 1024#32).toNat, 0] = _
  rw [muli_toNat v6 hlo]

theorem off3_eq (v8 : BitVec 32) (hhi : v8.toNat < 49) : k1_off3 v8 = ![0, v8.toNat * 1024, 0] := by
  show ![0, (Scalar.muli v8 1024#32).toNat, 0] = _
  rw [muli_toNat v8 hhi]

/-- The chunk of 1024 rows at word `v` updated by its payload: row `n` of the slab gains the messages of the block's
    edges whose destination is `n`, when `n` lies in the chunk; other rows keep their value. -/
theorem chunk_apply (v : BitVec 32) (hv : v.toNat < 49) (off : Fin 3 → ℕ) (hoff : off = ![0, v.toNat * 1024, 0])
    (inb : ∀ a, off a + S1x1024x96.size a ≤ S1x50176x96.size a)
    (x0 : Vec Ideal S1024 .i32) (x1 : Vec Ideal S1024x96 .bf16) (X : Vec Ideal S1x50176x96 .f32) (n : Fin 50176) (q : Fin 96) :
    (Rect.unit (s := S1x50176x96) off S1x1024x96.size inb).overlay X
        (k1_pay4 (F := Ideal) v (View.ld x0 r1_d) (View.ld x1 r1_m) (View.ld X (Rect.unit (s := S1x50176x96) off S1x1024x96.size inb)))
        (ValueIdx.ix3 (0 : Fin 1) n q)
      = X (ValueIdx.ix3 (0 : Fin 1) n q)
        + ∑ l : Fin 1024, if v.toNat * 1024 ≤ n.val ∧ n.val < v.toNat * 1024 + 1024 ∧ n.val = (x0 (ValueIdx.ix1 l)).toNat
            then x1 (ValueIdx.ix2 l q) else 0 := by
  rw [overlay_rows (D := 96) off (v.toNat * 1024) hoff inb]
  split
  · rename_i h
    rw [pay4_apply]
    rw [View.ld_unit_zero (S := S1024) hzd1, View.ld_unit_zero (S := S1024x96) hzm1]
    have eX : View.ld X (Rect.unit (s := S1x50176x96) off S1x1024x96.size inb) (ValueIdx.ix3 (0 : Fin 1) ⟨n.val - v.toNat * 1024, by omega⟩ q)
        = X (ValueIdx.ix3 (0 : Fin 1) n q) := by
      subst hoff
      show X ((Rect.unit (s := S1x50176x96) ![0, v.toNat * 1024, 0] S1x1024x96.size inb).emb (ValueIdx.ix3 (0 : Fin 1) ⟨n.val - v.toNat * 1024, by omega⟩ q)) = _
      refine congrArg X (funext fun a => Fin.ext ?_)
      match a with
      | ⟨0, _⟩ => show 0 + 1 * 0 = 0; rfl
      | ⟨1, _⟩ => show v.toNat * 1024 + 1 * (n.val - v.toNat * 1024) = n.val; omega
      | ⟨2, _⟩ => show 0 + 1 * q.val = q.val; omega
    rw [eX]
    refine congrArg (X (ValueIdx.ix3 (0 : Fin 1) n q) + ·) (Finset.sum_congr rfl fun l _ => ?_)
    have hw := word_eq_iff v hv (n.val - v.toNat * 1024) (by omega) (x0 (ValueIdx.ix1 l))
    by_cases hd : n.val = (x0 (ValueIdx.ix1 l)).toNat
    · rw [if_pos (hw.mpr (by omega)), if_pos ⟨h.1, h.2, hd⟩, one_mul]
    · rw [if_neg (fun e => hd (by have := hw.mp e; omega)), if_neg (fun e => hd e.2.2), zero_mul]
  · rename_i h
    rw [Finset.sum_eq_zero fun l _ => if_neg fun e => h ⟨e.1, e.2.1⟩, add_zero]

theorem stepLo1_apply (v6 : BitVec 32) (hw1 : k1_chk1 v6) (hlo : v6.toNat < 49)
    (x0 : Vec Ideal S1024 .i32) (x1 : Vec Ideal S1024x96 .bf16) (X : Vec Ideal S1x50176x96 .f32) (n : Fin 50176) (q : Fin 96) :
    stepLo1 (F := Ideal) v6 hw1 x0 x1 X (ValueIdx.ix3 (0 : Fin 1) n q)
      = X (ValueIdx.ix3 (0 : Fin 1) n q)
        + ∑ l : Fin 1024, if v6.toNat * 1024 ≤ n.val ∧ n.val < v6.toNat * 1024 + 1024 ∧ n.val = (x0 (ValueIdx.ix1 l)).toNat
            then x1 (ValueIdx.ix2 l q) else 0 := by
  unfold stepLo1
  exact chunk_apply v6 hlo _ (off2_eq v6 hlo) _ x0 x1 X n q

/-- The second chunk is visited exactly when the two words differ. -/
theorem cond2_iff (v6 v8 : BitVec 32) : k1_cond2 v6 v8 = 1#1 ↔ v8 ≠ v6 := by
  show Scalar.cmpi .ne (Scalar.extui (Scalar.cmpi .ne v8 v6)) 0#32 = 1#1 ↔ _
  by_cases h : v8 = v6
  · subst h; simp [Scalar.cmpi, IntOp.cmpi, Scalar.extui]
  · have hb : (v8 != v6) = true := by simpa using h
    simp [Scalar.cmpi, IntOp.cmpi, Scalar.extui, hb, h]

theorem stepHi1_apply (v6 v8 : BitVec 32) (hw2 : k1_chk2 v6 v8) (hhi : v8.toNat < 49)
    (x0 : Vec Ideal S1024 .i32) (x1 : Vec Ideal S1024x96 .bf16) (X : Vec Ideal S1x50176x96 .f32) (n : Fin 50176) (q : Fin 96) :
    stepHi1 (F := Ideal) v6 v8 hw2 x0 x1 X (ValueIdx.ix3 (0 : Fin 1) n q)
      = X (ValueIdx.ix3 (0 : Fin 1) n q)
        + ∑ l : Fin 1024, if v8.toNat ≠ v6.toNat ∧ v8.toNat * 1024 ≤ n.val ∧ n.val < v8.toNat * 1024 + 1024 ∧ n.val = (x0 (ValueIdx.ix1 l)).toNat
            then x1 (ValueIdx.ix2 l q) else 0 := by
  unfold stepHi1
  split
  · rename_i h2
    have hne : v8.toNat ≠ v6.toNat := fun e => (cond2_iff v6 v8).mp h2 (BitVec.eq_of_toNat_eq e)
    rw [pay5_eq]
    rw [chunk_apply v8 hhi _ (off3_eq v8 hhi) _ x0 x1 X n q]
    refine congrArg (X (ValueIdx.ix3 (0 : Fin 1) n q) + ·) (Finset.sum_congr rfl fun l _ => ?_)
    exact if_congr (and_iff_right hne).symm rfl rfl
  · rename_i h2
    have he : v8 = v6 := Classical.byContradiction fun hne => h2 ((cond2_iff v6 v8).mpr hne)
    rw [Finset.sum_eq_zero fun l _ => if_neg fun e => e.1 (by rw [he]), add_zero]

/-- THE STEP at an entry: the slab found (zero at the first point of a core) plus, over the block's 1024 edges, the
    edge's message when the row lies in the first chunk and is the edge's destination, and again for the second chunk
    when it is another one. -/
theorem step1_apply (i : grid1.Coords) (v6 v8 : BitVec 32) (hw1 : k1_chk1 v6) (hw2 : k1_chk2 v6 v8)
    (hlo : v6.toNat < 49) (hhi : v8.toNat < 49)
    (x0 : Vec Ideal S1024 .i32) (x1 : Vec Ideal S1024x96 .bf16) (prev : Vec Ideal S1x50176x96 .f32) (n : Fin 50176) (q : Fin 96) :
    step1 (F := Ideal) i v6 v8 hw1 hw2 x0 x1 prev (ValueIdx.ix3 (0 : Fin 1) n q)
      = (if cond1_1 i then 0 else prev (ValueIdx.ix3 (0 : Fin 1) n q))
        + ∑ l : Fin 1024,
          ((if v6.toNat * 1024 ≤ n.val ∧ n.val < v6.toNat * 1024 + 1024 ∧ n.val = (x0 (ValueIdx.ix1 l)).toNat
              then x1 (ValueIdx.ix2 l q) else 0)
            + (if v8.toNat ≠ v6.toNat ∧ v8.toNat * 1024 ≤ n.val ∧ n.val < v8.toNat * 1024 + 1024 ∧ n.val = (x0 (ValueIdx.ix1 l)).toNat
              then x1 (ValueIdx.ix2 l q) else 0)) := by
  unfold step1
  rw [stepHi1_apply v6 v8 hw2 hhi, stepLo1_apply v6 hw1 hlo, add_assoc, ← Finset.sum_add_distrib]
  refine congrArg (· + _) ?_
  split
  · exact pay1_apply _
  · rfl

/-! ## The table words and the input blocks at a point -/

variable (a : (pcfg1 (F := Ideal)).Adm) (hchk : Chk1 a)
variable (V : (c : Dev nD) → (b : Ref sig .tc) → Buf (Elt Ideal) ((c : Thread nD τ).loc b))

/-- The two tables, the destination list and the messages, at their literal types. -/
abbrev tb1_0 : S832.Idx → BitVec 32 := a.1 0
abbrev tb1_1 : S832.Idx → BitVec 32 := a.1 1
abbrev dst1 (c : Dev nD) : S851968.Idx → BitVec 32 := V c main_v53
abbrev msg1 (c : Dev nD) : S851968x96.Idx → EReal := V c main_v75

theorem off1_eq : ∀ t : Fin grid1.N, k1_off1 (grid1.coords t) = ![t.val] := by decide +kernel

theorem idx1_facts : ∀ t : Fin grid1.N, cc1_transform_0 (grid1.coords t) = ![t.val] ∧ cc1_transform_1 (grid1.coords t) = ![t.val, 0]
    ∧ cc1_transform_2 (grid1.coords t) = ![t.val / 416, 0, 0] := by decide +kernel

/-- The word the body loads from a table at point `t` is the table's entry `t`. -/
theorem word1_0_eq (c : Dev nD) (t : Fin (cfg1 a).N) (hN : t.val < 832) :
    word1 c (grid1.coords t) tbM1_0 (a.1 0) = tb1_0 a (ValueIdx.ix1 ⟨t.val, hN⟩) := by
  show tb1_0 a ((Rect.unit (s := S832) (k1_off1 (grid1.coords t)) S1.size (k1_off1_inb (grid1.coords t))).emb (Shape.Idx.first (numel1_S1.symm ▸ Nat.one_pos))) = _
  refine congrArg (tb1_0 a) (funext fun ax => Fin.ext ?_)
  match ax with
  | ⟨0, _⟩ =>
    have h0 : k1_off1 (grid1.coords t) 0 = t.val := congrFun (off1_eq t) 0
    show k1_off1 (grid1.coords t) 0 + 1 * _ = t.val
    rw [h0, Nat.one_mul]
    exact Nat.add_eq_left.mpr (Nat.lt_one_iff.mp (Fin.isLt _))

theorem word1_1_eq (c : Dev nD) (t : Fin (cfg1 a).N) (hN : t.val < 832) :
    word1 c (grid1.coords t) tbM1_1 (a.1 1) = tb1_1 a (ValueIdx.ix1 ⟨t.val, hN⟩) := by
  show tb1_1 a ((Rect.unit (s := S832) (k1_off1 (grid1.coords t)) S1.size (k1_off1_inb (grid1.coords t))).emb (Shape.Idx.first (numel1_S1.symm ▸ Nat.one_pos))) = _
  refine congrArg (tb1_1 a) (funext fun ax => Fin.ext ?_)
  match ax with
  | ⟨0, _⟩ =>
    have h0 : k1_off1 (grid1.coords t) 0 = t.val := congrFun (off1_eq t) 0
    show k1_off1 (grid1.coords t) 0 + 1 * _ = t.val
    rw [h0, Nat.one_mul]
    exact Nat.add_eq_left.mpr (Nat.lt_one_iff.mp (Fin.isLt _))

/-- The destination block at point `t` is entries `t * 1024 …` of the list. -/
theorem dblk1_apply (c : Dev nD) (t : Fin (cfg1 a).N) (hN : t.val < 832) (l : Fin 1024) :
    (iblk1 a V c 0 t : Vec Ideal S1024 .i32) (ValueIdx.ix1 l) = dst1 V c (ValueIdx.ix1 (Cert.Spec.flat ⟨t.val, hN⟩ l)) := by
  show dst1 V c ((((cfg1 a).win 0).blk t).view.emb (ValueIdx.ix1 l)) = _
  refine congrArg (dst1 V c) (funext fun ax => Fin.ext ?_)
  match ax with
  | ⟨0, _⟩ =>
    have h0 : cc1_transform_0 (grid1.coords t) 0 = t.val := congrFun (idx1_facts t).1 0
    show cc1_transform_0 (grid1.coords t) 0 * 1024 + 1 * l.val = t.val * 1024 + l.val
    rw [h0, Nat.one_mul]

/-- The message block at point `t` is rows `t * 1024 …` of the messages. -/
theorem mblk1_apply (c : Dev nD) (t : Fin (cfg1 a).N) (hN : t.val < 832) (l : Fin 1024) (q : Fin 96) :
    (iblk1 a V c 1 t : Vec Ideal S1024x96 .bf16) (ValueIdx.ix2 l q) = msg1 V c (ValueIdx.ix2 (Cert.Spec.flat ⟨t.val, hN⟩ l) q) := by
  show msg1 V c ((((cfg1 a).win 1).blk t).view.emb (ValueIdx.ix2 l q)) = _
  refine congrArg (msg1 V c) (funext fun ax => Fin.ext ?_)
  match ax with
  | ⟨0, _⟩ =>
    have h0 : cc1_transform_1 (grid1.coords t) 0 = t.val := congrFun (idx1_facts t).2.1 0
    show cc1_transform_1 (grid1.coords t) 0 * 1024 + 1 * l.val = t.val * 1024 + l.val
    rw [h0, Nat.one_mul]
  | ⟨1, _⟩ =>
    have h1 : cc1_transform_1 (grid1.coords t) 1 = 0 := congrFun (idx1_facts t).2.1 1
    show cc1_transform_1 (grid1.coords t) 1 * 96 + 1 * q.val = q.val
    rw [h1, Nat.one_mul, Nat.zero_mul, Nat.zero_add]

/-! ## The slab after a point, as a partial sum over the core's blocks -/

/-- Block number `k` of the 832 (read modulo 832, so that it is total). -/
def gOf1 (k : ℕ) : Fin 832 := ⟨k % 832, Nat.mod_lt _ (by decide)⟩

/-- The tables, the destinations and the messages as the mathematics reads them. -/
abbrev lo1 (g : Fin 832) : ℕ := (tb1_0 a (ValueIdx.ix1 g)).toNat
abbrev hi1 (g : Fin 832) : ℕ := (tb1_1 a (ValueIdx.ix1 g)).toNat
abbrev dp1 (c : Dev nD) (j : Fin 851968) : ℕ := (dst1 V c (ValueIdx.ix1 j)).toNat
abbrev ms1 (c : Dev nD) (j : Fin 851968) (q : Fin 96) : EReal := msg1 V c (ValueIdx.ix2 j q)

/-- What block `g` adds to row `n`, column `q` of its core's slab. -/
def blkTerm1 (c : Dev nD) (g : Fin 832) (n : ℕ) (q : Fin 96) : EReal :=
  ∑ l : Fin 1024,
    ((if lo1 a g * 1024 ≤ n ∧ n < lo1 a g * 1024 + 1024 ∧ n = dp1 V c (Cert.Spec.flat g l)
        then ms1 V c (Cert.Spec.flat g l) q else 0)
      + (if hi1 a g ≠ lo1 a g ∧ hi1 a g * 1024 ≤ n ∧ n < hi1 a g * 1024 + 1024 ∧ n = dp1 V c (Cert.Spec.flat g l)
        then ms1 V c (Cert.Spec.flat g l) q else 0))

theorem slab1_eq_sum (c : Dev nD) (core : Fin 2) (n : ℕ) (q : Fin 96) :
    Cert.Spec.slab (lo1 a) (hi1 a) (dp1 V c) (ms1 V c) core n q = ∑ e : Fin 416, blkTerm1 a V c (Cert.Spec.blk core e) n q := rfl

/-- The step at point `t`, at an entry. -/
theorem stepAt1_apply (hlo : ∀ g, lo1 a g < 49) (hhi : ∀ g, hi1 a g < 49) (c : Dev nD) (t : Fin (cfg1 a).N) (hN : t.val < 832)
    (prev : Vec Ideal S1x50176x96 .f32) (n : Fin 50176) (q : Fin 96) :
    stepAt1 a hchk V c t prev (ValueIdx.ix3 (0 : Fin 1) n q)
      = (if t.val % 416 = 0 then 0 else prev (ValueIdx.ix3 (0 : Fin 1) n q)) + blkTerm1 a V c ⟨t.val, hN⟩ n.val q := by
  unfold stepAt1
  refine (step1_apply _ _ _ _ _ (by rw [word1_0_eq a c t hN]; exact hlo _) (by rw [word1_1_eq a c t hN]; exact hhi _) _ _ _ n q).trans ?_
  rw [word1_0_eq a c t hN, word1_1_eq a c t hN]
  unfold blkTerm1
  congr 1
  · exact if_congr (hcond1_1 a t) rfl rfl
  · refine Finset.sum_congr rfl fun l _ => ?_
    rw [dblk1_apply a V c t hN l, mblk1_apply a V c t hN l q]

/-- The sum of the first `k` blocks of core `cr` at an entry. -/
def part1 (c : Dev nD) (cr k n : ℕ) (q : Fin 96) : EReal :=
  ∑ e : Fin 416, if e.val < k then blkTerm1 a V c (gOf1 (cr * 416 + e.val)) n q else 0

theorem part1_zero (c : Dev nD) (cr n : ℕ) (q : Fin 96) : part1 a V c cr 0 n q = 0 :=
  Finset.sum_eq_zero fun e _ => if_neg (Nat.not_lt_zero _)

theorem part1_succ (c : Dev nD) (cr k n : ℕ) (q : Fin 96) (hk : k < 416) :
    part1 a V c cr (k + 1) n q = part1 a V c cr k n q + blkTerm1 a V c (gOf1 (cr * 416 + k)) n q := by
  unfold part1
  have hsplit : ∀ e : Fin 416, (if e.val < k + 1 then blkTerm1 a V c (gOf1 (cr * 416 + e.val)) n q else 0)
      = (if e.val < k then blkTerm1 a V c (gOf1 (cr * 416 + e.val)) n q else 0)
        + (if e = (⟨k, hk⟩ : Fin 416) then blkTerm1 a V c (gOf1 (cr * 416 + e.val)) n q else 0) := by
    intro e
    by_cases h1 : e.val < k
    · rw [if_pos (by omega), if_pos h1, if_neg (fun h => by rw [h] at h1; exact lt_irrefl _ h1), add_zero]
    · by_cases h2 : e.val = k
      · rw [if_pos (by omega), if_neg h1, if_pos (Fin.ext h2), zero_add]
      · rw [if_neg (by omega), if_neg h1, if_neg (fun h => h2 (by rw [h])), add_zero]
  rw [Finset.sum_congr rfl fun e _ => hsplit e, Finset.sum_add_distrib, Finset.sum_ite_eq', if_pos (Finset.mem_univ _)]

/-- THE ACCUMULATION at an entry: after position `m` the slab's buffer holds the sum of the blocks of `m`'s core up
    to `m`. -/
theorem outsAt1_apply (hlo : ∀ g, lo1 a g < 49) (hhi : ∀ g, hi1 a g < 49) (c : Dev nD) (n : Fin 50176) (q : Fin 96) :
    ∀ (m : ℕ) (hm : m < (cfg1 a).N),
      outsAt1 a hchk V c m hm (ValueIdx.ix3 (0 : Fin 1) n q) = part1 a V c (m / 416) (m % 416 + 1) n.val q
  | 0, hm => by
    show stepAt1 a hchk V c ⟨0, hm⟩ (k1_pay1 (F := Ideal)) (ValueIdx.ix3 (0 : Fin 1) n q) = part1 a V c 0 (0 + 1) n.val q
    rw [stepAt1_apply a hchk V hlo hhi c ⟨0, hm⟩ (show (0 : ℕ) < 832 by decide),
      if_pos (show (⟨0, hm⟩ : Fin (cfg1 a).N).val % 416 = 0 from rfl), zero_add]
    rw [part1_succ a V c 0 0 _ _ (by decide), part1_zero, zero_add]
    rfl
  | m + 1, hm => by
    have hN : m + 1 < 832 := lt_of_lt_of_eq hm (show (cfg1 a).N = 832 from N_1)
    show stepAt1 a hchk V c ⟨m + 1, hm⟩ (outsAt1 a hchk V c m (Nat.lt_of_succ_lt hm)) (ValueIdx.ix3 (0 : Fin 1) n q) = _
    rw [stepAt1_apply a hchk V hlo hhi c ⟨m + 1, hm⟩ hN]
    by_cases h0 : (m + 1) % 416 = 0
    · rw [if_pos h0, zero_add, h0, part1_succ a V c _ _ _ _ (by decide), part1_zero, zero_add]
      refine congrArg (fun g => blkTerm1 a V c g n.val q) (Fin.ext ?_)
      show m + 1 = ((m + 1) / 416 * 416 + 0) % 832
      omega
    · rw [if_neg h0, outsAt1_apply hlo hhi c n q m (Nat.lt_of_succ_lt hm)]
      have e1 : (m + 1) / 416 = m / 416 := by omega
      have e2 : (m + 1) % 416 = m % 416 + 1 := by omega
      rw [e1, e2, part1_succ a V c _ (m % 416 + 1) _ _ (by omega)]
      refine congrArg (fun g => part1 a V c (m / 416) (m % 416 + 1) n.val q + blkTerm1 a V c g n.val q) (Fin.ext ?_)
      show m + 1 = (m / 416 * 416 + (m % 416 + 1)) % 832
      omega

/-! ## The array after the region -/

theorem blk_eq_gOf1 (core : Fin 2) (e : Fin 416) : Cert.Spec.blk core e = gOf1 (core.val * 416 + e.val) := by
  apply Fin.ext
  show core.val * 416 + e.val = (core.val * 416 + e.val) % 832
  have := core.isLt; have := e.isLt; omega

/-- All 416 blocks of a core: the kernel's arrangement of the edge sum for that core. -/
theorem part1_full (c : Dev nD) (core : Fin 2) (n : ℕ) (q : Fin 96) :
    part1 a V c core.val 416 n q = Cert.Spec.slab (lo1 a) (hi1 a) (dp1 V c) (ms1 V c) core n q := by
  rw [slab1_eq_sum]; unfold part1
  refine Finset.sum_congr rfl fun e _ => ?_
  rw [if_pos e.isLt, blk_eq_gOf1]

/-- The slab after the last point of a core is the core's whole sum. -/
theorem outsAt1_last (hlo : ∀ g, lo1 a g < 49) (hhi : ∀ g, hi1 a g < 49) (c : Dev nD) (core : Fin 2) (n : Fin 50176) (q : Fin 96)
    (hm : core.val * 416 + 415 < (cfg1 a).N) :
    outsAt1 a hchk V c (core.val * 416 + 415) hm (ValueIdx.ix3 (0 : Fin 1) n q)
      = Cert.Spec.slab (lo1 a) (hi1 a) (dp1 V c) (ms1 V c) core n.val q := by
  rw [outsAt1_apply a hchk V hlo hhi c n q]
  have e1 : (core.val * 416 + 415) / 416 = core.val := by have := core.isLt; omega
  have e2 : (core.val * 416 + 415) % 416 + 1 = 416 := by have := core.isLt; omega
  rw [e1, e2]
  exact part1_full a V c core n.val q

end Value1

end Cert.KernelIdeal.Hand

end
-- ==== Proof.KiSc1Arr.lean ====
/- REGION 1 of @main: the array the slab's window leaves. Each core writes its slab back once, after its last point;
   the two cores' blocks tile the array, so the array ends holding, per core, the slab after the core's last point. -/
import proofs.«425685_j80942953661103_3_alg».proof.Proof.KiSc1
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

variable {F : FTy → Type} [FloatOps F]

section Arr

variable (a : (pcfg1 (F := F)).Adm) (hchk : Chk1 a)
variable (V : (c : Dev nD) → (b : Ref sig .tc) → Buf (Elt F) ((c : Thread nD τ).loc b))

/-- `outsAt1` depends on the position only. -/
theorem outsAt1_congr (c : Dev nD) {n n' : ℕ} (h : n = n') (hn : n < (cfg1 a).N) (hn' : n' < (cfg1 a).N) :
    outsAt1 a hchk V c n hn = outsAt1 a hchk V c n' hn' := by subst h; rfl

/-- The slab window's block index at point `t`: the core, and zero on the other axes — decided over the grid. -/
theorem index1_2 (a : (pcfg1 (F := F)).Adm) : ∀ t : Fin (cfg1 a).N, ((cfg1 a).win 2).index t = ![t.val / 416, 0, 0] :=
  (by decide +kernel : ∀ t : Fin grid1.N, cc1_transform_2 (grid1.coords t) = ![t.val / 416, 0, 0])

/-- What the array ends holding: at core `i 0` the slab after the core's last point. -/
def G1 (c : Dev nD) (i : S2x50176x96.Idx) : Elt F .f32 :=
  outsAt1 a hchk V c ((i 0).val * 416 + 415)
    (by have h : (i 0).val < 2 := (i 0).isLt; rw [show (cfg1 a).N = 832 from N_1]; omega)
    (ValueIdx.ix3 (0 : Fin 1) (⟨(i 1).val, (i 1).isLt⟩ : Fin 50176) (⟨(i 2).val, (i 2).isLt⟩ : Fin 96))

/-- WHAT A WRITE-BACK WRITES is its block of `G1`: the point is the last of its core, the block the core's. -/
theorem flushed1_eq (c : Dev nD) (t : Fin (cfg1 a).N) (hf : ((cfg1 a).win 2).flush t = true) :
    (dat1 a hchk V c).flushed 2 t = (((cfg1 a).win 2).blk t).view.read (Elt F) (G1 a hchk V c) := by
  show ((cfg1 a).win 2).cut (grid1.coords t) ((dat1 a hchk V c).after 2 t) = _
  rw [after1_2]
  have h415 : t.val % 416 = 415 := (flush1_2 a t).mp hf
  have hN : t.val < 832 := lt_of_lt_of_eq t.isLt (show (cfg1 a).N = 832 from N_1)
  have hix := index1_2 a t
  funext (j : S1x50176x96.Idx)
  have key : ∀ E : S2x50176x96.Idx, (E (0 : Fin 3)).val = t.val / 416 → (E (1 : Fin 3)).val = (j (1 : Fin 3)).val
      → (E (2 : Fin 3)).val = (j (2 : Fin 3)).val → outsAt1 a hchk V c t.val t.isLt j = G1 a hchk V c E := by
    intro E e0 e1 e2
    unfold G1
    rw [outsAt1_congr a hchk V c (show (E (0 : Fin 3)).val * 416 + 415 = t.val from by rw [e0]; omega) _ t.isLt]
    refine congrArg (outsAt1 a hchk V c t.val t.isLt) ?_
    funext d
    match d with
    | ⟨0, _⟩ => exact Fin.ext (by have hj : (j (0 : Fin 3)).val < 1 := (j (0 : Fin 3)).isLt; show (j (0 : Fin 3)).val = 0; omega)
    | ⟨1, _⟩ => exact Fin.ext e1.symm
    | ⟨2, _⟩ => exact Fin.ext e2.symm
  refine key ((((cfg1 a).win 2).blk t).view.emb j) ?_ ?_ ?_
  · show ((cfg1 a).win 2).index t (0 : Fin 3) * 1 + 1 * (j (0 : Fin 3)).val = t.val / 416
    have hj : (j (0 : Fin 3)).val < 1 := (j (0 : Fin 3)).isLt
    rw [hix]; show t.val / 416 * 1 + 1 * (j (0 : Fin 3)).val = t.val / 416; omega
  · show ((cfg1 a).win 2).index t (1 : Fin 3) * 50176 + 1 * (j (1 : Fin 3)).val = (j (1 : Fin 3)).val
    rw [hix]; show 0 * 50176 + 1 * (j (1 : Fin 3)).val = (j (1 : Fin 3)).val; omega
  · show ((cfg1 a).win 2).index t (2 : Fin 3) * 96 + 1 * (j (2 : Fin 3)).val = (j (2 : Fin 3)).val
    rw [hix]; show 0 * 96 + 1 * (j (2 : Fin 3)).val = (j (2 : Fin 3)).val; omega

/-- An index of the array is in point `t`'s block iff each coordinate is in the block's range on its axis. -/
theorem mem_blk1 (t : Fin (cfg1 a).N) (i : S2x50176x96.Idx) :
    i ∈ (((cfg1 a).win 2).blk t).view.set ↔ ∀ b : Fin 3, ((cfg1 a).win 2).index t b * S1x50176x96.size b ≤ (i b).val ∧ (i b).val < ((cfg1 a).win 2).index t b * S1x50176x96.size b + S1x50176x96.size b :=
  (Eq.to_iff (congrArg (fun S => i ∈ S) (View.set_slice_whole main_v76 (((cfg1 a).win 2).rect t)))).trans Rect.mem_set_unit

/-- An index of the array is in the block of its core's last point; -/
theorem mem1_last (i : S2x50176x96.Idx) (hlt : (i (0 : Fin 3)).val * 416 + 415 < (cfg1 a).N) :
    i ∈ (((cfg1 a).win 2).blk ⟨(i (0 : Fin 3)).val * 416 + 415, hlt⟩).view.set := by
  have h0 : (i (0 : Fin 3)).val < 2 := (i (0 : Fin 3)).isLt
  have h1 : (i (1 : Fin 3)).val < 50176 := (i (1 : Fin 3)).isLt
  have h2 : (i (2 : Fin 3)).val < 96 := (i (2 : Fin 3)).isLt
  have hix := index1_2 a ⟨(i (0 : Fin 3)).val * 416 + 415, hlt⟩
  have q0 : ((cfg1 a).win 2).index ⟨(i (0 : Fin 3)).val * 416 + 415, hlt⟩ (0 : Fin 3) = ((i (0 : Fin 3)).val * 416 + 415) / 416 := congrFun hix (0 : Fin 3)
  have q1 : ((cfg1 a).win 2).index ⟨(i (0 : Fin 3)).val * 416 + 415, hlt⟩ (1 : Fin 3) = 0 := congrFun hix (1 : Fin 3)
  have q2 : ((cfg1 a).win 2).index ⟨(i (0 : Fin 3)).val * 416 + 415, hlt⟩ (2 : Fin 3) = 0 := congrFun hix (2 : Fin 3)
  refine (mem_blk1 a _ i).mpr (Fin.forall_fin_succ.mpr ⟨?_, Fin.forall_fin_succ.mpr ⟨?_, Fin.forall_fin_succ.mpr ⟨?_, fun x => x.elim0⟩⟩⟩)
  · show ((cfg1 a).win 2).index ⟨(i (0 : Fin 3)).val * 416 + 415, hlt⟩ (0 : Fin 3) * 1 ≤ (i (0 : Fin 3)).val ∧ (i (0 : Fin 3)).val < ((cfg1 a).win 2).index ⟨(i (0 : Fin 3)).val * 416 + 415, hlt⟩ (0 : Fin 3) * 1 + 1
    omega
  · show ((cfg1 a).win 2).index ⟨(i (0 : Fin 3)).val * 416 + 415, hlt⟩ (1 : Fin 3) * 50176 ≤ (i (1 : Fin 3)).val ∧ (i (1 : Fin 3)).val < ((cfg1 a).win 2).index ⟨(i (0 : Fin 3)).val * 416 + 415, hlt⟩ (1 : Fin 3) * 50176 + 50176
    omega
  · show ((cfg1 a).win 2).index ⟨(i (0 : Fin 3)).val * 416 + 415, hlt⟩ (2 : Fin 3) * 96 ≤ (i (2 : Fin 3)).val ∧ (i (2 : Fin 3)).val < ((cfg1 a).win 2).index ⟨(i (0 : Fin 3)).val * 416 + 415, hlt⟩ (2 : Fin 3) * 96 + 96
    omega

/-- which writes its block back: every index of the array is covered. -/
theorem cover1 (i : S2x50176x96.Idx) :
    ∃ t : Fin (cfg1 a).N, ((cfg1 a).win 2).flush t = true ∧ i ∈ (((cfg1 a).win 2).blk t).view.set := by
  have h0 : (i (0 : Fin 3)).val < 2 := (i (0 : Fin 3)).isLt
  have hlt : (i (0 : Fin 3)).val * 416 + 415 < (cfg1 a).N := by rw [show (cfg1 a).N = 832 from N_1]; omega
  have hf : ((cfg1 a).win 2).flush ⟨(i (0 : Fin 3)).val * 416 + 415, hlt⟩ = true :=
    (flush1_2 a ⟨(i (0 : Fin 3)).val * 416 + 415, hlt⟩).mpr (by show ((i (0 : Fin 3)).val * 416 + 415) % 416 = 415; omega)
  exact ⟨⟨(i (0 : Fin 3)).val * 416 + 415, hlt⟩, hf, mem1_last a i hlt⟩

/-- THE ARRAY after the run: `G1` (the two cores' blocks tile it). -/
theorem final1 (c : Dev nD) : (dat1 a hchk V c).arrAt 2 (cfg1 a).N = G1 a hchk V c :=
  (dat1 a hchk V c).arrAt_eq_of_cover 2 _ (fun t hf => flushed1_eq a hchk V c t hf) (fun i => cover1 a i)

/-- THE ARRAY after the run, at an index: core `core`'s part is the slab after the core's last point. -/
theorem arr1_final (c : Dev nD) (core : Fin 2) (n : Fin 50176) (q : Fin 96) :
    (dat1 a hchk V c).arrAt 2 (cfg1 a).N (ValueIdx.ix3 core n q)
      = outsAt1 a hchk V c (core.val * 416 + 415) (by have := core.isLt; rw [show (cfg1 a).N = 832 from N_1]; omega)
          (ValueIdx.ix3 (0 : Fin 1) n q) := by
  rw [final1]
  rfl

end Arr

end Cert.KernelIdeal.Hand

end
-- ==== Proof.KiSc1Final.lean ====
/- REGION 1 of @main at the ideal values: the array the region's write-backs leave is, core by core, the kernel's
   arrangement of the edge sum. -/
import proofs.«425685_j80942953661103_3_alg».proof.Proof.KiSc1Value
import proofs.«425685_j80942953661103_3_alg».proof.Proof.KiSc1Arr

noncomputable section

namespace Cert.KernelIdeal.Hand

open Cert.KernelIdeal Cert.KernelIdeal.Gen
open Idealize.ShloMosaic Idealize.ShloMosaic.TcCoe

/-- The slab array after the region: each core's block holds the sum, over the core's 416 blocks of 1024 edges, of
    the messages that end in the row, chunk by chunk. -/
theorem final1_apply (a : (pcfg1 (F := Ideal)).Adm) (hchk : Chk1 a)
    (V : (c : Dev nD) → (b : Ref sig .tc) → Buf (Elt Ideal) ((c : Thread nD τ).loc b))
    (hlo : ∀ g, lo1 a g < 49) (hhi : ∀ g, hi1 a g < 49) (c : Dev nD) (core : Fin 2) (n : Fin 50176) (q : Fin 96) :
    (dat1 (F := Ideal) a hchk V c).arrAt 2 (cfg1 a).N (ValueIdx.ix3 core n q)
      = Cert.Spec.slab (lo1 a) (hi1 a) (dp1 V c) (ms1 V c) core n.val q :=
  (arr1_final a hchk V c core n q).trans (outsAt1_last a hchk V hlo hhi c core n q _)

end Cert.KernelIdeal.Hand

end
-- ==== Proof.KiSc3Value.lean ====
/- REGION 3 of @main at the ideal values: what the scatter kernel leaves in the two cores' slabs. One point's step read
   at an entry of the slab; the slab after a point as a partial sum over the core's blocks of edges; the array after
   the region's write-backs as the kernel's arrangement of the edge sum. -/
import proofs.«425685_j80942953661103_3_alg».proof.Proof.KiSc3
import proofs.«425685_j80942953661103_3_alg».proof.Proof.KiSc1Value
import proofs.«425685_j80942953661103_3_alg».proof.Proof.Spec
import Idealize.ShloMosaic.Lib.Pipeline.Value
import Idealize.ShloMosaic.Lib.ValueIdx
import Idealize.ShloMosaic.Lib.ValueLayout
import Idealize.ShloMosaic.Lib.StackMember
import Idealize.ShloMosaic.Lib.KernelVsHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)
open Idealize.ShloMosaic.ValueIdx

section Value3

theorem k3pay1_apply (j : S1x50176x48.Idx) : k3_pay1 (F := Ideal) j = 0 := by
  unfold k3_pay1
  exact Ideal.ofBits_zero_f32

theorem k3pay4_apply (v6 : BitVec 32) (d : Vec Ideal S1024 .i32) (m : Vec Ideal S1024x48 .bf16) (X : Vec Ideal S1x1024x48 .f32)
    (r : Fin 1024) (q : Fin 48) :
    k3_pay4 (F := Ideal) v6 d m X (ValueIdx.ix3 (0 : Fin 1) r q)
      = X (ValueIdx.ix3 (0 : Fin 1) r q) + ∑ l : Fin 1024, (if v6 * 1024#32 + BitVec.ofNat 32 r.val = d (ValueIdx.ix1 l) then (1 : EReal) else 0) * m (ix2 l q) := by
  unfold k3_pay4 k3_pay2 k3_pay3
  rw [shapeCast_ab_1ab_apply]
  rw [addf_apply, shapeCast_1ab_ab_apply]
  rw [matmul_zero_eq_dotGeneral]
  refine congrArg (X (ValueIdx.ix3 (0 : Fin 1) r q) + ·) ((StackMember.dotGeneral_plain_apply (m := 1024) (k := 1024) (n := 48) none _ _ r q).trans ?_)
  refine Finset.sum_congr rfl fun l _ => ?_
  rw [truncf_apply, sitofp_apply, extui_apply]
  show FloatOps.sitofp (F := Ideal) .f32 ((IntOp.cmpi .eq (IntOp.addi (Scalar.muli v6 1024#32) (iota Kind.tc S1024x1024 32 [0] iota_S1024x1024_d0_w32 (ix2 r l))) (broadcastTo S1024x1024 (shapeCast S1x1024 (shapeCast S1024 d shapeCasts_S1024_S1024) shapeCasts_S1024_S1x1024) broadcasts_S1x1024_S1024x1024 (ix2 r l))).setWidth 32) * (shapeCast S1024x48 m shapeCasts_S1024x48_S1024x48) (ix2 l q) = _
  rw [hot_word, iota_single_apply, broadcastTo_1b_ab_apply, shapeCast_a_1a_apply, shapeCast_self, shapeCast_self]
  rfl

/-- The two payloads are the same operations. -/
theorem k3pay5_eq : @k3_pay5 Ideal _ = @k3_pay4 Ideal _ := rfl

/-! ## One chunk's update, and one point's step, at an entry -/

theorem hzd3 : (![0] : Fin 1 → ℕ) = fun _ => 0 := funext fun a => by fin_cases a; rfl
theorem hzm3 : (![0, 0] : Fin 2 → ℕ) = fun _ => 0 := funext fun a => by fin_cases a <;> rfl

theorem k3off2_eq (v6 : BitVec 32) (hlo : v6.toNat < 49) : k3_off2 v6 = ![0, v6.toNat * 1024, 0] := by
  show ![0, (Scalar.muli v6 1024#32).toNat, 0] = _
  rw [muli_toNat v6 hlo]

theorem k3off3_eq (v8 : BitVec 32) (hhi : v8.toNat < 49) : k3_off3 v8 = ![0, v8.toNat * 1024, 0] := by
  show ![0, (Scalar.muli v8 1024#32).toNat, 0] = _
  rw [muli_toNat v8 hhi]

/-- The chunk of 1024 rows at word `v` updated by its payload: row `n` of the slab gains the messages of the block's
    edges whose destination is `n`, when `n` lies in the chunk; other rows keep their value. -/
theorem chunk3_apply (v : BitVec 32) (hv : v.toNat < 49) (off : Fin 3 → ℕ) (hoff : off = ![0, v.toNat * 1024, 0])
    (inb : ∀ a, off a + S1x1024x48.size a ≤ S1x50176x48.size a)
    (x0 : Vec Ideal S1024 .i32) (x1 : Vec Ideal S1024x48 .bf16) (X : Vec Ideal S1x50176x48 .f32) (n : Fin 50176) (q : Fin 48) :
    (Rect.unit (s := S1x50176x48) off S1x1024x48.size inb).overlay X
        (k3_pay4 (F := Ideal) v (View.ld x0 r3_d) (View.ld x1 r3_m) (View.ld X (Rect.unit (s := S1x50176x48) off S1x1024x48.size inb)))
        (ValueIdx.ix3 (0 : Fin 1) n q)
      = X (ValueIdx.ix3 (0 : Fin 1) n q)
        + ∑ l : Fin 1024, if v.toNat * 1024 ≤ n.val ∧ n.val < v.toNat * 1024 + 1024 ∧ n.val = (x0 (ValueIdx.ix1 l)).toNat
            then x1 (ValueIdx.ix2 l q) else 0 := by
  rw [overlay_rows (D := 48) off (v.toNat * 1024) hoff inb]
  split
  · rename_i h
    rw [k3pay4_apply]
    rw [View.ld_unit_zero (S := S1024) hzd3, View.ld_unit_zero (S := S1024x48) hzm3]
    have eX : View.ld X (Rect.unit (s := S1x50176x48) off S1x1024x48.size inb) (ValueIdx.ix3 (0 : Fin 1) ⟨n.val - v.toNat * 1024, by omega⟩ q)
        = X (ValueIdx.ix3 (0 : Fin 1) n q) := by
      subst hoff
      show X ((Rect.unit (s := S1x50176x48) ![0, v.toNat * 1024, 0] S1x1024x48.size inb).emb (ValueIdx.ix3 (0 : Fin 1) ⟨n.val - v.toNat * 1024, by omega⟩ q)) = _
      refine congrArg X (funext fun a => Fin.ext ?_)
      match a with
      | ⟨0, _⟩ => show 0 + 1 * 0 = 0; rfl
      | ⟨1, _⟩ => show v.toNat * 1024 + 1 * (n.val - v.toNat * 1024) = n.val; omega
      | ⟨2, _⟩ => show 0 + 1 * q.val = q.val; omega
    rw [eX]
    refine congrArg (X (ValueIdx.ix3 (0 : Fin 1) n q) + ·) (Finset.sum_congr rfl fun l _ => ?_)
    have hw := word_eq_iff v hv (n.val - v.toNat * 1024) (by omega) (x0 (ValueIdx.ix1 l))
    by_cases hd : n.val = (x0 (ValueIdx.ix1 l)).toNat
    · rw [if_pos (hw.mpr (by omega)), if_pos ⟨h.1, h.2, hd⟩, one_mul]
    · rw [if_neg (fun e => hd (by have := hw.mp e; omega)), if_neg (fun e => hd e.2.2), zero_mul]
  · rename_i h
    rw [Finset.sum_eq_zero fun l _ => if_neg fun e => h ⟨e.1, e.2.1⟩, add_zero]

theorem stepLo3_apply (v6 : BitVec 32) (hw1 : k3_chk1 v6) (hlo : v6.toNat < 49)
    (x0 : Vec Ideal S1024 .i32) (x1 : Vec Ideal S1024x48 .bf16) (X : Vec Ideal S1x50176x48 .f32) (n : Fin 50176) (q : Fin 48) :
    stepLo3 (F := Ideal) v6 hw1 x0 x1 X (ValueIdx.ix3 (0 : Fin 1) n q)
      = X (ValueIdx.ix3 (0 : Fin 1) n q)
        + ∑ l : Fin 1024, if v6.toNat * 1024 ≤ n.val ∧ n.val < v6.toNat * 1024 + 1024 ∧ n.val = (x0 (ValueIdx.ix1 l)).toNat
            then x1 (ValueIdx.ix2 l q) else 0 := by
  unfold stepLo3
  exact chunk3_apply v6 hlo _ (k3off2_eq v6 hlo) _ x0 x1 X n q

/-- The second chunk is visited exactly when the two words differ. -/
theorem k3cond2_iff (v6 v8 : BitVec 32) : k3_cond2 v6 v8 = 1#1 ↔ v8 ≠ v6 := by
  show Scalar.cmpi .ne (Scalar.extui (Scalar.cmpi .ne v8 v6)) 0#32 = 1#1 ↔ _
  by_cases h : v8 = v6
  · subst h; simp [Scalar.cmpi, IntOp.cmpi, Scalar.extui]
  · have hb : (v8 != v6) = true := by simpa using h
    simp [Scalar.cmpi, IntOp.cmpi, Scalar.extui, hb, h]

theorem stepHi3_apply (v6 v8 : BitVec 32) (hw2 : k3_chk2 v6 v8) (hhi : v8.toNat < 49)
    (x0 : Vec Ideal S1024 .i32) (x1 : Vec Ideal S1024x48 .bf16) (X : Vec Ideal S1x50176x48 .f32) (n : Fin 50176) (q : Fin 48) :
    stepHi3 (F := Ideal) v6 v8 hw2 x0 x1 X (ValueIdx.ix3 (0 : Fin 1) n q)
      = X (ValueIdx.ix3 (0 : Fin 1) n q)
        + ∑ l : Fin 1024, if v8.toNat ≠ v6.toNat ∧ v8.toNat * 1024 ≤ n.val ∧ n.val < v8.toNat * 1024 + 1024 ∧ n.val = (x0 (ValueIdx.ix1 l)).toNat
            then x1 (ValueIdx.ix2 l q) else 0 := by
  unfold stepHi3
  split
  · rename_i h2
    have hne : v8.toNat ≠ v6.toNat := fun e => (k3cond2_iff v6 v8).mp h2 (BitVec.eq_of_toNat_eq e)
    rw [k3pay5_eq]
    rw [chunk3_apply v8 hhi _ (k3off3_eq v8 hhi) _ x0 x1 X n q]
    refine congrArg (X (ValueIdx.ix3 (0 : Fin 1) n q) + ·) (Finset.sum_congr rfl fun l _ => ?_)
    exact if_congr (and_iff_right hne).symm rfl rfl
  · rename_i h2
    have he : v8 = v6 := Classical.byContradiction fun hne => h2 ((k3cond2_iff v6 v8).mpr hne)
    rw [Finset.sum_eq_zero fun l _ => if_neg fun e => e.1 (by rw [he]), add_zero]

/-- THE STEP at an entry: the slab found (zero at the first point of a core) plus, over the block's 1024 edges, the
    edge's message when the row lies in the first chunk and is the edge's destination, and again for the second chunk
    when it is another one. -/
theorem step3_apply (i : grid3.Coords) (v6 v8 : BitVec 32) (hw1 : k3_chk1 v6) (hw2 : k3_chk2 v6 v8)
    (hlo : v6.toNat < 49) (hhi : v8.toNat < 49)
    (x0 : Vec Ideal S1024 .i32) (x1 : Vec Ideal S1024x48 .bf16) (prev : Vec Ideal S1x50176x48 .f32) (n : Fin 50176) (q : Fin 48) :
    step3 (F := Ideal) i v6 v8 hw1 hw2 x0 x1 prev (ValueIdx.ix3 (0 : Fin 1) n q)
      = (if cond3_1 i then 0 else prev (ValueIdx.ix3 (0 : Fin 1) n q))
        + ∑ l : Fin 1024,
          ((if v6.toNat * 1024 ≤ n.val ∧ n.val < v6.toNat * 1024 + 1024 ∧ n.val = (x0 (ValueIdx.ix1 l)).toNat
              then x1 (ValueIdx.ix2 l q) else 0)
            + (if v8.toNat ≠ v6.toNat ∧ v8.toNat * 1024 ≤ n.val ∧ n.val < v8.toNat * 1024 + 1024 ∧ n.val = (x0 (ValueIdx.ix1 l)).toNat
              then x1 (ValueIdx.ix2 l q) else 0)) := by
  unfold step3
  rw [stepHi3_apply v6 v8 hw2 hhi, stepLo3_apply v6 hw1 hlo, add_assoc, ← Finset.sum_add_distrib]
  refine congrArg (· + _) ?_
  split
  · exact k3pay1_apply _
  · rfl

/-! ## The table words and the input blocks at a point -/

variable (a : (pcfg3 (F := Ideal)).Adm) (hchk : Chk3 a)
variable (V : (c : Dev nD) → (b : Ref sig .tc) → Buf (Elt Ideal) ((c : Thread nD τ).loc b))

/-- The two tables, the destination list and the messages, at their literal types. -/
abbrev tb3_0 : S832.Idx → BitVec 32 := a.1 0
abbrev tb3_1 : S832.Idx → BitVec 32 := a.1 1
abbrev dst3 (c : Dev nD) : S851968.Idx → BitVec 32 := V c main_v53
abbrev msg3 (c : Dev nD) : S851968x48.Idx → EReal := V c main_v99

theorem k3off1_eq : ∀ t : Fin grid3.N, k3_off1 (grid3.coords t) = ![t.val] := by decide +kernel

theorem idx3_facts : ∀ t : Fin grid3.N, cc3_transform_0 (grid3.coords t) = ![t.val] ∧ cc3_transform_1 (grid3.coords t) = ![t.val, 0]
    ∧ cc3_transform_2 (grid3.coords t) = ![t.val / 416, 0, 0] := by decide +kernel

/-- The word the body loads from a table at point `t` is the table's entry `t`. -/
theorem word3_0_eq (c : Dev nD) (t : Fin (cfg3 a).N) (hN : t.val < 832) :
    word3 c (grid3.coords t) tbM3_0 (a.1 0) = tb3_0 a (ValueIdx.ix1 ⟨t.val, hN⟩) := by
  show tb3_0 a ((Rect.unit (s := S832) (k3_off1 (grid3.coords t)) S1.size (k3_off1_inb (grid3.coords t))).emb (Shape.Idx.first (numel1_S1.symm ▸ Nat.one_pos))) = _
  refine congrArg (tb3_0 a) (funext fun ax => Fin.ext ?_)
  match ax with
  | ⟨0, _⟩ =>
    have h0 : k3_off1 (grid3.coords t) 0 = t.val := congrFun (k3off1_eq t) 0
    show k3_off1 (grid3.coords t) 0 + 1 * _ = t.val
    rw [h0, Nat.one_mul]
    exact Nat.add_eq_left.mpr (Nat.lt_one_iff.mp (Fin.isLt _))

theorem word3_1_eq (c : Dev nD) (t : Fin (cfg3 a).N) (hN : t.val < 832) :
    word3 c (grid3.coords t) tbM3_1 (a.1 1) = tb3_1 a (ValueIdx.ix1 ⟨t.val, hN⟩) := by
  show tb3_1 a ((Rect.unit (s := S832) (k3_off1 (grid3.coords t)) S1.size (k3_off1_inb (grid3.coords t))).emb (Shape.Idx.first (numel1_S1.symm ▸ Nat.one_pos))) = _
  refine congrArg (tb3_1 a) (funext fun ax => Fin.ext ?_)
  match ax with
  | ⟨0, _⟩ =>
    have h0 : k3_off1 (grid3.coords t) 0 = t.val := congrFun (k3off1_eq t) 0
    show k3_off1 (grid3.coords t) 0 + 1 * _ = t.val
    rw [h0, Nat.one_mul]
    exact Nat.add_eq_left.mpr (Nat.lt_one_iff.mp (Fin.isLt _))

/-- The destination block at point `t` is entries `t * 1024 …` of the list. -/
theorem dblk3_apply (c : Dev nD) (t : Fin (cfg3 a).N) (hN : t.val < 832) (l : Fin 1024) :
    (iblk3 a V c 0 t : Vec Ideal S1024 .i32) (ValueIdx.ix1 l) = dst3 V c (ValueIdx.ix1 (Cert.Spec.flat ⟨t.val, hN⟩ l)) := by
  show dst3 V c ((((cfg3 a).win 0).blk t).view.emb (ValueIdx.ix1 l)) = _
  refine congrArg (dst3 V c) (funext fun ax => Fin.ext ?_)
  match ax with
  | ⟨0, _⟩ =>
    have h0 : cc3_transform_0 (grid3.coords t) 0 = t.val := congrFun (idx3_facts t).1 0
    show cc3_transform_0 (grid3.coords t) 0 * 1024 + 1 * l.val = t.val * 1024 + l.val
    rw [h0, Nat.one_mul]

/-- The message block at point `t` is rows `t * 1024 …` of the messages. -/
theorem mblk3_apply (c : Dev nD) (t : Fin (cfg3 a).N) (hN : t.val < 832) (l : Fin 1024) (q : Fin 48) :
    (iblk3 a V c 1 t : Vec Ideal S1024x48 .bf16) (ValueIdx.ix2 l q) = msg3 V c (ValueIdx.ix2 (Cert.Spec.flat ⟨t.val, hN⟩ l) q) := by
  show msg3 V c ((((cfg3 a).win 1).blk t).view.emb (ValueIdx.ix2 l q)) = _
  refine congrArg (msg3 V c) (funext fun ax => Fin.ext ?_)
  match ax with
  | ⟨0, _⟩ =>
    have h0 : cc3_transform_1 (grid3.coords t) 0 = t.val := congrFun (idx3_facts t).2.1 0
    show cc3_transform_1 (grid3.coords t) 0 * 1024 + 1 * l.val = t.val * 1024 + l.val
    rw [h0, Nat.one_mul]
  | ⟨1, _⟩ =>
    have h1 : cc3_transform_1 (grid3.coords t) 1 = 0 := congrFun (idx3_facts t).2.1 1
    show cc3_transform_1 (grid3.coords t) 1 * 48 + 1 * q.val = q.val
    rw [h1, Nat.one_mul, Nat.zero_mul, Nat.zero_add]

/-! ## The slab after a point, as a partial sum over the core's blocks -/

/-- The tables, the destinations and the messages as the mathematics reads them. -/
abbrev lo3 (g : Fin 832) : ℕ := (tb3_0 a (ValueIdx.ix1 g)).toNat
abbrev hi3 (g : Fin 832) : ℕ := (tb3_1 a (ValueIdx.ix1 g)).toNat
abbrev dp3 (c : Dev nD) (j : Fin 851968) : ℕ := (dst3 V c (ValueIdx.ix1 j)).toNat
abbrev ms3 (c : Dev nD) (j : Fin 851968) (q : Fin 48) : EReal := msg3 V c (ValueIdx.ix2 j q)

/-- What block `g` adds to row `n`, column `q` of its core's slab. -/
def blkTerm3 (c : Dev nD) (g : Fin 832) (n : ℕ) (q : Fin 48) : EReal :=
  ∑ l : Fin 1024,
    ((if lo3 a g * 1024 ≤ n ∧ n < lo3 a g * 1024 + 1024 ∧ n = dp3 V c (Cert.Spec.flat g l)
        then ms3 V c (Cert.Spec.flat g l) q else 0)
      + (if hi3 a g ≠ lo3 a g ∧ hi3 a g * 1024 ≤ n ∧ n < hi3 a g * 1024 + 1024 ∧ n = dp3 V c (Cert.Spec.flat g l)
        then ms3 V c (Cert.Spec.flat g l) q else 0))

theorem slab3_eq_sum (c : Dev nD) (core : Fin 2) (n : ℕ) (q : Fin 48) :
    Cert.Spec.slab (lo3 a) (hi3 a) (dp3 V c) (ms3 V c) core n q = ∑ e : Fin 416, blkTerm3 a V c (Cert.Spec.blk core e) n q := rfl

/-- The step at point `t`, at an entry. -/
theorem stepAt3_apply (hlo : ∀ g, lo3 a g < 49) (hhi : ∀ g, hi3 a g < 49) (c : Dev nD) (t : Fin (cfg3 a).N) (hN : t.val < 832)
    (prev : Vec Ideal S1x50176x48 .f32) (n : Fin 50176) (q : Fin 48) :
    stepAt3 a hchk V c t prev (ValueIdx.ix3 (0 : Fin 1) n q)
      = (if t.val % 416 = 0 then 0 else prev (ValueIdx.ix3 (0 : Fin 1) n q)) + blkTerm3 a V c ⟨t.val, hN⟩ n.val q := by
  unfold stepAt3
  refine (step3_apply _ _ _ _ _ (by rw [word3_0_eq a c t hN]; exact hlo _) (by rw [word3_1_eq a c t hN]; exact hhi _) _ _ _ n q).trans ?_
  rw [word3_0_eq a c t hN, word3_1_eq a c t hN]
  unfold blkTerm3
  congr 1
  · exact if_congr (hcond3_1 a t) rfl rfl
  · refine Finset.sum_congr rfl fun l _ => ?_
    rw [dblk3_apply a V c t hN l, mblk3_apply a V c t hN l q]

/-- The sum of the first `k` blocks of core `cr` at an entry. -/
def part3 (c : Dev nD) (cr k n : ℕ) (q : Fin 48) : EReal :=
  ∑ e : Fin 416, if e.val < k then blkTerm3 a V c (gOf1 (cr * 416 + e.val)) n q else 0

theorem part3_zero (c : Dev nD) (cr n : ℕ) (q : Fin 48) : part3 a V c cr 0 n q = 0 :=
  Finset.sum_eq_zero fun e _ => if_neg (Nat.not_lt_zero _)

theorem part3_succ (c : Dev nD) (cr k n : ℕ) (q : Fin 48) (hk : k < 416) :
    part3 a V c cr (k + 1) n q = part3 a V c cr k n q + blkTerm3 a V c (gOf1 (cr * 416 + k)) n q := by
  unfold part3
  have hsplit : ∀ e : Fin 416, (if e.val < k + 1 then blkTerm3 a V c (gOf1 (cr * 416 + e.val)) n q else 0)
      = (if e.val < k then blkTerm3 a V c (gOf1 (cr * 416 + e.val)) n q else 0)
        + (if e = (⟨k, hk⟩ : Fin 416) then blkTerm3 a V c (gOf1 (cr * 416 + e.val)) n q else 0) := by
    intro e
    by_cases h1 : e.val < k
    · rw [if_pos (by omega), if_pos h1, if_neg (fun h => by rw [h] at h1; exact lt_irrefl _ h1), add_zero]
    · by_cases h2 : e.val = k
      · rw [if_pos (by omega), if_neg h1, if_pos (Fin.ext h2), zero_add]
      · rw [if_neg (by omega), if_neg h1, if_neg (fun h => h2 (by rw [h])), add_zero]
  rw [Finset.sum_congr rfl fun e _ => hsplit e, Finset.sum_add_distrib, Finset.sum_ite_eq', if_pos (Finset.mem_univ _)]

/-- THE ACCUMULATION at an entry: after position `m` the slab's buffer holds the sum of the blocks of `m`'s core up
    to `m`. -/
theorem outsAt3_apply (hlo : ∀ g, lo3 a g < 49) (hhi : ∀ g, hi3 a g < 49) (c : Dev nD) (n : Fin 50176) (q : Fin 48) :
    ∀ (m : ℕ) (hm : m < (cfg3 a).N),
      outsAt3 a hchk V c m hm (ValueIdx.ix3 (0 : Fin 1) n q) = part3 a V c (m / 416) (m % 416 + 1) n.val q
  | 0, hm => by
    show stepAt3 a hchk V c ⟨0, hm⟩ (k3_pay1 (F := Ideal)) (ValueIdx.ix3 (0 : Fin 1) n q) = part3 a V c 0 (0 + 1) n.val q
    rw [stepAt3_apply a hchk V hlo hhi c ⟨0, hm⟩ (show (0 : ℕ) < 832 by decide),
      if_pos (show (⟨0, hm⟩ : Fin (cfg3 a).N).val % 416 = 0 from rfl), zero_add]
    rw [part3_succ a V c 0 0 _ _ (by decide), part3_zero, zero_add]
    rfl
  | m + 1, hm => by
    have hN : m + 1 < 832 := lt_of_lt_of_eq hm (show (cfg3 a).N = 832 from N_3)
    show stepAt3 a hchk V c ⟨m + 1, hm⟩ (outsAt3 a hchk V c m (Nat.lt_of_succ_lt hm)) (ValueIdx.ix3 (0 : Fin 1) n q) = _
    rw [stepAt3_apply a hchk V hlo hhi c ⟨m + 1, hm⟩ hN]
    by_cases h0 : (m + 1) % 416 = 0
    · rw [if_pos h0, zero_add, h0, part3_succ a V c _ _ _ _ (by decide), part3_zero, zero_add]
      refine congrArg (fun g => blkTerm3 a V c g n.val q) (Fin.ext ?_)
      show m + 1 = ((m + 1) / 416 * 416 + 0) % 832
      omega
    · rw [if_neg h0, outsAt3_apply hlo hhi c n q m (Nat.lt_of_succ_lt hm)]
      have e1 : (m + 1) / 416 = m / 416 := by omega
      have e2 : (m + 1) % 416 = m % 416 + 1 := by omega
      rw [e1, e2, part3_succ a V c _ (m % 416 + 1) _ _ (by omega)]
      refine congrArg (fun g => part3 a V c (m / 416) (m % 416 + 1) n.val q + blkTerm3 a V c g n.val q) (Fin.ext ?_)
      show m + 1 = (m / 416 * 416 + (m % 416 + 1)) % 832
      omega

/-! ## The array after the region -/

/-- All 416 blocks of a core: the kernel's arrangement of the edge sum for that core. -/
theorem part3_full (c : Dev nD) (core : Fin 2) (n : ℕ) (q : Fin 48) :
    part3 a V c core.val 416 n q = Cert.Spec.slab (lo3 a) (hi3 a) (dp3 V c) (ms3 V c) core n q := by
  rw [slab3_eq_sum]; unfold part3
  refine Finset.sum_congr rfl fun e _ => ?_
  rw [if_pos e.isLt, blk_eq_gOf1]

/-- The slab after the last point of a core is the core's whole sum. -/
theorem outsAt3_last (hlo : ∀ g, lo3 a g < 49) (hhi : ∀ g, hi3 a g < 49) (c : Dev nD) (core : Fin 2) (n : Fin 50176) (q : Fin 48)
    (hm : core.val * 416 + 415 < (cfg3 a).N) :
    outsAt3 a hchk V c (core.val * 416 + 415) hm (ValueIdx.ix3 (0 : Fin 1) n q)
      = Cert.Spec.slab (lo3 a) (hi3 a) (dp3 V c) (ms3 V c) core n.val q := by
  rw [outsAt3_apply a hchk V hlo hhi c n q]
  have e1 : (core.val * 416 + 415) / 416 = core.val := by have := core.isLt; omega
  have e2 : (core.val * 416 + 415) % 416 + 1 = 416 := by have := core.isLt; omega
  rw [e1, e2]
  exact part3_full a V c core n.val q

end Value3

end Cert.KernelIdeal.Hand

end
-- ==== Proof.KiSc3Arr.lean ====
/- REGION 3 of @main: the array the slab's window leaves. Each core writes its slab back once, after its last point;
   the two cores' blocks tile the array, so the array ends holding, per core, the slab after the core's last point. -/
import proofs.«425685_j80942953661103_3_alg».proof.Proof.KiSc3
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

variable {F : FTy → Type} [FloatOps F]

section Arr

variable (a : (pcfg3 (F := F)).Adm) (hchk : Chk3 a)
variable (V : (c : Dev nD) → (b : Ref sig .tc) → Buf (Elt F) ((c : Thread nD τ).loc b))

/-- `outsAt3` depends on the position only. -/
theorem outsAt3_congr (c : Dev nD) {n n' : ℕ} (h : n = n') (hn : n < (cfg3 a).N) (hn' : n' < (cfg3 a).N) :
    outsAt3 a hchk V c n hn = outsAt3 a hchk V c n' hn' := by subst h; rfl

/-- The slab window's block index at point `t`: the core, and zero on the other axes — decided over the grid. -/
theorem index3_2 (a : (pcfg3 (F := F)).Adm) : ∀ t : Fin (cfg3 a).N, ((cfg3 a).win 2).index t = ![t.val / 416, 0, 0] :=
  (by decide +kernel : ∀ t : Fin grid3.N, cc3_transform_2 (grid3.coords t) = ![t.val / 416, 0, 0])

/-- What the array ends holding: at core `i 0` the slab after the core's last point. -/
def G3 (c : Dev nD) (i : S2x50176x48.Idx) : Elt F .f32 :=
  outsAt3 a hchk V c ((i 0).val * 416 + 415)
    (by have h : (i 0).val < 2 := (i 0).isLt; rw [show (cfg3 a).N = 832 from N_3]; omega)
    (ValueIdx.ix3 (0 : Fin 1) (⟨(i 1).val, (i 1).isLt⟩ : Fin 50176) (⟨(i 2).val, (i 2).isLt⟩ : Fin 48))

/-- WHAT A WRITE-BACK WRITES is its block of `G3`: the point is the last of its core, the block the core's. -/
theorem flushed3_eq (c : Dev nD) (t : Fin (cfg3 a).N) (hf : ((cfg3 a).win 2).flush t = true) :
    (dat3 a hchk V c).flushed 2 t = (((cfg3 a).win 2).blk t).view.read (Elt F) (G3 a hchk V c) := by
  show ((cfg3 a).win 2).cut (grid3.coords t) ((dat3 a hchk V c).after 2 t) = _
  rw [after3_2]
  have h415 : t.val % 416 = 415 := (flush3_2 a t).mp hf
  have hN : t.val < 832 := lt_of_lt_of_eq t.isLt (show (cfg3 a).N = 832 from N_3)
  have hix := index3_2 a t
  funext (j : S1x50176x48.Idx)
  have key : ∀ E : S2x50176x48.Idx, (E (0 : Fin 3)).val = t.val / 416 → (E (1 : Fin 3)).val = (j (1 : Fin 3)).val
      → (E (2 : Fin 3)).val = (j (2 : Fin 3)).val → outsAt3 a hchk V c t.val t.isLt j = G3 a hchk V c E := by
    intro E e0 e1 e2
    unfold G3
    rw [outsAt3_congr a hchk V c (show (E (0 : Fin 3)).val * 416 + 415 = t.val from by rw [e0]; omega) _ t.isLt]
    refine congrArg (outsAt3 a hchk V c t.val t.isLt) ?_
    funext d
    match d with
    | ⟨0, _⟩ => exact Fin.ext (by have hj : (j (0 : Fin 3)).val < 1 := (j (0 : Fin 3)).isLt; show (j (0 : Fin 3)).val = 0; omega)
    | ⟨1, _⟩ => exact Fin.ext e1.symm
    | ⟨2, _⟩ => exact Fin.ext e2.symm
  refine key ((((cfg3 a).win 2).blk t).view.emb j) ?_ ?_ ?_
  · show ((cfg3 a).win 2).index t (0 : Fin 3) * 1 + 1 * (j (0 : Fin 3)).val = t.val / 416
    have hj : (j (0 : Fin 3)).val < 1 := (j (0 : Fin 3)).isLt
    rw [hix]; show t.val / 416 * 1 + 1 * (j (0 : Fin 3)).val = t.val / 416; omega
  · show ((cfg3 a).win 2).index t (1 : Fin 3) * 50176 + 1 * (j (1 : Fin 3)).val = (j (1 : Fin 3)).val
    rw [hix]; show 0 * 50176 + 1 * (j (1 : Fin 3)).val = (j (1 : Fin 3)).val; omega
  · show ((cfg3 a).win 2).index t (2 : Fin 3) * 48 + 1 * (j (2 : Fin 3)).val = (j (2 : Fin 3)).val
    rw [hix]; show 0 * 48 + 1 * (j (2 : Fin 3)).val = (j (2 : Fin 3)).val; omega

/-- An index of the array is in point `t`'s block iff each coordinate is in the block's range on its axis. -/
theorem mem_blk3 (t : Fin (cfg3 a).N) (i : S2x50176x48.Idx) :
    i ∈ (((cfg3 a).win 2).blk t).view.set ↔ ∀ b : Fin 3, ((cfg3 a).win 2).index t b * S1x50176x48.size b ≤ (i b).val ∧ (i b).val < ((cfg3 a).win 2).index t b * S1x50176x48.size b + S1x50176x48.size b :=
  (Eq.to_iff (congrArg (fun S => i ∈ S) (View.set_slice_whole main_v100 (((cfg3 a).win 2).rect t)))).trans Rect.mem_set_unit

/-- An index of the array is in the block of its core's last point; -/
theorem mem3_last (i : S2x50176x48.Idx) (hlt : (i (0 : Fin 3)).val * 416 + 415 < (cfg3 a).N) :
    i ∈ (((cfg3 a).win 2).blk ⟨(i (0 : Fin 3)).val * 416 + 415, hlt⟩).view.set := by
  have h0 : (i (0 : Fin 3)).val < 2 := (i (0 : Fin 3)).isLt
  have h1 : (i (1 : Fin 3)).val < 50176 := (i (1 : Fin 3)).isLt
  have h2 : (i (2 : Fin 3)).val < 48 := (i (2 : Fin 3)).isLt
  have hix := index3_2 a ⟨(i (0 : Fin 3)).val * 416 + 415, hlt⟩
  have q0 : ((cfg3 a).win 2).index ⟨(i (0 : Fin 3)).val * 416 + 415, hlt⟩ (0 : Fin 3) = ((i (0 : Fin 3)).val * 416 + 415) / 416 := congrFun hix (0 : Fin 3)
  have q1 : ((cfg3 a).win 2).index ⟨(i (0 : Fin 3)).val * 416 + 415, hlt⟩ (1 : Fin 3) = 0 := congrFun hix (1 : Fin 3)
  have q2 : ((cfg3 a).win 2).index ⟨(i (0 : Fin 3)).val * 416 + 415, hlt⟩ (2 : Fin 3) = 0 := congrFun hix (2 : Fin 3)
  refine (mem_blk3 a _ i).mpr (Fin.forall_fin_succ.mpr ⟨?_, Fin.forall_fin_succ.mpr ⟨?_, Fin.forall_fin_succ.mpr ⟨?_, fun x => x.elim0⟩⟩⟩)
  · show ((cfg3 a).win 2).index ⟨(i (0 : Fin 3)).val * 416 + 415, hlt⟩ (0 : Fin 3) * 1 ≤ (i (0 : Fin 3)).val ∧ (i (0 : Fin 3)).val < ((cfg3 a).win 2).index ⟨(i (0 : Fin 3)).val * 416 + 415, hlt⟩ (0 : Fin 3) * 1 + 1
    omega
  · show ((cfg3 a).win 2).index ⟨(i (0 : Fin 3)).val * 416 + 415, hlt⟩ (1 : Fin 3) * 50176 ≤ (i (1 : Fin 3)).val ∧ (i (1 : Fin 3)).val < ((cfg3 a).win 2).index ⟨(i (0 : Fin 3)).val * 416 + 415, hlt⟩ (1 : Fin 3) * 50176 + 50176
    omega
  · show ((cfg3 a).win 2).index ⟨(i (0 : Fin 3)).val * 416 + 415, hlt⟩ (2 : Fin 3) * 48 ≤ (i (2 : Fin 3)).val ∧ (i (2 : Fin 3)).val < ((cfg3 a).win 2).index ⟨(i (0 : Fin 3)).val * 416 + 415, hlt⟩ (2 : Fin 3) * 48 + 48
    omega

/-- which writes its block back: every index of the array is covered. -/
theorem cover3 (i : S2x50176x48.Idx) :
    ∃ t : Fin (cfg3 a).N, ((cfg3 a).win 2).flush t = true ∧ i ∈ (((cfg3 a).win 2).blk t).view.set := by
  have h0 : (i (0 : Fin 3)).val < 2 := (i (0 : Fin 3)).isLt
  have hlt : (i (0 : Fin 3)).val * 416 + 415 < (cfg3 a).N := by rw [show (cfg3 a).N = 832 from N_3]; omega
  have hf : ((cfg3 a).win 2).flush ⟨(i (0 : Fin 3)).val * 416 + 415, hlt⟩ = true :=
    (flush3_2 a ⟨(i (0 : Fin 3)).val * 416 + 415, hlt⟩).mpr (by show ((i (0 : Fin 3)).val * 416 + 415) % 416 = 415; omega)
  exact ⟨⟨(i (0 : Fin 3)).val * 416 + 415, hlt⟩, hf, mem3_last a i hlt⟩

/-- THE ARRAY after the run: `G3` (the two cores' blocks tile it). -/
theorem final3 (c : Dev nD) : (dat3 a hchk V c).arrAt 2 (cfg3 a).N = G3 a hchk V c :=
  (dat3 a hchk V c).arrAt_eq_of_cover 2 _ (fun t hf => flushed3_eq a hchk V c t hf) (fun i => cover3 a i)

/-- THE ARRAY after the run, at an index: core `core`'s part is the slab after the core's last point. -/
theorem arr3_final (c : Dev nD) (core : Fin 2) (n : Fin 50176) (q : Fin 48) :
    (dat3 a hchk V c).arrAt 2 (cfg3 a).N (ValueIdx.ix3 core n q)
      = outsAt3 a hchk V c (core.val * 416 + 415) (by have := core.isLt; rw [show (cfg3 a).N = 832 from N_3]; omega)
          (ValueIdx.ix3 (0 : Fin 1) n q) := by
  rw [final3]
  rfl

end Arr

end Cert.KernelIdeal.Hand

end
-- ==== Proof.KiSc3Final.lean ====
/- REGION 3 of @main at the ideal values: the array the region's write-backs leave is, core by core, the kernel's
   arrangement of the edge sum. -/
import proofs.«425685_j80942953661103_3_alg».proof.Proof.KiSc3Value
import proofs.«425685_j80942953661103_3_alg».proof.Proof.KiSc3Arr

noncomputable section

namespace Cert.KernelIdeal.Hand

open Cert.KernelIdeal Cert.KernelIdeal.Gen
open Idealize.ShloMosaic Idealize.ShloMosaic.TcCoe

/-- The slab array after the region: each core's block holds the sum, over the core's 416 blocks of 1024 edges, of
    the messages that end in the row, chunk by chunk. -/
theorem final3_apply (a : (pcfg3 (F := Ideal)).Adm) (hchk : Chk3 a)
    (V : (c : Dev nD) → (b : Ref sig .tc) → Buf (Elt Ideal) ((c : Thread nD τ).loc b))
    (hlo : ∀ g, lo3 a g < 49) (hhi : ∀ g, hi3 a g < 49) (c : Dev nD) (core : Fin 2) (n : Fin 50176) (q : Fin 48) :
    (dat3 (F := Ideal) a hchk V c).arrAt 2 (cfg3 a).N (ValueIdx.ix3 core n q)
      = Cert.Spec.slab (lo3 a) (hi3 a) (dp3 V c) (ms3 V c) core n.val q :=
  (arr3_final a hchk V c core n q).trans (outsAt3_last a hchk V hlo hhi c core n q _)

end Cert.KernelIdeal.Hand

end
-- ==== Proof.KiFinal.lean ====
/- The kernel program's result at the contents its four regions actually leave: the two dense products and the two
   pairs of slabs are the regions' own value theorems, read at the launch's choice of the regions' outputs; the
   chunk tables the scatter regions are given are the host's tables, and the arrays they read are unchanged since
   the host wrote them. -/
import proofs.«425685_j80942953661103_3_alg».proof.Proof.KiAssemble
import proofs.«425685_j80942953661103_3_alg».proof.Proof.KiLaunchValuePre
import proofs.«425685_j80942953661103_3_alg».proof.Proof.KiSc1Final
import proofs.«425685_j80942953661103_3_alg».proof.Proof.KiSc3Final

noncomputable section

namespace Cert.KernelIdeal.Hand

open Idealize.ShloMosaic Idealize.ShloMosaic.TcCoe Idealize.SL.Sem Cert.KernelIdeal Cert.KernelIdeal.Gen

variable (m : (ℓ : Loc nD τ sig) → Buf (Elt Ideal) ℓ) [hP : Cert.Pre_finite_inputs.Facts]

section Generic
/-! Structural readings, with the buffers' contents a variable. -/
variable (W : Dev nD → Valuation τ sig (Elt Ideal)) (c : Dev nD)

theorem xa0_VR : xa0 (VR W) c = W c main_arg0 := rfl
theorem wa0_VR : wa0 (VR W) c = W c main_arg2 := rfl
theorem xa2_VR : xa2 (VR W) c = W c main_v86 := rfl
theorem wa2_VR : wa2 (VR W) c = W c main_arg4 := rfl
theorem dp1_VR (j : Fin 851968) : dp1 (VR W) c j = (W c main_v53 (ValueIdx.ix1 j)).toNat := rfl
theorem dp3_VR (j : Fin 851968) : dp3 (VR W) c j = (W c main_v53 (ValueIdx.ix1 j)).toNat := rfl
theorem ms1_VR (j : Fin 851968) (q : Fin 96) : ms1 (VR W) c j q = W c main_v75 (ValueIdx.ix2 j q) := rfl
theorem ms3_VR (j : Fin 851968) (q : Fin 48) : ms3 (VR W) c j q = W c main_v99 (ValueIdx.ix2 j q) := rfl

end Generic

/-- The table words the scatter regions read are the host's chunk tables, on the one core. -/
theorem tbl1_0_apply (c : Dev nD) (g : Fin 832) : tbl1 m 0 (ValueIdx.ix1 g) = Gen.V14 m c main_v61 (ValueIdx.ix1 g) := by
  rw [← V14_pre1 m c 0]; rfl
theorem tbl1_1_apply (c : Dev nD) (g : Fin 832) : tbl1 m 1 (ValueIdx.ix1 g) = Gen.V14 m c main_v62 (ValueIdx.ix1 g) := by
  rw [← V14_pre1 m c 1]; rfl
theorem tbl3_0_apply (c : Dev nD) (g : Fin 832) : tbl3 m 0 (ValueIdx.ix1 g) = Gen.V14 m c main_v61 (ValueIdx.ix1 g) := by
  rw [← V14_pre3 m c 0]; rfl
theorem tbl3_1_apply (c : Dev nD) (g : Fin 832) : tbl3 m 1 (ValueIdx.ix1 g) = Gen.V14 m c main_v62 (ValueIdx.ix1 g) := by
  rw [← V14_pre3 m c 1]; rfl

/-- THE KERNEL'S VALUE at the launch's contents. -/
theorem kernel_value (hpre : ∀ c : Dev nD, PreAt m c) (c : Dev nD) (n : Fin 50000) (q : Fin 48) :
    (Gen.V23 m (outs m (chk1_of_pre m (hpre 0)) (chk3_of_pre m (hpre 0))) c main_v109 : FVec Ideal S50000x48 .f32) (ValueIdx.ix2 n q)
      = Cert.Spec.Gof (xF m c) (w1F m c) (b1F m c) (w2F m c) (b2F m c) (argE m c) (dinvF m c) n q := by
  have hlo1 : ∀ g, lo1 (adm1 m) g < 49 := fun g => by
    show (tbl1 m 0 (ValueIdx.ix1 g)).toNat < 49
    rw [tbl1_0_apply m c g]; exact (tbl_lt m c (hpre c) g).1
  have hhi1 : ∀ g, hi1 (adm1 m) g < 49 := fun g => by
    show (tbl1 m 1 (ValueIdx.ix1 g)).toNat < 49
    rw [tbl1_1_apply m c g]; exact (tbl_lt m c (hpre c) g).2
  have hlo3 : ∀ g, lo3 (adm3 m) g < 49 := fun g => by
    show (tbl3 m 0 (ValueIdx.ix1 g)).toNat < 49
    rw [tbl3_0_apply m c g]; exact (tbl_lt m c (hpre c) g).1
  have hhi3 : ∀ g, hi3 (adm3 m) g < 49 := fun g => by
    show (tbl3 m 1 (ValueIdx.ix1 g)).toNat < 49
    rw [tbl3_1_apply m c g]; exact (tbl_lt m c (hpre c) g).2
  refine kernel_value_of m (outs m (chk1_of_pre m (hpre 0)) (chk3_of_pre m (hpre 0))) c (hpre c) ?_ ?_ ?_ ?_ n q
  · intro r k
    show outs m _ _ 15 main_v63 c (ValueIdx.ix2 r k) = _
    rw [outs_15 m _ _ c, final0_apply (VR (Gen.V14 m)) c r k]
    have ex : xa0 (VR (Gen.V14 m)) c = argX m c := (xa0_VR (Gen.V14 m) c).trans (V14_arg0 m c)
    have ew : wa0 (VR (Gen.V14 m)) c = argW1 m c := (wa0_VR (Gen.V14 m) c).trans (V14_arg2 m c)
    rw [ex, ew]
  · intro core n' k
    show outs m _ _ 17 main_v76 c (ValueIdx.ix3 core n' k) = _
    rw [outs_17 m _ _ c, final1_apply (adm1 m) _ (VR (Gen.V16 m (outs m _ _))) hlo1 hhi1 c core n' k]
    have e1 : lo1 (adm1 m) = loF m c := funext fun g => congrArg BitVec.toNat (tbl1_0_apply m c g)
    have e2 : hi1 (adm1 m) = hiF m c := funext fun g => congrArg BitVec.toNat (tbl1_1_apply m c g)
    have e3 : dp1 (VR (Gen.V16 m (outs m (chk1_of_pre m (hpre 0)) (chk3_of_pre m (hpre 0))))) c = dp m c := funext fun j => by
      rw [dp1_VR, V16_eq m c _ main_v53 (by decide)]; rfl
    have e4 : ms1 (VR (Gen.V16 m (outs m (chk1_of_pre m (hpre 0)) (chk3_of_pre m (hpre 0))))) c
        = fun j q => (Gen.V16 m (outs m (chk1_of_pre m (hpre 0)) (chk3_of_pre m (hpre 0))) c main_v75 : FVec Ideal S851968x96 .bf16) (ValueIdx.ix2 j q) :=
      funext fun j => funext fun q => ms1_VR _ c j q
    rw [e1, e2, e3, e4]
  · intro r k
    show outs m _ _ 20 main_v87 c (ValueIdx.ix2 r k) = _
    rw [outs_20 m _ _ c, final2_apply (VR (Gen.V19 m (outs m _ _))) c r k]
    have ex : xa2 (VR (Gen.V19 m (outs m (chk1_of_pre m (hpre 0)) (chk3_of_pre m (hpre 0))))) c
        = actArr m (outs m (chk1_of_pre m (hpre 0)) (chk3_of_pre m (hpre 0))) c := xa2_VR _ c
    have ew : wa2 (VR (Gen.V19 m (outs m (chk1_of_pre m (hpre 0)) (chk3_of_pre m (hpre 0))))) c = argW2 m c :=
      (wa2_VR _ c).trans (V19_arg4 m _ c)
    rw [ex, ew]
  · intro core n' k
    show outs m _ _ 22 main_v100 c (ValueIdx.ix3 core n' k) = _
    rw [outs_22 m _ _ c, final3_apply (adm3 m) _ (VR (Gen.V21 m (outs m _ _))) hlo3 hhi3 c core n' k]
    have e1 : lo3 (adm3 m) = loF m c := funext fun g => congrArg BitVec.toNat (tbl3_0_apply m c g)
    have e2 : hi3 (adm3 m) = hiF m c := funext fun g => congrArg BitVec.toNat (tbl3_1_apply m c g)
    have e3 : dp3 (VR (Gen.V21 m (outs m (chk1_of_pre m (hpre 0)) (chk3_of_pre m (hpre 0))))) c = dp m c := funext fun j => by
      rw [dp3_VR, V21_eq m c _ main_v53 (by decide)]; rfl
    have e4 : ms3 (VR (Gen.V21 m (outs m (chk1_of_pre m (hpre 0)) (chk3_of_pre m (hpre 0))))) c
        = fun j q => (Gen.V21 m (outs m (chk1_of_pre m (hpre 0)) (chk3_of_pre m (hpre 0))) c main_v99 : FVec Ideal S851968x48 .bf16) (ValueIdx.ix2 j q) :=
      funext fun j => funext fun q => ms3_VR _ c j q
    rw [e1, e2, e3, e4]

end Cert.KernelIdeal.Hand

end
-- ==== Proof.lean ====
/- The proof of `Cert.Claim`: a two-layer graph convolution computed by four kernel regions — two dense products and
   two scatter-adds over an edge list sorted by destination, padded, and cut into blocks of 1024 edges, each block added
   into at most two aligned chunks of 1024 rows of a per-core slab — against the reference that adds every edge's message
   into its destination row directly.

   Frames. Each kernel region's body is run once per control case and its proof data states what every staging buffer
   holds after every grid point; the scatter regions read two prefetched tables of chunk numbers and assume, of each
   word they read, that its chunk lies inside the slab. Under the precondition — every destination is a node id — the
   sorted destinations are node ids, so every table word is below 49 and the assumed facts hold. The word-level program
   and its idealization are the same text, so one argument serves both. The reference has no kernel: its frame is its run.

   Values. Over the extended reals a change of float format is the identity, a matrix product into a zero accumulator
   is a plain sum and the one-hot product picks, for each row of a chunk, the messages whose destination is that row.
   Because every node has a self loop, a block of 1024 sorted destinations spans at most 1023 consecutive ids, so it
   meets at most two chunks: the block's first and last. Hence every edge is added exactly once, the two cores' slabs
   add up to the sum over the padded sorted list, the padding has weight zero, and the sorted list is the edge list
   read through a permutation: the kernel's edge sum is the reference's. Commutativity and associativity of the sum
   suffice; finiteness of the float inputs is not used. The degree normalisation is one term of the edge array in both
   programs and is never opened. -/
import proofs.«425685_j80942953661103_3_alg».proof.Defs
import proofs.«425685_j80942953661103_3_alg».proof.Proof.Gen.Kernel
import proofs.«425685_j80942953661103_3_alg».proof.Proof.Gen.KernelIdeal
import proofs.«425685_j80942953661103_3_alg».proof.Proof.Gen.ReferenceIdeal
import proofs.«425685_j80942953661103_3_alg».proof.Proof.Gen.Pre_finite_inputs
import proofs.«425685_j80942953661103_3_alg».proof.Proof.KLaunchPre
import proofs.«425685_j80942953661103_3_alg».proof.Proof.KiLaunchPre
import proofs.«425685_j80942953661103_3_alg».proof.Proof.KiLaunchValuePre
import proofs.«425685_j80942953661103_3_alg».proof.Proof.KiFinal
import proofs.«425685_j80942953661103_3_alg».proof.Proof.RefValue
import proofs.«425685_j80942953661103_3_alg».proof.Proof.DinvEq

noncomputable section

namespace Cert.Proof

open Idealize.ShloMosaic Idealize.ShloMosaic.TcCoe Idealize.SL.Sem Idealize.ShloMosaic.ValueIdx

/-- The word-level program runs and keeps its arguments: the four regions' records, the tables in range. -/
theorem frame_p [hPre : Cert.Pre_finite_inputs.Facts] : Cert.frame_Kernel := fun m ρ hpre =>
  Cert.Kernel.Hand.frame_K (F := Bits) m ρ hpre

/-- The idealized program likewise: the same text at the other instance. -/
theorem frame_pi [hPre : Cert.Pre_finite_inputs.Facts] : Cert.frame_KernelIdeal := fun m ρ hpre =>
  Cert.KernelIdeal.Hand.frame_KI (F := Ideal) m ρ hpre

/-- The reference has no kernel: its frame is its run with the result dropped. -/
theorem frame_ri [hPre : Cert.Pre_finite_inputs.Facts] : Cert.frame_ReferenceIdeal := fun m ρ _ =>
  (θ_run Cert.ReferenceIdeal.defs _ _).mono (fun _ h c => (h c).2) (Cert.ReferenceIdeal.Hand.ref_run m ρ)

/-- Both programs end with the network's formula of the arguments in their result: the kernel's run names its result
    array, which is that formula entry by entry; the reference's result is the same formula; the arguments agree; and
    the array of inverse square roots of the degrees is one term of the edge array in both. -/
theorem algebraic [hPre : Cert.Pre_finite_inputs.Facts] : Cert.algebraic_KernelIdeal_ReferenceIdeal := by
  intro m ρ m' ρ' hpre hagree
  refine ⟨fun c => Cert.KernelIdeal.Gen.V23 m
      (Cert.KernelIdeal.Hand.outs m (Cert.KernelIdeal.Hand.chk1_of_pre m (hpre 0)) (Cert.KernelIdeal.Hand.chk3_of_pre m (hpre 0)))
      c Cert.KernelIdeal.main_v109,
    Cert.KernelIdeal.Hand.run_value_KI m ρ hpre, ?_⟩
  refine (θ_run Cert.ReferenceIdeal.defs _ _).mono (fun r h c => ⟨(h c).1.trans ?_, (h c).2⟩)
    (Cert.ReferenceIdeal.Hand.ref_run m' ρ')
  obtain ⟨h0, h1, h2, h3, h4, h5⟩ := hagree c
  rw [h0, h1, h2, h3, h4, h5]
  funext i
  obtain ⟨n, q, rfl⟩ : ∃ (n : Fin 50000) (q : Fin 48), i = ix2 n q := ⟨i 0, i 1, eq_ix2 i⟩
  refine (Cert.ReferenceIdeal.Hand.ref_apply _ _ _ _ _ _ n q).trans ?_
  refine Eq.trans ?_ (Cert.KernelIdeal.Hand.kernel_value m hpre c n q).symm
  have hd : Cert.KernelIdeal.Hand.dinvF m c
      = fun n => Cert.ReferenceIdeal.ReadP.val_main_v15 (F := Ideal)
          (m ((c.tc : Thread Cert.KernelIdeal.nD Cert.KernelIdeal.τ).loc Cert.KernelIdeal.main_arg1)) (ix1 n) :=
    funext fun n => congrFun (Cert.Hand.dinv_eq (F := Ideal) m c) (ix1 n)
  rw [hd]

theorem claim : Cert.Claim :=
  ⟨Cert.Kernel.Gen.facts, Cert.KernelIdeal.Gen.facts, Cert.ReferenceIdeal.Gen.facts, Cert.Pre_finite_inputs.Gen.facts,
    frame_p (hPre := Cert.Pre_finite_inputs.Gen.facts), frame_pi (hPre := Cert.Pre_finite_inputs.Gen.facts),
    frame_ri (hPre := Cert.Pre_finite_inputs.Gen.facts), trivial, algebraic (hPre := Cert.Pre_finite_inputs.Gen.facts)⟩

end Cert.Proof

end
